-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x50 : Shape := ⟨2, ![1024, 50]⟩
abbrev S100000x128 : Shape := ⟨2, ![100000, 128]⟩
abbrev S128x512 : Shape := ⟨2, ![128, 512]⟩
abbrev S512 : Shape := ⟨1, ![512]⟩
abbrev S512x100000 : Shape := ⟨2, ![512, 100000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x100000 : S_.BroadcastsInDim S512x100000 (![] : Fin 0 → Fin S512x100000.rank)
  reducesTo_S512x100000_S_d0_1 : S512x100000.ReducesTo [0, 1] S_
  bcast_S_S100000 : S_.BroadcastsInDim S100000 (![] : Fin 0 → Fin S100000.rank)
  reducesTo_S100000_S_d0 : S100000.ReducesTo [0] S_
  bcast_S_S1024x50 : S_.BroadcastsInDim S1024x50 (![] : Fin 0 → Fin S1024x50.rank)
  reducesTo_S1024x50_S_d0_1 : S1024x50.ReducesTo [0, 1] S_

variable [Facts]

def fn_part1 {F : FTy → Type} [FloatOps F] (main_arg0 : IVec S1024x50 32) (main_arg5 : FVec F S100000 .f32) (main_v13 : IVec S_ 1) (main_v16 : IVec S512x100000 1) : IVec S_ 1 :=
  let main_c_5 : IVec S_ 1 := constantI S_ 1 1#1
  let main_v17 : IVec S_ 1 := (fun x v => Host.reduce IntOp.andi x v reducesTo_S512x100000_S_d0_1 h_S_) main_v16 main_c_5
  let main_v18 : IVec S_ 1 := andi main_v13 main_v17
  let main_v19 : FVec F S100000 .f32 := Host.absf main_arg5
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_c_8 : IVec S_ 32 := constantI S_ 32 0#32
  let main_v24 : IVec S1024x50 32 := broadcastInDim S1024x50 ![] bcast_S_S1024x50 main_c_8
  let main_v25 : IVec S1024x50 1 := cmpi .sge main_arg0 main_v24
  let main_c_9 : IVec S_ 32 := constantI S_ 32 99999#32
  let main_v26 : IVec S1024x50 32 := broadcastInDim S1024x50 ![] bcast_S_S1024x50 main_c_9
  let main_v27 : IVec S1024x50 1 := cmpi .sle main_arg0 main_v26
  let main_v28 : IVec S1024x50 1 := andi main_v25 main_v27
  let main_c_10 : IVec S_ 1 := constantI S_ 1 1#1
  let main_v29 : IVec S_ 1 := (fun x v => Host.reduce IntOp.andi x v reducesTo_S1024x50_S_d0_1 h_S_) main_v28 main_c_10
  let main_v30 : IVec S_ 1 := andi main_v23 main_v29
  main_v30

def fn {F : FTy → Type} [FloatOps F] (main_arg0 : IVec S1024x50 32) (main_arg1 : FVec F S100000x128 .f32) (main_arg2 : FVec F S128x512 .f32) (main_arg3 : FVec F S512 .f32) (main_arg4 : FVec F S512x100000 .f32) (main_arg5 : FVec F S100000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x100000 .f32 := Host.absf main_arg4
  let main_cst_4 : FVec F S_ .f32 := constant S_ .f32 0x7F800000#32
  let main_v15 : FVec F S512x100000 .f32 := broadcastInDim S512x100000 ![] bcast_S_S512x100000 main_cst_4
  let main_v16 : IVec S512x100000 1 := cmpf .olt main_v14 main_v15
  fn_part1 (F := F) main_arg0 main_arg5 main_v13 main_v16
-- ==== Kernel.lean ====
abbrev S1024x50 : Shape := ⟨2, ![1024, 50]⟩
abbrev S100000x128 : Shape := ⟨2, ![100000, 128]⟩
abbrev S128x512 : Shape := ⟨2, ![128, 512]⟩
abbrev S512 : Shape := ⟨1, ![512]⟩
abbrev S512x100000 : Shape := ⟨2, ![512, 100000]⟩
abbrev S100000 : Shape := ⟨1, ![100000]⟩
abbrev S1x512 : Shape := ⟨2, ![1, 512]⟩
abbrev S100000x512 : Shape := ⟨2, ![100000, 512]⟩
abbrev S100000x1 : Shape := ⟨2, ![100000, 1]⟩
abbrev S1024x128 : Shape := ⟨2, ![1024, 128]⟩
abbrev S32x50 : Shape := ⟨2, ![32, 50]⟩
abbrev S50x128 : Shape := ⟨2, ![50, 128]⟩
abbrev S32x128 : Shape := ⟨2, ![32, 128]⟩
abbrev S_ : Shape := ⟨0, ![]⟩
abbrev S1x50 : Shape := ⟨2, ![1, 50]⟩
abbrev S50 : Shape := ⟨1, ![50]⟩
abbrev S16 : Shape := ⟨1, ![16]⟩
abbrev S1x16 : Shape := ⟨2, ![1, 16]⟩
abbrev S512x1024 : Shape := ⟨2, ![512, 1024]⟩
abbrev S1024x512 : Shape := ⟨2, ![1024, 512]⟩
abbrev S1x1024 : Shape := ⟨2, ![1, 1024]⟩
abbrev S100000x1024 : Shape := ⟨2, ![100000, 1024]⟩
abbrev S4096x512 : Shape := ⟨2, ![4096, 512]⟩
abbrev S4096x1 : Shape := ⟨2, ![4096, 1]⟩
abbrev S4096x1024 : Shape := ⟨2, ![4096, 1024]⟩
abbrev S1024 : Shape := ⟨1, ![1024]⟩
abbrev S1024x100000 : Shape := ⟨2, ![1024, 100000]⟩

abbrev nBuf : Table → Nat
  | .hbm => 15
  | .local .tc .vmem => 19
  | .local .scVector .vmem => 3
  | _ => 0

abbrev bufTy : (tb : Table) → Fin (nBuf tb) → BufTy
  | .hbm, ⟨0, _⟩ => ⟨S1024x50, .i32⟩
  | .hbm, ⟨1, _⟩ => ⟨S100000x128, .f32⟩
  | .hbm, ⟨2, _⟩ => ⟨S128x512, .f32⟩
  | .hbm, ⟨3, _⟩ => ⟨S512, .f32⟩
  | .hbm, ⟨4, _⟩ => ⟨S512x100000, .f32⟩
  | .hbm, ⟨5, _⟩ => ⟨S100000, .f32⟩
  | .hbm, ⟨6, _⟩ => ⟨S1x512, .f32⟩
  | .hbm, ⟨7, _⟩ => ⟨S100000x512, .f32⟩
  | .hbm, ⟨8, _⟩ => ⟨S100000x1, .f32⟩
  | .hbm, ⟨9, _⟩ => ⟨S1024x128, .f32⟩
  | .hbm, ⟨10, _⟩ => ⟨S512x1024, .bf16⟩
  | .hbm, ⟨11, _⟩ => ⟨S1x1024, .f32⟩
  | .hbm, ⟨12, _⟩ => ⟨S100000x1024, .bf16⟩
  | .hbm, ⟨13, _⟩ => ⟨S100000x1024, .f32⟩
  | .hbm, ⟨14, _⟩ => ⟨S1024x100000, .f32⟩
  | .local .tc .vmem, ⟨0, _⟩ => ⟨S1024x128, .f32⟩
  | .local .tc .vmem, ⟨1, _⟩ => ⟨S128x512, .f32⟩
  | .local .tc .vmem, ⟨2, _⟩ => ⟨S1x512, .f32⟩
  | .local .tc .vmem, ⟨3, _⟩ => ⟨S512x1024, .bf16⟩
  | .local .tc .vmem, ⟨4, _⟩ => ⟨S512x1024, .bf16⟩
  | .local .tc .vmem, ⟨5, _⟩ => ⟨S4096x512, .f32⟩
  | .local .tc .vmem, ⟨6, _⟩ => ⟨S4096x512, .f32⟩
  | .local .tc .vmem, ⟨7, _⟩ => ⟨S4096x1, .f32⟩
  | .local .tc .vmem, ⟨8, _⟩ => ⟨S4096x1, .f32⟩
  | .local .tc .vmem, ⟨9, _⟩ => ⟨S1x1024, .f32⟩
  | .local .tc .vmem, ⟨10, _⟩ => ⟨S4096x1024, .bf16⟩
  | .local .tc .vmem, ⟨11, _⟩ => ⟨S4096x1024, .bf16⟩
  | .local .tc .vmem, ⟨12, _⟩ => ⟨S1x1024, .f32⟩
  | .local .tc .vmem, ⟨13, _⟩ => ⟨S1x1024, .f32⟩
  | .local .tc .vmem, ⟨14, _⟩ => ⟨S4096x1024, .bf16⟩
  | .local .tc .vmem, ⟨15, _⟩ => ⟨S4096x1024, .bf16⟩
  | .local .tc .vmem, ⟨16, _⟩ => ⟨S1x1024, .f32⟩
  | .local .tc .vmem, ⟨17, _⟩ => ⟨S4096x1024, .f32⟩
  | .local .tc .vmem, ⟨18, _⟩ => ⟨S4096x1024, .f32⟩
  | .local .scVector .vmem, ⟨0, _⟩ => ⟨S32x50, .i32⟩
  | .local .scVector .vmem, ⟨1, _⟩ => ⟨S50x128, .f32⟩
  | .local .scVector .vmem, ⟨2, _⟩ => ⟨S32x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_arg0_scv : Ref sig .scVector := ⟨.hbm, 0, rfl⟩
abbrev main_arg1_scv : Ref sig .scVector := ⟨.hbm, 1, rfl⟩
abbrev main_v3_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg4_1 : Ref sig .tc := ⟨.vmem, 11, rfl⟩
abbrev cc2_scratch0 : Ref sig .tc := ⟨.vmem, 12, rfl⟩
abbrev cc2_scratch1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem1_0 : DmaSem sig := 8
abbrev cc2_sem1_1 : DmaSem sig := 9
abbrev cc2_sem2_0 : DmaSem sig := 10
abbrev cc2_sem2_1 : DmaSem sig := 11
abbrev cc2_sem3_0 : DmaSem sig := 12
abbrev cc2_sem4_0 : DmaSem sig := 13
abbrev cc2_sem4_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r0 : BitVec 32 := 0#32
  ![v2.toNat, 0]
@[reducible] def k0_t1_loop : Scf.Loop 32 :=
  let c0_i32_0 : BitVec 32 := 0#32
  let c32_i32_1 : BitVec 32 := 32#32
  let v3 : BitVec 32 := Scalar.addi c0_i32_0 c32_i32_1
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c0_i32_3 : BitVec 32 := 0#32
  ![arg9.toNat, 0]
@[reducible] def k0_t2_loop : Scf.Loop 32 :=
  let c0_i32_16 : BitVec 32 := 0#32
  let c50_i32 : BitVec 32 := 50#32
  let v18 : BitVec 32 := Scalar.addi c0_i32_16 c50_i32
  let c1_i32_17 : BitVec 32 := 1#32
  ⟨c0_i32_16, v18, c1_i32_17⟩
def k0_off3 (k0_t2 : Fin k0_t2_loop.trips) : Fin 2 → Nat :=
  let c0_i32_16 : BitVec 32 := 0#32
  let c1_i32_17 : BitVec 32 := 1#32
  let arg10 : BitVec 32 := Scf.iv c0_i32_16 c1_i32_17 k0_t2
  let v52 : Index := Scalar.indexCast arg10
  let c0_19 : Index := 0#32
  ![v52.toNat, 0]
def k0_off4 (k0_t2 : Fin k0_t2_loop.trips) : Fin 2 → Nat :=
  let c0_i32_16 : BitVec 32 := 0#32
  let c1_i32_17 : BitVec 32 := 1#32
  let arg10 : BitVec 32 := Scf.iv c0_i32_16 c1_i32_17 k0_t2
  let v56 : Index := Scalar.indexCast arg10
  let c16_20 : Index := 16#32
  ![v56.toNat, 16]
def k0_off5 (k0_t2 : Fin k0_t2_loop.trips) : Fin 2 → Nat :=
  let c0_i32_16 : BitVec 32 := 0#32
  let c1_i32_17 : BitVec 32 := 1#32
  let arg10 : BitVec 32 := Scf.iv c0_i32_16 c1_i32_17 k0_t2
  let v60 : Index := Scalar.indexCast arg10
  let c32_21 : Index := 32#32
  ![v60.toNat, 32]
def k0_off6 (k0_t2 : Fin k0_t2_loop.trips) : Fin 2 → Nat :=
  let c0_i32_16 : BitVec 32 := 0#32
  let c1_i32_17 : BitVec 32 := 1#32
  let arg10 : BitVec 32 := Scf.iv c0_i32_16 c1_i32_17 k0_t2
  let v64 : Index := Scalar.indexCast arg10
  let c48_22 : Index := 48#32
  ![v64.toNat, 48]
def k0_off7 (k0_t2 : Fin k0_t2_loop.trips) : Fin 2 → Nat :=
  let c0_i32_16 : BitVec 32 := 0#32
  let c1_i32_17 : BitVec 32 := 1#32
  let arg10 : BitVec 32 := Scf.iv c0_i32_16 c1_i32_17 k0_t2
  let v68 : Index := Scalar.indexCast arg10
  let c64_23 : Index := 64#32
  ![v68.toNat, 64]
def k0_off8 (k0_t2 : Fin k0_t2_loop.trips) : Fin 2 → Nat :=
  let c0_i32_16 : BitVec 32 := 0#32
  let c1_i32_17 : BitVec 32 := 1#32
  let arg10 : BitVec 32 := Scf.iv c0_i32_16 c1_i32_17 k0_t2
  let v72 : Index := Scalar.indexCast arg10
  let c80_24 : Index := 80#32
  ![v72.toNat, 80]
def k0_off9 (k0_t2 : Fin k0_t2_loop.trips) : Fin 2 → Nat :=
  let c0_i32_16 : BitVec 32 := 0#32
  let c1_i32_17 : BitVec 32 := 1#32
  let arg10 : BitVec 32 := Scf.iv c0_i32_16 c1_i32_17 k0_t2
  let v76 : Index := Scalar.indexCast arg10
  let c96_25 : Index := 96#32
  ![v76.toNat, 96]
def k0_off10 (k0_t2 : Fin k0_t2_loop.trips) : Fin 2 → Nat :=
  let c0_i32_16 : BitVec 32 := 0#32
  let c1_i32_17 : BitVec 32 := 1#32
  let arg10 : BitVec 32 := Scf.iv c0_i32_16 c1_i32_17 k0_t2
  let v80 : Index := Scalar.indexCast arg10
  let c112_26 : Index := 112#32
  ![v80.toNat, 112]
def k0_off11 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let v20 : Index := Scalar.indexCast arg9
  let c0 : Index := 0#32
  ![v20.toNat, 0]
def k0_off12 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let v24 : Index := Scalar.indexCast arg9
  let c16 : Index := 16#32
  ![v24.toNat, 16]
def k0_off13 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let v28 : Index := Scalar.indexCast arg9
  let c32 : Index := 32#32
  ![v28.toNat, 32]
def k0_off14 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let v32 : Index := Scalar.indexCast arg9
  let c48 : Index := 48#32
  ![v32.toNat, 48]
def k0_off15 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let v36 : Index := Scalar.indexCast arg9
  let c64 : Index := 64#32
  ![v36.toNat, 64]
def k0_off16 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let v40 : Index := Scalar.indexCast arg9
  let c80 : Index := 80#32
  ![v40.toNat, 80]
def k0_off17 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let v44 : Index := Scalar.indexCast arg9
  let c96 : Index := 96#32
  ![v44.toNat, 96]
def k0_off18 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let v48 : Index := Scalar.indexCast arg9
  let c112 : Index := 112#32
  ![v48.toNat, 112]
def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := .none

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v47 : BitVec 1 := Scalar.cmpi .eq arg0 c24_i32
  let v48 : BitVec 32 := Scalar.extui v47
  let c0_i32_20 : BitVec 32 := 0#32
  let v49 : BitVec 1 := Scalar.cmpi .ne v48 c0_i32_20
  v49

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S512_S1x512 : S512.ShapeCasts S1x512
  transposes_S512x100000_S100000x512_1_0 : S512x100000.Transposes [1, 0] S100000x512
  shapeCasts_S100000_S100000x1 : S100000.ShapeCasts S100000x1
  squeezes_S1x50_S50 : S1x50.Squeezes S50
  inb_S100000x128_S100000x128_0_0 : ∀ a, (![0, 0] : Fin 2 → Nat) a + S100000x128.size a ≤ S100000x128.size a
  gathers_S100000x128_S50x128 : S100000x128.Gathers 0 S50x128
  h_S1x16 : 0 < S1x16.numel
  shapeCasts_S1x16_S16 : S1x16.ShapeCasts S16
  shapeCasts_S16_S1x16 : S16.ShapeCasts S1x16
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  transposes_S1024x512_p1_0_S512x1024 : S1024x512.Transposes [1, 0] S512x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S4096x1_d0_w32 : S4096x1.Iotas .tc 32 [0]
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S4096x1_S4096x1 : S4096x1.ShapeCasts S4096x1
  broadcasts_S4096x1_S4096x512 : S4096x1.Broadcasts S4096x512
  inb_S4096x1_S4096x1_0_0 : ∀ a, (![0, 0] : Fin 2 → Nat) a + S4096x1.size a ≤ S4096x1.size a
  h_S4096x1 : 0 < S4096x1.numel
  shapeCasts_S512x1024_S512x1024 : S512x1024.ShapeCasts S512x1024
  broadcasts_S4096x1_S4096x1024 : S4096x1.Broadcasts S4096x1024
  inb_S4096x1024_S4096x1024_0_0 : ∀ a, (![0, 0] : Fin 2 → Nat) a + S4096x1024.size a ≤ S4096x1024.size a
  h_S4096x1024 : 0 < S4096x1024.numel
  packedbf16_S4096x1024_S4096x1024_0_0 : (Rect.unit (s := S4096x1024) ![0, 0] S4096x1024.size inb_S4096x1024_S4096x1024_0_0).PackedRows (EltTy.packing .bf16)
  reduces_S4096x1024_S1024 : S4096x1024.Reduces [0] S1024
  shapeCasts_S1024_S1x1024 : S1024.ShapeCasts S1x1024
  broadcasts_S1x1024_S4096x1024 : S1x1024.Broadcasts S4096x1024
  shapeCasts_S4096x1024_S4096x1024 : S4096x1024.ShapeCasts S4096x1024
  transposes_S100000x1024_S1024x100000_1_0 : S100000x1024.Transposes [1, 0] S1024x100000
  dot_S1024x128_S128x512_S1024x512_1_0_0_1_n_n_wf : DotDims.WF S1024x128 S128x512 S1024x512 [1] [0] [0] [1] [] []
  dot_S4096x512_S512x1024_S4096x1024_1_0_0_1_n_n_wf : DotDims.WF S4096x512 S512x1024 S4096x1024 [1] [0] [0] [1] [] []
  hcc0_scratch3 : 0 + S_.numel ≤ 20
  hcc0_scoped0 : 1 + S_.numel ≤ 20
  hcc0_scoped1 : 2 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32x50.size a ≤ S1024x50.size a
  k0_t1_ok : k0_t1_loop.OK
  k0_off2_inb : ∀ k0_t1 : Fin k0_t1_loop.trips, ∀ a, (k0_off2 k0_t1) a + S1x50.size a ≤ S32x50.size a
  k0_t2_ok : k0_t2_loop.OK
  k0_off3_inb : ∀ k0_t2 : Fin k0_t2_loop.trips, ∀ a, (k0_off3 k0_t2) a + S1x16.size a ≤ S50x128.size a
  k0_off4_inb : ∀ k0_t2 : Fin k0_t2_loop.trips, ∀ a, (k0_off4 k0_t2) a + S1x16.size a ≤ S50x128.size a
  k0_off5_inb : ∀ k0_t2 : Fin k0_t2_loop.trips, ∀ a, (k0_off5 k0_t2) a + S1x16.size a ≤ S50x128.size a
  k0_off6_inb : ∀ k0_t2 : Fin k0_t2_loop.trips, ∀ a, (k0_off6 k0_t2) a + S1x16.size a ≤ S50x128.size a
  k0_off7_inb : ∀ k0_t2 : Fin k0_t2_loop.trips, ∀ a, (k0_off7 k0_t2) a + S1x16.size a ≤ S50x128.size a
  k0_off8_inb : ∀ k0_t2 : Fin k0_t2_loop.trips, ∀ a, (k0_off8 k0_t2) a + S1x16.size a ≤ S50x128.size a
  k0_off9_inb : ∀ k0_t2 : Fin k0_t2_loop.trips, ∀ a, (k0_off9 k0_t2) a + S1x16.size a ≤ S50x128.size a
  k0_off10_inb : ∀ k0_t2 : Fin k0_t2_loop.trips, ∀ a, (k0_off10 k0_t2) a + S1x16.size a ≤ S50x128.size a
  k0_off11_inb : ∀ k0_t1 : Fin k0_t1_loop.trips, ∀ a, (k0_off11 k0_t1) a + S1x16.size a ≤ S32x128.size a
  k0_off12_inb : ∀ k0_t1 : Fin k0_t1_loop.trips, ∀ a, (k0_off12 k0_t1) a + S1x16.size a ≤ S32x128.size a
  k0_off13_inb : ∀ k0_t1 : Fin k0_t1_loop.trips, ∀ a, (k0_off13 k0_t1) a + S1x16.size a ≤ S32x128.size a
  k0_off14_inb : ∀ k0_t1 : Fin k0_t1_loop.trips, ∀ a, (k0_off14 k0_t1) a + S1x16.size a ≤ S32x128.size a
  k0_off15_inb : ∀ k0_t1 : Fin k0_t1_loop.trips, ∀ a, (k0_off15 k0_t1) a + S1x16.size a ≤ S32x128.size a
  k0_off16_inb : ∀ k0_t1 : Fin k0_t1_loop.trips, ∀ a, (k0_off16 k0_t1) a + S1x16.size a ≤ S32x128.size a
  k0_off17_inb : ∀ k0_t1 : Fin k0_t1_loop.trips, ∀ a, (k0_off17 k0_t1) a + S1x16.size a ≤ S32x128.size a
  k0_off18_inb : ∀ k0_t1 : Fin k0_t1_loop.trips, ∀ a, (k0_off18 k0_t1) a + S1x16.size a ≤ S32x128.size a
  k0_off19_inb : ∀ i : grid0.Coords, ∀ a, (k0_off19 i) a + S32x128.size a ≤ S1024x128.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S512x1024.size a
  hwx2_0 : ∀ i : grid2.Coords, EltTy.bits .bf16 = 32 ∨ (Rect.block (s := S512x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S4096x512.size a < S100000x512.size a
  hwx2_1 : ∀ i : grid2.Coords, EltTy.bits .f32 = 32 ∨ (Rect.unit (s := S100000x512) (fun a => cc2_transform_1 i a * S4096x512.size a) (fun a => (Pipeline.Clip.of (cc2_transform_1 i a) (S4096x512.size a) (S100000x512.size a)).extent (S4096x512.size a)) fun a => Pipeline.Clip.inb (Pipeline.Clip.ok_of (hstart2_1 i a))).WholeWords (EltTy.packing .f32)
  hwxs2_1 : ∀ i : grid2.Coords, EltTy.bits .f32 = 32 ∨ (Rect.unit (s := S4096x512) (fun _ => 0) (fun a => (Pipeline.Clip.of (cc2_transform_1 i a) (S4096x512.size a) (S100000x512.size a)).extent (S4096x512.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S4096x1.size a < S100000x1.size a
  hwx2_2 : ∀ i : grid2.Coords, EltTy.bits .f32 = 32 ∨ (Rect.unit (s := S100000x1) (fun a => cc2_transform_2 i a * S4096x1.size a) (fun a => (Pipeline.Clip.of (cc2_transform_2 i a) (S4096x1.size a) (S100000x1.size a)).extent (S4096x1.size a)) fun a => Pipeline.Clip.inb (Pipeline.Clip.ok_of (hstart2_2 i a))).WholeWords (EltTy.packing .f32)
  hwxs2_2 : ∀ i : grid2.Coords, EltTy.bits .f32 = 32 ∨ (Rect.unit (s := S4096x1) (fun _ => 0) (fun a => (Pipeline.Clip.of (cc2_transform_2 i a) (S4096x1.size a) (S100000x1.size a)).extent (S4096x1.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S4096x1024.size a < S100000x1024.size a
  hwx2_4 : ∀ i : grid2.Coords, EltTy.bits .bf16 = 32 ∨ (Rect.unit (s := S100000x1024) (fun a => cc2_transform_4 i a * S4096x1024.size a) (fun a => (Pipeline.Clip.of (cc2_transform_4 i a) (S4096x1024.size a) (S100000x1024.size a)).extent (S4096x1024.size a)) fun a => Pipeline.Clip.inb (Pipeline.Clip.ok_of (hstart2_4 i a))).WholeWords (EltTy.packing .bf16)
  hwxs2_4 : ∀ i : grid2.Coords, EltTy.bits .bf16 = 32 ∨ (Rect.unit (s := S4096x1024) (fun _ => 0) (fun a => (Pipeline.Clip.of (cc2_transform_4 i a) (S4096x1024.size a) (S100000x1024.size a)).extent (S4096x1024.size a)) fun a => (Nat.zero_add _).trans_le (Pipeline.Clip.extent_le (Pipeline.Clip.ok_of (hstart2_4 i a)))).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S4096x1024.size a < S100000x1024.size a
  hwx3_0 : ∀ i : grid3.Coords, EltTy.bits .bf16 = 32 ∨ (Rect.unit (s := S100000x1024) (fun a => cc3_transform_0 i a * S4096x1024.size a) (fun a => (Pipeline.Clip.of (cc3_transform_0 i a) (S4096x1024.size a) (S100000x1024.size a)).extent (S4096x1024.size a)) fun a => Pipeline.Clip.inb (Pipeline.Clip.ok_of (hstart3_0 i a))).WholeWords (EltTy.packing .bf16)
  hwxs3_0 : ∀ i : grid3.Coords, EltTy.bits .bf16 = 32 ∨ (Rect.unit (s := S4096x1024) (fun _ => 0) (fun a => (Pipeline.Clip.of (cc3_transform_0 i a) (S4096x1024.size a) (S100000x1024.size a)).extent (S4096x1024.size a)) fun a => (Nat.zero_add _).trans_le (Pipeline.Clip.extent_le (Pipeline.Clip.ok_of (hstart3_0 i a)))).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S4096x1024.size a < S100000x1024.size a
  hwx3_2 : ∀ i : grid3.Coords, EltTy.bits .f32 = 32 ∨ (Rect.unit (s := S100000x1024) (fun a => cc3_transform_2 i a * S4096x1024.size a) (fun a => (Pipeline.Clip.of (cc3_transform_2 i a) (S4096x1024.size a) (S100000x1024.size a)).extent (S4096x1024.size a)) fun a => Pipeline.Clip.inb (Pipeline.Clip.ok_of (hstart3_2 i a))).WholeWords (EltTy.packing .f32)
  hwxs3_2 : ∀ i : grid3.Coords, EltTy.bits .f32 = 32 ∨ (Rect.unit (s := S4096x1024) (fun _ => 0) (fun a => (Pipeline.Clip.of (cc3_transform_2 i a) (S4096x1024.size a) (S100000x1024.size a)).extent (S4096x1024.size a)) fun a => (Nat.zero_add _).trans_le (Pipeline.Clip.extent_le (Pipeline.Clip.ok_of (hstart3_2 i a)))).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf

abbrev win1_0 : Pipeline.Window sig grid1 :=
  Pipeline.Window.whole (Memref.whole main_v3) false false (stage1_0 0) (sem1_0 0) (Memref.isWhole_whole _) (hstage1_0 0)

abbrev win1_1 : Pipeline.Window sig grid1 :=
  Pipeline.Window.whole (Memref.whole main_arg2) false false (stage1_1 0) (sem1_1 0) (Memref.isWhole_whole _) (hstage1_1 0)

abbrev win1_2 : Pipeline.Window sig grid1 :=
  Pipeline.Window.whole (Memref.whole main_v0) false false (stage1_2 0) (sem1_2 0) (Memref.isWhole_whole _) (hstage1_2 0)

abbrev win1_3 : Pipeline.Window sig grid1 :=
  Pipeline.Window.whole (Memref.whole main_v4) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S512x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_v1) S4096x512.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v2) S4096x1.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v5_0) S1x1024.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpecClip (Memref.whole main_v5_1) S4096x1024.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun _ => false | ⟨_ + 5, h⟩ => absurd h (Nat.not_lt.2 (Nat.le_add_left _ _))

abbrev win3_0 : Pipeline.Window sig grid3 :=
  Pipeline.Window.ofSpecClip (Memref.whole main_v5_1) S4096x1024.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_v5_0) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpecClip (Memref.whole main_v6) S4096x1024.size cc3_transform_2 reads3_2 true false 2 stage3_2 sem3_2
    hrank3 hreads3_2 hstart3_2 nbuf3_2 (Memref.isWhole_whole _) hwx3_2 hwxs3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S1024x50 : Shape := ⟨2, ![1024, 50]⟩
abbrev S100000x128 : Shape := ⟨2, ![100000, 128]⟩
abbrev S128x512 : Shape := ⟨2, ![128, 512]⟩
abbrev S512 : Shape := ⟨1, ![512]⟩
abbrev S512x100000 : Shape := ⟨2, ![512, 100000]⟩
abbrev S100000 : Shape := ⟨1, ![100000]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x128 : Shape := ⟨3, ![1024, 50, 128]⟩
abbrev S1024x128 : Shape := ⟨2, ![1024, 128]⟩
abbrev S1024x512 : Shape := ⟨2, ![1024, 512]⟩
abbrev S1x512 : Shape := ⟨2, ![1, 512]⟩
abbrev S1024x100000 : Shape := ⟨2, ![1024, 100000]⟩
abbrev S1x100000 : Shape := ⟨2, ![1, 100000]⟩
abbrev S1024 : Shape := ⟨1, ![1024]⟩
abbrev S1024x1 : Shape := ⟨2, ![1024, 1]⟩

abbrev nBuf : Space → Nat
  | .hbm => 57
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S100000x128, .f32⟩
  | .hbm, ⟨2, _⟩ => ⟨S128x512, .f32⟩
  | .hbm, ⟨3, _⟩ => ⟨S512, .f32⟩
  | .hbm, ⟨4, _⟩ => ⟨S512x100000, .f32⟩
  | .hbm, ⟨5, _⟩ => ⟨S100000, .f32⟩
  | .hbm, ⟨6, _⟩ => ⟨S_, .i32⟩
  | .hbm, ⟨7, _⟩ => ⟨S1024x50, .i32⟩
  | .hbm, ⟨8, _⟩ => ⟨S1024x50, .i1⟩
  | .hbm, ⟨9, _⟩ => ⟨S_, .i32⟩
  | .hbm, ⟨10, _⟩ => ⟨S1024x50, .i32⟩
  | .hbm, ⟨11, _⟩ => ⟨S1024x50, .i32⟩
  | .hbm, ⟨12, _⟩ => ⟨S1024x50, .i32⟩
  | .hbm, ⟨13, _⟩ => ⟨S1024x50x1, .i32⟩
  | .hbm, ⟨14, _⟩ => ⟨S1, .i32⟩
  | .hbm, ⟨15, _⟩ => ⟨S_, .i32⟩
  | .hbm, ⟨16, _⟩ => ⟨S1024x50x1, .i32⟩
  | .hbm, ⟨17, _⟩ => ⟨S1024x50x1, .i1⟩
  | .hbm, ⟨18, _⟩ => ⟨S1x1x1, .i32⟩
  | .hbm, ⟨19, _⟩ => ⟨S1024x50x1, .i32⟩
  | .hbm, ⟨20, _⟩ => ⟨S1024x50x1, .i1⟩
  | .hbm, ⟨21, _⟩ => ⟨S1024x50x1, .i1⟩
  | .hbm, ⟨22, _⟩ => ⟨S_, .i1⟩
  | .hbm, ⟨23, _⟩ => ⟨S1024x50, .i1⟩
  | .hbm, ⟨24, _⟩ => ⟨S1024x50x128, .f32⟩
  | .hbm, ⟨25, _⟩ => ⟨S1024x50x128, .i1⟩
  | .hbm, ⟨26, _⟩ => ⟨S_, .f32⟩
  | .hbm, ⟨27, _⟩ => ⟨S1024x50x128, .f32⟩
  | .hbm, ⟨28, _⟩ => ⟨S1024x50x128, .f32⟩
  | .hbm, ⟨29, _⟩ => ⟨S_, .f32⟩
  | .hbm, ⟨30, _⟩ => ⟨S1024x128, .f32⟩
  | .hbm, ⟨31, _⟩ => ⟨S1024x512, .f32⟩
  | .hbm, ⟨32, _⟩ => ⟨S1x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x100000, .f32⟩
  | .hbm, ⟨39, _⟩ => ⟨S1x100000, .f32⟩
  | .hbm, ⟨40, _⟩ => ⟨S1024x100000, .f32⟩
  | .hbm, ⟨41, _⟩ => ⟨S1024x100000, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024x1, .f32⟩
  | .hbm, ⟨48, _⟩ => ⟨S1024x100000, .f32⟩
  | .hbm, ⟨49, _⟩ => ⟨S1024x100000, .f32⟩
  | .hbm, ⟨50, _⟩ => ⟨S1024x100000, .f32⟩
  | .hbm, ⟨51, _⟩ => ⟨S_, .f32⟩
  | .hbm, ⟨52, _⟩ => ⟨S1024, .f32⟩
  | .hbm, ⟨53, _⟩ => ⟨S1024x1, .f32⟩
  | .hbm, ⟨54, _⟩ => ⟨S1024x1, .f32⟩
  | .hbm, ⟨55, _⟩ => ⟨S1024x100000, .f32⟩
  | .hbm, ⟨56, _⟩ => ⟨S1024x100000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_call1_cst : Ref sig .tc := ⟨.hbm, 35, rfl⟩
abbrev main_call1_v0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call2_cst : Ref sig .tc := ⟨.hbm, 42, rfl⟩
abbrev main_call2_v0 : Ref sig .tc := ⟨.hbm, 43, rfl⟩
abbrev main_call2_cst_0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_cst_1 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_v11 : Ref sig .tc := ⟨.hbm, 56, rfl⟩

abbrev nD : Nat := 1
abbrev τ : Topo := Topo.v7x

variable {F : FTy → Type} [FloatOps F]

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1_S1x1x1_2 : S1.BroadcastsInDim S1x1x1 (![2] : Fin 1 → Fin S1x1x1.rank)
  bcast_S1x1x1_S1024x50x1_0_1_2 : S1x1x1.BroadcastsInDim S1024x50x1 (![0, 1, 2] : Fin 3 → Fin S1024x50x1.rank)
  reducesTo_S1024x50x1_S1024x50_d2 : S1024x50x1.ReducesTo [2] S1024x50
  h_S_ : 0 < S_.numel
  bcast_S1024x50_S1024x50x128_0_1 : S1024x50.BroadcastsInDim S1024x50x128 (![0, 1] : Fin 2 → Fin S1024x50x128.rank)
  bcast_S_S1024x50x128 : S_.BroadcastsInDim S1024x50x128 (![] : Fin 0 → Fin S1024x50x128.rank)
  reducesTo_S1024x50x128_S1024x128_d1 : S1024x50x128.ReducesTo [1] S1024x128
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  gather_S100000x128_S1024x50x1_S1024x50x128_2_0_n_n_0_2_1128_wf : GatherDims.WF S100000x128 S1024x50x1 S1024x50x128 [2] [0] [] [0] [] 2 ![1, 128]
  dot_S1024x128_S128x512_S1024x512_1_0_0_1_n_n_wf : DotDims.WF S1024x128 S128x512 S1024x512 [1] [0] [0] [1] [] []
  dot_S1024x512_S512x100000_S1024x100000_1_0_0_1_n_n_wf : DotDims.WF S1024x512 S512x100000 S1024x100000 [1] [0] [0] [1] [] []

variable [Facts₀]

def gather_S100000x128_S1024x50x1_S1024x50x128_2_0_n_n_0_2_1128 : GatherDims S100000x128 S1024x50x1 S1024x50x128 where
  offsetDims := [2]
  collapsedSliceDims := [0]
  operandBatchingDims := []
  startIndicesBatchingDims := []
  startIndexMap := [0]
  indexVectorDim := 2
  sliceSizes := ![1, 128]
  wf := gather_S100000x128_S1024x50x1_S1024x50x128_2_0_n_n_0_2_1128_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.CommonI.lean ====
/-
  The program as the launch theorems see it, and the resource algebra every module of the proof shares:
  the SparseCore handshakes' rounds, the rounds of the TensorCore pipelines' staging cells, and the
  counters of the vector subcores' own transfers.
-/
import proofs.«207593_g36137854828637_cont_8to1_b_1462_19_alg».proof.KernelIdeal
import proofs.«207593_g36137854828637_cont_8to1_b_1462_19_alg».proof.Proof.Gen.KernelIdeal
import proofs.«207593_g36137854828637_cont_8to1_b_1462_19_alg».proof.Proof.Gen.KernelIdeal.Launch
import Idealize.ShloMosaic.Lib.SparseCore.Launch
import Idealize.ShloMosaic.Lib.Pipeline.Regions
import Idealize.ShloMosaic.Lib.Pipeline.Kit
import Idealize.ShloMosaic.Lib.Transfers

noncomputable section

namespace Cert.KernelIdeal.Common

open Cert.KernelIdeal Cert.KernelIdeal.Gen

open Idealize.ShloMosaic
open Idealize.ShloMosaic.SparseCore.Cfg (HIx)
open Idealize.SL Idealize.SL.RA Idealize.SL.BI
open Idealize.SL.Sem
open Idealize.ShloMosaic.Rounds

variable {F : FTy → Type}

/-! ## The program as the launch theorems see it -/

/-- The labels of the TensorCore pipelines' body table, which the SparseCore launch extends. -/
abbrev ΛP : Labels := Pipeline.Sig Λ₀ (Fin 3) fun p => (pcfgs (F := F) p).Adm
/-- The one SparseCore call. -/
abbrev K : SparseCore.Cfg τ sig (ΛP (F := F)) 1 := sc (F := F)
/-- The pipelines' body table. -/
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The rounds of the pipelines' staging cells. -/
abbrev UP : Type := URounds (GSem nD τ sig) Unit
/-- Handshakes, staging cells, and the counters of the vector subcores' own transfers (found by instance in the right factor). -/
abbrev UU : Type := UH × (UP × Counters)

/-- The model every assertion of the proof is stated in. -/
abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

instance : CountersIn UU := inferInstance

end Cert.KernelIdeal.Common

end
-- ==== Proof.ScTileI.lean ====
/-
  The SparseCore kernel of the program: embedding pooling on the vector subcores.

  Task `wid = 2·s + c` (SparseCore `c < 2`, vector subcore `s < 16`) owns the batch rows `[32·wid, 32·wid + 32)`.
  It copies its 32×50 block of the index array into its index scratch; for each of its 32 rows it gathers the 50
  table rows the indices name into its row scratch and sums them, lane chunk by lane chunk, from zero, in the order
  of the positions; the 32 sums go to the rows of the result it owns.

  The pooled array is ONE function of the launch contents of the index array and the table (`poolVal`): entry
  `(b, e)` is the left fold, over the positions `j = 0 … 49`, of the float addition from the zero word of the table's
  entry `(row (seqs (b, j)), e)`. The index array and the result split by 32-row blocks among the 32 tasks; the
  table, which every task reads whole, goes out as read shares: a half per SparseCore, of which each of its
  sixteen tasks takes a token.
-/
import proofs.«207593_g36137854828637_cont_8to1_b_1462_19_alg».proof.Proof.CommonI
import proofs.«207593_g36137854828637_cont_8to1_b_1462_19_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Transfers
import Idealize.ShloMosaic.Lib.Writes
import Idealize.ShloMosaic.Lib.Tactic
import Idealize.ShloMosaic.Lib.ValueLayout

noncomputable section

namespace Cert.KernelIdeal.ScTile

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

theorem nCore_zero : (K (F := F)).nCore 0 = 2 := rfl
theorem nSub_zero : (K (F := F)).nSub 0 = 16 := rfl

/-! ## The arrays -/

variable (m : (ℓ : Loc nD τ sig) → Buf (Elt F) ℓ)

/-- The index array, the table and the pooled result, as the TensorCore names them. -/
abbrev a0Loc (d : Dev nD) : Loc nD τ sig := (SparseCore.T d).loc main_arg0
abbrev a1Loc (d : Dev nD) : Loc nD τ sig := (SparseCore.T d).loc main_arg1
abbrev v3Loc (d : Dev nD) : Loc nD τ sig := (SparseCore.T d).loc main_v3

local notation "qV" => (Memref.whole Cert.KernelIdeal.main_arg0_scv : Memref Cert.KernelIdeal.sig Kind.scVector Space.hbm Cert.KernelIdeal.S1024x50 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v3_scv : Memref Cert.KernelIdeal.sig Kind.scVector Space.hbm Cert.KernelIdeal.S1024x128 EltTy.f32)
local notation "iS" => (Memref.whole Cert.KernelIdeal.cc0_scratch0 : Memref Cert.KernelIdeal.sig Kind.scVector Space.vmem Cert.KernelIdeal.S32x50 EltTy.i32)
local notation "rS" => (Memref.whole Cert.KernelIdeal.cc0_scratch1 : Memref Cert.KernelIdeal.sig Kind.scVector Space.vmem Cert.KernelIdeal.S50x128 EltTy.f32)
local notation "aS" => (Memref.whole Cert.KernelIdeal.cc0_scratch2 : Memref Cert.KernelIdeal.sig Kind.scVector Space.vmem Cert.KernelIdeal.S32x128 EltTy.f32)

/-! ## The 32-row blocks -/

theorem qdiv : 32 ∣ S1024x50.size 0 := ⟨32, rfl⟩
theorem odiv : 32 ∣ S1024x128.size 0 := ⟨32, rfl⟩
/-- Block `w` of the index array and of the result: rows `[32 w, 32 w + 32)`. -/
abbrev qrow (w : Fin 32) : Rect S1024x50 := Rect.part (s := S1024x50) (a₀ := 0) qdiv w
abbrev orow (w : Fin 32) : Rect S1024x128 := Rect.part (s := S1024x128) (a₀ := 0) odiv w
abbrev qRowSet (w : Fin 32) : Finset S1024x50.Idx := ((qV).view.slice (qrow w)).set
abbrev oRowSet (w : Fin 32) : Finset S1024x128.Idx := ((oV).view.slice (orow w)).set

/-- The number of the task on vector subcore `s` of SparseCore `c`. -/
def wid (c : Fin 2) (s : Fin 16) : Fin 32 := ⟨2 * s.val + c.val, by omega⟩

/-! ## The read shares of the table -/

/-- SparseCore `c`'s half of the table. -/
def coreShare (c : Fin 2) : PosShare TreeShare := if c.val = 0 then (fullShare : PosShare TreeShare).left else (fullShare : PosShare TreeShare).right
/-- The token of task `s` of SparseCore `c`. -/
abbrev tileShare (c : Fin 2) (s : Fin 16) : PosShare TreeShare := Transfers.shareTok (coreShare c) 16 s

/-! ## The pooled array -/

/-- The table row an index word names (total: in range it is the word's value). -/
def rowW (w : BitVec 32) : Fin 100000 := ⟨w.toNat % 100000, Nat.mod_lt _ (by decide)⟩

variable [FloatOps F] [Named F]

/-- The zero word as a float. -/
abbrev zeroF : F .f32 := Scalar.ofBits .f32 0x00000000#32

/-- The sum, in the order of the positions, from zero, of the first `n` named table entries of column `e` of batch row `b`. -/
def poolSum (seqs : S1024x50.Idx → BitVec 32) (table : S100000x128.Idx → F .f32) (b : Fin 1024) (e : Fin 128) : ℕ → F .f32
  | 0 => zeroF
  | n + 1 => if h : n < 50 then FloatOps.addf (poolSum seqs table b e n) (table (ix2 (rowW (seqs (ix2 b ⟨n, h⟩))) e)) else poolSum seqs table b e n

/-- THE POOLED ARRAY, one function of the launch contents of the index array and of the table. -/
def poolVal (d : Dev nD) (seqs : Buf (Elt F) (a0Loc d)) (table : Buf (Elt F) (a1Loc d)) : Buf (Elt F) (v3Loc d) :=
  fun x : S1024x128.Idx => poolSum seqs table (x 0) (x 1) 50

/-- What the proof asks of the launch memory: every index word names a table row. -/
def IdxOK (m : (ℓ : Loc nD τ sig) → Buf (Elt F) ℓ) : Prop := ∀ (d : Dev nD) j, (m (a0Loc d) j).toNat < 100000

/-! ## What the handshakes carry -/

abbrev qRowPts (d : Dev nD) (w : Fin 32) : sProp 𝕄 := a0Loc d ↦[qRowSet w]{fullShare} m (a0Loc d)
abbrev tTokPts (d : Dev nD) (c : Fin 2) (s : Fin 16) : sProp 𝕄 := a1Loc d ↦{tileShare c s} m (a1Loc d)
abbrev oRowPts (d : Dev nD) (w : Fin 32) (f : Buf (Elt F) (v3Loc d)) : sProp 𝕄 := v3Loc d ↦[oRowSet w]{fullShare} f
/-- The pooled array of the launch memory. -/
abbrev pooled (d : Dev nD) : Buf (Elt F) (v3Loc d) := poolVal d (m (a0Loc d)) (m (a1Loc d))

/-- A task's operands: its block of the index array, its token of the table, its block of the result at any contents; -/
def goT (d : Dev nD) (c : Fin 2) (s : Fin 16) : sProp 𝕄 :=
  iprop(qRowPts m d (wid c s) ∗ tTokPts m d c s ∗ ∃ f, oRowPts d (wid c s) f)
/-- and what it brings back: its block of the result at the pooled array. -/
def tdT (d : Dev nD) (c : Fin 2) (s : Fin 16) : sProp 𝕄 :=
  iprop(qRowPts m d (wid c s) ∗ tTokPts m d c s ∗ oRowPts d (wid c s) (pooled m d))
/-- A SparseCore's operands: its tasks' blocks, its half of the table; -/
def stC (d : Dev nD) (c : Fin 2) : sProp 𝕄 :=
  iprop((bigSep Finset.univ fun s : Fin 16 => qRowPts m d (wid c s)) ∗ (a1Loc d ↦{coreShare c} m (a1Loc d))
    ∗ bigSep Finset.univ fun s : Fin 16 => iprop(∃ f, oRowPts d (wid c s) f))
def dnC (d : Dev nD) (c : Fin 2) : sProp 𝕄 :=
  iprop((bigSep Finset.univ fun s : Fin 16 => qRowPts m d (wid c s)) ∗ (a1Loc d ↦{coreShare c} m (a1Loc d))
    ∗ bigSep Finset.univ fun s : Fin 16 => oRowPts d (wid c s) (pooled m d))

/-- The one SparseCore call's payloads. -/
def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => by show BI.Storable (upEmb : UEmb _ 𝕄) (stC m d _); unfold stC; infer_instance
  dn q d c := match q with | 0 => by show BI.Storable (upEmb : UEmb _ 𝕄) (dnC m d _); unfold dnC; infer_instance
  go q d c i := match q with | 0 => by show BI.Storable (upEmb : UEmb _ 𝕄) (goT m d _ _); unfold goT; infer_instance
  td q d c i := match q with | 0 => by show BI.Storable (upEmb : UEmb _ 𝕄) (tdT m d _ _); unfold tdT; infer_instance

theorem P_x (q : Fin 1) (thr : Thread nD τ) : (P (F := F) m).x q thr = iprop(emp) := rfl
theorem P_ox : (P (F := F) m).ox = fun _ _ => 0 := rfl
theorem P_held : (P (F := F) m).held = ∅ := rfl

/-! ## The blocks split and join; the shares of the table -/

/-- The task number as an equivalence. -/
def widE : Fin 2 × Fin 16 ≃ Fin 32 where
  toFun p := wid p.1 p.2
  invFun w := (⟨w.val % 2, Nat.mod_lt _ (by decide)⟩, ⟨w.val / 2, by have := w.isLt; omega⟩)
  left_inv := by
    rintro ⟨c, s⟩
    refine Prod.ext (Fin.ext ?_) (Fin.ext ?_)
    · show (2 * s.val + c.val) % 2 = c.val
      have := c.isLt; omega
    · show (2 * s.val + c.val) / 2 = s.val
      have := c.isLt; omega
  right_inv := by
    intro w
    refine Fin.ext ?_
    show 2 * (w.val / 2) + w.val % 2 = w.val
    omega

omit [FloatOps F] [Named F] in
theorem bigSep_wid (Φ : Fin 32 → sProp 𝕄) :
    (bigSep Finset.univ fun c : Fin 2 => bigSep Finset.univ fun s : Fin 16 => Φ (wid c s)) = bigSep Finset.univ Φ := by
  rw [BI.bigSep_univ_equiv widE Φ, BI.bigSep_univ_prod]; rfl

omit [FloatOps F] [Named F] in
theorem qRowSet_eq (w : Fin 32) : qRowSet w = (qrow w).set := by
  show ((View.whole (main_arg0_scv : Ref sig .scVector)).slice (qrow w)).set = _
  rw [View.set_slice]; exact Finset.map_refl
omit [FloatOps F] [Named F] in
theorem oRowSet_eq (w : Fin 32) : oRowSet w = (orow w).set := by
  show ((View.whole (main_v3_scv : Ref sig .scVector)).slice (orow w)).set = _
  rw [View.set_slice]; exact Finset.map_refl
omit [FloatOps F] [Named F] in
theorem qrows_disjoint : ∀ i ∈ (Finset.univ : Finset (Fin 32)), ∀ j ∈ (Finset.univ : Finset (Fin 32)), i ≠ j → Disjoint (qRowSet i) (qRowSet j) :=
  fun i _ j _ h => by rw [qRowSet_eq, qRowSet_eq]; exact Rect.part_disjoint qdiv h
omit [FloatOps F] [Named F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] [Named F] in
theorem qrows_cover : (Finset.univ : Finset (Fin 32)).biUnion qRowSet = Finset.univ :=
  (Finset.biUnion_congr rfl fun i _ => qRowSet_eq i).trans (Rect.biUnion_part qdiv)
omit [FloatOps F] [Named F] in
theorem orows_cover : (Finset.univ : Finset (Fin 32)).biUnion oRowSet = Finset.univ :=
  (Finset.biUnion_congr rfl fun i _ => oRowSet_eq i).trans (Rect.biUnion_part odiv)

omit [FloatOps F] [Named F] in
theorem qPts_rows (d : Dev nD) (f : Buf (Elt F) (a0Loc d)) :
    (a0Loc d ↦{fullShare} f : sProp 𝕄) = bigSep Finset.univ fun w : Fin 32 => a0Loc d ↦[qRowSet w]{fullShare} f := by
  rw [← pointsTo_biUnion Finset.univ (ℓ := a0Loc d) qRowSet qrows_disjoint, qrows_cover]; try rfl
omit [FloatOps F] [Named F] in
theorem oPts_rows (d : Dev nD) (f : Buf (Elt F) (v3Loc d)) :
    (v3Loc d ↦{fullShare} f : sProp 𝕄) = bigSep Finset.univ fun w : Fin 32 => v3Loc d ↦[oRowSet w]{fullShare} f := by
  rw [← pointsTo_biUnion Finset.univ (ℓ := v3Loc d) oRowSet orows_disjoint, orows_cover]; try rfl

theorem oRows_join (d : Dev nD) :
    (bigSep Finset.univ fun w : Fin 32 => iprop(∃ f, oRowPts d w f)) ⊢ (iprop(∃ f, v3Loc d ↦{fullShare} f) : sProp 𝕄) := by
  refine (bigSep_exists_pi Finset.univ (fun w (f : Buf (Elt F) (v3Loc d)) => oRowPts d w f)).trans ?_
  iintro ⟨%fs, H⟩
  have : Nonempty (Buf (Elt F) (v3Loc d)) := ⟨fs 0⟩
  ihave H' := (pointsTo_biUnion_join (ℓ := v3Loc d) (q := fullShare) (Val := Elt F) Finset.univ oRowSet fs (fs 0) orows_disjoint) $$ H
  icases H' with ⟨%g, -, Hg⟩
  rw [orows_cover]
  iexists g; iexact Hg

omit [FloatOps F] [Named F] in
theorem oRow_ex (d : Dev nD) (w : Fin 32) (f : Buf (Elt F) (v3Loc d)) :
    (v3Loc d ↦[oRowSet w]{fullShare} f : sProp 𝕄) ⊢ iprop(∃ f, oRowPts d w f) := by
  iintro H; iexists f; iexact H
omit [FloatOps F] [Named F] in
theorem oRows_split_at (d : Dev nD) (f : Buf (Elt F) (v3Loc d)) :
    (bigSep Finset.univ fun w : Fin 32 => (v3Loc d ↦[oRowSet w]{fullShare} f : sProp 𝕄))
      ⊢ bigSep Finset.univ fun w : Fin 32 => iprop(∃ f, oRowPts d w f) :=
  bigSep_mono fun w _ => oRow_ex d w f

omit [FloatOps F] [Named F] in
theorem oRows_split (d : Dev nD) :
    (iprop(∃ f, v3Loc d ↦{fullShare} f) : sProp 𝕄) ⊢ bigSep Finset.univ fun w : Fin 32 => iprop(∃ f, oRowPts d w f) := by
  iintro ⟨%f, H⟩
  ihave H' := (Entails.of_eq (oPts_rows d f)) $$ H
  iapply (oRows_split_at d f); iexact H'

theorem oRows_eq (d : Dev nD) :
    (bigSep Finset.univ fun w : Fin 32 => iprop(∃ f, oRowPts d w f)) = (iprop(∃ f, v3Loc d ↦{fullShare} f) : sProp 𝕄) :=
  BI.Entails.antisymm (oRows_join d) (oRows_split d)

omit [FloatOps F] [Named F] in
/-- The table whole is its two halves. -/
theorem tPts_cores (d : Dev nD) (f : Buf (Elt F) (a1Loc d)) :
    (bigSep Finset.univ fun c : Fin 2 => a1Loc d ↦{coreShare c} f) = (a1Loc d ↦{fullShare} f : sProp 𝕄) := by
  rw [bigSep_univ_two]
  show iprop((a1Loc d ↦{(fullShare : PosShare TreeShare).left} f) ∗ a1Loc d ↦{(fullShare : PosShare TreeShare).right} f) = _
  exact (BI.Entails.antisymm (pointsTo_share (PosShare.mem_left_op_right fullShare)).1 (pointsTo_share (PosShare.mem_left_op_right fullShare)).2).symm

omit [FloatOps F] [Named F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] [Named F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands split into its sixteen tasks' — each a token of its half of the table, the remainder kept
    aside until they are back — and the results gather from theirs. -/
theorem vecSplit : (K (F := F)).VecSplit' (P m) 0 := by
  intro d c
  show stC m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnC m d (Fin.cast nCore_zero c)))
  generalize Fin.cast nCore_zero c = c'
  rw [bigSep_tasks (F := F) (fun s => goT m d c' s), bigSep_tasks (F := F) (fun s => tdT m d c' s)]
  unfold stC dnC goT tdT
  rw [bigSep_sep', bigSep_sep', bigSep_sep', bigSep_sep']
  iintro ⟨Hq, Ht, Ho⟩
  ihave Ht' := (Transfers.pointsTo_toks_split (ℓ := a1Loc d) (S := Finset.univ) (f := m (a1Loc d)) (coreShare c') 16) $$ Ht
  icases Ht' with ⟨Hrem, Htoks⟩
  imodintro
  isplitl [Hq Htoks Ho]
  · isplitl [Hq]; · iexact Hq
    isplitl [Htoks]; · iexact Htoks
    iexact Ho
  iintro ⟨Hq, Htoks, Ho⟩
  isplitl [Hq]; · iexact Hq
  isplitl [Hrem Htoks]
  · iapply (Transfers.pointsTo_toks_join (ℓ := a1Loc d) (S := Finset.univ) (f := m (a1Loc d)) (coreShare c') 16)
    isplitl [Hrem]; · iexact Hrem
    iexact Htoks
  iexact Ho

/-- What the call takes for the two SparseCores: the index array and the table whole, the result at any contents; -/
theorem st0_eq (d : Dev nD) : (bigSep Finset.univ fun c : Fin ((K (F := F)).nCore 0) => (P m).st 0 d c)
    = (iprop((a0Loc d ↦{fullShare} m (a0Loc d)) ∗ (a1Loc d ↦{fullShare} m (a1Loc d)) ∗ ∃ f, v3Loc d ↦{fullShare} f) : sProp (MM F)) := by
  show (bigSep Finset.univ fun c : Fin ((K (F := F)).nCore 0) => stC m d (Fin.cast nCore_zero c)) = _
  rw [bigSep_cores (F := F) (fun c => stC m d c)]
  unfold stC
  rw [bigSep_sep', bigSep_sep', bigSep_wid (F := F) (fun w => qRowPts m d w), bigSep_wid (F := F) (fun w => iprop(∃ f, oRowPts d w f)),
    tPts_cores, oRows_eq, ← qPts_rows]
/-- and what it hands back: the result at the pooled array. -/
theorem dn0_eq (d : Dev nD) : (bigSep Finset.univ fun c : Fin ((K (F := F)).nCore 0) => (P m).dn 0 d c)
    = (iprop((a0Loc d ↦{fullShare} m (a0Loc d)) ∗ (a1Loc d ↦{fullShare} m (a1Loc d)) ∗ v3Loc d ↦{fullShare} poolVal d (m (a0Loc d)) (m (a1Loc d))) : sProp (MM F)) := by
  show (bigSep Finset.univ fun c : Fin ((K (F := F)).nCore 0) => dnC m d (Fin.cast nCore_zero c)) = _
  rw [bigSep_cores (F := F) (fun c => dnC m d c)]
  unfold dnC
  rw [bigSep_sep', bigSep_sep', bigSep_wid (F := F) (fun w => qRowPts m d w), bigSep_wid (F := F) (fun w => oRowPts d w (pooled m d)),
    tPts_cores, ← qPts_rows, ← oPts_rows]

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] [Named F] in
theorem bound_zero : grid0.bound 0 = 2 := rfl
omit [FloatOps F] [Named F] in
theorem bound_one : grid0.bound 1 = 16 := rfl
abbrev cL (L : grid0.Coords) : Fin 2 := Fin.cast bound_zero (L 0)
abbrev sL (L : grid0.Coords) : Fin 16 := Fin.cast bound_one (L 1)
/-- The task's thread. -/
abbrev thrL (d : Dev nD) (L : grid0.Coords) : Thread nD τ := V d (cV L) (jV L)

/-- The task's blocks as the program slices them. -/
abbrev qrowK (L : grid0.Coords) : Rect S1024x50 := Rect.unit (s := S1024x50) (k0_off1 L) S32x50.size (k0_off1_inb L)
abbrev orowK (L : grid0.Coords) : Rect S1024x128 := Rect.unit (s := S1024x128) (k0_off19 L) S32x128.size (k0_off19_inb L)
abbrev qRowK (L : grid0.Coords) : Memref sig .scVector .hbm S32x50 .i32 := (qV).slice (qrowK L) (fun _ => rfl)
abbrev oRowK (L : grid0.Coords) : Memref sig .scVector .hbm S32x128 .f32 := (oV).slice (orowK L) (fun _ => rfl)

omit [FloatOps F] [Named F] in
theorem qrowK_eq : qrowK L = qrow (wid (cL L) (sL L)) := by
  unfold qrowK qrow Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]
omit [FloatOps F] [Named F] in
theorem orowK_eq : orowK L = orow (wid (cL L) (sL L)) := by
  unfold orowK orow Rect.part Rect.block
  congr 1 <;> funext a
  · rw [k0_off19_eq]
    match a with
    | 0 => simp [Shape.partIx, Shape.partSize, wid]; omega
    | 1 => simp [Shape.partIx, Shape.partSize]
  · match a with
    | 0 => simp [Shape.partSize]
    | 1 => simp [Shape.partSize]

omit [FloatOps F] [Named F] in
theorem set_qRowK : (qRowK L).view.set = qRowSet (wid (cL L) (sL L)) := by
  show ((qV).view.slice (qrowK L)).set = ((qV).view.slice (qrow (wid (cL L) (sL L)))).set
  exact qrowK_eq L ▸ rfl
omit [FloatOps F] [Named F] in
theorem set_oRowK : (oRowK L).view.set = oRowSet (wid (cL L) (sL L)) := by
  show ((oV).view.slice (orowK L)).set = ((oV).view.slice (orow (wid (cL L) (sL L)))).set
  exact orowK_eq L ▸ rfl

omit [FloatOps F] [Named F] in
theorem pts_qRowK (f : Buf (Elt F) (a0Loc d)) :
    ((qRowK L).view.loc (thrL d L) ↦[(qRowK L).view.set]{fullShare} f : sProp 𝕄) = a0Loc d ↦[qRowSet (wid (cL L) (sL L))]{fullShare} f := by
  rw [set_qRowK]
omit [FloatOps F] [Named F] in
theorem pts_oRowK (f : Buf (Elt F) (v3Loc d)) :
    ((oRowK L).view.loc (thrL d L) ↦[(oRowK L).view.set]{fullShare} f : sProp 𝕄) = v3Loc d ↦[oRowSet (wid (cL L) (sL L))]{fullShare} f := by
  rw [set_oRowK]
omit [FloatOps F] [Named F] in
theorem pts_tV (q : PosShare TreeShare) (f : Buf (Elt F) (a1Loc d)) :
    ((tV).view.loc (thrL d L) ↦{q} f : sProp 𝕄) = a1Loc d ↦{q} f := rfl
omit [FloatOps F] [Named F] in
theorem pts_iS (f : Buf (Elt F) ((thrL d L).loc cc0_scratch0)) :
    ((iS).view.loc (thrL d L) ↦{fullShare} f : sProp 𝕄) = (thrL d L).loc cc0_scratch0 ↦{fullShare} f := rfl
omit [FloatOps F] [Named F] in
theorem pts_rS (f : Buf (Elt F) ((thrL d L).loc cc0_scratch1)) :
    ((rS).view.loc (thrL d L) ↦{fullShare} f : sProp 𝕄) = (thrL d L).loc cc0_scratch1 ↦{fullShare} f := rfl
omit [FloatOps F] [Named F] in
theorem pts_aS (f : Buf (Elt F) ((thrL d L).loc cc0_scratch2)) :
    ((aS).view.loc (thrL d L) ↦{fullShare} f : sProp 𝕄) = (thrL d L).loc cc0_scratch2 ↦{fullShare} f := rfl

/-- The kernel's three DMA cells: the index fetch's, the gathers', the write-out's. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scoped1.sem)

omit [FloatOps F] [Named F] in
/-- The subcore's own cells at zero: the kernel's three DMA cells and the rest. -/
theorem ownSems0_V :
    (ownSems0 (thrL d L) : sProp 𝕄)
      = iprop(semVal (cAcell d (cV L) (jV L)) 0 ∗ semVal (cGcell d (cV L) (jV L)) 0 ∗ semVal (cBcell d (cV L) (jV L)) 0
          ∗ bigSep ((((ownCells (thrL d L)).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch3.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] [Named F] in
/-- The three scratch buffers are among the subcore's own. -/
theorem ownBufs_V :
    (ownBufs (thrL d L) : sProp 𝕄)
      = iprop((∃ f, (thrL d L).loc cc0_scratch0 ↦{fullShare} f) ∗ (∃ f, (thrL d L).loc cc0_scratch1 ↦{fullShare} f) ∗ (∃ f, (thrL d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ### The landed index block, the invariants -/

/-- The task's block of the index array, as it lands in the index scratch. -/
def idxC (d : Dev nD) (L : grid0.Coords) : Buf (Elt F) ((thrL d L).loc cc0_scratch0) :=
  (qRowK L).view.read (Elt F) (m (a0Loc d))

omit [FloatOps F] [Named F] in
/-- Every word of the landed block names a table row. -/
theorem idxC_lt (hidx : IdxOK m) (j : S32x50.Idx) : (idxC m d L j).toNat < 100000 := by
  unfold idxC
  rw [show (qRowK L).view.read (Elt F) (m (a0Loc d)) j = m (a0Loc d) ((qRowK L).view.emb j) from (View.read_apply _ _).trans (cast_eq _ _)]
  exact hidx d _

/-- Row `i` of the index scratch as the gather's offset list. -/
abbrev offsK (k : Fin k0_t1_loop.trips) : Memref sig .scVector .vmem S50 .i32 :=
  ((iS).slice (Rect.unit (s := S32x50) (k0_off2 k) S1x50.size (k0_off2_inb k)) (fun _ => rfl)).squeeze S50 squeezes_S1x50_S50

omit [FloatOps F] [Named F] in
theorem hin_of (hidx : IdxOK m) (k : Fin k0_t1_loop.trips) :
    ∀ x, ((offsK k).view.read (Elt F) (idxC m d L) x).toNat < S100000x128.size gathers_S100000x128_S50x128.axis := by
  intro x
  rw [show (offsK k).view.read (Elt F) (idxC m d L) x = idxC m d L ((offsK k).view.emb x) from (View.read_apply _ _).trans (cast_eq _ _)]
  exact idxC_lt m d L hidx _

/-- The batch row of the task's local row `i`. -/
def brow (L : grid0.Coords) (i : Fin 32) : Fin 1024 := ⟨32 * (wid (cL L) (sL L)).val + i.val, by have := (wid (cL L) (sL L)).isLt; have := i.isLt; omega⟩

/-- The outer loop's invariant before trip `k`: the table's token and the index block as they are, the row scratch at any
    contents, the accumulator scratch with its first `k` rows at the pooled array's rows of the task, the gathers' cell
    at zero, and what the task owes with only waits at index `none` recorded beyond `W`. -/
def inv1 (O : CellTallies nD τ sig (HIx 1)) (W : Waits sig (HIx 1)) (k : Nat) (_ : Unit) : sProp 𝕄 :=
  iprop(Transfers.MayWaits (thrL d L) (default : HIx 1) O
    ∗ ((tV).view.loc (thrL d L) ↦{tileShare (cL L) (sL L)} m (a1Loc d))
    ∗ ((iS).view.loc (thrL d L) ↦{fullShare} idxC m d L)
    ∗ (∃ fr, (rS).view.loc (thrL d L) ↦{fullShare} fr)
    ∗ (∃ fa, ⌜∀ (i : Fin 32) (e : Fin 128), i.val < k → fa (ix2 i e) = pooled m d (ix2 (brow L i) e)⌝ ∗ (aS).view.loc (thrL d L) ↦{fullShare} fa)
    ∗ semVal (cGcell d (cV L) (jV L)) 0
    ∗ ∃ W', ⌜∀ p ∈ W', p ∈ W ∨ p.2 = none⌝ ∗ owes (thrL d L) O W')

/-- The 50 table rows the indices of the task's local row `k` name, as they land in the row scratch. -/
def gatherC (d : Dev nD) (L : grid0.Coords) (k : Fin 32) : Buf (Elt F) ((thrL d L).loc cc0_scratch1) :=
  fun x : S50x128.Idx => m (a1Loc d) (ix2 (rowW (idxC m d L (ix2 k ⟨(x 0).val, (x 0).isLt⟩))) ⟨(x 1).val, (x 1).isLt⟩)

/-- The sum, in the order of the rows, from zero, of the first `n` entries of column `e` of a 50×128 buffer. -/
def rowSum (R : S50x128.Idx → F .f32) (e : Fin 128) : ℕ → F .f32
  | 0 => zeroF
  | n + 1 => if h : n < 50 then FloatOps.addf (rowSum R e n) (R (ix2 ⟨n, h⟩ e)) else rowSum R e n

/-- Lane chunk `c` of those sums. -/
def chunkSum (R : S50x128.Idx → F .f32) (c : Fin 8) (n : ℕ) : FVec F S16 .f32 :=
  fun l => rowSum R ⟨16 * c.val + (l 0).val, by have h1 : (l 0).val < 16 := (l 0).isLt; have := c.isLt; omega⟩ n

abbrev Acc8 (F : FTy → Type) : Type :=
  FVec F S16 .f32 × FVec F S16 .f32 × FVec F S16 .f32 × FVec F S16 .f32 × FVec F S16 .f32 × FVec F S16 .f32 × FVec F S16 .f32 × FVec F S16 .f32

/-- The eight accumulators before trip `n` of the inner loop. -/
def accAt (R : S50x128.Idx → F .f32) (n : ℕ) : Acc8 F :=
  (chunkSum R 0 n, chunkSum R 1 n, chunkSum R 2 n, chunkSum R 3 n, chunkSum R 4 n, chunkSum R 5 n, chunkSum R 6 n, chunkSum R 7 n)

/-- The inner loop's invariant: the row scratch as it is, the accumulators the partial sums. -/
def inv2 (R : Buf (Elt F) ((thrL d L).loc cc0_scratch1)) (n : Nat) (acc : Acc8 F) : sProp 𝕄 :=
  iprop(((rS).view.loc (thrL d L) ↦{fullShare} R) ∗ ⌜acc = accAt R n⌝)

/-! ### The accumulators' step -/

theorem accAt_zero (R : S50x128.Idx → F .f32) (z : FVec F S16 .f32) (hz : z = broadcast S16 (FloatOps.ofBits .f32 0x00000000#32)) :
    (z, z, z, z, z, z, z, z) = accAt R 0 := by
  subst hz; rfl

/-- One trip's addition on lane chunk `c`: the partial sums move on by the row just read. -/
theorem chunk_step (R : Buf (Elt F) ((thrL d L).loc cc0_scratch1)) (c : Fin 8) (n : Fin 50) (off : Fin 2 → ℕ)
    (hinb : ∀ a, off a + S1x16.size a ≤ S50x128.size a) (hoff : off = ![n.val, 16 * c.val]) (h : S1x16.ShapeCasts S16) :
    addf (chunkSum R c n.val) (shapeCast S16 ((rS).view.readAt (Elt F) (Rect.unit (s := S50x128) off S1x16.size hinb).toLoadRect R) h)
      = chunkSum R c (n.val + 1) := by
  subst hoff
  funext l
  obtain ⟨i, rfl⟩ : ∃ i : Fin 16, l = ix1 i := ⟨l 0, eq_ix1 l⟩
  have e := shapeCast_1a_a_apply (a := 16) ((rS).view.readAt (Elt F) (Rect.unit (s := S50x128) ![n.val, 16 * c.val] S1x16.size hinb).toLoadRect R) h i
  refine (congrArg (FloatOps.addf (chunkSum R c n.val (ix1 i))) e).trans ?_
  unfold chunkSum
  conv_rhs => unfold rowSum
  rw [dif_pos n.isLt]
  congr 1
  show R _ = R _
  congr 1
  funext a
  match a with
  | 0 => exact Fin.ext (by show n.val + 1 * 0 = n.val; omega)
  | 1 => exact Fin.ext (by show 16 * c.val + 1 * i.val = 16 * c.val + i.val; omega)

/-! ### The stores of one trip: row `k` of the accumulator scratch -/

omit [FloatOps F] [Named F] in
/-- Writes that all lie in row `k`, agree with one function `G` and cover the row leave `G` on row `k` and the other rows
    as they were. -/
theorem writes_row (fa' : Buf (Elt F) ((thrL d L).loc cc0_scratch2)) (k : Fin 32) (G : S32x128.Idx → F .f32)
    (Ls : List (View.Piece (Elt F) S32x128 .f32))
    (hrow : ∀ p ∈ Ls, ∀ y ∈ p.1.set, (y 0).val = k.val)
    (hG : ∀ p ∈ Ls, ∀ x : p.1.shape.Idx, p.2 x = G (p.1.emb x))
    (hcov : ∀ e : Fin 128, ∃ p ∈ Ls, (ix2 k e : S32x128.Idx) ∈ p.1.set) (i : Fin 32) (e : Fin 128) :
    ((aS).view.writes (Elt F) fa' Ls) (ix2 i e) = if i = k then G (ix2 k e) else fa' (ix2 i e) := by
  by_cases hik : i = k
  · subst hik
    rw [if_pos rfl]
    exact View.read_writes_apply_of_pieces (aS).view fa' G Ls hG (ix2 i e) (hcov e)
  · rw [if_neg hik]
    exact View.read_writes_apply_of_forall_not_mem (aS).view fa' (ix2 i e) Ls fun p hp hy => hik (Fin.ext (hrow p hp _ hy))

/-! ### The landed values -/

omit [FloatOps F] [Named F] in
/-- The landed index block at local row `k`, position `j`: the index array at the task's batch row. -/
theorem idxC_apply (k : Fin 32) (j : Fin 50) : idxC m d L (ix2 k j) = m (a0Loc d) (ix2 (brow L k) j) := by
  unfold idxC
  rw [show (qRowK L).view.read (Elt F) (m (a0Loc d)) (ix2 k j) = m (a0Loc d) ((qRowK L).view.emb (ix2 k j)) from (View.read_apply _ _).trans (cast_eq _ _)]
  congr 1
  funext a
  match a with
  | 0 =>
    refine Fin.ext ?_
    show k0_off1 L 0 + 1 * k.val = 32 * (2 * (L 1).val + (L 0).val) + k.val
    rw [k0_off1_eq]; show 64 * (L 1).val + 32 * (L 0).val + 1 * k.val = _; omega
  | 1 =>
    refine Fin.ext ?_
    show k0_off1 L 1 + 1 * j.val = j.val
    rw [k0_off1_eq]; show 0 + 1 * j.val = j.val; omega

/-- The partial sums over the gathered rows are the pooled array's. -/
theorem rowSum_gatherC (k : Fin 32) (e : Fin 128) (n : ℕ) :
    rowSum (gatherC m d L k) e n = poolSum (m (a0Loc d)) (m (a1Loc d)) (brow L k) e n := by
  induction n with
  | zero => rfl
  | succ n ih =>
    unfold rowSum poolSum
    by_cases h : n < 50
    · rw [dif_pos h, dif_pos h, ih]
      congr 1
      show m (a1Loc d) (ix2 (rowW (idxC m d L (ix2 k _))) _) = _
      rw [idxC_apply]
    · rw [dif_neg h, dif_neg h, ih]

/-! ### What the gather lands -/

omit [FloatOps F] [Named F] in
/-- Word `j` of the offset list of local row `k` is entry `(k, j)` of the index scratch. -/
theorem offsK_emb (k : Fin 32) (j : Fin 50) : (offsK k).view.emb (ix1 j) = (ix2 k j : S32x50.Idx) := by
  show ((iS).view.slice (Rect.unit (s := S32x50) (k0_off2 k) S1x50.size (k0_off2_inb k))).emb
      (Shape.reshapeEquiv squeezes_S1x50_S50.numel_eq (ix1 j)) = _
  rw [Shape.reshapeEquiv_eq_of_rowMajor squeezes_S1x50_S50.numel_eq (x := (ix1 j : S50.Idx)) (y := (ix2 (0 : Fin 1) j : S1x50.Idx))
    (by rw [Shape.rowMajor_val_two, Shape.rowMajor_val_one]; show 0 * 50 + j.val = j.val; omega)]
  funext a
  match a with
  | 0 =>
    refine Fin.ext ?_
    show k0_off2 k 0 + 1 * 0 = k.val
    have e0 : k0_off2 k 0 = k.val := congrFun (k0_off2_eq k) 0
    omega
  | 1 =>
    refine Fin.ext ?_
    show k0_off2 k 1 + 1 * j.val = j.val
    have e1 : k0_off2 k 1 = 0 := congrFun (k0_off2_eq k) 1
    omega

/-- The row scratch after the gather of local row `k`: the named table rows. -/
theorem gathered_eq (hidx : IdxOK m) (k : Fin 32) (hg : S100000x128.Gathers 0 S50x128)
    (hinb : ∀ a, (![0, 0] : Fin 2 → ℕ) a + S100000x128.size a ≤ S100000x128.size a)
    (hn : S50.numel = S50x128.size hg.axis')
    (hin : ∀ x, ((offsK k).view.read (Elt F) (idxC m d L) x).toNat < S100000x128.size hg.axis) :
    (rS).view.writes (Elt F) (rS).view.junk
      [⟨Rect.whole _, SparseCore.gatherPayload hg
          (View.read (Elt F) ((tV).slice (Rect.unit (s := S100000x128) ![0, 0] S100000x128.size hinb) (fun _ => rfl)).view (m (a1Loc d)))
          (SparseCore.rows (View.read (Elt F) (offsK k).view (idxC m d L)) hn hin)⟩]
      = gatherC m d L k := by
  refine (View.read_writes_whole (Val := Elt F) (rS).view (rS).view.junk _).trans ?_
  funext x
  obtain ⟨j, e, rfl⟩ : ∃ (j : Fin 50) (e : Fin 128), x = ix2 j e := ⟨x 0, x 1, eq_ix2 x⟩
  unfold SparseCore.gatherPayload gatherC
  rw [show ∀ y, View.read (Elt F) ((tV).slice (Rect.unit (s := S100000x128) ![0, 0] S100000x128.size hinb) (fun _ => rfl)).view (m (a1Loc d)) y
      = m (a1Loc d) (((tV).slice (Rect.unit (s := S100000x128) ![0, 0] S100000x128.size hinb) (fun _ => rfl)).view.emb y)
      from fun y => (View.read_apply _ _).trans (cast_eq _ _)]
  congr 1
  funext a
  match a with
  | 0 =>
    refine Fin.ext ?_
    show 0 + 1 * (hg.idx (SparseCore.rows (View.read (Elt F) (offsK k).view (idxC m d L)) hn hin) (ix2 j e) 0).val = (idxC m d L (ix2 k j)).toNat % 100000
    have h0 : (hg.idx (SparseCore.rows (View.read (Elt F) (offsK k).view (idxC m d L)) hn hin) (ix2 j e) 0).val
        = (idxC m d L (ix2 k j)).toNat := by
      have := congrArg Fin.val (Shape.Gathers.idx_axis hg (SparseCore.rows (View.read (Elt F) (offsK k).view (idxC m d L)) hn hin) (ix2 j e))
      refine this.trans ?_
      show (View.read (Elt F) (offsK k).view (idxC m d L) (S50.rowMajor.symm _)).toNat = _
      rw [show ∀ y, View.read (Elt F) (offsK k).view (idxC m d L) y = idxC m d L ((offsK k).view.emb y) from fun y => (View.read_apply _ _).trans (cast_eq _ _)]
      have hy : S50.rowMajor.symm ((((ix2 j e : S50x128.Idx) hg.axis')).cast hn.symm) = (ix1 j : S50.Idx) := by
        apply S50.rowMajor.injective
        rw [Equiv.apply_symm_apply]
        exact Fin.ext (by rw [Shape.rowMajor_val_one]; rfl)
      rw [hy, offsK_emb]
    rw [h0, Nat.mod_eq_of_lt (idxC_lt m d L hidx _)]; omega
  | 1 =>
    refine Fin.ext ?_
    show 0 + 1 * (hg.idx (SparseCore.rows (View.read (Elt F) (offsK k).view (idxC m d L)) hn hin) (ix2 j e) 1).val = e.val
    rw [Shape.Gathers.idx_of_ne hg _ _ 1 (by decide)]
    show 0 + 1 * e.val = e.val
    omega

/-! ### The eight stores of a trip -/

/-- The row a trip leaves: the full sums of the row scratch's columns. -/
def rowG (R : S50x128.Idx → F .f32) : S32x128.Idx → F .f32 := fun y => rowSum R ⟨(y 1).val, (y 1).isLt⟩ 50

omit [FloatOps F] [Named F] in
theorem piece_row (k : Fin 32) (c : Fin 8) (o : Fin 2 → ℕ) (hb : ∀ a, o a + S1x16.size a ≤ S32x128.size a) (ho : o = ![k.val, 16 * c.val]) :
    ∀ y ∈ (Rect.unit (s := S32x128) o S1x16.size hb).set, (y 0).val = k.val := by
  subst ho
  intro y hy
  have h0 := (Rect.mem_set_unit.mp hy) 0
  have e1 : (![k.val, 16 * c.val] : Fin 2 → ℕ) 0 = k.val := rfl
  have e2 : S1x16.size 0 = 1 := rfl
  rw [e1, e2] at h0
  omega

theorem piece_G (R : S50x128.Idx → F .f32) (k : Fin 32) (c : Fin 8) (o : Fin 2 → ℕ) (hb : ∀ a, o a + S1x16.size a ≤ S32x128.size a) (ho : o = ![k.val, 16 * c.val])
    (p : S1x16.Idx → F .f32) (h : S16.ShapeCasts S1x16) (hp : p = shapeCast S1x16 (chunkSum R c 50) h) :
    ∀ x : (Rect.unit (s := S32x128) o S1x16.size hb).shape.Idx, p x = rowG R ((Rect.unit (s := S32x128) o S1x16.size hb).emb x) := by
  subst ho hp
  intro x
  obtain ⟨u, i, rfl⟩ : ∃ (u : Fin 1) (i : Fin 16), x = ix2 u i := ⟨x 0, x 1, eq_ix2 x⟩
  refine (shapeCast_a_1a_apply (a := 16) (chunkSum R c 50) h u i).trans ?_
  unfold chunkSum rowG
  congr 1
  exact Fin.ext (by show 16 * c.val + i.val = 16 * c.val + 1 * i.val; omega)

omit [FloatOps F] [Named F] in
theorem piece_cov (k : Fin 32) (c : Fin 8) (o : Fin 2 → ℕ) (hb : ∀ a, o a + S1x16.size a ≤ S32x128.size a) (ho : o = ![k.val, 16 * c.val])
    (e : Fin 128) (he : 16 * c.val ≤ e.val ∧ e.val < 16 * c.val + 16) :
    (ix2 k e : S32x128.Idx) ∈ (Rect.unit (s := S32x128) o S1x16.size hb).set := by
  subst ho
  refine Rect.mem_set_unit.mpr fun a => ?_
  match a with
  | 0 => exact ⟨Nat.le_refl _, by show k.val < k.val + 1; omega⟩
  | 1 => exact ⟨he.1, by show e.val < 16 * c.val + 16; exact he.2⟩

/-- After the eight stores of trip `k`: row `k` holds the full column sums of the row scratch, every other row is as it was. -/
theorem stored8 (fa' : Buf (Elt F) ((thrL d L).loc cc0_scratch2)) (k : Fin 32) (R : S50x128.Idx → F .f32)
    (o0 : Fin 2 → ℕ) (hb0 : ∀ a, o0 a + S1x16.size a ≤ S32x128.size a) (ho0 : o0 = ![k.val, 16 * (0 : Fin 8).val])
    (o1 : Fin 2 → ℕ) (hb1 : ∀ a, o1 a + S1x16.size a ≤ S32x128.size a) (ho1 : o1 = ![k.val, 16 * (1 : Fin 8).val])
    (o2 : Fin 2 → ℕ) (hb2 : ∀ a, o2 a + S1x16.size a ≤ S32x128.size a) (ho2 : o2 = ![k.val, 16 * (2 : Fin 8).val])
    (o3 : Fin 2 → ℕ) (hb3 : ∀ a, o3 a + S1x16.size a ≤ S32x128.size a) (ho3 : o3 = ![k.val, 16 * (3 : Fin 8).val])
    (o4 : Fin 2 → ℕ) (hb4 : ∀ a, o4 a + S1x16.size a ≤ S32x128.size a) (ho4 : o4 = ![k.val, 16 * (4 : Fin 8).val])
    (o5 : Fin 2 → ℕ) (hb5 : ∀ a, o5 a + S1x16.size a ≤ S32x128.size a) (ho5 : o5 = ![k.val, 16 * (5 : Fin 8).val])
    (o6 : Fin 2 → ℕ) (hb6 : ∀ a, o6 a + S1x16.size a ≤ S32x128.size a) (ho6 : o6 = ![k.val, 16 * (6 : Fin 8).val])
    (o7 : Fin 2 → ℕ) (hb7 : ∀ a, o7 a + S1x16.size a ≤ S32x128.size a) (ho7 : o7 = ![k.val, 16 * (7 : Fin 8).val])
    (p0 : S1x16.Idx → F .f32) (h0 : S16.ShapeCasts S1x16) (hp0 : p0 = shapeCast S1x16 (chunkSum R 0 50) h0)
    (p1 : S1x16.Idx → F .f32) (h1 : S16.ShapeCasts S1x16) (hp1 : p1 = shapeCast S1x16 (chunkSum R 1 50) h1)
    (p2 : S1x16.Idx → F .f32) (h2 : S16.ShapeCasts S1x16) (hp2 : p2 = shapeCast S1x16 (chunkSum R 2 50) h2)
    (p3 : S1x16.Idx → F .f32) (h3 : S16.ShapeCasts S1x16) (hp3 : p3 = shapeCast S1x16 (chunkSum R 3 50) h3)
    (p4 : S1x16.Idx → F .f32) (h4 : S16.ShapeCasts S1x16) (hp4 : p4 = shapeCast S1x16 (chunkSum R 4 50) h4)
    (p5 : S1x16.Idx → F .f32) (h5 : S16.ShapeCasts S1x16) (hp5 : p5 = shapeCast S1x16 (chunkSum R 5 50) h5)
    (p6 : S1x16.Idx → F .f32) (h6 : S16.ShapeCasts S1x16) (hp6 : p6 = shapeCast S1x16 (chunkSum R 6 50) h6)
    (p7 : S1x16.Idx → F .f32) (h7 : S16.ShapeCasts S1x16) (hp7 : p7 = shapeCast S1x16 (chunkSum R 7 50) h7)
    (i : Fin 32) (e : Fin 128) :
    ((aS).view.writes (Elt F) fa'
      [⟨Rect.unit (s := S32x128) o7 S1x16.size hb7, p7⟩, ⟨Rect.unit (s := S32x128) o6 S1x16.size hb6, p6⟩, ⟨Rect.unit (s := S32x128) o5 S1x16.size hb5, p5⟩, ⟨Rect.unit (s := S32x128) o4 S1x16.size hb4, p4⟩, ⟨Rect.unit (s := S32x128) o3 S1x16.size hb3, p3⟩, ⟨Rect.unit (s := S32x128) o2 S1x16.size hb2, p2⟩, ⟨Rect.unit (s := S32x128) o1 S1x16.size hb1, p1⟩, ⟨Rect.unit (s := S32x128) o0 S1x16.size hb0, p0⟩]) (ix2 i e)
      = if i = k then rowSum R e 50 else fa' (ix2 i e) := by
  refine (writes_row d L fa' k (rowG R) _ ?_ ?_ ?_ i e).trans rfl
  · intro p hp
    simp only [List.mem_cons, List.not_mem_nil, or_false] at hp
    rcases hp with rfl | rfl | rfl | rfl | rfl | rfl | rfl | rfl
    · exact piece_row k 7 o7 hb7 ho7
    · exact piece_row k 6 o6 hb6 ho6
    · exact piece_row k 5 o5 hb5 ho5
    · exact piece_row k 4 o4 hb4 ho4
    · exact piece_row k 3 o3 hb3 ho3
    · exact piece_row k 2 o2 hb2 ho2
    · exact piece_row k 1 o1 hb1 ho1
    · exact piece_row k 0 o0 hb0 ho0
  · intro p hp
    simp only [List.mem_cons, List.not_mem_nil, or_false] at hp
    rcases hp with rfl | rfl | rfl | rfl | rfl | rfl | rfl | rfl
    · exact piece_G R k 7 o7 hb7 ho7 p7 h7 hp7
    · exact piece_G R k 6 o6 hb6 ho6 p6 h6 hp6
    · exact piece_G R k 5 o5 hb5 ho5 p5 h5 hp5
    · exact piece_G R k 4 o4 hb4 ho4 p4 h4 hp4
    · exact piece_G R k 3 o3 hb3 ho3 p3 h3 hp3
    · exact piece_G R k 2 o2 hb2 ho2 p2 h2 hp2
    · exact piece_G R k 1 o1 hb1 ho1 p1 h1 hp1
    · exact piece_G R k 0 o0 hb0 ho0 p0 h0 hp0
  · intro e
    have he := e.isLt
    rcases (by omega : (16 * 0 ≤ e.val ∧ e.val < 16 * 0 + 16) ∨ (16 * 1 ≤ e.val ∧ e.val < 16 * 1 + 16) ∨ (16 * 2 ≤ e.val ∧ e.val < 16 * 2 + 16) ∨ (16 * 3 ≤ e.val ∧ e.val < 16 * 3 + 16) ∨ (16 * 4 ≤ e.val ∧ e.val < 16 * 4 + 16) ∨ (16 * 5 ≤ e.val ∧ e.val < 16 * 5 + 16) ∨ (16 * 6 ≤ e.val ∧ e.val < 16 * 6 + 16) ∨ (16 * 7 ≤ e.val ∧ e.val < 16 * 7 + 16)) with hc | hc | hc | hc | hc | hc | hc | hc
    · exact ⟨⟨Rect.unit (s := S32x128) o0 S1x16.size hb0, p0⟩, by simp, piece_cov k 0 o0 hb0 ho0 e hc⟩
    · exact ⟨⟨Rect.unit (s := S32x128) o1 S1x16.size hb1, p1⟩, by simp, piece_cov k 1 o1 hb1 ho1 e hc⟩
    · exact ⟨⟨Rect.unit (s := S32x128) o2 S1x16.size hb2, p2⟩, by simp, piece_cov k 2 o2 hb2 ho2 e hc⟩
    · exact ⟨⟨Rect.unit (s := S32x128) o3 S1x16.size hb3, p3⟩, by simp, piece_cov k 3 o3 hb3 ho3 e hc⟩
    · exact ⟨⟨Rect.unit (s := S32x128) o4 S1x16.size hb4, p4⟩, by simp, piece_cov k 4 o4 hb4 ho4 e hc⟩
    · exact ⟨⟨Rect.unit (s := S32x128) o5 S1x16.size hb5, p5⟩, by simp, piece_cov k 5 o5 hb5 ho5 e hc⟩
    · exact ⟨⟨Rect.unit (s := S32x128) o6 S1x16.size hb6, p6⟩, by simp, piece_cov k 6 o6 hb6 ho6 e hc⟩
    · exact ⟨⟨Rect.unit (s := S32x128) o7 S1x16.size hb7, p7⟩, by simp, piece_cov k 7 o7 hb7 ho7 e hc⟩

/-! ### The write-out -/

/-- The task's block of the result after the write-out: the pooled array there. -/
theorem out_eq (fo : Buf (Elt F) (v3Loc d)) (fa2 : Buf (Elt F) ((thrL d L).loc cc0_scratch2))
    (hfa2 : ∀ (i : Fin 32) (e : Fin 128), fa2 (ix2 i e) = pooled m d (ix2 (brow L i) e))
    (pay : S32x128.Idx → F .f32) (hpay : pay = (aS).view.read (Elt F) fa2) :
    ∀ i ∈ (oRowK L).view.set, ((oRowK L).view.writes (Elt F) fo [⟨Rect.whole S32x128, pay⟩]) i = pooled m d i := by
  subst hpay
  intro i hi
  obtain ⟨x, -, rfl⟩ := Finset.mem_map.mp hi
  obtain ⟨r, e, rfl⟩ : ∃ (r : Fin 32) (e : Fin 128), x = ix2 r e := ⟨x 0, x 1, eq_ix2 x⟩
  have h1 := congrFun (View.read_writes_whole (Val := Elt F) (oRowK L).view fo ((aS).view.read (Elt F) fa2)) (ix2 r e)
  rw [View.read_apply] at h1
  refine ((cast_eq _ _).symm.trans h1).trans ?_
  show fa2 (ix2 r e) = _
  rw [hfa2 r e]
  congr 1
  funext a
  match a with
  | 0 =>
    refine Fin.ext ?_
    show 32 * (2 * (L 1).val + (L 0).val) + r.val = k0_off19 L 0 + 1 * r.val
    have e0 : k0_off19 L 0 = 64 * (L 1).val + 32 * (L 0).val := congrFun (k0_off19_eq L) 0
    omega
  | 1 =>
    refine Fin.ext ?_
    show e.val = k0_off19 L 1 + 1 * e.val
    have e1 : k0_off19 L 1 = 0 := congrFun (k0_off19_eq L) 1
    omega

set_option maxHeartbeats 4000000 in
/-- The task on vector subcore `(L 0, L 1)` of device `d`: the index fetch and its wait; per local row the gather of the
    named table rows and its wait, the fifty additions on eight lane chunks, the eight stores; the write-out and its wait. -/
theorem tile_body (hF : (K (F := F)).Facts) (hidx : IdxOK m) (O : CellTallies nD τ sig (HIx 1)) (W : Waits sig (HIx 1)) (hO : ∀ g, O g none = 0) :
    iprop(levAts (K (F := F)).L (K (F := F)).lev ∗ emp
        ∗ goT m d (cL L) (sL L)
        ∗ scopedBufs (thrL d L) ∗ scopedSems0 (thrL d L) ∗ owes (thrL d L) O W)
      ⊢ wp frame (wpE (defs₀ (F := F)) 𝒱₀ (thrL d L) none) Set.univ
          (cc0__sc_pool_body L qV (Memref.isWhole_whole _) tV (Memref.isWhole_whole _) oV (Memref.isWhole_whole _)
            iS (Memref.isWhole_whole _) rS (Memref.isWhole_whole _) aS (Memref.isWhole_whole _) cc0_scratch3 cc0_scoped0 cc0_scoped1)
          fun _ => iprop(tdT m d (cL L) (sL L)
            ∗ scopedBufs (thrL d L) ∗ scopedSems0 (thrL d L)
            ∗ ∃ W', ⌜∀ p ∈ W', p ∈ W ∨ p.2 = none⌝ ∗ owes (thrL d L) O W') := by
  simp only [cc0__sc_pool_body_eq_skeleton]; unfold cc0__sc_pool_body_skel
  unfold goT tdT
  rw [(K (F := F)).scopedBufs_V hF d (cV L) (jV L), SparseCore.Cfg.scopedSems0_V (Val := Elt F) d (cV L) (jV L), ownSems0_V, ownBufs_V]
  iintro ⟨#Hlv, -, ⟨Hq, Ht, ⟨%fo, Ho⟩⟩, ⟨⟨%fi, Hi⟩, ⟨%fr, Hr⟩, ⟨%fa, Ha⟩, Hbufs⟩, ⟨HsemA, HsemG, HsemB, Hsems⟩, HO⟩
  ihave Hmw := (show levAts (K (F := F)).L (K (F := F)).lev ⊢ Transfers.MayWaits (thrL d L) (default : HIx 1) O from
    (K (F := F)).mayWaits_none (thr := thrL d L) hO) $$ Hlv
  ihave Hq' := (Entails.of_eq (pts_qRowK (F := F) d L _).symm) $$ Hq
  ihave Ho' := (Entails.of_eq (pts_oRowK (F := F) d L _).symm) $$ Ho
  ihave Ht' := (Entails.of_eq (pts_tV (F := F) d L _ _).symm) $$ Ht
  ihave Hi' := (Entails.of_eq (pts_iS (F := F) d L _).symm) $$ Hi
  ihave Hr' := (Entails.of_eq (pts_rS (F := F) d L _).symm) $$ Hr
  ihave Ha' := (Entails.of_eq (pts_aS (F := F) d L _).symm) $$ Ha
  sl_exec
  have hidxW : ∀ pay, pay = idxC m d L → ((iS).view.loc (thrL d L) ↦{fullShare} View.write (Elt F) (iS).view fi pay Finset.univ : sProp 𝕄)
      = (iS).view.loc (thrL d L) ↦{fullShare} idxC m d L := by
    intro pay h; subst h; rw [View.write_whole_univ]
  ihave Hi2 := (Entails.of_eq (hidxW (tile_body.sl.dma0 m d L) rfl)) $$ Hi'
  sl_for (inv1 m d L O (insert (SemLoc.dma cc0_scoped0.sem, (default : HIx 1)) W)) $$ [Hmw Ht' Hi2 Hr' Ha' HsemG HO]
  case region =>
    intro k _
    unfold inv1
    iintro ⟨Hmw, Ht, Hi, ⟨%fr', Hr⟩, ⟨%fa', %hfa, Ha⟩, Hsem, %W', %hW', HO⟩
    have hin := hin_of m d L hidx k
    sl_exec
    have hR : (rS).view.writes (Elt F) (rS).view.junk [⟨Rect.whole _, tile_body.sl.gather0 m d L k hin⟩] = gatherC m d L k :=
      gathered_eq m d L hidx k _ _ _ hin
    ihave Hr2 := (Entails.of_eq (congrArg (fun g => ((rS).view.loc (thrL d L) ↦{fullShare} g : sProp 𝕄)) hR)) $$ Hr
    sl_for (inv2 d L (gatherC m d L k)) $$ [Hr2]
    case region =>
      intro k2 acc
      unfold inv2
      iintro ⟨Hr, %hacc⟩
      sl_exec
      sl_step
      isplitl [Hr]; · iexact Hr
      ipureintro
      subst hacc
      refine Prod.ext ?_ (Prod.ext ?_ (Prod.ext ?_ (Prod.ext ?_ (Prod.ext ?_ (Prod.ext ?_ (Prod.ext ?_ ?_))))))
      · exact chunk_step d L (gatherC m d L k) 0 k2 _ _ (k0_off3_eq k2) _
      · exact chunk_step d L (gatherC m d L k) 1 k2 _ _ (k0_off4_eq k2) _
      · exact chunk_step d L (gatherC m d L k) 2 k2 _ _ (k0_off5_eq k2) _
      · exact chunk_step d L (gatherC m d L k) 3 k2 _ _ (k0_off6_eq k2) _
      · exact chunk_step d L (gatherC m d L k) 4 k2 _ _ (k0_off7_eq k2) _
      · exact chunk_step d L (gatherC m d L k) 5 k2 _ _ (k0_off8_eq k2) _
      · exact chunk_step d L (gatherC m d L k) 6 k2 _ _ (k0_off9_eq k2) _
      · exact chunk_step d L (gatherC m d L k) 7 k2 _ _ (k0_off10_eq k2) _
    · unfold inv2
      isplitl [Hr2]; · iexact Hr2
      ipureintro
      exact accAt_zero (gatherC m d L k) _ rfl
    iintro %acc HI
    unfold inv2
    icases HI with ⟨Hr, %hacc⟩
    sl_exec
    sl_step
    isplitl [Hmw]; · iexact Hmw
    isplitl [Ht]; · iexact Ht
    isplitl [Hi]; · iexact Hi
    isplitl [Hr]; · iexists _; iexact Hr
    isplitl [Ha]
    · iexists _; isplitr
      swap; · iexact Ha
      ipureintro
      intro i e hi
      subst hacc
      refine (stored8 d L fa' k (gatherC m d L k)
        _ _ (k0_off11_eq k) _ _ (k0_off12_eq k) _ _ (k0_off13_eq k) _ _ (k0_off14_eq k) _ _ (k0_off15_eq k) _ _ (k0_off16_eq k) _ _ (k0_off17_eq k) _ _ (k0_off18_eq k)
        _ _ rfl _ _ rfl _ _ rfl _ _ rfl _ _ rfl _ _ rfl _ _ rfl _ _ rfl i e).trans ?_
      by_cases hik : i = k
      · rw [if_pos hik, hik]; exact rowSum_gatherC m d L k e 50
      · rw [if_neg hik]
        have hne : i.val ≠ k.val := fun h => hik (Fin.ext h)
        exact hfa i e (by omega)
    isplitl [Hsem]; · iexact Hsem
    iexists _; isplitr
    swap; · iexact HO
    ipureintro; intro p hp
    rcases Finset.mem_insert.mp hp with hp | hp
    · exact .inr (hp ▸ rfl)
    · exact hW' p hp
  · unfold inv1
    isplitl [Hmw]; · iexact Hmw
    isplitl [Ht']; · iexact Ht'
    isplitl [Hi2]; · iexact Hi2
    isplitl [Hr']; · iexists _; iexact Hr'
    isplitl [Ha']
    · iexists _; isplitr
      swap; · iexact Ha'
      ipureintro; intro i e h; exact absurd h (Nat.not_lt_zero _)
    isplitl [HsemG]; · iexact HsemG
    iexists _; isplitr
    swap; · iexact HO
    ipureintro; exact fun p hp => .inl hp
  iintro %_ HI
  unfold inv1
  icases HI with ⟨-, Ht, Hi, ⟨%fr2, Hr⟩, ⟨%fa2, %hfa2, Ha⟩, Hsem, %W2, %hW2, HO⟩
  sl_exec
  sl_step
  isplitl [Hq' Ht Ho']
  · isplitl [Hq']; · iapply (Entails.of_eq (pts_qRowK (F := F) d L _)); iexact Hq'
    isplitl [Ht]; · iexact Ht
    iapply (Entails.of_eq (pts_oRowK (F := F) d L _))
    ihave Ho2 := (Entails.of_eq (pointsTo_congr (ℓ := (oRowK L).view.loc (thrL d L)) (q := fullShare)
      (out_eq m d L fo fa2 (fun i e => hfa2 i e i.isLt) (tile_body.sl.dma0_1 d L fa2) rfl))) $$ Ho'
    iexact Ho2
  isplitl [Hi Hr Ha Hbufs]
  · isplitl [Hi]; · iexists _; iexact Hi
    isplitl [Hr]; · iexists _; iexact Hr
    isplitl [Ha]; · iexists _; iexact Ha
    iexact Hbufs
  isplitl [HsemA Hsem HsemB Hsems]
  · isplitl [HsemA]; · iexact HsemA
    isplitl [Hsem]; · iexact Hsem
    isplitl [HsemB]; · iexact HsemB
    iexact Hsems
  iexists _; isplitr
  swap; · iexact HO
  ipureintro; intro p hp
  rcases Finset.mem_insert.mp hp with hp | hp
  · exact .inr (hp ▸ rfl)
  rcases hW2 p hp with h | h
  · rcases Finset.mem_insert.mp h with h | h
    · exact .inr (h ▸ rfl)
    · exact .inl h
  · exact .inr h

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_pool_body (coordsV c s)
          qV (Memref.isWhole_whole _) tV (Memref.isWhole_whole _) oV (Memref.isWhole_whole _)
          iS (Memref.isWhole_whole _) rS (Memref.isWhole_whole _) aS (Memref.isWhole_whole _) cc0_scratch3 cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hidx : IdxOK m) : (K (F := F)).TileObl (D (F := F)) 𝒱 (P m) v₀ 0 := by
  intro d c i O W hO _ _
  simp only [P_ox, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) facts hidx O W hO).trans (wp_mono frame _ _ fun _ => obl_post)

end Tile

end Cert.KernelIdeal.ScTile

end
-- ==== Proof.LaunchElemI.lean ====
/-
  The launch element of the ghost state and what the launch deals from it.

  The resource algebra is a product: the handshakes' rounds, the staging cells' rounds, the counters.
  Owning the launch element (the rounds library's initial elements in the first two factors, the unit
  in the third) is owning each factor's element through that factor's embedding. The handshakes'
  element is handed on as it is; from the staging cells' element the rounds library deals, per device
  and pipeline, the cells' launch state and the duty tokens of the transfers the loops issue, which
  regrouped per device is the pipelines' rounds ghost state there; the counters' unit is dropped; the
  per-thread extras are empty.
-/
import proofs.«207593_g36137854828637_cont_8to1_b_1462_19_alg».proof.Proof.CommonI
import proofs.«207593_g36137854828637_cont_8to1_b_1462_19_alg».proof.Proof.ScTileI

noncomputable section

namespace Cert.KernelIdeal.LaunchElem

open Cert.KernelIdeal Cert.KernelIdeal.Gen Cert.KernelIdeal.Common Cert.KernelIdeal.ScTile
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ)

/-- No pipeline has a prefetched table. -/
abbrev adm : (p : Fin 3) → (pcfgs (F := F) p).Adm := fun p => (cfgs p).toPCfg_adm

/-- The launch element: the handshakes' rounds, the staging cells' rounds, no counter. -/
def u₀ : UU := (initOf (K (F := F)).hsCells (K (F := F)).hsToks, (initOf (Pipeline.cells cfgs cellOf_inj) (Pipeline.launchToks cfgs cellOf_inj), 1))

/-- What @main's proof starts from beside the launch's deal: the pipelines' rounds ghost state on the device. -/
def G (d : Dev nD) : sProp (MM F) := Pipeline.ghostOn (pcfgs (F := F)) adm EP Finset.univ d

/-- Owning a triple of the product algebra is owning its first two components, each through its embedding. -/
theorem ownU_split (a : UH) (b : UP) (c : Counters) :
    (ownU ((a, (b, c)) : UU) : sProp (MM F)) ⊢ iprop(BI.own (EH a) ∗ BI.own (EP b)) := by
  iintro Hu
  ihave H := (ownU_pair (nD := nD) (τ := τ) (sig := sig) (Ix := HIx 1) (Val := Elt F) (Name := ℕ) (Lvl := ℕ) a ((b, c) : UP × Counters)) $$ Hu
  icases H with ⟨HH, HR⟩
  ihave H2 := (own_pair_emb (embR (nD := nD) (τ := τ) (sig := sig) (Ix := HIx 1) (Val := Elt F) (Name := ℕ) (Lvl := ℕ) (A := UH) (B := UP × Counters)) b c) $$ HR
  icases H2 with ⟨HP, -⟩
  isplitl [HH]
  · iexact HH
  · iexact HP

theorem bigSep_emp' {I : Type} (s : Finset I) : (bigSep s fun _ => iprop(emp)) = (iprop(emp) : sProp (MM F)) := BI.bigSep_emp_const s

/-- The per-thread extras are empty. -/
theorem Px_emp : (bigSep Finset.univ fun thr : Thread nD τ => bigSep Finset.univ fun q : Fin 1 => (P (F := F) m).x q thr)
    = (iprop(emp) : sProp (MM F)) := by
  simp only [P_x]
  rw [bigSep_emp', bigSep_emp']

/-- The cells' launch state and the duty tokens, dealt per device and pipeline, regrouped per device. -/
theorem ghost_deal :
    iprop((bigSep Finset.univ fun c : Dev nD => bigSep Finset.univ fun p => Pipeline.cellsGhost (nD := nD) (τ := τ) cfgs (EP (F := F)) p c)
        ∗ (bigSep Finset.univ fun c : Dev nD => bigSep Finset.univ fun p => (Pipeline.toksInit (nD := nD) (τ := τ) cfgs (EP (F := F)) p c : sProp (MM F))))
      ⊢ bigSep Finset.univ fun d : Dev nD => G (F := F) d := by
  rw [← bigSep_sep']
  exact bigSep_mono fun c _ => show iprop((bigSep Finset.univ fun p => Pipeline.cellsGhost (nD := nD) (τ := τ) cfgs (EP (F := F)) p c)
        ∗ bigSep Finset.univ fun p => (Pipeline.toksInit (nD := nD) (τ := τ) cfgs (EP (F := F)) p c : sProp (MM F))) ⊢ G (F := F) c
    from Entails.of_eq (by unfold G Pipeline.ghostOn Pipeline.PerCore.ghostOn; rw [bigSep_sep'])

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost cfgs EP cellOf_inj) $$ HP with ⟨Hg, Ht⟩
  imodintro
  isplitl [HH]; · iexact HH
  isplitl [Hg Ht]
  · iapply ghost_deal
    isplitl [Hg]
    · iexact Hg
    · iexact Ht
  · rw [Px_emp]; iempintro

end Cert.KernelIdeal.LaunchElem

end
-- ==== Proof.Region1I.lean ====
/-
  The first TensorCore pipeline of the program, the dense layer  h = relu (x · W1 + b1)ᵀ  rounded to bf16:
  its proof data, its body obligation, and the arrays it leaves — all stated at a parameter `V`, the
  TensorCore's buffer contents when the pipeline is entered.

  The pipeline has no grid (one point). Its four windows are whole arrays: the pooled embeddings
  x : f32[1024,128], the weights W1 : f32[128,512], the bias row b1 : f32[1,512] are fetched whole, and the
  result h : bf16[512,1024] is written back whole. The body loads the three inputs, forms
  relu (x · W1 + b1) : f32[1024,512], transposes, rounds to bf16, and stores the whole block once. So the
  result array ends at ONE function of the three input arrays as the pipeline found them, and the input
  arrays end as they were found.
-/
import proofs.«207593_g36137854828637_cont_8to1_b_1462_19_alg».proof.Proof.CommonI
import proofs.«207593_g36137854828637_cont_8to1_b_1462_19_alg».proof.Proof.Gen.KernelIdeal.Skeleton
import proofs.«207593_g36137854828637_cont_8to1_b_1462_19_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

namespace Cert.KernelIdeal.Reg1

open Cert.KernelIdeal Cert.KernelIdeal.Gen Cert.KernelIdeal.Common

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

-- the TensorCore's buffer contents when the pipeline is entered
variable (V : (c : Dev nD) → (b : Ref sig .tc) → Buf (Elt F) ((c : Thread nD τ).loc b))
-- a bound on the (own cell, index) pairs the core's waits have recorded, constant over the pipeline: the body waits on nothing
variable (Rc : Set (SemLoc sig × HIx 1))

/-! ## The invariant -/

/-- The pipeline's invariant on core `c`: the core's scoped buffers that are no staging buffer of this pipeline, at
    some contents each, and its generator register at some state — what the body neither reads nor writes. -/
def Φ1 (c : Dev nD) : sProp (MM F) :=
  iprop(Pipeline.scopedRest (Ix := HIx 1) (Name := ℕ) (U := UU) (Lvl := ℕ) (Val := Elt F) spec1 c ∗ ∃ r, prngReg c r)

/-! ## The windows' blocks -/

/-- Window `w`'s block at the point, read off its array as the pipeline finds it: for these whole-array
    windows, the array itself read through its own view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the result window's buffer -/

/-- The whole-block rectangles the body loads and stores through. -/
abbrev rX : Rect S1024x128 := Rect.unit (s := S1024x128) ![0, 0] S1024x128.size inb_S1024x128_S1024x128_0_0
abbrev rW : Rect S128x512 := Rect.unit (s := S128x512) ![0, 0] S128x512.size inb_S128x512_S128x512_0_0
abbrev rB : Rect S1x512 := Rect.unit (s := S1x512) ![0, 0] S1x512.size inb_S1x512_S1x512_0_0
abbrev rH : Rect S512x1024 := Rect.unit (s := S512x1024) ![0, 0] S512x1024.size inb_S512x1024_S512x1024_0_0

theorem zero2 : (![0, 0] : Fin 2 → Nat) = fun _ => 0 := by
  funext a; match a with | ⟨0, _⟩ => rfl | ⟨1, _⟩ => rfl

/-- The result window's staging buffer after the body, from the three input blocks: the body's one store covers
    the block, so it is the stored value, relu (x · W1 + b1) transposed and rounded. -/
def out1_3 (x : Vec F S1024x128 .f32) (w1 : Vec F S128x512 .f32) (b1 : Vec F S1x512 .f32) : Vec F S512x1024 .bf16 :=
  k1_pay1 x w1 b1

/-- One store through the whole-block rectangle, of the value computed from whole-block loads, leaves `out1_3`. -/
theorem canon_out1_3 (x : Vec F S1024x128 .f32) (w1 : Vec F S128x512 .f32) (b1 : Vec F S1x512 .f32) :
    View.canon [(⟨rH, k1_pay1 (View.ld x rX) (View.ld w1 rW) (View.ld b1 rB)⟩ : View.Piece (Elt F) S512x1024 .bf16)] = out1_3 x w1 b1 := by
  rw [View.canon_unit_zero zero2, View.ld_unit_zero zero2, View.ld_unit_zero zero2, View.ld_unit_zero zero2]; rfl

/-! ## The body's triple -/

set_option maxHeartbeats 1000000 in
/-- The body on whole staging memrefs — the inputs' reading `x`, `w1`, `b1`, the result's holding anything — runs to
    the continuation with the inputs' as they were and the result's reading `out1_3 x w1 b1`. -/
theorem sound_kernel1 (c : Dev nD) (E : Set ℕ)
    (arg0 : Memref sig .tc .vmem S1024x128 .f32) (harg0 : arg0.IsWhole) (arg1 : Memref sig .tc .vmem S128x512 .f32) (harg1 : arg1.IsWhole)
    (arg2 : Memref sig .tc .vmem S1x512 .f32) (harg2 : arg2.IsWhole) (arg3 : Memref sig .tc .vmem S512x1024 .bf16) (harg3 : arg3.IsWhole)
    (x : Vec F S1024x128 .f32) (w1 : Vec F S128x512 .f32) (b1 : Vec F S1x512 .f32) (K : PUnit → sProp (MM F)) :
    iprop(owns (c : Thread nD τ) arg0 fullShare x ∗ owns (c : Thread nD τ) arg1 fullShare w1 ∗ owns (c : Thread nD τ) arg2 fullShare b1
        ∗ (∃ d, owns (c : Thread nD τ) arg3 fullShare d)
        ∗ (iprop(owns (c : Thread nD τ) arg0 fullShare x ∗ owns (c : Thread nD τ) arg1 fullShare w1 ∗ owns (c : Thread nD τ) arg2 fullShare b1
            ∗ owns (c : Thread nD τ) arg3 fullShare (out1_3 x w1 b1)) -∗ K ⟨⟩))
      ⊢ wp frame (wpE (defs₀ (F := F)) Variants.none c none) E (cc1__h_body arg0 harg0 arg1 harg1 arg2 harg2 arg3 harg3) K := by
  simp only [cc1__h_body_eq_skeleton]; unfold cc1__h_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero zero2 inb_S512x1024_S512x1024_0_0 y⟩)]
  exact canon_out1_3 _ _ _

/-! ## The pipeline's proof data -/

/-- The proof data of the pipeline on core `c`: the arrays as the pipeline finds them; after the body each input's
    buffer at its block and the result's at `out1_3` of the three input blocks; the invariant: the core's other
    scoped buffers at some contents each and its generator register at some state, which the body does not touch;
    nothing owed; full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Φ1 c
  q _ := fullShare
  owed _ := 0
  recorded _ := Rc

/-- The proof data's arrays are the entry contents. -/
theorem A_eq1 (c : Dev nD) (w : Fin cfg1.W) : (dat1 V Rc c).A w = V c (Pipeline.arrRef spec1 w) := by
  dsimp only [dat1]

/-- What the body leaves, window by window. -/
theorem after1_0 (c : Dev nD) (t : Fin cfg1.N) : (dat1 V Rc c).after 0 t = iblk1 V c 0 t := by dsimp only [dat1]
theorem after1_1 (c : Dev nD) (t : Fin cfg1.N) : (dat1 V Rc c).after 1 t = iblk1 V c 1 t := by dsimp only [dat1]
theorem after1_2 (c : Dev nD) (t : Fin cfg1.N) : (dat1 V Rc c).after 2 t = iblk1 V c 2 t := by dsimp only [dat1]
theorem after1_3 (c : Dev nD) (t : Fin cfg1.N) :
    (dat1 V Rc c).after 3 t = out1_3 (iblk1 V c 0 t) (iblk1 V c 1 t) (iblk1 V c 2 t) := by dsimp only [dat1]

/-- The invariant at the two ends, and that nothing is owed. -/
theorem Φ1_first (c : Dev nD) : (dat1 V Rc c).Φ 0 = Φ1 c := rfl
theorem Φ1_last (c : Dev nD) : (dat1 V Rc c).Φ (Fin.last _) = Φ1 c := rfl
theorem Φ1_at (c : Dev nD) (t : Fin (cfg1.N + 1)) : (dat1 V Rc c).Φ t = Φ1 c := rfl
theorem recorded1 (c : Dev nD) (t : Fin (cfg1.N + 1)) : (dat1 V Rc c).recorded t = Rc := rfl
theorem owed1 (c : Dev nD) (t : Fin (cfg1.N + 1)) : (dat1 V Rc c).owed t = 0 := rfl
theorem share1 (c : Dev nD) (w : Fin cfg1.W) : (dat1 V Rc c).share w = fullShare := by
  unfold Dat.share; dsimp only [dat1]; split <;> rfl

/-- Each input window is fetched at the point, so its staging buffer holds its block when the body runs. -/
theorem before1_0 (c : Dev nD) (t : Fin cfg1.N) (d) : (dat1 V Rc c).before 0 t d = iblk1 V c 0 t := by
  rw [(dat1 V Rc c).before_fetched 0 t (fetch1_0 t) d]; unfold Dat.fetched Dat.blockOf iblk1; rw [A_eq1]; rfl
theorem before1_1 (c : Dev nD) (t : Fin cfg1.N) (d) : (dat1 V Rc c).before 1 t d = iblk1 V c 1 t := by
  rw [(dat1 V Rc c).before_fetched 1 t (fetch1_1 t) d]; unfold Dat.fetched Dat.blockOf iblk1; rw [A_eq1]; rfl
theorem before1_2 (c : Dev nD) (t : Fin cfg1.N) (d) : (dat1 V Rc c).before 2 t d = iblk1 V c 2 t := by
  rw [(dat1 V Rc c).before_fetched 2 t (fetch1_2 t) d]; unfold Dat.fetched Dat.blockOf iblk1; rw [A_eq1]; rfl

/-! ## The body obligation -/

/-- What the body is called with at the point, the windows one by one, -/
def bodyPre1 (c : Dev nD) (t : Fin cfg1.N) : sProp (MM F) :=
  iprop((dat1 V Rc c).Φ t.castSucc ∗ (dat1 V Rc c).owesAt none t.castSucc
    ∗ (∃ d, owns (c : Thread nD τ) (st1_0 t) fullShare ((dat1 V Rc c).before 0 t d))
    ∗ (∃ d, owns (c : Thread nD τ) (st1_1 t) fullShare ((dat1 V Rc c).before 1 t d))
    ∗ (∃ d, owns (c : Thread nD τ) (st1_2 t) fullShare ((dat1 V Rc c).before 2 t d))
    ∗ (∃ d, owns (c : Thread nD τ) (st1_3 t) fullShare ((dat1 V Rc c).before 3 t d)))

/-- and what it returns. -/
def bodyPost1 (c : Dev nD) (t : Fin cfg1.N) : sProp (MM F) :=
  iprop((dat1 V Rc c).Φ t.succ ∗ (dat1 V Rc c).owesAt none t.succ
    ∗ owns (c : Thread nD τ) (st1_0 t) fullShare ((dat1 V Rc c).after 0 t)
    ∗ owns (c : Thread nD τ) (st1_1 t) fullShare ((dat1 V Rc c).after 1 t)
    ∗ owns (c : Thread nD τ) (st1_2 t) fullShare ((dat1 V Rc c).after 2 t)
    ∗ owns (c : Thread nD τ) (st1_3 t) fullShare ((dat1 V Rc c).after 3 t))

/-- The body at the point: the inputs' buffers hold their blocks, so the body's triple applies; the invariant and what
    the core owes pass through unread. -/
theorem sound_body1 (c : Dev nD) (t : Fin cfg1.N) :
    bodyPre1 V Rc c t ⊢ wp frame (wpE (defs₀ (F := F)) Variants.none c none) Set.univ (bodyAt1 t) (fun _ => bodyPost1 V Rc c t) := by
  unfold bodyPre1 bodyPost1 bodyAt1
  simp only [before1_0, before1_1, before1_2]
  rw [show (dat1 V Rc c).Φ t.succ = (dat1 V Rc c).Φ t.castSucc from rfl,
    show (dat1 V Rc c).owesAt none t.succ = (dat1 V Rc c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the pipeline's one point. -/
theorem body_obligation1 (c : Dev nD) : BodyObligation (dat1 (F := F) V Rc c) (defs₀ (F := F)) Variants.none (none : HIx 1) Set.univ := fun t => by
  rw [bigSep_W1, bigSep_W1]
  exact sound_body1 V Rc c t

/-! ## The arrays the pipeline leaves -/

/-- A whole-array window's block is its array: contents read through the block's view are themselves. -/
theorem read_blk1_0 (t : Fin cfg1.N) (f : S1024x128.Idx → Elt F .f32) : ((cfg1.win 0).blk t).view.read (Elt F) f = f := by
  funext y
  show f (((cfg1.win 0).blk t).view.emb y) = f y
  congr 1; funext a; apply Fin.ext
  match a with
  | ⟨0, _⟩ => show 0 * 1024 + 1 * (y 0).val = (y 0).val; omega
  | ⟨1, _⟩ => show 0 * 128 + 1 * (y 1).val = (y 1).val; omega
theorem read_blk1_1 (t : Fin cfg1.N) (f : S128x512.Idx → Elt F .f32) : ((cfg1.win 1).blk t).view.read (Elt F) f = f := by
  funext y
  show f (((cfg1.win 1).blk t).view.emb y) = f y
  congr 1; funext a; apply Fin.ext
  match a with
  | ⟨0, _⟩ => show 0 * 128 + 1 * (y 0).val = (y 0).val; omega
  | ⟨1, _⟩ => show 0 * 512 + 1 * (y 1).val = (y 1).val; omega
theorem read_blk1_2 (t : Fin cfg1.N) (f : S1x512.Idx → Elt F .f32) : ((cfg1.win 2).blk t).view.read (Elt F) f = f := by
  funext y
  show f (((cfg1.win 2).blk t).view.emb y) = f y
  congr 1; funext a; apply Fin.ext
  match a with
  | ⟨0, _⟩ => show 0 * 1 + 1 * (y 0).val = (y 0).val; omega
  | ⟨1, _⟩ => show 0 * 512 + 1 * (y 1).val = (y 1).val; omega
theorem read_blk1_3 (t : Fin cfg1.N) (f : S512x1024.Idx → Elt F .bf16) : ((cfg1.win 3).blk t).view.read (Elt F) f = f := by
  funext y
  show f (((cfg1.win 3).blk t).view.emb y) = f y
  congr 1; funext a; apply Fin.ext
  match a with
  | ⟨0, _⟩ => show 0 * 512 + 1 * (y 0).val = (y 0).val; omega
  | ⟨1, _⟩ => show 0 * 1024 + 1 * (y 1).val = (y 1).val; omega

/-- So each input block is the input array as the pipeline finds it. -/
theorem iblk1_0 (c : Dev nD) (t : Fin cfg1.N) : iblk1 V c 0 t = V c main_v3 := read_blk1_0 t _
theorem iblk1_1 (c : Dev nD) (t : Fin cfg1.N) : iblk1 V c 1 t = V c main_arg2 := read_blk1_1 t _
theorem iblk1_2 (c : Dev nD) (t : Fin cfg1.N) : iblk1 V c 2 t = V c main_v0 := read_blk1_2 t _

/-- The three input arrays as the pipeline finds them, as functions of the index: x, W1 and the bias row. -/
abbrev inX (c : Dev nD) : Vec F S1024x128 .f32 := V c main_v3
abbrev inW (c : Dev nD) : Vec F S128x512 .f32 := V c main_arg2
abbrev inB (c : Dev nD) : Vec F S1x512 .f32 := V c main_v0

/-- The result array the pipeline leaves: relu (x · W1 + b1) transposed and rounded, of the three input arrays as the
    pipeline finds them. -/
def H1 (c : Dev nD) : S512x1024.Idx → Elt F .bf16 :=
  out1_3 (F := F) (inX V c) (inW V c) (inB V c)

/-- What the point writes back is the (one, whole) block of `H1`. -/
theorem flushed1_3 (c : Dev nD) (t : Fin cfg1.N) :
    (dat1 V Rc c).flushed 3 t = ((cfg1.win 3).blk t).view.read (Elt F) (H1 V c) := by
  show (dat1 V Rc c).after 3 t = _
  rw [after1_3, read_blk1_3, iblk1_0, iblk1_1, iblk1_2]; rfl

/-- The one point's block of the result window is the whole array. -/
theorem cover1_3 (c : Dev nD) (i : ((cfg1.win 3).arr.view.loc (c.tc : Thread nD τ)).2.ty.Idx) :
    ∃ t : Fin cfg1.N, (cfg1.win 3).flush t = true ∧ i ∈ ((cfg1.win 3).blk t).view.set := by
  refine ⟨t1_0, flush1_3 _, ?_⟩
  show i ∈ ((View.whole main_v4).slice (win1_3.rect t1_0)).set
  rw [View.set_slice_whole, Rect.mem_set_unit]
  intro a
  match a with
  | ⟨0, _⟩ => show 0 * 512 ≤ (i 0).val ∧ (i 0).val < 0 * 512 + 512; have h : (i 0).val < 512 := (i 0).isLt; omega
  | ⟨1, _⟩ => show 0 * 1024 ≤ (i 1).val ∧ (i 1).val < 0 * 1024 + 1024; have h : (i 1).val < 1024 := (i 1).isLt; omega

/-- THE RESULT ARRAY after the pipeline is `H1` of the input arrays as found; -/
theorem final1_3 (c : Dev nD) : (dat1 V Rc c).arrAt 3 cfg1.N = H1 V c :=
  (dat1 V Rc c).arrAt_eq_of_cover 3 (H1 V c) (fun t _ => flushed1_3 V Rc c t) (cover1_3 c)

/-- and each input array ends as it was found. -/
theorem final1_0 (c : Dev nD) : (dat1 V Rc c).arrAt 0 cfg1.N = V c main_v3 :=
  ((dat1 V Rc c).arrAt_in 0 rfl _).trans (A_eq1 V Rc c 0)
theorem final1_1 (c : Dev nD) : (dat1 V Rc c).arrAt 1 cfg1.N = V c main_arg2 :=
  ((dat1 V Rc c).arrAt_in 1 rfl _).trans (A_eq1 V Rc c 1)
theorem final1_2 (c : Dev nD) : (dat1 V Rc c).arrAt 2 cfg1.N = V c main_v0 :=
  ((dat1 V Rc c).arrAt_in 2 rfl _).trans (A_eq1 V Rc c 2)

/-- All four at once, by the window's array. -/
theorem final1 (c : Dev nD) (w : Fin cfg1.W) :
    (dat1 V Rc c).arrAt w cfg1.N = match w with
      | ⟨0, _⟩ => V c main_v3
      | ⟨1, _⟩ => V c main_arg2
      | ⟨2, _⟩ => V c main_v0
      | ⟨3, _⟩ => H1 V c :=
  match w with
  | ⟨0, _⟩ => final1_0 V Rc c
  | ⟨1, _⟩ => final1_1 V Rc c
  | ⟨2, _⟩ => final1_2 V Rc c
  | ⟨3, _⟩ => final1_3 V Rc c

/-! ## At Ideal -/

section AtIdeal

open Idealize.ShloMosaic.ValueIdx
open scoped BigOperators

/-- The matrix product's operand indices, axis by axis: the left operand is read at (row of the result, contraction
    position), -/
theorem lhs_dot_S1024x128_S128x512_S1024x512_1_0_0_1_n_n_0 (j : S1024x512.Idx) (q : dot_S1024x128_S128x512_S1024x512_1_0_0_1_n_n.contr.Idx) :
    (dot_S1024x128_S128x512_S1024x512_1_0_0_1_n_n.lhsIdx j q 0).val = (j 0).val := by
  unfold DotDims.lhsIdx
  rw [dif_neg (show ¬(0 : Fin S1024x128.rank) ∈ dot_S1024x128_S128x512_S1024x512_1_0_0_1_n_n.lhsBatch by decide),
    dif_pos (show (0 : Fin S1024x128.rank) ∈ dot_S1024x128_S128x512_S1024x512_1_0_0_1_n_n.lhsNonContracting by decide)]
  rfl
theorem lhs_dot_S1024x128_S128x512_S1024x512_1_0_0_1_n_n_1 (j : S1024x512.Idx) (q : dot_S1024x128_S128x512_S1024x512_1_0_0_1_n_n.contr.Idx) :
    (dot_S1024x128_S128x512_S1024x512_1_0_0_1_n_n.lhsIdx j q 1).val = (q ⟨0, by decide⟩).val :=
  dot_S1024x128_S128x512_S1024x512_1_0_0_1_n_n.lhsIdx_val_of_single rfl j q
/-- the right operand at (contraction position, column of the result). -/
theorem rhs_dot_S1024x128_S128x512_S1024x512_1_0_0_1_n_n_0 (j : S1024x512.Idx) (q : dot_S1024x128_S128x512_S1024x512_1_0_0_1_n_n.contr.Idx) :
    (dot_S1024x128_S128x512_S1024x512_1_0_0_1_n_n.rhsIdx j q 0).val = (q ⟨0, by decide⟩).val :=
  dot_S1024x128_S128x512_S1024x512_1_0_0_1_n_n.rhsIdx_val_of_single rfl j q
theorem rhs_dot_S1024x128_S128x512_S1024x512_1_0_0_1_n_n_1 (j : S1024x512.Idx) (q : dot_S1024x128_S128x512_S1024x512_1_0_0_1_n_n.contr.Idx) :
    (dot_S1024x128_S128x512_S1024x512_1_0_0_1_n_n.rhsIdx j q 1).val = (j 1).val := by
  unfold DotDims.rhsIdx
  rw [dif_neg (show ¬(1 : Fin S128x512.rank) ∈ dot_S1024x128_S128x512_S1024x512_1_0_0_1_n_n.rhsBatch by decide),
    dif_pos (show (1 : Fin S128x512.rank) ∈ dot_S1024x128_S128x512_S1024x512_1_0_0_1_n_n.rhsNonContracting by decide)]
  rfl

/-- The product x · W1 into a zero accumulator, at (row b, column k): the sum over the 128 contraction positions. -/
theorem matmul_apply1 (x : FVec Ideal S1024x128 .f32) (w1 : FVec Ideal S128x512 .f32) (b : Fin 1024) (k : Fin 512) :
    matmul (F := Ideal) dot_S1024x128_S128x512_S1024x512_1_0_0_1_n_n none x w1 (constant (F := Ideal) S1024x512 .f32 0x00000000#32) (ix2 b k)
      = ∑ e : Fin 128, x (ix2 b e) * w1 (ix2 e k) := by
  refine (Ideal.matmul_constant_zero_apply dot_S1024x128_S128x512_S1024x512_1_0_0_1_n_n none x w1 (ix2 b k)).trans ?_
  rw [← Equiv.sum_comp (contrEquiv1 dot_S1024x128_S128x512_S1024x512_1_0_0_1_n_n 128 rfl rfl).symm]
  refine Finset.sum_congr rfl fun e _ => ?_
  have hq := contrEquiv1_symm_val dot_S1024x128_S128x512_S1024x512_1_0_0_1_n_n 128 rfl rfl e
  congr 2
  · funext a; apply Fin.ext
    match a with
    | ⟨0, _⟩ => exact lhs_dot_S1024x128_S128x512_S1024x512_1_0_0_1_n_n_0 _ _
    | ⟨1, _⟩ => exact (lhs_dot_S1024x128_S128x512_S1024x512_1_0_0_1_n_n_1 _ _).trans hq
  · funext a; apply Fin.ext
    match a with
    | ⟨0, _⟩ => exact (rhs_dot_S1024x128_S128x512_S1024x512_1_0_0_1_n_n_0 _ _).trans hq
    | ⟨1, _⟩ => exact rhs_dot_S1024x128_S128x512_S1024x512_1_0_0_1_n_n_1 _ _

/-- What the body stores, at (column k, row b) of the transposed block: relu of the product's entry plus the bias
    (rounding to bf16 is the identity on the extended reals). -/
theorem out1_3_apply (x : Vec Ideal S1024x128 .f32) (w1 : Vec Ideal S128x512 .f32) (b1 : Vec Ideal S1x512 .f32) (k : Fin 512) (b : Fin 1024) :
    out1_3 (F := Ideal) x w1 b1 (ix2 k b) = max (∑ e : Fin 128, x (ix2 b e) * w1 (ix2 e k) + b1 (ix2 0 k)) 0 := by
  unfold out1_3 k1_pay1
  simp only []
  rw [truncf_apply,
    transpose_apply [1, 0] _ transposes_S1024x512_p1_0_S512x1024 (ix2 k b) (ix2 b k)
      (fun a => by match a with | ⟨0, _⟩ => rfl | ⟨1, _⟩ => rfl),
    maximumf_apply, addf_apply, broadcast_apply, shapeCast_self, shapeCast_self,
    broadcastTo_apply b1 broadcasts_S1x512_S1024x512 (ix2 b k) (ix2 0 k)
      (fun a => by match a with | ⟨0, _⟩ => rfl | ⟨1, _⟩ => rfl),
    matmul_apply1, show (FloatOps.ofBits FTy.f32 0x00000000#32 : Ideal .f32) = 0 from Ideal.ofBits_zero_f32]

/-- THE RESULT ARRAY at an index: entry (k, b) is relu (∑ e, x[b,e] · W1[e,k] + b1[0,k]) of the input arrays as the
    pipeline finds them. -/
theorem final1_apply (Vi : (c : Dev nD) → (b : Ref sig .tc) → Buf (Elt Ideal) ((c : Thread nD τ).loc b)) (c : Dev nD)
    (k : Fin 512) (b : Fin 1024) :
    H1 (F := Ideal) Vi c (ix2 k b)
      = max (∑ e : Fin 128, inX Vi c (ix2 b e) * inW Vi c (ix2 e k) + inB Vi c (ix2 0 k)) 0 :=
  out1_3_apply _ _ _ k b

end AtIdeal

end Cert.KernelIdeal.Reg1

end
-- ==== Proof.Region2I_Defs.lean ====
/-
  The second TensorCore call of the program: a running log-sum-exp over 25 row blocks of the vocabulary — the
  values.

  At grid point t the body reads the whole activation block ht (bf16[512,1024]), rows 4096·t … 4096·t+4095 of
  W2ᵀ (f32[100000,512]) and of b2 (f32[100000,1]); the last block overhangs the arrays (25·4096 > 100000), so the
  rows past the end hold whatever the fetch left there.  The body masks them: a row r of the block is valid iff
  4096·t + r < 100000; an invalid row of W2ᵀ is replaced by 0 and of b2 by the named constant neg_big.  With
  sc = (masked W2ᵀ-block) · ht + broadcast (masked b2-block) it stores the scores block truncf sc, and updates the
  carried pair (m, s) — reset to (neg_big, 0) at the first point — by
      m' = max m (column maxima of sc),   s' = s · exp (m − m') + column sums of exp (sc − m');
  at the last point it stores lz = m' + log s'.

  This module names those values: what one run of the body computes from what its buffers hold, the blocks the
  windows hold at each point, and the carried pair as a fold over the points.
-/
import proofs.«207593_g36137854828637_cont_8to1_b_1462_19_alg».proof.Proof.CommonI
import proofs.«207593_g36137854828637_cont_8to1_b_1462_19_alg».proof.Proof.Gen.KernelIdeal.Skeleton
import proofs.«207593_g36137854828637_cont_8to1_b_1462_19_alg».proof.Proof.Gen.KernelIdeal.Points

set_option maxRecDepth 16384

noncomputable section

namespace Cert.KernelIdeal.Reg2

open Cert.KernelIdeal Cert.KernelIdeal.Gen Cert.KernelIdeal.Common
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-! ## The body's two branch conditions -/

/-- The body resets the carried pair: the grid coordinate is 0 (the scalar chain of the first `scf.if`). -/
abbrev IsFirst (i : grid2.Coords) : Prop :=
  Scalar.cmpi .ne (Scalar.extui (Scalar.cmpi .eq (BitVec.ofNat 32 (i 0).val) 0#32)) 0#32 = 1#1
/-- The body stores lz: the grid coordinate is 24. -/
abbrev IsLast (i : grid2.Coords) : Prop := k2_cond2 i = 1#1

/-- The two conditions over the grid: the first point, the last point. -/
theorem isFirst_iff : ∀ t : Fin cfg2.N, IsFirst (grid2.coords t) ↔ t.val = 0 :=
  (by decide +kernel : ∀ t : Fin grid2.N, IsFirst (grid2.coords t) ↔ t.val = 0)
theorem isLast_iff : ∀ t : Fin cfg2.N, IsLast (grid2.coords t) ↔ t.val = 24 :=
  (by decide +kernel : ∀ t : Fin grid2.N, IsLast (grid2.coords t) ↔ t.val = 24)

/-! ## What one run of the body computes -/

/-- The running maximum the body reads: neg_big in every column at the first point, else what the scratch holds. -/
def mIn (i : grid2.Coords) (a0 : Vec F S1x1024 .f32) : Vec F S1x1024 .f32 := if IsFirst i then k2_pay4 (F := F) else a0
/-- The running sum the body reads: 0 at the first point, else what the scratch holds. -/
def sIn (i : grid2.Coords) (a1 : Vec F S1x1024 .f32) : Vec F S1x1024 .f32 := if IsFirst i then k2_pay5 (F := F) else a1
/-- The new running maximum: the old one against the column maxima of the point's scores. -/
def mOut (i : grid2.Coords) (x0 : Vec F S512x1024 .bf16) (x1 : Vec F S4096x512 .f32) (x2 : Vec F S4096x1 .f32)
    (a0 : Vec F S1x1024 .f32) : Vec F S1x1024 .f32 :=
  k2_pay2 (k2_pay8 i x1 x2 x0 (mIn i a0))
/-- The new running sum: the old one rescaled to the new maximum, plus the column sums of exp (scores − new maximum). -/
def sOut (i : grid2.Coords) (x0 : Vec F S512x1024 .bf16) (x1 : Vec F S4096x512 .f32) (x2 : Vec F S4096x1 .f32)
    (a0 a1 : Vec F S1x1024 .f32) : Vec F S1x1024 .f32 :=
  k2_pay1 (k2_pay9 i x1 x2 x0 (mIn i a0) (sIn i a1)) (k2_pay10 i x1 x2 x0 (mIn i a0))
/-- The scores block the point stores (bf16). -/
def scoresBlk (i : grid2.Coords) (x0 : Vec F S512x1024 .bf16) (x1 : Vec F S4096x512 .f32) (x2 : Vec F S4096x1 .f32) :
    Vec F S4096x1024 .bf16 :=
  k2_pay7 i x1 x2 x0
/-- What the lz buffer holds after the body: m' + log s' at the last point, else what it held. -/
def lzOut (i : grid2.Coords) (x0 : Vec F S512x1024 .bf16) (x1 : Vec F S4096x512 .f32) (x2 : Vec F S4096x1 .f32)
    (x3 a0 a1 : Vec F S1x1024 .f32) : Vec F S1x1024 .f32 :=
  if IsLast i then k2_pay3 (mOut i x0 x1 x2 a0) (sOut i x0 x1 x2 a0 a1) else x3

theorem mIn_first {i : grid2.Coords} (h : IsFirst i) (a0 : Vec F S1x1024 .f32) : mIn i a0 = k2_pay4 (F := F) := if_pos h
theorem mIn_rest {i : grid2.Coords} (h : ¬IsFirst i) (a0 : Vec F S1x1024 .f32) : mIn i a0 = a0 := if_neg h
theorem sIn_first {i : grid2.Coords} (h : IsFirst i) (a1 : Vec F S1x1024 .f32) : sIn i a1 = k2_pay5 (F := F) := if_pos h
theorem sIn_rest {i : grid2.Coords} (h : ¬IsFirst i) (a1 : Vec F S1x1024 .f32) : sIn i a1 = a1 := if_neg h

/-! ## The windows' blocks at a point, and the carried pair

Stated at a parameter `V`: the TensorCore's buffer contents when the call is entered. -/

variable (V : (c : Dev nD) → (b : Ref sig .tc) → Buf (Elt F) ((c : Thread nD τ).loc b))

/-- Window `w`'s block at point `t`, read off its array as the call finds it: the part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations ht: the whole array at every point. -/
def htBlk (c : Dev nD) (t : Fin cfg2.N) : Vec F S512x1024 .bf16 := iblk2 V c 0 t
/-- Rows 4096·t … of W2ᵀ, filled out past the array's end with the zero word (which the body masks). -/
def wBlk (c : Dev nD) (t : Fin cfg2.N) : Vec F S4096x512 .f32 :=
  win2_1.fill (grid2.coords t) (fun _ => Scalar.ofBits .f32 0#32) (iblk2 V c 1 t)
/-- Rows 4096·t … of b2, filled out likewise. -/
def bBlk (c : Dev nD) (t : Fin cfg2.N) : Vec F S4096x1 .f32 :=
  win2_2.fill (grid2.coords t) (fun _ => Scalar.ofBits .f32 0#32) (iblk2 V c 2 t)

/-- ONE STEP of the carried pair (m, s) at point `t`. -/
def step2 (c : Dev nD) (t : Fin cfg2.N) (p : Vec F S1x1024 .f32 × Vec F S1x1024 .f32) : Vec F S1x1024 .f32 × Vec F S1x1024 .f32 :=
  (mOut (grid2.coords t) (htBlk V c t) (wBlk V c t) (bBlk V c t) p.1,
   sOut (grid2.coords t) (htBlk V c t) (wBlk V c t) (bBlk V c t) p.1 p.2)

/-- THE FOLD: the carried pair after point `n`, from (neg_big, 0) in every column. -/
def carry2 (c : Dev nD) : (n : ℕ) → n < cfg2.N → Vec F S1x1024 .f32 × Vec F S1x1024 .f32
  | 0, h => step2 V c ⟨0, h⟩ (k2_pay4 (F := F), k2_pay5 (F := F))
  | n + 1, h => step2 V c ⟨n + 1, h⟩ (carry2 c n (Nat.lt_of_succ_lt h))

/-- The pair BEFORE position `t` of the N + 1 positions between points. -/
def prev2 (c : Dev nD) (t : Fin (cfg2.N + 1)) : Vec F S1x1024 .f32 × Vec F S1x1024 .f32 :=
  if h : t.val = 0 then (k2_pay4 (F := F), k2_pay5 (F := F)) else carry2 V c (t.val - 1) (by have := t.isLt; omega)

theorem prev2_succ (c : Dev nD) (t : Fin cfg2.N) : prev2 V c t.succ = carry2 V c t.val t.isLt := by
  unfold prev2; rw [dif_neg (by simp)]; rfl

theorem carry2_eq (c : Dev nD) (t : Fin cfg2.N) : carry2 V c t.val t.isLt = step2 V c t (prev2 V c t.castSucc) := by
  obtain ⟨n, hn⟩ := t
  cases n with
  | zero => rfl
  | succ n => unfold prev2; simp only [Fin.castSucc_mk, Nat.add_one_ne_zero, dif_neg, not_false_eq_true]; rfl

/-- At the first point the step does not read the pair it is given. -/
theorem step2_first (c : Dev nD) (t : Fin cfg2.N) (h : t.val = 0) (p p' : Vec F S1x1024 .f32 × Vec F S1x1024 .f32) :
    step2 V c t p = step2 V c t p' := by
  have hf := (isFirst_iff t).mpr h
  unfold step2 mOut sOut; rw [mIn_first hf, mIn_first hf, sIn_first hf, sIn_first hf]

/-- What the scores window's staging buffer holds after the body at point `t`. -/
def out2_4 (c : Dev nD) (t : Fin cfg2.N) : Vec F S4096x1024 .bf16 :=
  scoresBlk (grid2.coords t) (htBlk V c t) (wBlk V c t) (bBlk V c t)
/-- What the lz window's staging buffer holds after the body at the last point: m + log s of the pair carried there
    (stated at every point; only the last stores it). -/
def out2_3 (c : Dev nD) (t : Fin cfg2.N) : Vec F S1x1024 .f32 :=
  k2_pay3 (carry2 V c t.val t.isLt).1 (carry2 V c t.val t.isLt).2

end Cert.KernelIdeal.Reg2

end
-- ==== Proof.Region2I_Body.lean ====
/-
  The second TensorCore call of the program: the body's triple.

  On whole staging buffers — ht's, the W2ᵀ-block's and the b2-block's at read contents, the lz window's at read
  contents, the scores window's at anything, the two scratch buffers at read contents — one run of the body leaves the
  inputs as they were, the scores buffer at the point's scores block, the scratch pair at the updated (m', s'), and
  the lz buffer at m' + log s' at the last point and untouched elsewhere.  One run per control case (the carried
  pair reset or not; lz stored or not); the statement is the same in all four.
-/
import proofs.«207593_g36137854828637_cont_8to1_b_1462_19_alg».proof.Proof.Region2I_Defs
import Idealize.ShloMosaic.Lib.Pipeline.FrameBody
import Idealize.ShloMosaic.Lib.Pipeline.Value
import Idealize.ShloMosaic.Lib.Writes
import Idealize.ShloMosaic.Lib.Ring
import Idealize.ShloMosaic.Lib.Tactic

set_option maxRecDepth 16384

noncomputable section

namespace Cert.KernelIdeal.Reg2

open Cert.KernelIdeal Cert.KernelIdeal.Gen Cert.KernelIdeal.Common
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-! ## Whole-buffer stores and loads -/

theorem hz2 : (![0, 0] : Fin 2 → Nat) = fun _ => 0 := funext fun a => by fin_cases a <;> rfl

/-- After a store of the whole buffer, LAST, the buffer reads the payload, whatever was stored before. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  funext y
  rw [View.read_writes_apply_eq_canon v f y _ ⟨_, List.mem_cons.mpr (Or.inl rfl), View.mem_set_unit_zero h inb y⟩,
    View.canon_cons_unit_zero h inb w L]

/-- A load of the whole buffer after such a store reads the payload. -/
theorem readCov_store_whole {κ : Kind} {sp : Space} {S : Shape} {e : EltTy} (v : View sig κ sp S e)
    {off : Fin S.rank → Nat} (h : off = fun _ => 0) (inb : ∀ a, off a + S.size a ≤ S.size a) (w : S.Idx → Elt F e)
    (L : List (View.Piece (Elt F) S e)) :
    v.readCov (⟨Rect.unit off S.size inb, w⟩ :: L) (Rect.unit off S.size inb).toLoadRect = w := by
  subst h
  rw [View.readCov_eq_canon_ld _ _ _ (fun y => ⟨_, List.mem_cons.mpr (Or.inl rfl), View.mem_set_unit_zero rfl inb y⟩),
    View.canon_cons_unit_zero rfl, View.ld_unit_zero rfl]

/-! ## The body's triple, case by case -/

set_option maxHeartbeats 1000000 in
/-- The body's run at a middle point: the carried pair read from the scratch, lz not stored. -/
theorem sound_kernel2_mid (c : Dev nD) (E : Set ℕ) (i : grid2.Coords) (hf : ¬IsFirst i) (hl : ¬IsLast i)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  simp only [cc2__lse_body_eq_skeleton]; unfold cc2__lse_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (unfold lzOut; rw [if_neg hl])
  isplitl [H4]
  · iexists _; isplitr
    swap; · iexact H4
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H5]
  · iexists _; isplitr
    swap; · iexact H5
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  · iexists _; isplitr
    swap; · iexact H6
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])

set_option maxHeartbeats 1000000 in
/-- The body's run at the first point: the carried pair reset, then updated; lz not stored. -/
theorem sound_kernel2_first (c : Dev nD) (E : Set ℕ) (i : grid2.Coords) (hf : IsFirst i) (hl : ¬IsLast i)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  simp only [cc2__lse_body_eq_skeleton]; unfold cc2__lse_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (unfold lzOut; rw [if_neg hl])
  isplitl [H4]
  · iexists _; isplitr
    swap; · iexact H4
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H5]
  · iexists _; isplitr
    swap; · iexact H5
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  · iexists _; isplitr
    swap; · iexact H6
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])

set_option maxHeartbeats 1000000 in
/-- The body's run at the last point: the carried pair updated, lz stored from it. -/
theorem sound_kernel2_last (c : Dev nD) (E : Set ℕ) (i : grid2.Coords) (hf : ¬IsFirst i) (hl : IsLast i)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  simp only [cc2__lse_body_eq_skeleton]; unfold cc2__lse_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (sl_unfold_words
     rw [read_store_whole _ _ hz2]
     simp only [lzOut, if_pos hl, scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H4]
  · iexists _; isplitr
    swap; · iexact H4
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H5]
  · iexists _; isplitr
    swap; · iexact H5
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  · iexists _; isplitr
    swap; · iexact H6
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])

set_option maxHeartbeats 1000000 in
/-- The body's run where both conditions hold (a grid of one point; no point of this grid). -/
theorem sound_kernel2_both (c : Dev nD) (E : Set ℕ) (i : grid2.Coords) (hf : IsFirst i) (hl : IsLast i)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  simp only [cc2__lse_body_eq_skeleton]; unfold cc2__lse_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (sl_unfold_words
     rw [read_store_whole _ _ hz2]
     simp only [lzOut, if_pos hl, scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H4]
  · iexists _; isplitr
    swap; · iexact H4
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H5]
  · iexists _; isplitr
    swap; · iexact H5
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  · iexists _; isplitr
    swap; · iexact H6
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])

/-- THE BODY'S TRIPLE at any grid coordinates: the case the two conditions select. -/
theorem sound_kernel2 (c : Dev nD) (E : Set ℕ) (i : grid2.Coords)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  by_cases hf : IsFirst i <;> by_cases hl : IsLast i
  · exact sound_kernel2_both c E i hf hl arg1 harg1 arg2 harg2 arg3 harg3 arg4 harg4 arg5 harg5 arg6 harg6 arg7 harg7 x0 x1 x2 x3 a0 a1 K
  · exact sound_kernel2_first c E i hf hl arg1 harg1 arg2 harg2 arg3 harg3 arg4 harg4 arg5 harg5 arg6 harg6 arg7 harg7 x0 x1 x2 x3 a0 a1 K
  · exact sound_kernel2_last c E i hf hl arg1 harg1 arg2 harg2 arg3 harg3 arg4 harg4 arg5 harg5 arg6 harg6 arg7 harg7 x0 x1 x2 x3 a0 a1 K
  · exact sound_kernel2_mid c E i hf hl arg1 harg1 arg2 harg2 arg3 harg3 arg4 harg4 arg5 harg5 arg6 harg6 arg7 harg7 x0 x1 x2 x3 a0 a1 K

end Cert.KernelIdeal.Reg2

end
-- ==== Proof.Region2I.lean ====
/-
  The second TensorCore call of the program: the pipeline's proof data, the body obligation, and the arrays after
  the last write-back.

  After the body at point t the staging buffers hold: ht's, the whole activation array; the W2ᵀ window's and the b2
  window's, their blocks on the rows inside the array (the rows past the end are not stated: the two windows overhang
  at the last point, and so does the scores window); the scores window's, the point's scores block; the lz window's,
  at the last point, m + log s of the carried pair.  The carried pair lives in the two scratch buffers, which the
  invariant between points holds at the fold's value (anything before the first point, which resets them).
-/
import proofs.«207593_g36137854828637_cont_8to1_b_1462_19_alg».proof.Proof.Region2I_Body

set_option maxRecDepth 16384

noncomputable section

namespace Cert.KernelIdeal.Reg2

open Cert.KernelIdeal Cert.KernelIdeal.Gen Cert.KernelIdeal.Common
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

variable (V : (c : Dev nD) → (b : Ref sig .tc) → Buf (Elt F) ((c : Thread nD τ).loc b))
variable (Rc : Set (SemLoc sig × HIx 1))

/-! ## The invariant between points -/

/-- The core's scoped buffers that this call neither stages through nor uses as scratch, each at some contents. -/
def rest2 (c : Dev nD) : sProp (MM F) :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg2_1), ((c : Thread nD τ).loc cc3_stg2_1) ↦{fullShare} f))

/-- The two scratch buffers: before the first point at anything, after point t − 1 at the fold's pair. -/
def carried2 (c : Dev nD) (t : Fin (cfg2.N + 1)) : sProp (MM F) :=
  iprop(∃ (a0 a1 : Vec F S1x1024 .f32), ⌜t.val ≠ 0 → (a0, a1) = prev2 V c t⌝
    ∗ owns (c : Thread nD τ) (Memref.whole cc2_scratch0) fullShare a0
    ∗ owns (c : Thread nD τ) (Memref.whole cc2_scratch1) fullShare a1)

/-- THE INVARIANT before point `t`. -/
def Φ2 (c : Dev nD) (t : Fin (cfg2.N + 1)) : sProp (MM F) := iprop(rest2 (F := F) c ∗ carried2 V c t)

/-! ## The pipeline's proof data -/

/-- The proof data of the call's pipeline on core `c`. -/
def dat2 (c : Dev nD) : Dat τ (Elt F) (HIx 1) ℕ UU ℕ cfg2 c where
  A w := V c (Pipeline.arrRef spec2 w)
  after w t := match w with
    | ⟨0, _⟩ => htBlk V c t
    | ⟨1, _⟩ => wBlk V c t
    | ⟨2, _⟩ => bBlk V c t
    | ⟨3, _⟩ => out2_3 V c t
    | ⟨4, _⟩ => out2_4 V c t
  Φ t := Φ2 V c t
  q _ := fullShare
  owed _ := 0
  recorded _ := Rc

theorem A_eq2 (c : Dev nD) (w : Fin cfg2.W) : (dat2 V Rc c).A w = V c (Pipeline.arrRef spec2 w) := by
  dsimp only [dat2]
theorem recorded2 (c : Dev nD) (t : Fin (cfg2.N + 1)) : (dat2 V Rc c).recorded t = Rc := rfl
theorem owed2 (c : Dev nD) (t : Fin (cfg2.N + 1)) : (dat2 V Rc c).owed t = 0 := rfl
theorem q2 (c : Dev nD) (w : Fin cfg2.W) : (dat2 V Rc c).q w = fullShare := rfl
theorem Φ_eq2 (c : Dev nD) (t : Fin (cfg2.N + 1)) : (dat2 V Rc c).Φ t = Φ2 V c t := rfl

theorem after2_0 (c : Dev nD) (t : Fin cfg2.N) : (dat2 V Rc c).after 0 t = htBlk V c t := by dsimp only [dat2]
theorem after2_1 (c : Dev nD) (t : Fin cfg2.N) : (dat2 V Rc c).after 1 t = wBlk V c t := by dsimp only [dat2]
theorem after2_2 (c : Dev nD) (t : Fin cfg2.N) : (dat2 V Rc c).after 2 t = bBlk V c t := by dsimp only [dat2]
theorem after2_3 (c : Dev nD) (t : Fin cfg2.N) : (dat2 V Rc c).after 3 t = out2_3 V c t := by dsimp only [dat2]
theorem after2_4 (c : Dev nD) (t : Fin cfg2.N) : (dat2 V Rc c).after 4 t = out2_4 V c t := by dsimp only [dat2]

/-! ## The invariant at the two ends -/

/-- Before the first point the invariant asks nothing of the scratch: the scoped rest yields it. -/
theorem phi2_in (c : Dev nD) : (Pipeline.scopedRest spec2 c : sProp (MM F)) ⊢ (dat2 V Rc c).Φ 0 := by
  rw [scopedRest2_eq, Φ_eq2]; unfold Φ2 rest2 carried2
  iintro ⟨A1, A2, A3, A4, ⟨%f0, S0⟩, ⟨%f1, S1⟩, B1, B2, B3, B4, B5⟩
  isplitl [A1 A2 A3 A4 B1 B2 B3 B4 B5]
  · isplitl [A1]; · iexact A1
    isplitl [A2]; · iexact A2
    isplitl [A3]; · iexact A3
    isplitl [A4]; · iexact A4
    isplitl [B1]; · iexact B1
    isplitl [B2]; · iexact B2
    isplitl [B3]; · iexact B3
    isplitl [B4]; · iexact B4
    iexact B5
  iexists f0; iexists f1
  isplitr; · ipureintro; intro h; exact absurd rfl h
  rw [owns_whole, owns_whole]
  isplitl [S0]; · iexact S0
  iexact S1

/-- After the last point it gives the scoped rest back, the scratch forgotten. -/
theorem phi2_out (c : Dev nD) : (dat2 V Rc c).Φ (Fin.last cfg2.N) ⊢ (Pipeline.scopedRest spec2 c : sProp (MM F)) := by
  rw [scopedRest2_eq, Φ_eq2]; unfold Φ2 rest2 carried2
  simp only [owns_whole]
  iintro ⟨⟨A1, A2, A3, A4, B1, B2, B3, B4, B5⟩, ⟨%a0, %a1, -, S0, S1⟩⟩
  isplitl [A1]; · iexact A1
  isplitl [A2]; · iexact A2
  isplitl [A3]; · iexact A3
  isplitl [A4]; · iexact A4
  isplitl [S0]; · iexists a0; iexact S0
  isplitl [S1]; · iexists a1; iexact S1
  isplitl [B1]; · iexact B1
  isplitl [B2]; · iexact B2
  isplitl [B3]; · iexact B3
  isplitl [B4]; · iexact B4
  iexact B5

/-! ## What each window's staging buffer holds when the body runs -/

/-- ht's buffer holds the whole array at every point, fetched there or not. -/
theorem before2_0 (c : Dev nD) (t : Fin cfg2.N) (d) : (dat2 V Rc c).before 0 t d = htBlk V c t :=
  ((dat2 V Rc c).before_in_eq_fetched 0 rfl (fun _ => rfl) (fun _ _ _ => rfl)
      (fun t => by rw [after2_0]; unfold Dat.blockOf htBlk iblk2; rw [A_eq2]; try rfl) t d).trans
    (by unfold Dat.fetched Dat.blockOf htBlk iblk2; rw [A_eq2]; try rfl)

/-- The W2ᵀ window is fetched at every point: its buffer holds the block on the rows inside the array and, past the
    array's end, what the fetch left there (`d`). -/
theorem before2_1 (c : Dev nD) (t : Fin cfg2.N) (d) :
    (dat2 V Rc c).before 1 t d = win2_1.fill (grid2.coords t) d (iblk2 V c 1 t) := by
  unfold Dat.before; rw [if_pos (fetch2_1 t)]; unfold Dat.fetched Dat.blockOf iblk2; rw [A_eq2]
/-- The b2 window likewise. -/
theorem before2_2 (c : Dev nD) (t : Fin cfg2.N) (d) :
    (dat2 V Rc c).before 2 t d = win2_2.fill (grid2.coords t) d (iblk2 V c 2 t) := by
  unfold Dat.before; rw [if_pos (fetch2_2 t)]; unfold Dat.fetched Dat.blockOf iblk2; rw [A_eq2]

/-- The part of the W2ᵀ block that the transfers move is the array's block. -/
theorem cut_wBlk (c : Dev nD) (t : Fin cfg2.N) : (cfg2.win 1).cut (cfg2.grid.coords t) (wBlk V c t) = iblk2 V c 1 t := by
  unfold wBlk; exact win2_1.cut_fill _ _ _
theorem cut_bBlk (c : Dev nD) (t : Fin cfg2.N) : (cfg2.win 2).cut (cfg2.grid.coords t) (bBlk V c t) = iblk2 V c 2 t := by
  unfold bBlk; exact win2_2.cut_fill _ _ _

/-! ## The mask: what the rows past the arrays' end hold does not matter -/

/-- The body's mask makes the point's scores independent of what the overhanging rows of the two blocks hold. -/
def MaskIndep (F : FTy → Type) [FloatOps F] [Named F] : Prop :=
  ∀ (t : Fin cfg2.N) (x0 : Vec F S512x1024 .bf16)
    (g1 : (win2_1.xblock (grid2.coords t)).Idx → Elt F .f32) (g2 : (win2_2.xblock (grid2.coords t)).Idx → Elt F .f32)
    (d1 d1' : Vec F S4096x512 .f32) (d2 d2' : Vec F S4096x1 .f32),
    k2_pay6 (grid2.coords t) (win2_1.fill (grid2.coords t) d1 g1) (win2_2.fill (grid2.coords t) d2 g2) x0
      = k2_pay6 (grid2.coords t) (win2_1.fill (grid2.coords t) d1' g1) (win2_2.fill (grid2.coords t) d2' g2) x0

section Congr
variable {i : grid2.Coords} {x0 : Vec F S512x1024 .bf16} {x1 x1' : Vec F S4096x512 .f32} {x2 x2' : Vec F S4096x1 .f32}
  (h : k2_pay6 i x1 x2 x0 = k2_pay6 i x1' x2' x0)
include h
/-- Everything the body computes from the two blocks it computes from the scores. -/
theorem pay7_congr : k2_pay7 i x1 x2 x0 = k2_pay7 i x1' x2' x0 := by unfold k2_pay7; rw [h]
theorem pay8_congr (v27 : Vec F S1x1024 .f32) : k2_pay8 i x1 x2 x0 v27 = k2_pay8 i x1' x2' x0 v27 := by unfold k2_pay8; rw [h]
theorem pay9_congr (v27 v31 : Vec F S1x1024 .f32) : k2_pay9 i x1 x2 x0 v27 v31 = k2_pay9 i x1' x2' x0 v27 v31 := by
  unfold k2_pay9; rw [pay8_congr h]
theorem pay10_congr (v27 : Vec F S1x1024 .f32) : k2_pay10 i x1 x2 x0 v27 = k2_pay10 i x1' x2' x0 v27 := by
  unfold k2_pay10; rw [pay8_congr h, h]
theorem scoresBlk_congr : scoresBlk i x0 x1 x2 = scoresBlk i x0 x1' x2' := by unfold scoresBlk; exact pay7_congr h
theorem mOut_congr (a0 : Vec F S1x1024 .f32) : mOut i x0 x1 x2 a0 = mOut i x0 x1' x2' a0 := by unfold mOut; rw [pay8_congr h]
theorem sOut_congr (a0 a1 : Vec F S1x1024 .f32) : sOut i x0 x1 x2 a0 a1 = sOut i x0 x1' x2' a0 a1 := by
  unfold sOut; rw [pay9_congr h, pay10_congr h]
end Congr

/-- The pair after point `t` is the step of the pair the invariant holds before it. -/
theorem carried_step (c : Dev nD) (t : Fin cfg2.N) (a0 a1 : Vec F S1x1024 .f32)
    (hp : t.castSucc.val ≠ 0 → (a0, a1) = prev2 V c t.castSucc) : step2 V c t (a0, a1) = prev2 V c t.succ := by
  rw [prev2_succ, carry2_eq]
  by_cases h0 : t.val = 0
  · exact step2_first V c t h0 _ _
  · rw [hp h0]

/-! ## The body obligation -/

/-- What the obligation says of the lz window's buffer after the body: stored at the last point, else as found. -/
def lzPost (c : Dev nD) (t : Fin cfg2.N) : sProp (MM F) :=
  if IsLast (grid2.coords t) then owns (c : Thread nD τ) (st2_3 t) fullShare ((dat2 V Rc c).after 3 t)
  else iprop(∃ d, owns (c : Thread nD τ) (st2_3 t) fullShare ((dat2 V Rc c).before 3 t d))

set_option maxHeartbeats 1000000 in
/-- The body at any point: the input buffers hold their blocks (the overhanging rows anything), the scratch the pair
    carried so far, so the body's triple applies; by the mask what it leaves is the fold's next pair and the point's
    scores block whatever the overhanging rows held. -/
theorem sound_body2 (hM : MaskIndep F) (c : Dev nD) (t : Fin cfg2.N) :
    iprop((dat2 V Rc c).Φ t.castSucc ∗ (dat2 V Rc c).owesAt none t.castSucc
        ∗ (∃ d, owns (c : Thread nD τ) (st2_0 t) fullShare ((dat2 V Rc c).before 0 t d))
        ∗ (∃ d, owns (c : Thread nD τ) (st2_1 t) fullShare ((dat2 V Rc c).before 1 t d))
        ∗ (∃ d, owns (c : Thread nD τ) (st2_2 t) fullShare ((dat2 V Rc c).before 2 t d))
        ∗ (∃ d, owns (c : Thread nD τ) (st2_3 t) fullShare ((dat2 V Rc c).before 3 t d))
        ∗ (∃ d, owns (c : Thread nD τ) (st2_4 t) fullShare ((dat2 V Rc c).before 4 t d)))
      ⊢ wp frame (wpE (defs₀ (F := F)) Variants.none c none) Set.univ (bodyAt2 t) (fun _ =>
          iprop((dat2 V Rc c).Φ t.succ ∗ (dat2 V Rc c).owesAt none t.succ
            ∗ owns (c : Thread nD τ) (st2_0 t) fullShare ((dat2 V Rc c).after 0 t)
            ∗ (∃ d, owns (c : Thread nD τ) (st2_1 t) fullShare ((cfg2.win 1).fill (cfg2.grid.coords t) d ((cfg2.win 1).cut (cfg2.grid.coords t) ((dat2 V Rc c).after 1 t))))
            ∗ (∃ d, owns (c : Thread nD τ) (st2_2 t) fullShare ((cfg2.win 2).fill (cfg2.grid.coords t) d ((cfg2.win 2).cut (cfg2.grid.coords t) ((dat2 V Rc c).after 2 t))))
            ∗ lzPost V Rc c t
            ∗ (∃ d, owns (c : Thread nD τ) (st2_4 t) fullShare ((cfg2.win 4).fill (cfg2.grid.coords t) d ((cfg2.win 4).cut (cfg2.grid.coords t) ((dat2 V Rc c).after 4 t)))))) := by
  rw [Φ_eq2, Φ_eq2, show (dat2 V Rc c).owesAt none t.succ = (dat2 V Rc c).owesAt none t.castSucc from rfl]
  unfold lzPost
  simp only [before2_0, before2_1, before2_2, after2_0, after2_1, after2_2, after2_3, after2_4]
  unfold Φ2 carried2 bodyAt2
  iintro ⟨⟨HR, ⟨%a0, %a1, %hp, S0, S1⟩⟩, Ho, ⟨%d0, H0⟩, ⟨%d1, H1⟩, ⟨%d2, H2⟩, ⟨%d3, H3⟩, ⟨%d4, H4⟩⟩
  have hm := hM t (htBlk V c t) (iblk2 V c 1 t) (iblk2 V c 2 t) d1 (fun _ => Scalar.ofBits .f32 0#32) d2 (fun _ => Scalar.ofBits .f32 0#32)
  have hk := sound_kernel2 (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (Memref.whole cc2_scratch0) (Memref.isWhole_whole _) (Memref.whole cc2_scratch1) (Memref.isWhole_whole _)
    (htBlk V c t) (win2_1.fill (grid2.coords t) d1 (iblk2 V c 1 t)) (win2_2.fill (grid2.coords t) d2 (iblk2 V c 2 t))
    ((dat2 V Rc c).before 3 t d3) a0 a1
  have e4 : scoresBlk (grid2.coords t) (htBlk V c t) (win2_1.fill (grid2.coords t) d1 (iblk2 V c 1 t)) (win2_2.fill (grid2.coords t) d2 (iblk2 V c 2 t)) = out2_4 V c t := by
    unfold out2_4 wBlk bBlk; exact scoresBlk_congr hm
  have em : mOut (grid2.coords t) (htBlk V c t) (win2_1.fill (grid2.coords t) d1 (iblk2 V c 1 t)) (win2_2.fill (grid2.coords t) d2 (iblk2 V c 2 t)) a0 = (prev2 V c t.succ).1 := by
    rw [← carried_step V c t a0 a1 hp]; unfold step2 wBlk bBlk; exact mOut_congr hm a0
  have es : sOut (grid2.coords t) (htBlk V c t) (win2_1.fill (grid2.coords t) d1 (iblk2 V c 1 t)) (win2_2.fill (grid2.coords t) d2 (iblk2 V c 2 t)) a0 a1 = (prev2 V c t.succ).2 := by
    rw [← carried_step V c t a0 a1 hp]; unfold step2 wBlk bBlk; exact sOut_congr hm a0 a1
  have e3 : lzOut (grid2.coords t) (htBlk V c t) (win2_1.fill (grid2.coords t) d1 (iblk2 V c 1 t)) (win2_2.fill (grid2.coords t) d2 (iblk2 V c 2 t)) ((dat2 V Rc c).before 3 t d3) a0 a1
      = if IsLast (grid2.coords t) then out2_3 V c t else (dat2 V Rc c).before 3 t d3 := by
    unfold lzOut out2_3; rw [em, es, prev2_succ]
  rw [e4, em, es, e3] at hk
  iapply hk
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  iintro ⟨H0, H1, H2, H3, H4, S0, S1⟩
  isplitl [HR S0 S1]
  · isplitl [HR]; · iexact HR
    iexists _; iexists _
    isplitr; · ipureintro; intro _; rfl
    isplitl [S0]; · iexact S0
    iexact S1
  isplitl [Ho]; · iexact Ho
  isplitl [H0]; · iexact H0
  isplitl [H1]
  · iexists d1; rw [show (win2 1).cut (grid2.coords t) (wBlk V c t) = iblk2 V c 1 t from cut_wBlk V c t]; iexact H1
  isplitl [H2]
  · iexists d2; rw [show (win2 2).cut (grid2.coords t) (bBlk V c t) = iblk2 V c 2 t from cut_bBlk V c t]; iexact H2
  isplitl [H3]
  · by_cases hl : IsLast (grid2.coords t)
    · rw [if_pos hl, if_pos hl]; iexact H3
    · rw [if_neg hl, if_neg hl]; iexists d3; iexact H3
  · iexists out2_4 V c t; rw [Window.fill_cut]; iexact H4

/-- The library's body obligation at every point, given the mask fact: the lz window is idle except at the last
    point, where it is stored and written back. -/
theorem body_obligation2_of (hM : MaskIndep F) (c : Dev nD) :
    BodyObligationLoose (dat2 (F := F) V Rc c) (defs₀ (F := F)) Variants.none (none : HIx 1) Set.univ := fun t => by
  rw [bigSep_W2, bigSep_W2]
  have h := sound_body2 V Rc hM c t
  unfold lzPost at h
  by_cases hl : IsLast (grid2.coords t)
  · have hi : cfg2.idle 3 (cfg2.grid.coords t) = false := by
      show (!(k2_cond2 (grid2.coords t) == 1#1)) = false
      rw [show k2_cond2 (grid2.coords t) = 1#1 from hl]; rfl
    rw [if_pos hl] at h
    rw [hi]
    exact h
  · have hi : cfg2.idle 3 (cfg2.grid.coords t) = true := by
      show (!(k2_cond2 (grid2.coords t) == 1#1)) = true
      rw [Bool.not_eq_true', beq_eq_false_iff_ne]; exact hl
    have hfl : (cfg2.win 3).flush t = false := by
      have h24 : t.val ≠ 24 := fun e => hl ((isLast_iff t).mpr e)
      have hN : t.val < 25 := lt_of_lt_of_eq t.isLt (show cfg2.N = 25 from N_2)
      exact Bool.eq_false_iff.mpr fun hf => by have := (flush2_3 t).mp hf; omega
    rw [if_neg hl] at h
    rw [hi, hfl]
    exact h

end Cert.KernelIdeal.Reg2

end
-- ==== Proof.Region2I_Mask.lean ====
/-
  The masked rows of the running log-sum-exp's point: the scores do not depend on the rows past the arrays' end.

  At grid point t the body holds rows 4096·t … 4096·t+4095 of W2ᵀ and of b2 in two staging blocks.  The arrays have
  100000 rows and 25·4096 = 102400 > 100000, so at the last point the blocks overhang: a fetch moves only the rows
  inside the array — the block's leading xsize = min 4096 (100000 − 4096·t) rows — and leaves the others as they were
  (Window.fill d g: the moved part g, the rest d).  The body selects, row by row, the loaded value where
  4096·t + r < 100000 (a signed 32-bit comparison of 4096·t + iota with 100000) and a constant elsewhere.  Since
  t < 25 and r < 4096, the word 4096·t + r is below 2³¹ and the comparison is the one of the naturals; a row it
  selects is therefore a row the fetch moved, where the filled block reads g whatever d was.  So both selects, and
  with them the scores  (masked W2ᵀ-block)·ht + broadcast (masked b2-block),  are the same for every d.
-/
import proofs.«207593_g36137854828637_cont_8to1_b_1462_19_alg».proof.Proof.Region2I_Defs
import Idealize.ShloMosaic.Lib.ValueIdx
import Idealize.ShloMosaic.Lib.Pipeline.Value

set_option maxRecDepth 16384

noncomputable section

namespace Cert.KernelIdeal.Reg2

open Cert.KernelIdeal Cert.KernelIdeal.Gen Cert.KernelIdeal.Common
open Idealize.ShloMosaic Idealize.ShloMosaic.ValueIdx
open Idealize.ShloMosaic.Pipeline (Window Clip)

variable {F : FTy → Type} [FloatOps F] [Named F]

/-! ## The comparison, as one of naturals -/

/-- With t < 25 and r < 4096 the 32-bit word 4096·t + r does not wrap and is non-negative as a signed word:
    it is signed-less-than 100000 exactly when the natural is. -/
theorem slt_row_iff (t r : ℕ) (ht : t < 25) (hr : r < 4096) :
    (BitVec.ofNat 32 t * 4096#32 + BitVec.ofNat 32 r).slt 100000#32 = true ↔ t * 4096 + r < 100000 := by
  have hv : BitVec.ofNat 32 t * 4096#32 + BitVec.ofNat 32 r = BitVec.ofNat 32 (t * 4096 + r) := by
    apply BitVec.eq_of_toNat_eq
    simp only [BitVec.toNat_add, BitVec.toNat_mul, BitVec.toNat_ofNat]
    omega
  rw [hv]
  have hn : (BitVec.ofNat 32 (t * 4096 + r)).toNat = t * 4096 + r := by
    rw [BitVec.toNat_ofNat]; omega
  have hi : (BitVec.ofNat 32 (t * 4096 + r)).toInt = ((t * 4096 + r : ℕ) : ℤ) := by
    rw [BitVec.toInt_eq_toNat_of_lt (by rw [hn]; omega), hn]
  rw [BitVec.slt_iff_toInt_lt, hi]
  show ((t * 4096 + r : ℕ) : ℤ) < 100000 ↔ _
  omega

/-! ## The row mask of a point -/

/-- The body's row mask at coordinates i: bit 1 at block row r iff 4096·(i 0) + r <ₛ 100000. -/
def rowMask (i : grid2.Coords) : IVec S4096x1 1 :=
  cmpi .slt (addi (broadcast S4096x1 (Scalar.muli (BitVec.ofNat 32 (i 0).val) 4096#32)) (iota .tc S4096x1 32 [0] iota_S4096x1_d0_w32))
    (broadcast S4096x1 100000#32)

/-- A set bit of the mask says the row lies inside the array. -/
theorem rowMask_one (i : grid2.Coords) (r : Fin 4096) (k : Fin 1) (h : rowMask i (ix2 r k) = 1#1) :
    (i 0).val * 4096 + r.val < 100000 := by
  have ht : (i 0).val < 25 := (i 0).isLt
  have hb : (BitVec.ofNat 32 (i 0).val * 4096#32 + BitVec.ofNat 32 r.val).slt 100000#32 = true := by
    by_contra hc
    rw [Bool.not_eq_true] at hc
    have : rowMask i (ix2 r k) = BitVec.ofBool ((BitVec.ofNat 32 (i 0).val * 4096#32 + BitVec.ofNat 32 r.val).slt 100000#32) := by
      unfold rowMask
      show IntOp.cmpi .slt (IntOp.addi _ (iota .tc S4096x1 32 [0] iota_S4096x1_d0_w32 (ix2 r k))) _ = _
      rw [iota_single_apply]
      rfl
    rw [this, hc] at h
    exact absurd h (by decide)
  exact (slt_row_iff _ _ ht r.isLt).mp hb

/-! ## Rows the mask selects are rows the fetch moved -/

/-- A block coordinate r with ix·k + r inside an array of d is among those the cut transfer moves. -/
theorem lt_extent_of_lt {ix k d r : ℕ} (hr : r < k) (h : ix * k + r < d) : r < (Clip.of ix k d).extent k := by
  unfold Clip.of; split
  · exact hr
  · show r < d - ix * k; omega

/-- The grid coordinate, below 25, is its own 32-bit word. -/
theorem coord_toNat (i : grid2.Coords) : (BitVec.ofNat 32 (i 0).val).toNat = (i 0).val := by
  have ht : (i 0).val < 25 := (i 0).isLt
  rw [BitVec.toNat_ofNat]; omega

/-- A row of the W2ᵀ-block inside the array is moved by the fetch (all 512 columns are). -/
theorem moved1_of_row (i : grid2.Coords) (r : Fin 4096) (c : Fin 512) (h : (i 0).val * 4096 + r.val < 100000) :
    win2_1.moved i (ix2 r c) = true := by
  rw [Window.moved_iff]
  intro a
  match a with
  | ⟨0, _⟩ =>
    show r.val < (Clip.of (BitVec.ofNat 32 (i 0).val).toNat 4096 100000).extent 4096
    rw [coord_toNat]; exact lt_extent_of_lt r.isLt h
  | ⟨1, _⟩ =>
    show c.val < (Clip.of 0 512 512).extent 512
    exact lt_extent_of_lt c.isLt (by rw [Nat.zero_mul, Nat.zero_add]; exact c.isLt)

/-- A row of the b2-block inside the array is moved by the fetch. -/
theorem moved2_of_row (i : grid2.Coords) (r : Fin 4096) (c : Fin 1) (h : (i 0).val * 4096 + r.val < 100000) :
    win2_2.moved i (ix2 r c) = true := by
  rw [Window.moved_iff]
  intro a
  match a with
  | ⟨0, _⟩ =>
    show r.val < (Clip.of (BitVec.ofNat 32 (i 0).val).toNat 4096 100000).extent 4096
    rw [coord_toNat]; exact lt_extent_of_lt r.isLt h
  | ⟨1, _⟩ =>
    show c.val < (Clip.of 0 1 1).extent 1
    exact lt_extent_of_lt c.isLt (by rw [Nat.zero_mul, Nat.zero_add]; exact c.isLt)

/-- What a filled block reads at a moved index does not depend on what the buffer held before the fetch. -/
theorem fill_indep_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-! ## The two masked blocks -/

/-- The mask over the W2ᵀ-block: the row mask along the 512 columns. -/
def maskW (i : grid2.Coords) : IVec S4096x512 1 :=
  broadcastTo S4096x512 (shapeCast S4096x1 (rowMask i) shapeCasts_S4096x1_S4096x1) broadcasts_S4096x1_S4096x512

theorem maskW_apply (i : grid2.Coords) (r : Fin 4096) (c : Fin 512) : maskW i (ix2 r c) = rowMask i (ix2 r (0 : Fin 1)) := by
  unfold maskW
  rw [shapeCast_self]
  refine broadcastTo_apply _ _ _ (ix2 r (0 : Fin 1)) ?_
  intro a
  match a with
  | ⟨0, h0⟩ => exact (if_neg (by decide : ¬ (4096 : ℕ) = 1)).symm
  | ⟨1, h1⟩ => exact (if_pos (rfl : (1 : ℕ) = 1)).symm

/-- The masked W2ᵀ-block reads its operand only on the rows inside the array. -/
theorem selW_congr (i : grid2.Coords) (b : FVec F S4096x512 .f32) (X X' : Vec F S4096x512 .f32)
    (h : ∀ (r : Fin 4096) (c : Fin 512), (i 0).val * 4096 + r.val < 100000 → X (ix2 r c) = X' (ix2 r c)) :
    select (maskW i) (shapeCast S4096x512 X shapeCasts_S4096x512_S4096x512) b
      = select (maskW i) (shapeCast S4096x512 X' shapeCasts_S4096x512_S4096x512) b := by
  rw [shapeCast_self, shapeCast_self]
  funext j
  obtain ⟨r, c, rfl⟩ : ∃ (r : Fin 4096) (c : Fin 512), j = ix2 r c := ⟨j 0, j 1, eq_ix2 j⟩
  rw [select_apply, select_apply]
  by_cases hm : maskW i (ix2 r c) = 1#1
  · rw [h r c (rowMask_one i r 0 ((maskW_apply i r c).symm.trans hm))]
  · unfold Scalar.select; exact (if_neg hm).trans (if_neg hm).symm

/-- The masked b2-block reads its operand only on the rows inside the array. -/
theorem selB_congr (i : grid2.Coords) (b : FVec F S4096x1 .f32) (X X' : Vec F S4096x1 .f32)
    (h : ∀ (r : Fin 4096) (c : Fin 1), (i 0).val * 4096 + r.val < 100000 → X (ix2 r c) = X' (ix2 r c)) :
    select (rowMask i) (shapeCast S4096x1 X shapeCasts_S4096x1_S4096x1) b
      = select (rowMask i) (shapeCast S4096x1 X' shapeCasts_S4096x1_S4096x1) b := by
  rw [shapeCast_self, shapeCast_self]
  funext j
  obtain ⟨r, c, rfl⟩ : ∃ (r : Fin 4096) (c : Fin 1), j = ix2 r c := ⟨j 0, j 1, eq_ix2 j⟩
  rw [select_apply, select_apply]
  by_cases hm : rowMask i (ix2 r c) = 1#1
  · rw [h r c (rowMask_one i r c hm)]
  · unfold Scalar.select; exact (if_neg hm).trans (if_neg hm).symm

/-! ## The scores -/

/-- The point's scores from the two blocks and ht, over the constant nb the body puts in b2's masked rows:
    (masked W2ᵀ-block as bf16) · ht + broadcast (masked b2-block). -/
def scoresOf (nb : F .f32) (i : grid2.Coords) (x1 : Vec F S4096x512 .f32) (x2 : Vec F S4096x1 .f32) (x0 : Vec F S512x1024 .bf16) :
    FVec F S4096x1024 .f32 :=
  addf
    (matmul dot_S4096x512_S512x1024_S4096x1024_1_0_0_1_n_n none
      (truncf .bf16 (select (maskW i) (shapeCast S4096x512 x1 shapeCasts_S4096x512_S4096x512)
        (broadcast S4096x512 (Scalar.ofBits .f32 0x00000000#32))) bitsLt_bf16_f32)
      (shapeCast S512x1024 x0 shapeCasts_S512x1024_S512x1024) (constant S4096x1024 .f32 0x00000000#32))
    (broadcastTo S4096x1024 (select (rowMask i) (shapeCast S4096x1 x2 shapeCasts_S4096x1_S4096x1) (broadcast S4096x1 nb))
      broadcasts_S4096x1_S4096x1024)

theorem scoresOf_fill_indep (nb : F .f32) (i : grid2.Coords) (x0 : Vec F S512x1024 .bf16)
    (g1 : (win2_1.xblock i).Idx → Elt F .f32) (g2 : (win2_2.xblock i).Idx → Elt F .f32)
    (d1 d1' : Vec F S4096x512 .f32) (d2 d2' : Vec F S4096x1 .f32) :
    scoresOf nb i (win2_1.fill i d1 g1) (win2_2.fill i d2 g2) x0 = scoresOf nb i (win2_1.fill i d1' g1) (win2_2.fill i d2' g2) x0 := by
  unfold scoresOf
  rw [selW_congr i _ (win2_1.fill i d1 g1) (win2_1.fill i d1' g1)
      (fun r c h => fill_indep_of_moved win2_1 i d1 d1' g1 (ix2 r c) (moved1_of_row i r c h)),
    selB_congr i _ (win2_2.fill i d2 g2) (win2_2.fill i d2' g2)
      (fun r c h => fill_indep_of_moved win2_2 i d2 d2' g2 (ix2 r c) (moved2_of_row i r c h))]

/-- The same of the body's own scores, at any grid coordinates. -/
theorem pay6_fill_indep_at (i : grid2.Coords) (x0 : Vec F S512x1024 .bf16) (g1 : (win2_1.xblock i).Idx → Elt F .f32)
    (g2 : (win2_2.xblock i).Idx → Elt F .f32) (d1 d1' : Vec F S4096x512 .f32) (d2 d2' : Vec F S4096x1 .f32) :
    k2_pay6 i (win2_1.fill i d1 g1) (win2_2.fill i d2 g2) x0 = k2_pay6 i (win2_1.fill i d1' g1) (win2_2.fill i d2' g2) x0 :=
  scoresOf_fill_indep _ i x0 g1 g2 d1 d1' d2 d2'

/-- THE POINT'S SCORES DO NOT DEPEND ON THE OVERHANG: whatever the two staging blocks held before the fetches
    (d1, d2 against d1', d2'), the scores computed from the fetched blocks are the same. -/
theorem pay6_fill_indep (t : Fin cfg2.N) (x0 : Vec F S512x1024 .bf16) (g1 : (win2_1.xblock (grid2.coords t)).Idx → Elt F .f32) (g2 : (win2_2.xblock (grid2.coords t)).Idx → Elt F .f32) (d1 d1' : Vec F S4096x512 .f32) (d2 d2' : Vec F S4096x1 .f32) :
    k2_pay6 (grid2.coords t) (win2_1.fill (grid2.coords t) d1 g1) (win2_2.fill (grid2.coords t) d2 g2) x0 = k2_pay6 (grid2.coords t) (win2_1.fill (grid2.coords t) d1' g1) (win2_2.fill (grid2.coords t) d2' g2) x0 :=
  pay6_fill_indep_at (grid2.coords t) x0 g1 g2 d1 d1' d2 d2'

end Cert.KernelIdeal.Reg2

end
-- ==== Proof.Region3I.lean ====
/-
  The third TensorCore kernel of the program: the scores made log-probabilities.

  On a grid of 25 points the kernel takes the block of 4096 rows of the scores (bf16[100000, 1024]) at the
  point, widens it to f32, subtracts the row vector of log-normalisers (f32[1, 1024], the same block at every
  point) broadcast over the block's rows, and stores the whole difference into the block of 4096 rows of the
  result (f32[100000, 1024]) at the point. 25 blocks of 4096 rows are 102400 rows: the last block overhangs both
  arrays by 2400 rows. Its transfers are cut at the arrays' end: the fetch brings the block's first 1696 rows and
  leaves the rest of the staging buffer at contents nothing names, the body computes on all 4096 rows, and the
  write-back writes the first 1696 rows of what it left and nothing past the array.

  This file gives, at the contents the arrays have when the kernel is entered (a parameter): each window's block at
  a point (what a fetch there reads); what the body leaves in the result's staging buffer, as a function of what
  the two inputs' buffers hold; the body's triple; the pipeline's proof data; the body obligation at every point,
  which for the two windows whose last block is cut speaks of the rows inside the array only; and the arrays after
  the last write-back: the inputs as they were found, the result at every row the difference of the widened score
  and the log-normaliser of its column.
-/
import proofs.«207593_g36137854828637_cont_8to1_b_1462_19_alg».proof.Proof.CommonI
import proofs.«207593_g36137854828637_cont_8to1_b_1462_19_alg».proof.Proof.Gen.KernelIdeal.Launch
import proofs.«207593_g36137854828637_cont_8to1_b_1462_19_alg».proof.Proof.Gen.KernelIdeal.Skeleton
import proofs.«207593_g36137854828637_cont_8to1_b_1462_19_alg».proof.Proof.Gen.KernelIdeal.Points
import Idealize.ShloMosaic.Lib.Pipeline.FrameBody
import Idealize.ShloMosaic.Lib.Pipeline.Value
import Idealize.ShloMosaic.Lib.Tactic
import Idealize.ShloMosaic.Lib.ValueIdx

set_option maxRecDepth 16384

noncomputable section

namespace Cert.KernelIdeal.Reg3

open Cert.KernelIdeal Cert.KernelIdeal.Gen Cert.KernelIdeal.Common

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {F : FTy → Type} [FloatOps F] [Named F]

-- the contents of the TensorCore's buffers when the kernel is entered
variable (V : (c : Dev nD) → (b : Ref sig .tc) → Buf (Elt F) ((c : Thread nD τ).loc b))
-- a bound on the pairs the core's waits have recorded before the kernel: the kernel waits on nothing of its own
variable (Rc : Set (SemLoc sig × HIx 1))

/-! ## The windows' blocks -/

/-- A window's block at a point, its part inside the array, read off the array as the kernel finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scores' block at a point as the staging buffer holds it after the fetch when it held d before: the rows
    inside the array are the array's, the others d's. -/
def sblk3 (c : Dev nD) (t : Fin cfg3.N) (d : Vec F S4096x1024 .bf16) : Vec F S4096x1024 .bf16 :=
  win3_0.fill (grid3.coords t) d (iblk3 V c 0 t)

/-- A word for the rows nothing names. -/
def pad3 : Vec F S4096x1024 .bf16 := fun _ => (Elt.inhabited F .bf16).default

/-! ## What the body leaves in the result's buffer -/

/-- The whole buffer, as the body's loads and its store address it. -/
abbrev r3_big : Rect S4096x1024 := Rect.unit (s := S4096x1024) ![0, 0] S4096x1024.size inb_S4096x1024_S4096x1024_0_0
abbrev r3_row : Rect S1x1024 := Rect.unit (s := S1x1024) ![0, 0] S1x1024.size inb_S1x1024_S1x1024_0_0

/-- The result's staging buffer after the body, from what the scores' and the log-normalisers' buffers hold: the
    body's one store, of the whole block. -/
def out3_2 (x0 : Vec F S4096x1024 .bf16) (x1 : Vec F S1x1024 .f32) : Vec F S4096x1024 .f32 :=
  View.canon [⟨r3_big, k3_pay1 (View.ld x0 r3_big) (View.ld x1 r3_row)⟩]

theorem zeros2 : (![0, 0] : Fin 2 → Nat) = fun _ => 0 := funext fun a => by fin_cases a <;> rfl

/-- It is the payload: entry (i, j) the widened score minus the log-normaliser of column j. -/
theorem out3_2_eq (x0 : Vec F S4096x1024 .bf16) (x1 : Vec F S1x1024 .f32) : out3_2 x0 x1 = k3_pay1 x0 x1 := by
  unfold out3_2
  rw [View.canon_unit_zero zeros2, View.ld_unit_zero zeros2, View.ld_unit_zero zeros2]

/-- The one store covers the buffer. -/
theorem cover3_2 (p0 : Vec F S4096x1024 .f32) (y : S4096x1024.Idx) :
    ∃ pc ∈ ([⟨r3_big, p0⟩] : List (View.Piece (Elt F) S4096x1024 .f32)), y ∈ pc.1.set :=
  ⟨_, List.mem_singleton_self _, View.mem_set_unit_zero zeros2 inb_S4096x1024_S4096x1024_0_0 y⟩

/-! ## The body's triple -/

set_option maxHeartbeats 1000000 in
/-- The kernel body on whole staging memrefs, the scores' reading x0, the log-normalisers' reading x1 and the
    result's holding anything, runs to the continuation with the two inputs' as they were and the result's reading
    out3_2 x0 x1: two whole loads, a load of the result's buffer whose value nothing uses, one whole store. -/
theorem sound_kernel3 (c : Dev nD) (E : Set ℕ) (i : grid3.Coords)
    (arg1 : Memref sig .tc .vmem S4096x1024 .bf16) (harg1 : arg1.IsWhole)
    (arg2 : Memref sig .tc .vmem S1x1024 .f32) (harg2 : arg2.IsWhole)
    (arg3 : Memref sig .tc .vmem S4096x1024 .f32) (harg3 : arg3.IsWhole)
    (x0 : Vec F S4096x1024 .bf16) (x1 : Vec F S1x1024 .f32) (K : PUnit → sProp (MM F)) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__fix_body i arg1 harg1 arg2 harg2 arg3 harg3) K := by
  simp only [cc3__fix_body_eq_skeleton]; unfold cc3__fix_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr
    · ipureintro; rfl
    iexact H0
  isplitl [H1]
  · iexists f1; isplitr
    · ipureintro; rfl
    iexact H1
  iexists _; isplitr
  swap
  · iexact H2
  ipureintro
  exact View.read_writes_eq_canon _ _ _ (cover3_2 _)

/-! ## The pipeline's proof data -/

/-- What the kernel may use and need not describe, between points: the core's scoped buffers that are none of its
    staging buffers, each at some contents, and the generator register at some state. -/
def Φ3 (c : Dev nD) : sProp (MM F) :=
  iprop(Pipeline.scopedRest (Ix := HIx 1) (Name := ℕ) (U := UU) (Lvl := ℕ) (Val := Elt F) spec3 c ∗ ∃ r, prngReg c r)

/-- The proof data of the kernel's pipeline on a core: the arrays as the kernel finds them; after the body at a
    point the scores' buffer at its block there (filled out, past the array's end, with a word nothing reads), the
    log-normalisers' at its one block, the result's at out3_2 of those two; the invariant Φ3; nothing owed; full
    shares; the recorded pairs within the bound the kernel was entered with. -/
def dat3 (c : Dev nD) : Dat τ (Elt F) (HIx 1) ℕ UU ℕ cfg3 c where
  A w := V c (Pipeline.arrRef spec3 w)
  after w t := match w with
    | ⟨0, _⟩ => sblk3 V c t pad3
    | ⟨1, _⟩ => iblk3 V c 1 t
    | ⟨2, _⟩ => out3_2 (sblk3 V c t pad3) (iblk3 V c 1 t)
  Φ _ := Φ3 c
  q _ := fullShare
  owed _ := 0
  recorded _ := Rc

/-- The proof data's arrays are the contents at entry. -/
theorem A_eq3 (c : Dev nD) (w : Fin cfg3.W) : (dat3 V Rc c).A w = V c (Pipeline.arrRef spec3 w) := by
  dsimp only [dat3]

/-- The invariant is the same between any two points, -/
theorem Φ3_first (c : Dev nD) : (dat3 V Rc c).Φ 0 = Φ3 c := rfl
theorem Φ3_last (c : Dev nD) : (dat3 V Rc c).Φ (Fin.last _) = Φ3 c := rfl
theorem Φ3_at (c : Dev nD) (t : Fin (cfg3.N + 1)) : (dat3 V Rc c).Φ t = Φ3 c := rfl
/-- the core owes nothing at any of them, -/
theorem owed3 (c : Dev nD) (t : Fin (cfg3.N + 1)) : (dat3 V Rc c).owed t = 0 := rfl
/-- its recorded pairs stay within the bound it came with, -/
theorem recorded3 (c : Dev nD) (t : Fin (cfg3.N + 1)) : (dat3 V Rc c).recorded t = Rc := rfl
/-- and every input array is held whole. -/
theorem q3 (c : Dev nD) (w : Fin cfg3.W) : (dat3 V Rc c).q w = fullShare := rfl

/-- What the body leaves, window by window. -/
theorem after3_0 (c : Dev nD) (t : Fin cfg3.N) : (dat3 V Rc c).after 0 t = sblk3 V c t pad3 := by dsimp only [dat3]
theorem after3_1 (c : Dev nD) (t : Fin cfg3.N) : (dat3 V Rc c).after 1 t = iblk3 V c 1 t := by dsimp only [dat3]
theorem after3_2 (c : Dev nD) (t : Fin cfg3.N) :
    (dat3 V Rc c).after 2 t = out3_2 (sblk3 V c t pad3) (iblk3 V c 1 t) := by dsimp only [dat3]

/-! ## What the body finds -/

/-- The scores' buffer, fetched at every point: the block on the rows inside the array, what the buffer held on
    the others. -/
theorem before3_0 (c : Dev nD) (t : Fin cfg3.N) (d) : (dat3 V Rc c).before 0 t d = sblk3 V c t d := by
  rw [(dat3 V Rc c).before_fetched 0 t (fetch3_0 t) d]
  unfold Dat.fetched Dat.blockOf sblk3 iblk3
  rw [A_eq3]

/-- The log-normalisers' buffer, fetched at the first point only and never written: its block, the same at every
    point. -/
theorem before3_1 (c : Dev nD) (t : Fin cfg3.N) (d) : (dat3 V Rc c).before 1 t d = iblk3 V c 1 t := by
  rw [(dat3 V Rc c).before_in_eq_fetched 1 rfl (fun _ => rfl) (fun _ _ _ => rfl)
    (fun t => by rw [after3_1]; unfold Dat.blockOf iblk3; rw [A_eq3]) t d]
  unfold Dat.fetched Dat.blockOf iblk3
  rw [A_eq3]
  rfl

/-- The result's buffer, written back at every point: fresh at each, holding anything. -/
theorem before3_2 (c : Dev nD) (t : Fin cfg3.N) (d) : (dat3 V Rc c).before 2 t d = d := by
  refine (dat3 V Rc c).before_out_reset 2 rfl t ?_ d
  by_cases h0 : t.val = 0
  · exact .inl h0
  · exact .inr ⟨h0, flush3_2 _⟩

/-! ## The payload at an entry -/

/-- Entry (i, j) of the block the body stores: the score there widened, minus the log-normaliser of column j. -/
theorem k3_pay1_apply (v0 : Vec F S4096x1024 .bf16) (v3 : Vec F S1x1024 .f32) (k : S4096x1024.Idx) :
    k3_pay1 v0 v3 k
      = FloatOps.subf (FloatOps.extf .f32 bitsLt_bf16_f32 (v0 k)) (v3 (ix2 (0 : Fin 1) (k 1 : Fin 1024))) := by
  unfold k3_pay1
  show FloatOps.subf (FloatOps.extf .f32 _ (shapeCast S4096x1024 v0 _ k))
      (broadcastTo S4096x1024 (shapeCast S1x1024 v3 _) _ k) = _
  rw [shapeCast_self, shapeCast_self,
    broadcastTo_apply v3 broadcasts_S1x1024_S4096x1024 k (ix2 (0 : Fin 1) (k 1 : Fin 1024)) (by
      intro a
      match a with
      | ⟨0, _⟩ => rfl
      | ⟨1, _⟩ => rfl)]

/-! ## The rows the cut transfers move -/

/-- On a row the transfers move, the scores' buffer after the fetch holds the array's row, whatever it held. -/
theorem sblk3_moved (c : Dev nD) (t : Fin cfg3.N) (d d' : Vec F S4096x1024 .bf16) (k : S4096x1024.Idx)
    (hk : win3_0.moved (grid3.coords t) k = true) : sblk3 V c t d k = sblk3 V c t d' k := by
  unfold sblk3 Window.fill
  rw [dif_pos hk, dif_pos hk]

/-- So on those rows what the body leaves in the result's buffer does not depend on what the scores' buffer held
    past the array's end: the two windows are cut alike, and an entry of the result is computed from the score
    at the same place. -/
theorem cut_out3_2 (c : Dev nD) (t : Fin cfg3.N) (d : Vec F S4096x1024 .bf16) :
    win3_2.cut (grid3.coords t) (out3_2 (sblk3 V c t d) (iblk3 V c 1 t))
      = win3_2.cut (grid3.coords t) (out3_2 (sblk3 V c t pad3) (iblk3 V c 1 t)) := by
  funext j
  show out3_2 (sblk3 V c t d) (iblk3 V c 1 t) (win3_2.xinj (grid3.coords t) j)
    = out3_2 (sblk3 V c t pad3) (iblk3 V c 1 t) (win3_2.xinj (grid3.coords t) j)
  rw [out3_2_eq, out3_2_eq, k3_pay1_apply, k3_pay1_apply,
    sblk3_moved V c t d pad3 _ (win3_2.moved_xinj (grid3.coords t) j)]

/-! ## The body obligation -/

/-- What the body is called with at a point, -/
def bodyPre3 (c : Dev nD) (t : Fin cfg3.N) : sProp (MM F) :=
  iprop((dat3 V Rc c).Φ t.castSucc ∗ (dat3 V Rc c).owesAt (none : HIx 1) t.castSucc
    ∗ (∃ d, owns (c : Thread nD τ) (st3_0 t) fullShare ((dat3 V Rc c).before 0 t d))
    ∗ (∃ d, owns (c : Thread nD τ) (st3_1 t) fullShare ((dat3 V Rc c).before 1 t d))
    ∗ (∃ d, owns (c : Thread nD τ) (st3_2 t) fullShare ((dat3 V Rc c).before 2 t d)))

/-- and what it returns: the two cut windows' buffers stated on the rows their transfers move. -/
def bodyPost3 (c : Dev nD) (t : Fin cfg3.N) : sProp (MM F) :=
  iprop((dat3 V Rc c).Φ t.succ ∗ (dat3 V Rc c).owesAt (none : HIx 1) t.succ
    ∗ (∃ d, owns (c : Thread nD τ) (st3_0 t) fullShare
        (win3_0.fill (grid3.coords t) d (win3_0.cut (grid3.coords t) ((dat3 V Rc c).after 0 t))))
    ∗ owns (c : Thread nD τ) (st3_1 t) fullShare ((dat3 V Rc c).after 1 t)
    ∗ (∃ d, owns (c : Thread nD τ) (st3_2 t) fullShare
        (win3_2.fill (grid3.coords t) d (win3_2.cut (grid3.coords t) ((dat3 V Rc c).after 2 t)))))

/-- The body at any point: the two inputs' buffers hold their blocks, so the triple applies; the invariant and what
    the core owes pass through unread; the scores' buffer is handed back as found, which on the moved rows is its
    block, and the result's at the payload, which on the moved rows does not see the filler. -/
theorem sound_body3 (c : Dev nD) (t : Fin cfg3.N) :
    bodyPre3 V Rc c t ⊢ wp frame (wpE (defs₀ (F := F)) Variants.none c none) Set.univ (bodyAt3 t) (fun _ => bodyPost3 V Rc c t) := by
  unfold bodyPre3 bodyPost3 bodyAt3
  simp only [before3_0, before3_1, before3_2]
  rw [show (dat3 V Rc c).Φ t.succ = (dat3 V Rc c).Φ t.castSucc from rfl,
    show (dat3 V Rc c).owesAt (none : HIx 1) t.succ = (dat3 V Rc c).owesAt (none : HIx 1) t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (sblk3 V c t d0) (iblk3 V c 1 t) _)
  isplitl [H0]
  · iexact H0
  isplitl [H1]
  · iexact H1
  isplitl [H2]
  · iexists d2; iexact H2
  iintro ⟨H0, H1, H2⟩
  isplitl [HΦ]
  · iexact HΦ
  isplitl [Ho]
  · iexact Ho
  isplitl [H0]
  · iexists d0
    rw [show win3_0.cut (grid3.coords t) (sblk3 V c t pad3) = iblk3 V c 0 t from win3_0.cut_fill _ _ _]
    iexact H0
  isplitl [H1]
  · iexact H1
  · iexists out3_2 (sblk3 V c t d0) (iblk3 V c 1 t)
    rw [← cut_out3_2 V c t d0, win3_2.fill_cut]
    iexact H2

/-- What the pipeline's rule asks of the body, at every point: the three windows one by one. -/
theorem body_obligation3 (c : Dev nD) :
    BodyObligationLoose (dat3 (F := F) V Rc c) (defs₀ (F := F)) Variants.none (none : HIx 1) Set.univ := fun t => by
  rw [bigSep_W3, bigSep_W3]
  exact sound_body3 V Rc c t

/-! ## The arrays after the last write-back -/

/-- The two inputs are never written: they end as the kernel found them. -/
theorem final3_0 (c : Dev nD) : (dat3 V Rc c).arrAt 0 cfg3.N = V c (Pipeline.arrRef spec3 0) :=
  (dat3 V Rc c).arrAt_in 0 rfl _
theorem final3_1 (c : Dev nD) : (dat3 V Rc c).arrAt 1 cfg3.N = V c (Pipeline.arrRef spec3 1) :=
  (dat3 V Rc c).arrAt_in 1 rfl _

/-- The log-probabilities over the whole array: at row n and column b the score there, widened, minus the
    log-normaliser of column b. -/
def logp3 (s : Vec F S100000x1024 .bf16) (lz : Vec F S1x1024 .f32) : Vec F S100000x1024 .f32 :=
  fun i => FloatOps.subf (FloatOps.extf .f32 bitsLt_bf16_f32 (s i)) (lz (ix2 (0 : Fin 1) (i 1 : Fin 1024)))

/-- Where the result's block at a point lies in the array and how much of it the transfers move: rows from
    4096 t on, 4096 of them but at the last point, where the array ends after 1696; every column. -/
theorem geom3_2 : ∀ t : Fin cfg3.N, win3_2.index t 0 * win3_2.size 0 = t.val * 4096
      ∧ win3_2.xsize (grid3.coords t) 0 = min 4096 (100000 - t.val * 4096)
      ∧ win3_2.index t 1 * win3_2.size 1 = 0 ∧ win3_2.xsize (grid3.coords t) 1 = 1024 :=
  (by decide +kernel : ∀ t : Fin grid3.N, win3_2.index t 0 * win3_2.size 0 = t.val * 4096
      ∧ win3_2.xsize (grid3.coords t) 0 = min 4096 (100000 - t.val * 4096)
      ∧ win3_2.index t 1 * win3_2.size 1 = 0 ∧ win3_2.xsize (grid3.coords t) 1 = 1024)

/-- What a point writes back is its block of the log-probabilities: on a row the transfers move the scores'
    buffer holds the array's row, the log-normalisers' buffer holds the one row of its array, and the body's
    payload at an entry is computed from the score at the same place and the log-normaliser of the same column. -/
theorem flushed3_2 (c : Dev nD) (t : Fin cfg3.N) :
    (dat3 V Rc c).flushed 2 t = (win3_2.blk t).view.read (Elt F) (logp3 (V c main_v5_1) (V c main_v5_0)) := by
  show win3_2.cut (grid3.coords t) ((dat3 V Rc c).after 2 t) = _
  rw [after3_2]
  funext j
  show out3_2 (sblk3 V c t pad3) (iblk3 V c 1 t) (win3_2.xinj (grid3.coords t) j) = _
  rw [out3_2_eq, k3_pay1_apply]
  have hs : sblk3 V c t pad3 (win3_2.xinj (grid3.coords t) j) = V c main_v5_1 ((win3_2.rect t).emb j) :=
    win3_0.fill_xinj (grid3.coords t) pad3 (iblk3 V c 0 t) j
  have hl : iblk3 V c 1 t (ix2 (0 : Fin 1) (win3_2.xinj (grid3.coords t) j 1 : Fin 1024))
      = V c main_v5_0 (ix2 (0 : Fin 1) ((win3_2.rect t).emb j 1 : Fin 1024)) := by
    show V c main_v5_0 ((win3_1.rect t).emb (ix2 (0 : Fin 1) (win3_2.xinj (grid3.coords t) j 1 : Fin 1024))) = _
    congr 1
    exact Shape.idx_ext₂ rfl rfl
  rw [hs, hl]
  rfl

/-- An index of the result array is in a point's block iff its row is one of those the block's transfers move. -/
theorem mem_blk3_2 (t : Fin cfg3.N) (i : S100000x1024.Idx) :
    i ∈ ((cfg3.win 2).blk t).view.set
      ↔ t.val * 4096 ≤ (i 0 : ℕ) ∧ (i 0 : ℕ) < t.val * 4096 + min 4096 (100000 - t.val * 4096) := by
  show i ∈ ((View.whole main_v6).slice (win3_2.rect t)).set ↔ _
  rw [View.set_slice_whole, Rect.mem_set_unit]
  obtain ⟨e0, x0, e1, x1⟩ := geom3_2 t
  have h1 : (i 1 : ℕ) < 1024 := (i 1).isLt
  refine ⟨fun h => ?_, fun h a => ?_⟩
  · have := h 0
    rw [e0, x0] at this
    exact this
  · match a with
    | ⟨0, _⟩ =>
      show win3_2.index t 0 * win3_2.size 0 ≤ (i 0 : ℕ)
        ∧ (i 0 : ℕ) < win3_2.index t 0 * win3_2.size 0 + win3_2.xsize (grid3.coords t) 0
      rw [e0, x0]; exact h
    | ⟨1, _⟩ =>
      show win3_2.index t 1 * win3_2.size 1 ≤ (i 1 : ℕ)
        ∧ (i 1 : ℕ) < win3_2.index t 1 * win3_2.size 1 + win3_2.xsize (grid3.coords t) 1
      rw [e1, x1]; omega

/-- The blocks' moved rows are 0 to 4095, 4096 to 8191, and so on to 98304 to 99999: together all the array's. -/
theorem cover3 (i : S100000x1024.Idx) :
    ∃ t : Fin cfg3.N, (cfg3.win 2).flush t = true ∧ i ∈ ((cfg3.win 2).blk t).view.set := by
  have h0 : (i 0 : ℕ) < 100000 := (i 0).isLt
  have hN : cfg3.N = 25 := N_3
  refine ⟨⟨(i 0 : ℕ) / 4096, by omega⟩, flush3_2 _, ?_⟩
  rw [mem_blk3_2]
  dsimp only
  omega

/-- So the result array ends holding the log-probabilities, every row of it. -/
theorem final3_2 (c : Dev nD) : (dat3 V Rc c).arrAt 2 cfg3.N = logp3 (V c main_v5_1) (V c main_v5_0) :=
  (dat3 V Rc c).arrAt_eq_of_cover 2 (logp3 (V c main_v5_1) (V c main_v5_0)) (fun t _ => flushed3_2 V Rc c t) cover3

/-- At row n and column b: the score, widened, minus the log-normaliser of the column. -/
theorem final3_2_apply (c : Dev nD) (n : Fin 100000) (b : Fin 1024) :
    (dat3 V Rc c).arrAt 2 cfg3.N (ix2 n b)
      = FloatOps.subf (FloatOps.extf .f32 bitsLt_bf16_f32 (V c main_v5_1 (ix2 n b))) (V c main_v5_0 (ix2 (0 : Fin 1) b)) := by
  rw [final3_2]
  rfl

/-! ## At Ideal -/

section AtIdeal

/-- On the extended reals the widening changes nothing and the subtraction is the reals': at row n and column b the
    result holds the score there minus the log-normaliser of column b. -/
theorem final3_2_ideal (V : (c : Dev nD) → (b : Ref sig .tc) → Buf (Elt Ideal) ((c : Thread nD τ).loc b))
    (Rc : Set (SemLoc sig × HIx 1)) (c : Dev nD) (n : Fin 100000) (b : Fin 1024) :
    (dat3 (F := Ideal) V Rc c).arrAt 2 cfg3.N (ix2 n b)
      = @HSub.hSub EReal EReal EReal _ (V c main_v5_1 (ix2 n b)) (V c main_v5_0 (ix2 (0 : Fin 1) b)) :=
  final3_2_apply V Rc c n b

end AtIdeal

end Cert.KernelIdeal.Reg3

end
-- ==== Proof.RegionsI.lean ====
/-
  The three TensorCore kernels of the program as consecutive segments of @main on the TensorCore.

  Between two kernels the TensorCore holds every unscoped buffer of its device at known contents, its generator
  register at some state, and what it owes the other threads: nothing, its recorded (cell, index) pairs within
  a bound fixed for the whole stretch (the pairs of level at most 8 on its own cells, which contains every pair
  at index none, so every pair a pipeline's own waits record).

  The first kernel is entered at contents W2, a parameter. A kernel takes its windows' arrays out of the unscoped
  buffers, runs its pipeline on them, and hands them back at what its write-backs leave; every other unscoped
  buffer passes by untouched. So the contents at the next boundary are the previous ones updated at the
  kernel's arrays:  W3 = W2 updated at the first kernel's four arrays,  W4 = W3 updated at the second's five,
  W5 = W4 updated at the third's three.  The generator register enters the first and the third kernel's
  invariant and comes back from it; the second kernel's invariant is made of the scoped buffers alone, and the
  register passes it by. The core's owes enters each pipeline at the bound widened by the pipeline's own pairs
  and comes back within the bound.

  The result is one theorem: from the boundary, the unscoped buffers at W2, the register and the owes, the level
  facts and the three pipelines' ghost state, the three custom calls in order run to the boundary, the unscoped
  buffers at W5, the register and the owes.
-/
import proofs.«207593_g36137854828637_cont_8to1_b_1462_19_alg».proof.Proof.CommonI
import proofs.«207593_g36137854828637_cont_8to1_b_1462_19_alg».proof.Proof.Region1I
import proofs.«207593_g36137854828637_cont_8to1_b_1462_19_alg».proof.Proof.Region2I
import proofs.«207593_g36137854828637_cont_8to1_b_1462_19_alg».proof.Proof.Region2I_Mask
import proofs.«207593_g36137854828637_cont_8to1_b_1462_19_alg».proof.Proof.Region3I
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Regions

open Cert.KernelIdeal Cert.KernelIdeal.Gen Cert.KernelIdeal.Common
-- the three kernels' proof data and what their modules state of them
open Cert.KernelIdeal.Reg1 (dat1 body_obligation1 A_eq1 owed1 recorded1 share1 Φ1 Φ1_first Φ1_last)
open Cert.KernelIdeal.Reg2 (dat2 body_obligation2_of MaskIndep A_eq2 owed2 recorded2 q2 phi2_in phi2_out)
open Cert.KernelIdeal.Reg3 (dat3 body_obligation3 A_eq3 owed3 recorded3 q3 Φ3 Φ3_first Φ3_last)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose cellOf)

variable {F : FTy → Type} [FloatOps F] [Named F]

/-- The second kernel's mask makes its scores independent of what the rows past the arrays' end hold: the fact its
    body obligation is stated under. -/
theorem maskIndep : MaskIndep F := fun t x0 g1 g2 d1 d1' d2 d2' => Reg2.pay6_fill_indep t x0 g1 g2 d1 d1' d2 d2'

/-! ## The thread state that rides through: the generator register and what the core owes -/

/-- The bound on the (cell, index) pairs the TensorCore's waits have recorded: those of level at most 8 on its own
    cells. -/
def Rc (c : Dev nD) : Set (SemLoc sig × HIx 1) := {p | (K (F := F)).lev ((SparseCore.T c), p.1) p.2 ≤ 8}

/-- A pair at index none has level 0: every pair a pipeline's own waits record is within the bound. -/
theorem waitPairs_sub (cfg : Pipeline.Cfg sig Λ₀) (c : Dev nD) : cfg.waitPairs (none : HIx 1) ⊆ Rc (F := F) c := by
  rintro p ⟨w, s, rfl⟩
  show (K (F := F)).lev _ none ≤ 8
  rw [SparseCore.Cfg.lev_none]; exact Nat.zero_le _

/-- The generator register at some state, and the core owing nothing with its recorded pairs within the bound. -/
def Rr (c : Dev nD) : sProp (MM F) := iprop((∃ r, prngReg c r) ∗ Pipeline.owesWithin c (0 : CellTallies nD τ sig (HIx 1)) (Rc (F := F) c))

/-- Into a pipeline: the bound widens by the pipeline's own pairs. -/
theorem owes_in (c : Dev nD) (B : Set (SemLoc sig × HIx 1)) :
    (Pipeline.owesWithin c 0 (Rc (F := F) c) : sProp (MM F)) ⊢ Pipeline.owesWithin c 0 (Rc (F := F) c ∪ B) :=
  Pipeline.owesWithin_mono c 0 Set.subset_union_left

/-- Out of it: the pipeline's own pairs were within the bound already. -/
theorem owes_out (cfg : Pipeline.Cfg sig Λ₀) (c : Dev nD) :
    (Pipeline.owesWithin c 0 (Rc (F := F) c ∪ cfg.waitPairs (none : HIx 1)) : sProp (MM F)) ⊢ Pipeline.owesWithin c 0 (Rc (F := F) c) :=
  Pipeline.owesWithin_mono c 0 (Set.union_subset le_rfl (waitPairs_sub cfg c))

/-- No pipeline has a prefetched table: the tables held are nothing. -/
theorem prefHeld_emp (p : Fin 3) (c : Dev nD) (a : (pcfgs (F := F) p).Adm) :
    (Pipeline.prefHeld (pcfgs (F := F) p).pre c (fun _ => fullShare) a.1 : sProp (MM F)) = BI.emp := by
  unfold Pipeline.prefHeld
  rw [show (Finset.univ : Finset (Fin 0)) = ∅ from rfl, BI.bigSep_empty]

/-! ## The buffer contents at each boundary -/

-- the TensorCore's buffer contents when the first kernel is entered
variable (W2 : Dev nD → Valuation τ sig (Elt F))

/-- The same read at the TensorCore's references (what the first kernel's proof data take). -/
abbrev V2 : (c : Dev nD) → (b : Ref sig .tc) → Buf (Elt F) ((c : Thread nD τ).loc b) := fun c b => W2 c b

/-- After the first kernel: its four arrays at what its write-backs leave, every other buffer as it was. -/
def W3 (c : Dev nD) : Valuation τ sig (Elt F) :=
  Pipeline.withArrays spec1 c (W2 c) fun w => (dat1 (V2 W2) (Rc (F := F) c) c).arrAt w cfg1.N
abbrev V3 : (c : Dev nD) → (b : Ref sig .tc) → Buf (Elt F) ((c : Thread nD τ).loc b) := fun c b => W3 W2 c b

theorem W3_arr (c : Dev nD) (w : Fin cfg1.W) :
    W3 W2 c (Proc.devRef .tc (Pipeline.arrRef spec1 w)) = (dat1 (V2 W2) (Rc (F := F) c) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 W2 c (Proc.devRef .tc b) = W2 c (Proc.devRef .tc b) := by
  unfold W3; exact Pipeline.withArrays_of_ne spec1 c _ _ b hb
/-- At the first kernel's exit each of its arrays holds what the pipeline leaves, and every other buffer what it held. -/
theorem hF1 (c : Dev nD) (w : Fin cfg1.W) : (dat1 (V2 W2) (Rc (F := F) c) c).arrAt w cfg1.N = V3 W2 c (Pipeline.arrRef spec1 w) :=
  (W3_arr W2 c w).symm
theorem hrest1 (c : Dev nD) : ∀ b, b ∉ Finset.univ.image (Pipeline.arrRef spec1) → V3 W2 c b = V2 W2 c b :=
  fun b hb => W3_of_ne W2 c b fun w e => hb (Finset.mem_image.mpr ⟨w, Finset.mem_univ _, e⟩)

/-- After the second kernel: its five arrays at what its write-backs leave, every other buffer as it was. -/
def W4 (c : Dev nD) : Valuation τ sig (Elt F) :=
  Pipeline.withArrays spec2 c (W3 W2 c) fun w => (dat2 (V3 W2) (Rc (F := F) c) c).arrAt w cfg2.N
abbrev V4 : (c : Dev nD) → (b : Ref sig .tc) → Buf (Elt F) ((c : Thread nD τ).loc b) := fun c b => W4 W2 c b

theorem W4_arr (c : Dev nD) (w : Fin cfg2.W) :
    W4 W2 c (Proc.devRef .tc (Pipeline.arrRef spec2 w)) = (dat2 (V3 W2) (Rc (F := F) c) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 W2 c (Proc.devRef .tc b) = W3 W2 c (Proc.devRef .tc b) := by
  unfold W4; exact Pipeline.withArrays_of_ne spec2 c _ _ b hb
theorem hF2 (c : Dev nD) (w : Fin cfg2.W) : (dat2 (V3 W2) (Rc (F := F) c) c).arrAt w cfg2.N = V4 W2 c (Pipeline.arrRef spec2 w) :=
  (W4_arr W2 c w).symm
theorem hrest2 (c : Dev nD) : ∀ b, b ∉ Finset.univ.image (Pipeline.arrRef spec2) → V4 W2 c b = V3 W2 c b :=
  fun b hb => W4_of_ne W2 c b fun w e => hb (Finset.mem_image.mpr ⟨w, Finset.mem_univ _, e⟩)

/-- After the third kernel: its three arrays at what its write-backs leave, every other buffer as it was. -/
def W5 (c : Dev nD) : Valuation τ sig (Elt F) :=
  Pipeline.withArrays spec3 c (W4 W2 c) fun w => (dat3 (V4 W2) (Rc (F := F) c) c).arrAt w cfg3.N
abbrev V5 : (c : Dev nD) → (b : Ref sig .tc) → Buf (Elt F) ((c : Thread nD τ).loc b) := fun c b => W5 W2 c b

theorem W5_arr (c : Dev nD) (w : Fin cfg3.W) :
    W5 W2 c (Proc.devRef .tc (Pipeline.arrRef spec3 w)) = (dat3 (V4 W2) (Rc (F := F) c) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 W2 c (Proc.devRef .tc b) = W4 W2 c (Proc.devRef .tc b) := by
  unfold W5; exact Pipeline.withArrays_of_ne spec3 c _ _ b hb
theorem hF3 (c : Dev nD) (w : Fin cfg3.W) : (dat3 (V4 W2) (Rc (F := F) c) c).arrAt w cfg3.N = V5 W2 c (Pipeline.arrRef spec3 w) :=
  (W5_arr W2 c w).symm
theorem hrest3 (c : Dev nD) : ∀ b, b ∉ Finset.univ.image (Pipeline.arrRef spec3) → V5 W2 c b = V4 W2 c b :=
  fun b hb => W5_of_ne W2 c b fun w e => hb (Finset.mem_image.mpr ⟨w, Finset.mem_univ _, e⟩)

/-! ## What the three kernels leave alone

Only a kernel's OUTPUT arrays change: the activations (the first kernel's), the log-normalisers and the scores (the
second's), the log-probabilities (the third's). An input window's array ends as its kernel found it, and a buffer no
kernel stages passes by. -/

/-- The four output arrays. -/
abbrev outs : Finset (DevRef τ sig) :=
  {Proc.devRef .tc main_v4, Proc.devRef .tc main_v5_0, Proc.devRef .tc main_v5_1, Proc.devRef .tc main_v6}
theorem v4_mem : Proc.devRef .tc main_v4 ∈ (outs : Finset (DevRef τ sig)) := Finset.mem_insert_self _ _
theorem v5_0_mem : Proc.devRef .tc main_v5_0 ∈ (outs : Finset (DevRef τ sig)) := Finset.mem_insert_of_mem (Finset.mem_insert_self _ _)
theorem v5_1_mem : Proc.devRef .tc main_v5_1 ∈ (outs : Finset (DevRef τ sig)) :=
  Finset.mem_insert_of_mem (Finset.mem_insert_of_mem (Finset.mem_insert_self _ _))
theorem v6_mem : Proc.devRef .tc main_v6 ∈ (outs : Finset (DevRef τ sig)) :=
  Finset.mem_insert_of_mem (Finset.mem_insert_of_mem (Finset.mem_insert_of_mem (Finset.mem_singleton_self _)))

/-- The update at a pipeline's arrays leaves a buffer that is none of them as it was. -/
theorem withArrays_of_not_arr {gr W : Nat} (win : Fin W → Pipeline.WinSpec sig gr) (c : Dev nD) (V : Valuation τ sig (Elt F))
    (A : (w : Fin W) → Buf (Elt F) ((win w).arr.view.loc (c.tc : Thread nD τ))) (b : DevRef τ sig)
    (hb : ∀ w, Proc.devRef .tc (Pipeline.arrRef win w) ≠ b) : Pipeline.withArrays win c V A b = V b := by
  unfold Pipeline.withArrays
  rw [dif_neg]
  rintro ⟨w, e⟩
  exact hb w e

/-- The first kernel changes its result array only: its three inputs end as found. -/
theorem W3_of_W2 (c : Dev nD) (b : DevRef τ sig) (hb : b ∉ (outs : Finset (DevRef τ sig))) : W3 W2 c b = W2 c b := by
  by_cases h : ∃ w, Proc.devRef .tc (Pipeline.arrRef spec1 w) = b
  · obtain ⟨w, rfl⟩ := h
    rw [W3_arr]
    match w with
    | ⟨0, _⟩ => exact ((dat1 (V2 W2) (Rc (F := F) c) c).arrAt_in 0 rfl _).trans (A_eq1 (V2 W2) (Rc (F := F) c) c 0)
    | ⟨1, _⟩ => exact ((dat1 (V2 W2) (Rc (F := F) c) c).arrAt_in 1 rfl _).trans (A_eq1 (V2 W2) (Rc (F := F) c) c 1)
    | ⟨2, _⟩ => exact ((dat1 (V2 W2) (Rc (F := F) c) c).arrAt_in 2 rfl _).trans (A_eq1 (V2 W2) (Rc (F := F) c) c 2)
    | ⟨3, _⟩ => exact absurd v4_mem hb
  · unfold W3; exact withArrays_of_not_arr spec1 c _ _ b fun w e => h ⟨w, e⟩

/-- The second kernel changes its two result arrays only: the weights and the bias column end as found (the activations,
    its third input, are the first kernel's result). -/
theorem W4_of_W3 (c : Dev nD) (b : DevRef τ sig) (hb : b ∉ (outs : Finset (DevRef τ sig))) : W4 W2 c b = W3 W2 c b := by
  by_cases h : ∃ w, Proc.devRef .tc (Pipeline.arrRef spec2 w) = b
  · obtain ⟨w, rfl⟩ := h
    rw [W4_arr]
    match w with
    | ⟨0, _⟩ => exact absurd v4_mem hb
    | ⟨1, _⟩ => exact ((dat2 (V3 W2) (Rc (F := F) c) c).arrAt_in 1 rfl _).trans (A_eq2 (V3 W2) (Rc (F := F) c) c 1)
    | ⟨2, _⟩ => exact ((dat2 (V3 W2) (Rc (F := F) c) c).arrAt_in 2 rfl _).trans (A_eq2 (V3 W2) (Rc (F := F) c) c 2)
    | ⟨3, _⟩ => exact absurd v5_0_mem hb
    | ⟨4, _⟩ => exact absurd v5_1_mem hb
  · unfold W4; exact withArrays_of_not_arr spec2 c _ _ b fun w e => h ⟨w, e⟩

/-- The third kernel's three arrays are all results of the kernels. -/
theorem W5_of_W4 (c : Dev nD) (b : DevRef τ sig) (hb : b ∉ (outs : Finset (DevRef τ sig))) : W5 W2 c b = W4 W2 c b := by
  unfold W5
  refine withArrays_of_not_arr spec3 c _ _ b fun w e => ?_
  subst e
  match w with
  | ⟨0, _⟩ => exact hb v5_1_mem
  | ⟨1, _⟩ => exact hb v5_0_mem
  | ⟨2, _⟩ => exact hb v6_mem

/-- Every buffer that is no kernel's result array is, after the three kernels, as the first one found it. -/
theorem W5_of_W2 (c : Dev nD) (b : DevRef τ sig)
    (hb : b ∉ ({Proc.devRef .tc main_v4, Proc.devRef .tc main_v5_0, Proc.devRef .tc main_v5_1, Proc.devRef .tc main_v6} : Finset (DevRef τ sig))) :
    W5 W2 c b = W2 c b :=
  (W5_of_W4 W2 c b hb).trans ((W4_of_W3 W2 c b hb).trans (W3_of_W2 W2 c b hb))

/-! ## The proof data family -/

/-- The prefetched tables' admissible contents: no pipeline has a table. -/
abbrev adm : (p : Fin 3) → (pcfgs (F := F) p).Adm := fun p => (cfgs p).toPCfg_adm
/-- Every pipeline's proof data, each at the contents its kernel is entered at. -/
def pdats : (p : Fin 3) → (c : Dev nD) → Dat τ (Elt F) (HIx 1) ℕ UU ℕ (Pipeline.pin (pcfgs (F := F)) adm p) c
  | ⟨0, _⟩ => fun c => dat1 (V2 W2) (Rc (F := F) c) c
  | ⟨1, _⟩ => fun c => dat2 (V3 W2) (Rc (F := F) c) c
  | ⟨2, _⟩ => fun c => dat3 (V4 W2) (Rc (F := F) c) c

/-- What the TensorCore holds at a boundary: every unscoped buffer at the boundary's contents, the register, the owes. -/
abbrev St (W : Dev nD → Valuation τ sig (Elt F)) (c : Dev nD) : sProp (MM F) :=
  iprop(StableHlo.held (c : Thread nD τ) (Pipeline.ucRefs τ sig) (W c) ∗ Rr c)

/-! ## The kernels as segments -/

-- the library's lemmas are stated over the pinned configuration ‹pin pcfgs adm p›, which unifies with the printed
-- one only when unification may unfold plain definitions in a metavariable's type
set_option backward.isDefEq.respectTransparency.types false in
/-- THE FIRST KERNEL, entered at W2 and left at W3. Its four arrays come out of the unscoped buffers and go back at
    what the pipeline leaves; the generator register goes into its invariant and comes back; the owes goes in at the
    widened bound and comes back within the bound; the other unscoped buffers pass by. No semaphore of its own. -/
def reg1 : Pipeline.RegionSeg (pcfgs (F := F)) adm (pdats W2) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 (V2 W2) (Rc (F := F) c) c).loose
  hwaits := Pipeline.hwaits_of_owed_zero _ _ _ _ (K (F := F)).L (K (F := F)).lev 0 fun c t => owed1 (V2 W2) (Rc (F := F) c) c t
  pre := St W2
  post := St (W3 W2)
  X c := iprop(∃ r, prngReg c r)
  Y c := iprop(∃ r, prngReg c r)
  Z c := Pipeline.unscopedRest (Ix := HIx 1) (Name := ℕ) (U := UU) (Lvl := ℕ) spec1 c (V2 W2 c)
  hentry c := by
    rw [Pipeline.ownSems0_none, prefHeld_emp]
    have hsplit := Pipeline.arrays_of_unscopedBufs (p := 0) (pcfgs (F := F)) adm (pdats W2) launch1.win launch1.arr_whole c
      (share1 (V2 W2) (Rc (F := F) c) c) (V2 W2 c) (A_eq1 (V2 W2) (Rc (F := F) c) c)
    rw [Pipeline.unscopedBufs_held] at hsplit
    have hO : (Pipeline.owesWithin c 0 (Rc (F := F) c) : sProp (MM F)) ⊢ (pdats W2 0 c).owesAt (none : HIx 1) 0 := by
      unfold Pipeline.Dat.owesAt Pipeline.Dat.bound
      rw [show (pdats W2 0 c).owed 0 = 0 from owed1 _ _ c 0, show (pdats W2 0 c).recorded 0 = Rc (F := F) c from recorded1 _ _ c 0]
      exact owes_in c _
    unfold St Rr
    iintro ⟨⟨Hbufs, Hprng, Howes⟩, -, -⟩
    ihave Hs := hsplit $$ Hbufs
    icases Hs with ⟨Harr, Hrest⟩
    imodintro
    isplitl [Harr]; · iexact Harr
    isplitr; · iempintro
    isplitl [Howes]; · iapply hO; iexact Howes
    isplitl [Hprng]; · iexact Hprng
    iexact Hrest
  hin c := by
    rw [prefHeld_emp, show (pdats W2 0 c).Φ 0 = Φ1 c from Φ1_first (V2 W2) (Rc (F := F) c) c]; unfold Φ1
    iintro ⟨Hprng, -, Hsc⟩
    isplitl [Hsc]; · iexact Hsc
    iexact Hprng
  hout c := by
    rw [Pipeline.ownSems0_none, show (pdats W2 0 c).Φ (Fin.last _) = Φ1 c from Φ1_last (V2 W2) (Rc (F := F) c) c]; unfold Φ1
    iintro ⟨Hsc, Hprng⟩
    isplitl [Hprng]; · iexact Hprng
    isplitr; · iempintro
    iexact Hsc
  hexit c := by
    have hjoin := Pipeline.unscopedBufs_of_arrays (p := 0) (pcfgs (F := F)) adm (Ix := HIx 1) (Name := ℕ) (U := UU) (Lvl := ℕ)
      launch1.win launch1.arr_whole c (pdats W2) (share1 (V2 W2) (Rc (F := F) c) c)
      (V2 W2 c) (V3 W2 c) ((pdats W2 0 c).arrAt · cfg1.N) (hF1 W2 c) (hrest1 W2 c)
    rw [Pipeline.unscopedBufs_held] at hjoin
    have hO : (pdats W2 0 c).owesAt (none : HIx 1) (Fin.last _) ⊢ (Pipeline.owesWithin c 0 (Rc (F := F) c) : sProp (MM F)) := by
      unfold Pipeline.Dat.owesAt Pipeline.Dat.bound
      rw [show (pdats W2 0 c).owed (Fin.last _) = 0 from owed1 _ _ c _, show (pdats W2 0 c).recorded (Fin.last _) = Rc (F := F) c from recorded1 _ _ c _]
      exact owes_out cfg1 c
    unfold St Rr
    iintro ⟨Harr, Howes, Hprng, Hrest⟩
    imodintro
    isplitl [Harr Hrest]
    · iapply hjoin; isplitl [Harr] <;> iassumption
    isplitl [Hprng]; · iexact Hprng
    iapply hO; iexact Howes

set_option backward.isDefEq.respectTransparency.types false in
/-- THE SECOND KERNEL, entered at W3 and left at W4. Its five arrays come out of the unscoped buffers and go back at
    what the pipeline leaves; its invariant is made of the scoped buffers alone, so nothing else enters it: the
    generator register passes by with the other unscoped buffers; the owes as before. No semaphore of its own. -/
def reg2 : Pipeline.RegionSeg (pcfgs (F := F)) adm (pdats W2) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obligation2_of (V3 W2) (Rc (F := F) c) maskIndep c
  hwaits := Pipeline.hwaits_of_owed_zero _ _ _ _ (K (F := F)).L (K (F := F)).lev 1 fun c t => owed2 (V3 W2) (Rc (F := F) c) c t
  pre := St (W3 W2)
  post := St (W4 W2)
  X _ := iprop(emp)
  Y _ := iprop(emp)
  Z c := iprop(Pipeline.unscopedRest (Ix := HIx 1) (Name := ℕ) (U := UU) (Lvl := ℕ) spec2 c (V3 W2 c) ∗ ∃ r, prngReg c r)
  hentry c := by
    rw [Pipeline.ownSems0_none, prefHeld_emp]
    have hsplit := Pipeline.arrays_of_unscopedBufs (p := 1) (pcfgs (F := F)) adm (pdats W2) launch2.win launch2.arr_whole c
      ((pdats W2 1 c).share_full (q2 (V3 W2) (Rc (F := F) c) c)) (V3 W2 c) (A_eq2 (V3 W2) (Rc (F := F) c) c)
    rw [Pipeline.unscopedBufs_held] at hsplit
    have hO : (Pipeline.owesWithin c 0 (Rc (F := F) c) : sProp (MM F)) ⊢ (pdats W2 1 c).owesAt (none : HIx 1) 0 := by
      unfold Pipeline.Dat.owesAt Pipeline.Dat.bound
      rw [show (pdats W2 1 c).owed 0 = 0 from owed2 _ _ c 0, show (pdats W2 1 c).recorded 0 = Rc (F := F) c from recorded2 _ _ c 0]
      exact owes_in c _
    unfold St Rr
    iintro ⟨⟨Hbufs, Hprng, Howes⟩, -, -⟩
    ihave Hs := hsplit $$ Hbufs
    icases Hs with ⟨Harr, Hrest⟩
    imodintro
    isplitl [Harr]; · iexact Harr
    isplitr; · iempintro
    isplitl [Howes]; · iapply hO; iexact Howes
    isplitr; · iempintro
    isplitl [Hrest]; · iexact Hrest
    iexact Hprng
  hin c := by
    rw [prefHeld_emp]
    refine BIBase.Entails.trans ?_ (phi2_in (V3 W2) (Rc (F := F) c) c)
    iintro ⟨-, -, Hsc⟩; iexact Hsc
  hout c := by
    rw [Pipeline.ownSems0_none]
    refine (phi2_out (V3 W2) (Rc (F := F) c) c).trans ?_
    iintro Hsc
    isplitr; · iempintro
    isplitr; · iempintro
    iexact Hsc
  hexit c := by
    have hjoin := Pipeline.unscopedBufs_of_arrays (p := 1) (pcfgs (F := F)) adm (Ix := HIx 1) (Name := ℕ) (U := UU) (Lvl := ℕ)
      launch2.win launch2.arr_whole c (pdats W2) ((pdats W2 1 c).share_full (q2 (V3 W2) (Rc (F := F) c) c))
      (V3 W2 c) (V4 W2 c) ((pdats W2 1 c).arrAt · cfg2.N) (hF2 W2 c) (hrest2 W2 c)
    rw [Pipeline.unscopedBufs_held] at hjoin
    have hO : (pdats W2 1 c).owesAt (none : HIx 1) (Fin.last _) ⊢ (Pipeline.owesWithin c 0 (Rc (F := F) c) : sProp (MM F)) := by
      unfold Pipeline.Dat.owesAt Pipeline.Dat.bound
      rw [show (pdats W2 1 c).owed (Fin.last _) = 0 from owed2 _ _ c _, show (pdats W2 1 c).recorded (Fin.last _) = Rc (F := F) c from recorded2 _ _ c _]
      exact owes_out cfg2 c
    unfold St Rr
    iintro ⟨Harr, Howes, -, Hrest, Hprng⟩
    imodintro
    isplitl [Harr Hrest]
    · iapply hjoin; isplitl [Harr] <;> iassumption
    isplitl [Hprng]; · iexact Hprng
    iapply hO; iexact Howes

set_option backward.isDefEq.respectTransparency.types false in
/-- THE THIRD KERNEL, entered at W4 and left at W5: as the first, over its three arrays. -/
def reg3 : Pipeline.RegionSeg (pcfgs (F := F)) adm (pdats W2) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := body_obligation3 (V4 W2) (Rc (F := F) c) c
  hwaits := Pipeline.hwaits_of_owed_zero _ _ _ _ (K (F := F)).L (K (F := F)).lev 2 fun c t => owed3 (V4 W2) (Rc (F := F) c) c t
  pre := St (W4 W2)
  post := St (W5 W2)
  X c := iprop(∃ r, prngReg c r)
  Y c := iprop(∃ r, prngReg c r)
  Z c := Pipeline.unscopedRest (Ix := HIx 1) (Name := ℕ) (U := UU) (Lvl := ℕ) spec3 c (V4 W2 c)
  hentry c := by
    rw [Pipeline.ownSems0_none, prefHeld_emp]
    have hsplit := Pipeline.arrays_of_unscopedBufs (p := 2) (pcfgs (F := F)) adm (pdats W2) launch3.win launch3.arr_whole c
      ((pdats W2 2 c).share_full (q3 (V4 W2) (Rc (F := F) c) c)) (V4 W2 c) (A_eq3 (V4 W2) (Rc (F := F) c) c)
    rw [Pipeline.unscopedBufs_held] at hsplit
    have hO : (Pipeline.owesWithin c 0 (Rc (F := F) c) : sProp (MM F)) ⊢ (pdats W2 2 c).owesAt (none : HIx 1) 0 := by
      unfold Pipeline.Dat.owesAt Pipeline.Dat.bound
      rw [show (pdats W2 2 c).owed 0 = 0 from owed3 _ _ c 0, show (pdats W2 2 c).recorded 0 = Rc (F := F) c from recorded3 _ _ c 0]
      exact owes_in c _
    unfold St Rr
    iintro ⟨⟨Hbufs, Hprng, Howes⟩, -, -⟩
    ihave Hs := hsplit $$ Hbufs
    icases Hs with ⟨Harr, Hrest⟩
    imodintro
    isplitl [Harr]; · iexact Harr
    isplitr; · iempintro
    isplitl [Howes]; · iapply hO; iexact Howes
    isplitl [Hprng]; · iexact Hprng
    iexact Hrest
  hin c := by
    rw [prefHeld_emp, show (pdats W2 2 c).Φ 0 = Φ3 c from Φ3_first (V4 W2) (Rc (F := F) c) c]; unfold Φ3
    iintro ⟨Hprng, -, Hsc⟩
    isplitl [Hsc]; · iexact Hsc
    iexact Hprng
  hout c := by
    rw [Pipeline.ownSems0_none, show (pdats W2 2 c).Φ (Fin.last _) = Φ3 c from Φ3_last (V4 W2) (Rc (F := F) c) c]; unfold Φ3
    iintro ⟨Hsc, Hprng⟩
    isplitl [Hprng]; · iexact Hprng
    isplitr; · iempintro
    iexact Hsc
  hexit c := by
    have hjoin := Pipeline.unscopedBufs_of_arrays (p := 2) (pcfgs (F := F)) adm (Ix := HIx 1) (Name := ℕ) (U := UU) (Lvl := ℕ)
      launch3.win launch3.arr_whole c (pdats W2) ((pdats W2 2 c).share_full (q3 (V4 W2) (Rc (F := F) c) c))
      (V4 W2 c) (V5 W2 c) ((pdats W2 2 c).arrAt · cfg3.N) (hF3 W2 c) (hrest3 W2 c)
    rw [Pipeline.unscopedBufs_held] at hjoin
    have hO : (pdats W2 2 c).owesAt (none : HIx 1) (Fin.last _) ⊢ (Pipeline.owesWithin c 0 (Rc (F := F) c) : sProp (MM F)) := by
      unfold Pipeline.Dat.owesAt Pipeline.Dat.bound
      rw [show (pdats W2 2 c).owed (Fin.last _) = 0 from owed3 _ _ c _, show (pdats W2 2 c).recorded (Fin.last _) = Rc (F := F) c from recorded3 _ _ c _]
      exact owes_out cfg3 c
    unfold St Rr
    iintro ⟨Harr, Howes, Hprng, Hrest⟩
    imodintro
    isplitl [Harr Hrest]
    · iapply hjoin; isplitl [Harr] <;> iassumption
    isplitl [Hprng]; · iexact Hprng
    iapply hO; iexact Howes

/-! ## The three kernels in order -/

/-- The segments' run is the three custom calls and the return. -/
theorem segs_run :
    Pipeline.Seg.run [.region (reg1 W2), .region (reg2 W2), .region (reg3 W2)]
      = .op (.customCall (Pipeline.entry 0) ()) fun _ => .op (.customCall (Pipeline.entry 1) ()) fun _ =>
          .op (.customCall (Pipeline.entry 2) ()) fun _ => .ret ⟨⟩ := rfl

set_option backward.isDefEq.respectTransparency.types false in
/-- THE RUN of the three kernels on the TensorCore: from the boundary, every unscoped buffer at W2 beside the register
    and the owes, the level facts and the three pipelines' ghost state, the three custom calls in order run to the
    boundary and every unscoped buffer at W5 beside the register and the owes, for the continuation. Each pipeline
    is entered once; each segment is entered from what the one before it left. -/
theorem wp_regions (c : Dev nD) (Q : PUnit → sProp (MM F)) :
    iprop((iprop(boundary (c.tc : Thread nD τ) ∗ StableHlo.held (c : Thread nD τ) (Pipeline.ucRefs τ sig) (W5 W2 c) ∗ Rr c) -∗ Q ⟨⟩)
        ∗ boundary (c.tc : Thread nD τ)
        ∗ (StableHlo.held (c : Thread nD τ) (Pipeline.ucRefs τ sig) (W2 c) ∗ Rr c)
        ∗ levAts (K (F := F)).L (K (F := F)).lev
        ∗ Pipeline.ghostOn (pcfgs (F := F)) adm EP Finset.univ c)
      ⊢ wp frame (wpE (D (F := F)) 𝒱 (c.tc : Thread nD τ) none) Set.univ
          (Pipeline.Seg.run [.region (reg1 W2), .region (reg2 W2), .region (reg3 W2)]) Q :=
  Pipeline.wp_segs (pcfgs (F := F)) adm (pdats W2) (none : HIx 1) cellOf_inj EP defs₀ 𝒱₀ (K (F := F)).L (K (F := F)).lev c
    [.region (reg1 W2), .region (reg2 W2), .region (reg3 W2)] Finset.univ (St W2) (St (W5 W2))
    (by simp only [Pipeline.Seg.pipes_region, Pipeline.Seg.pipes_nil]; decide)
    (fun p _ => Finset.mem_univ p)
    ⟨fun _ => .rfl, fun _ => .rfl, fun _ => .rfl, fun _ => .rfl⟩

/-- The same, the program written out: the three custom calls and the return. -/
theorem wp_regions_run (c : Dev nD) (Q : PUnit → sProp (MM F)) :
    iprop((iprop(boundary (c.tc : Thread nD τ) ∗ StableHlo.held (c : Thread nD τ) (Pipeline.ucRefs τ sig) (W5 W2 c) ∗ Rr c) -∗ Q ⟨⟩)
        ∗ boundary (c.tc : Thread nD τ)
        ∗ (StableHlo.held (c : Thread nD τ) (Pipeline.ucRefs τ sig) (W2 c) ∗ Rr c)
        ∗ levAts (K (F := F)).L (K (F := F)).lev
        ∗ Pipeline.ghostOn (pcfgs (F := F)) adm EP Finset.univ c)
      ⊢ wp frame (wpE (D (F := F)) 𝒱 (c.tc : Thread nD τ) none) Set.univ
          (.op (.customCall (Pipeline.entry 0) ()) fun _ => .op (.customCall (Pipeline.entry 1) ()) fun _ =>
            .op (.customCall (Pipeline.entry 2) ()) fun _ => .ret ⟨⟩) Q := by
  rw [← segs_run W2]; exact wp_regions W2 c Q

end Cert.KernelIdeal.Regions

end
-- ==== Proof.LaunchI.lean ====
/-
  The launch of the whole program: the TensorCore's @main — three host operations, the SparseCore call,
  three pipelined regions, a final transpose — against the SparseCore launch theorem.
-/
import proofs.«207593_g36137854828637_cont_8to1_b_1462_19_alg».proof.Proof.CommonI
import proofs.«207593_g36137854828637_cont_8to1_b_1462_19_alg».proof.Proof.ScTileI
import proofs.«207593_g36137854828637_cont_8to1_b_1462_19_alg».proof.Proof.LaunchElemI
import proofs.«207593_g36137854828637_cont_8to1_b_1462_19_alg».proof.Proof.RegionsI
import Idealize.ShloMosaic.Lib.Pipeline.RegionsLoop
import Idealize.ShloMosaic.Lib.Tactic

noncomputable section

namespace Cert.KernelIdeal.Launch

open Cert.KernelIdeal Cert.KernelIdeal.Gen Cert.KernelIdeal.Common Cert.KernelIdeal.ScTile Cert.KernelIdeal.LaunchElem
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.StableHlo (held wp_hlo_within)
open Cert.KernelIdeal.Regions (Rc Rr)

variable {F : FTy → Type} [FloatOps F] [Named F]

variable (m : (ℓ : Loc nD τ sig) → Buf (Elt F) ℓ) (ρ : Dev nD → PrngReg)

/-! ## The TensorCore's buffer contents at each boundary of @main -/

/-- The three host operations before the SparseCore call. -/
abbrev op0 : HloOp τ sig (Elt F) := StableHlo.reshape main_arg3 main_v0 rfl shapeCasts_S512_S1x512
abbrev op1 : HloOp τ sig (Elt F) := StableHlo.unary main_arg4 main_v1 ((transpose S100000x512 [1, 0] · transposes_S512x100000_S100000x512_1_0) : (⟨S512x100000, .f32⟩ : BufTy).Contents (Elt F) → (⟨S100000x512, .f32⟩ : BufTy).Contents (Elt F))
abbrev op2 : HloOp τ sig (Elt F) := StableHlo.reshape main_arg5 main_v2 rfl shapeCasts_S100000_S100000x1
/-- The transpose after the regions. -/
abbrev op3 : HloOp τ sig (Elt F) := StableHlo.unary main_v6 main_v7 ((transpose S1024x100000 [1, 0] · transposes_S100000x1024_S1024x100000_1_0) : (⟨S100000x1024, .f32⟩ : BufTy).Contents (Elt F) → (⟨S1024x100000, .f32⟩ : BufTy).Contents (Elt F))

abbrev a0' : DevRef τ sig := Proc.devRef .tc (main_arg0 : Ref sig .tc)
abbrev a1' : DevRef τ sig := Proc.devRef .tc (main_arg1 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v6' : DevRef τ sig := Proc.devRef .tc (main_v6 : Ref sig .tc)
abbrev v7' : DevRef τ sig := Proc.devRef .tc (main_v7 : Ref sig .tc)

/-- Each host operation touches unscoped TensorCore buffers only. -/
theorem op0_sub : (op0 (F := F)).bufs ⊆ Pipeline.ucRefs τ sig := by
  intro b hb
  have : b = a3' ∨ b = v0' := by simpa [op0, StableHlo.reshape, StableHlo.unary, HloOp.bufs] using hb
  rcases this with rfl | rfl <;> decide
theorem op1_sub : (op1 (F := F)).bufs ⊆ Pipeline.ucRefs τ sig := by
  intro b hb
  have : b = a4' ∨ b = v1' := by simpa [op1, StableHlo.unary, HloOp.bufs] using hb
  rcases this with rfl | rfl <;> decide
theorem op2_sub : (op2 (F := F)).bufs ⊆ Pipeline.ucRefs τ sig := by
  intro b hb
  have : b = a5' ∨ b = v2' := by simpa [op2, StableHlo.reshape, StableHlo.unary, HloOp.bufs] using hb
  rcases this with rfl | rfl <;> decide
theorem op3_sub : (op3 (F := F)).bufs ⊆ Pipeline.ucRefs τ sig := by
  intro b hb
  have : b = v6' ∨ b = v7' := by simpa [op3, StableHlo.unary, HloOp.bufs] using hb
  rcases this with rfl | rfl <;> decide

/-- At the launch. -/
abbrev W0 (d : Dev nD) : Valuation τ sig (Elt F) := fun b => m (d, b)
/-- After the three host operations. -/
abbrev W1 (d : Dev nD) : Valuation τ sig (Elt F) := (op2 (F := F)).result ((op1 (F := F)).result ((op0 (F := F)).result (W0 m d)))
/-- After the SparseCore call: the pooled embeddings in place. -/
def W2 (d : Dev nD) : Valuation τ sig (Elt F) := Function.update (W1 m d) v3' (poolVal d (m (a0Loc d)) (m (a1Loc d)))

/-- The SparseCore call's three arrays. -/
abbrev S3 : Finset (DevRef τ sig) := {a0', a1', v3'}
theorem S3_sub : (S3 : Finset (DevRef τ sig)) ⊆ Pipeline.ucRefs τ sig := by decide

theorem held_S3 (d : Dev nD) (W : Valuation τ sig (Elt F)) :
    (held (SparseCore.T d) S3 W : sProp (MM F)) = iprop((a0Loc d ↦{fullShare} W a0') ∗ (a1Loc d ↦{fullShare} W a1') ∗ v3Loc d ↦{fullShare} W v3') := by
  unfold held S3
  rw [SparseCore.bigSep_insert' (by decide), SparseCore.bigSep_insert' (by decide), bigSep_singleton]

theorem W1_a0 (d : Dev nD) : W1 m d a0' = m (a0Loc d) := by
  show (op2 (F := F)).result _ a0' = _
  rw [(op2 (F := F)).result_of_not_mem _ (b := a0') (show a0' ∉ ({v2'} : Finset (DevRef τ sig)) by decide),
    (op1 (F := F)).result_of_not_mem _ (b := a0') (show a0' ∉ ({v1'} : Finset (DevRef τ sig)) by decide),
    (op0 (F := F)).result_of_not_mem _ (b := a0') (show a0' ∉ ({v0'} : Finset (DevRef τ sig)) by decide)]
theorem W1_a1 (d : Dev nD) : W1 m d a1' = m (a1Loc d) := by
  show (op2 (F := F)).result _ a1' = _
  rw [(op2 (F := F)).result_of_not_mem _ (b := a1') (show a1' ∉ ({v2'} : Finset (DevRef τ sig)) by decide),
    (op1 (F := F)).result_of_not_mem _ (b := a1') (show a1' ∉ ({v1'} : Finset (DevRef τ sig)) by decide),
    (op0 (F := F)).result_of_not_mem _ (b := a1') (show a1' ∉ ({v0'} : Finset (DevRef τ sig)) by decide)]

theorem W2_a0 (d : Dev nD) : W2 m d a0' = m (a0Loc d) := (Function.update_of_ne (show a0' ≠ v3' by decide) _ _).trans (W1_a0 m d)
theorem W2_a1 (d : Dev nD) : W2 m d a1' = m (a1Loc d) := (Function.update_of_ne (show a1' ≠ v3' by decide) _ _).trans (W1_a1 m d)
theorem W2_v3 (d : Dev nD) : W2 m d v3' = poolVal d (m (a0Loc d)) (m (a1Loc d)) := Function.update_self _ _ _
theorem held_rest_W2 (d : Dev nD) :
    (held (SparseCore.T d) (Pipeline.ucRefs τ sig \ S3) (W2 m d) : sProp (MM F)) = held (SparseCore.T d) (Pipeline.ucRefs τ sig \ S3) (W1 m d) :=
  StableHlo.held_congr (SparseCore.T d) fun b hb => Function.update_of_ne (fun e => by
    subst e; exact (Finset.mem_sdiff.mp hb).2 (by decide)) _ _

/-! ## What rides through the regions beside the buffers -/

theorem Rr_intro (d : Dev nD) (r : PrngReg) (W : Waits sig (HIx 1)) (hW : (K (F := F)).WBelow (SparseCore.T d) W 8) :
    iprop(prngReg d r ∗ owes (SparseCore.T d) (0 : CellTallies nD τ sig (HIx 1)) W) ⊢ (Rr (F := F) d : sProp (MM F)) := by
  unfold Regions.Rr Pipeline.owesWithin
  iintro ⟨Hp, HO⟩
  isplitl [Hp]; · iexists r; iexact Hp
  iexists W
  isplitr; · ipureintro; exact fun p hp => hW p hp
  iexact HO

theorem Rr_elim (d : Dev nD) :
    (Rr (F := F) d : sProp (MM F)) ⊢ iprop((∃ r, prngReg d r) ∗ ∃ W, ⌜(K (F := F)).WBelow (SparseCore.T d) W 8⌝ ∗ owes (SparseCore.T d) (0 : CellTallies nD τ sig (HIx 1)) W) := by
  unfold Regions.Rr Pipeline.owesWithin
  iintro ⟨Hp, ⟨%W, %hW, HO⟩⟩
  isplitl [Hp]; · iexact Hp
  iexists W
  isplitr; · ipureintro; exact fun p hp => hW hp
  iexact HO

/-- After the three regions. -/
abbrev W5 (d : Dev nD) : Valuation τ sig (Elt F) := Regions.W5 (W2 m) d

/-- After the final transpose. -/
abbrev W6 (d : Dev nD) : Valuation τ sig (Elt F) := (op3 (F := F)).result (W5 m d)

/-- What @main leaves the claim: every unscoped TensorCore buffer at its final contents. -/
def FIN (d : Dev nD) : sProp (MM F) := held (SparseCore.T d) (Pipeline.ucRefs τ sig) (W6 m d)

/-- The three regions, run in order: the segments' run, lifted to the SparseCore launch's body table. -/
theorem regionsStep (d : Dev nD) (Ψ : sProp (MM F)) :
  iprop((iprop(boundary (SparseCore.T d) ∗ held (SparseCore.T d) (Pipeline.ucRefs τ sig) (W5 m d) ∗ Rr (F := F) d) -∗ Ψ)
      ∗ boundary (SparseCore.T d) ∗ (held (SparseCore.T d) (Pipeline.ucRefs τ sig) (W2 m d) ∗ Rr (F := F) d) ∗ levAts (K (F := F)).L (K (F := F)).lev
      ∗ G (F := F) d)
    ⊢ wp frame (wpE ((K (F := F)).defs (D (F := F))) 𝒱 (SparseCore.T d) none) Set.univ (Prog.lift (TpuEff.customCall (SparseCore.inner (Pipeline.entry 0)) ()))
        fun _ => wp frame (wpE ((K (F := F)).defs (D (F := F))) 𝒱 (SparseCore.T d) none) Set.univ (Prog.lift (TpuEff.customCall (SparseCore.inner (Pipeline.entry 1)) ()))
          fun _ => wp frame (wpE ((K (F := F)).defs (D (F := F))) 𝒱 (SparseCore.T d) none) Set.univ (Prog.lift (TpuEff.customCall (SparseCore.inner (Pipeline.entry 2)) ()))
            fun _ => Ψ := by
  refine (Regions.wp_regions_run (W2 m) d (fun _ => Ψ)).trans ?_
  refine ((K (F := F)).wp_liftProg (D (F := F)) 𝒱 (SparseCore.T d) Set.univ none _ (fun _ => Ψ)).trans ?_
  show wp frame (wpE ((K (F := F)).defs (D (F := F))) 𝒱 (SparseCore.T d) none) Set.univ
      ((Prog.lift (TpuEff.customCall (SparseCore.inner (Pipeline.entry 0)) ())) >>= fun _ =>
        (Prog.lift (TpuEff.customCall (SparseCore.inner (Pipeline.entry 1)) ())) >>= fun _ =>
          Prog.lift (TpuEff.customCall (SparseCore.inner (Pipeline.entry 2)) ())) (fun _ => Ψ) ⊢ _
  rw [wp_bind, wp_bind]

theorem hmain (hidx : IdxOK m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = StableHlo.held (SparseCore.T d) (Pipeline.ucRefs τ sig) (W0 m d)
        from Pipeline.unscopedBufs_held d (W0 m d)]
  simp only [main, wp_bind, wp_pure]
  iintro ⟨#Hctx, Hst, ⟨Hb, Hheld, Hsems, Hp⟩, HG⟩
  -- the three host operations
  iapply (wp_hlo_within 𝒱 (SparseCore.T d) none Set.univ (op := op0 (F := F)) (S := Pipeline.ucRefs τ sig) op0_sub (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := Pipeline.ucRefs τ sig) op1_sub (V := (op0 (F := F)).result (W0 m d))) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := Pipeline.ucRefs τ sig) op2_sub (V := (op1 (F := F)).result ((op0 (F := F)).result (W0 m d)))) $$ [Hb Hheld]
  · isplitl [Hb]; · iexact Hb
    iexact Hheld
  iintro ⟨Hb, Hheld⟩
  rw [wp_ret]; imodintro
  -- the SparseCore call: the index array, the table and the result array out of the held buffers, and back
  ihave Hsp := (Entails.of_eq (StableHlo.held_sub_split (SparseCore.T d) S3_sub (W1 m d))) $$ Hheld
  icases Hsp with ⟨H3, Hrest⟩
  ihave H3' := (Entails.of_eq (held_S3 d (W1 m d))) $$ H3
  icases H3' with ⟨Ha0, Ha1, Hv3⟩
  iapply ((K (F := F)).wp_run (D (F := F)) 𝒱 (EH := EH) (P := P m) κ d 0) $$ [Hst Ha0 Ha1 Hv3 Hb Hrest Hsems Hp HG]
  isplitr; · iexact Hctx
  isplitl [Hst]; · iexact Hst
  isplitl [Ha0 Ha1 Hv3]
  · rw [st0_eq, W1_a0, W1_a1]
    isplitl [Ha0]; · iexact Ha0
    isplitl [Ha1]; · iexact Ha1
    iexists _; iexact Hv3
  iintro ⟨Hst, Hdn⟩
  ihave Hdn' := (Entails.of_eq (dn0_eq m d)) $$ Hdn
  icases Hdn' with ⟨Ha0, Ha1, Hv3⟩
  -- the buffers again, the result array at the pooled embeddings
  ihave Hheld := (Entails.of_eq (StableHlo.held_sub_split (SparseCore.T d) S3_sub (W2 m d)).symm) $$ [Ha0 Ha1 Hv3 Hrest]
  · isplitl [Ha0 Ha1 Hv3]
    · rw [held_S3, W2_a0, W2_a1, W2_v3]
      isplitl [Ha0]; · iexact Ha0
      isplitl [Ha1]; · iexact Ha1
      iexact Hv3
    · rw [held_rest_W2]; iexact Hrest
  -- the core's owes out of its handshake state
  unfold SparseCore.Cfg.tcSt
  icases Hst with ⟨⟨%W, %hW, HO⟩, Hst'⟩
  ihave HO := (Entails.of_eq (congrArg (fun O => owes (SparseCore.T d) O W) ((K (F := F)).Otc_end d (n := (0 : Fin 1).val + 1) (le_refl _)))) $$ HO
  ihave HR := (Rr_intro (F := F) d (ρ d) W hW) $$ [Hp HO]
  · isplitl [Hp]; · iexact Hp
    iexact HO
  ihave Hlev := ((K (F := F)).ctx_levAts (EH := EH) (P := P m) κ) $$ Hctx
  -- the three regions
  iapply (regionsStep m d _) $$ [Hb Hheld HR Hlev HG Hst' Hsems]
  isplitl [Hst' Hsems]
  · iintro ⟨Hb, Hheld, HR⟩
    -- the final transpose
    iapply (wp_hlo_within 𝒱 (SparseCore.T d) none Set.univ (op := op3 (F := F)) (S := Pipeline.ucRefs τ sig) op3_sub (V := W5 m d)) $$ [Hb Hheld]
    · isplitl [Hb]; · iexact Hb
      iexact Hheld
    iintro ⟨Hb, Hheld⟩
    rw [wp_ret]; imodintro; imodintro
    ihave HR' := (Rr_elim (F := F) d) $$ HR
    icases HR' with ⟨-, ⟨%W', %hW', HO⟩⟩
    isplitl [HO Hst']
    · isplitl [HO]
      · iexists W'
        isplitr; · ipureintro; exact hW'
        rw [(K (F := F)).Otc_end d (n := 1) (le_refl _)]; iexact HO
      · iexact Hst'
    · unfold FIN; iexact Hheld
  isplitl [Hb]; · iexact Hb
  isplitl [Hheld HR]
  · isplitl [Hheld]; · iexact Hheld
    iexact HR
  isplitl [Hlev]; · iexact Hlev
  iexact HG

/-! ## The argument arrays end as launched -/

theorem W1_of_not (d : Dev nD) (b : DevRef τ sig) (hb : b ∉ ({v0', v1', v2'} : Finset (DevRef τ sig))) : W1 m d b = m (d, b) := by
  have h0 : b ∉ ({v0'} : Finset (DevRef τ sig)) := fun h => hb (by simp only [Finset.mem_insert, Finset.mem_singleton] at h ⊢; exact Or.inl h)
  have h1 : b ∉ ({v1'} : Finset (DevRef τ sig)) := fun h => hb (by simp only [Finset.mem_insert, Finset.mem_singleton] at h ⊢; exact Or.inr (Or.inl h))
  have h2 : b ∉ ({v2'} : Finset (DevRef τ sig)) := fun h => hb (by simp only [Finset.mem_insert, Finset.mem_singleton] at h ⊢; exact Or.inr (Or.inr h))
  show (op2 (F := F)).result _ b = _
  rw [(op2 (F := F)).result_of_not_mem _ (b := b) h2, (op1 (F := F)).result_of_not_mem _ (b := b) h1, (op0 (F := F)).result_of_not_mem _ (b := b) h0]

theorem W2_of_ne (d : Dev nD) (b : DevRef τ sig) (hb : b ≠ v3') : W2 m d b = W1 m d b := Function.update_of_ne hb _ _

theorem W6_of_ne (d : Dev nD) (b : DevRef τ sig) (hb : b ∉ ({v7'} : Finset (DevRef τ sig))) : W6 m d b = W5 m d b :=
  (op3 (F := F)).result_of_not_mem _ (b := b) hb

/-- The regions' output arrays. -/
abbrev outs : Finset (DevRef τ sig) := {Proc.devRef .tc (main_v4 : Ref sig .tc), Proc.devRef .tc (main_v5_0 : Ref sig .tc), Proc.devRef .tc (main_v5_1 : Ref sig .tc), v6'}

/-- A buffer no host operation, call or region writes ends as launched. -/
theorem W6_kept (d : Dev nD) (b : DevRef τ sig)
    (h7 : b ∉ ({v7'} : Finset (DevRef τ sig))) (ho : b ∉ (outs : Finset (DevRef τ sig))) (h3 : b ≠ v3') (h012 : b ∉ ({v0', v1', v2'} : Finset (DevRef τ sig))) :
    W6 m d b = m (d, b) := by
  rw [W6_of_ne m d b h7, show W5 m d b = W2 m d b from Regions.W5_of_W2 (W2 m) d b ho, W2_of_ne m d b h3, W1_of_not m d b h012]

def fq (d : Dev nD) (s' : Phys nD τ sig (Elt F)) : Prop := ∀ b ∈ Pipeline.ucRefs τ sig, s'.mem.mem (d, b) = W6 m d b

theorem hfin (d : Dev nD) (s' : Phys nD τ sig (Elt F)) : iprop(FIN m d ∗ SI s') ⊢ (⌜fq m d s'⌝ : sProp (MM F)) := by
  unfold FIN StableHlo.held
  iintro ⟨Hh, HSI⟩
  ihave H := (pointsTo_read_all (Pipeline.ucRefs τ sig) (fun b => ((SparseCore.T d).1, b)) (W6 m d) s') $$ [Hh HSI]
  · isplitl [Hh] <;> iassumption
  icases H with ⟨%h, -⟩
  ipureintro; exact h

theorem run_main [∀ e, Nonempty (Elt F e)] (hidx : IdxOK m) :
    θ_run (Cert.KernelIdeal.defs (F := F)) (Cert.KernelIdeal.threads (F := F)) ⟨m, fun _ => 0, ρ⟩ (fun r => ∀ d : Dev nD, ∀ b ∈ Pipeline.ucRefs τ sig, r.2.mem (d, b) = W6 m d b) :=
  SparseCore.Cfg.θ_run_sc (K := K (F := F)) (D := D (F := F)) (𝒱 := 𝒱) (EH := EH) (P := P m) facts v₀
    (fun q hq => match q with | 0 => nomatch hq)
    (fun q _ => match q with | 0 => tileObl m hidx)
    (fun q _ => match q with | 0 => SparseCore.Cfg.VecSplit.of_plain (vecSplit m))
    m ρ main (G (F := F)) (FIN m) (u₀ (F := F)) (sep_elim_left.trans (hu₀ m)) (hmain m ρ hidx) (fq m) (hfin m) _ (fun _ h d => h d) (hheld := P_held m)

end Cert.KernelIdeal.Launch

end
-- ==== Proof.RefPre.lean ====
/-
  What the printed input-domain precondition says, entry by entry.

  The precondition is the conjunction of six `all`s: for each of the five float arrays, `|x| < +∞` at every
  entry, and for the index array `0 ≤ w ≤ 99999` as signed words at every entry. Read back:
  every float entry is a real number, and every index word, read unsigned, is below `100000`.
-/
import proofs.«207593_g36137854828637_cont_8to1_b_1462_19_alg».proof.Pre_input_domain
import proofs.«207593_g36137854828637_cont_8to1_b_1462_19_alg».proof.Proof.Gen.Pre_input_domain
import Idealize.ShloMosaic.Lib.ValueIdx
import Idealize.ShloMosaic.Lib.ReduceAll
import Idealize.ShloMosaic.Lib.Affine
import Idealize.ShloMosaic.Lib.StableHlo.Predicate
import Idealize.ShloMosaic.PureOps.Ideal.Laws

noncomputable section

namespace Cert.ReferenceIdeal.RefPre

open Idealize.ShloMosaic Idealize.ShloMosaic.ValueIdx Cert.Pre_input_domain Cert.Pre_input_domain.Gen

instance : Subsingleton S_.Idx := ⟨fun a b => funext fun d => d.elim0⟩

/-- The binary32 pattern of `+∞` is the top of the extended reals. -/
theorem ofBits_pos_inf : Ideal.ofBits .f32 0x7F800000#32 = ⊤ := by simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [ofBits_pos_inf] at h
  have hlt : max x (-x) < ⊤ := by
    exact of_decide_eq_true ((StableHlo.Predicate.ofBool_eq_one_iff _).mp h)
  induction x using EReal.rec with
  | bot => simp at hlt
  | top => simp at hlt
  | coe r => exact ⟨r, rfl⟩

/-- One `all(|x| < +∞)` of the precondition, read at an entry. -/
theorem real_of_all {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant (F := Ideal) S_ .f32 0x7F800000#32)))
      (constantI S_ 1 1#1) hr h_S_ ix0 = 1#1) (i : s.Idx) : ∃ r : ℝ, x i = (r : EReal) :=
  real_of_abs_lt (x i) (Host.reduce_andi_all _ _ hr h_S_ ix0 h i)

/-- A signed word between `0` and `99999` is, read unsigned, below `100000`. -/
theorem lt_of_signed_range {w : BitVec 32} (h0 : IntOp.cmpi .sge w 0#32 = 1#1) (h1 : IntOp.cmpi .sle w 99999#32 = 1#1) :
    w.toNat < 100000 := by
  have a0 : (0#32 : BitVec 32).toInt ≤ w.toInt := IntOp.cmpi_sge.mp h0
  have a1 : w.toInt ≤ (99999#32 : BitVec 32).toInt := IntOp.cmpi_sle.mp h1
  rw [show (0#32 : BitVec 32).toInt = 0 from by decide] at a0
  rw [show (99999#32 : BitVec 32).toInt = 99999 from by decide] at a1
  rw [BitVec.toInt_eq_toNat_cond] at a0 a1
  split at a0 <;> omega

section AnyInstance
variable {F : FTy → Type} [FloatOps F] (seqs : IVec S1024x50 32) (table : FVec F S100000x128 .f32) (W1 : FVec F S128x512 .f32)
  (b1 : FVec F S512 .f32) (W2 : FVec F S512x100000 .f32) (b2 : FVec F S100000 .f32)

/-- The integer conjunct does not depend on the float values: at any instance, under the precondition every index
    word, read unsigned, is below the table's height. -/
theorem idx_all_of_pre (h : fn (F := F) seqs table W1 b1 W2 b2 = fun _ => 1#1) (i : S1024x50.Idx) :
    (seqs i).toNat < 100000 := by
  have h0 := congrFun h ix0
  dsimp only [fn, fn_part1] at h0
  obtain ⟨_, hS⟩ := IntOp.andi_eq_one.mp h0
  obtain ⟨g0, g1⟩ := IntOp.andi_eq_one.mp (Host.reduce_andi_all _ _ _ h_S_ ix0 hS i)
  exact lt_of_signed_range g0 g1

/-- The same at coordinates. -/
theorem idx_of_pre_any (h : fn (F := F) seqs table W1 b1 W2 b2 = fun _ => 1#1) (b : Fin 1024) (l : Fin 50) :
    (seqs (ix2 b l)).toNat < 100000 :=
  idx_all_of_pre seqs table W1 b1 W2 b2 h (ix2 b l)
end AnyInstance

/-- At the word-level values. -/
theorem idx_of_pre_bits (seqs : IVec S1024x50 32) (table : FVec Bits S100000x128 .f32) (W1 : FVec Bits S128x512 .f32)
    (b1 : FVec Bits S512 .f32) (W2 : FVec Bits S512x100000 .f32) (b2 : FVec Bits S100000 .f32)
    (h : fn (F := Bits) seqs table W1 b1 W2 b2 = fun _ => 1#1) (b : Fin 1024) (l : Fin 50) :
    (seqs (ix2 b l)).toNat < 100000 :=
  idx_of_pre_any seqs table W1 b1 W2 b2 h b l

section
variable (seqs : IVec S1024x50 32) (table : FVec Ideal S100000x128 .f32) (W1 : FVec Ideal S128x512 .f32)
  (b1 : FVec Ideal S512 .f32) (W2 : FVec Ideal S512x100000 .f32) (b2 : FVec Ideal S100000 .f32)

/-- The precondition's six conjuncts. -/
theorem split_pre (h : fn (F := Ideal) seqs table W1 b1 W2 b2 = fun _ => 1#1) :
    ((∀ i, ∃ r : ℝ, table i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal)))
    ∧ ∀ i, (seqs i).toNat < 100000 := by
  have h0 := congrFun h ix0
  dsimp only [fn, fn_part1] at h0
  obtain ⟨h0, hS⟩ := IntOp.andi_eq_one.mp h0
  obtain ⟨h0, hb2⟩ := IntOp.andi_eq_one.mp h0
  obtain ⟨h0, hW2⟩ := IntOp.andi_eq_one.mp h0
  obtain ⟨h0, hb1⟩ := IntOp.andi_eq_one.mp h0
  obtain ⟨hT, hW1⟩ := IntOp.andi_eq_one.mp h0
  refine ⟨⟨real_of_all table _ _ hT, real_of_all W1 _ _ hW1, real_of_all b1 _ _ hb1, real_of_all W2 _ _ hW2,
    real_of_all b2 _ _ hb2⟩, fun i => ?_⟩
  obtain ⟨g0, g1⟩ := IntOp.andi_eq_one.mp (Host.reduce_andi_all _ _ _ h_S_ ix0 hS i)
  exact lt_of_signed_range g0 g1

/-- Under the precondition every index word, read unsigned, is below the table's height. -/
theorem idx_of_pre (h : fn (F := Ideal) seqs table W1 b1 W2 b2 = fun _ => 1#1) (b : Fin 1024) (l : Fin 50) :
    (seqs (ix2 b l)).toNat < 100000 :=
  (split_pre seqs table W1 b1 W2 b2 h).2 (ix2 b l)

/-- Under the precondition every entry of the five float arrays is a real number. -/
theorem finite_of_pre (h : fn (F := Ideal) seqs table W1 b1 W2 b2 = fun _ => 1#1) :
    (∀ i, ∃ r : ℝ, table i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal)) :=
  (split_pre seqs table W1 b1 W2 b2 h).1

/-- A real number is neither infinity. -/
theorem ne_bot_top_of_real {x : EReal} (h : ∃ r : ℝ, x = (r : EReal)) : x ≠ ⊥ ∧ x ≠ ⊤ := by
  obtain ⟨r, rfl⟩ := h
  exact ⟨EReal.coe_ne_bot r, EReal.coe_ne_top r⟩

/-- Under the precondition no entry of the five float arrays is an infinity. -/
theorem ne_inf_of_pre (h : fn (F := Ideal) seqs table W1 b1 W2 b2 = fun _ => 1#1) :
    (∀ i, table i ≠ ⊥ ∧ table i ≠ ⊤) ∧ (∀ i, W1 i ≠ ⊥ ∧ W1 i ≠ ⊤) ∧ (∀ i, b1 i ≠ ⊥ ∧ b1 i ≠ ⊤)
      ∧ (∀ i, W2 i ≠ ⊥ ∧ W2 i ≠ ⊤) ∧ (∀ i, b2 i ≠ ⊥ ∧ b2 i ≠ ⊤) := by
  obtain ⟨hT, hW1, hb1, hW2, hb2⟩ := finite_of_pre seqs table W1 b1 W2 b2 h
  exact ⟨fun i => ne_bot_top_of_real (hT i), fun i => ne_bot_top_of_real (hW1 i), fun i => ne_bot_top_of_real (hb1 i),
    fun i => ne_bot_top_of_real (hW2 i), fun i => ne_bot_top_of_real (hb2 i)⟩
end

end Cert.ReferenceIdeal.RefPre

end
-- ==== Proof.PreI.lean ====
/-
  What the program's precondition says of the launch memory's argument arrays.

  The precondition states, on every device, that the six argument arrays satisfy the input-domain predicate.
  Read back entry by entry: every index word of the index array, read unsigned, is below the table's height
  100000, and no entry of the five float arrays is an infinity. Both are stated for the arrays as the launch
  memory holds them, and again for the arrays read by coordinates, the form in which the specification takes them.
-/
import proofs.«207593_g36137854828637_cont_8to1_b_1462_19_alg».proof.Defs
import proofs.«207593_g36137854828637_cont_8to1_b_1462_19_alg».proof.Proof.RefPre
import proofs.«207593_g36137854828637_cont_8to1_b_1462_19_alg».proof.Proof.Gen.Pre_input_domain

noncomputable section

namespace Cert.KernelIdeal.PreI

open Idealize.ShloMosaic Idealize.ShloMosaic.ValueIdx Cert.KernelIdeal

variable (m : (ℓ : Loc nD τ sig) → Buf (Elt Ideal) ℓ)

/-- Under the program's precondition every index word of the launch memory's index array, read unsigned, is below
    the table's height, on every device and at every index of the array. -/
theorem idxOK_of_pre (h : Cert.Pre_KernelIdeal m) :
    ∀ (d : Dev nD) j, (m ((SparseCore.T d).loc main_arg0) j).toNat < 100000 :=
  fun d j => Cert.ReferenceIdeal.RefPre.idx_all_of_pre _ _ _ _ _ _ (h d) j

/-- Under the program's precondition no entry of the launch memory's five float arrays is an infinity
    (the entries compared as extended reals). -/
theorem ne_inf_of_pre (h : Cert.Pre_KernelIdeal m) (d : Dev nD) :
    (∀ i, @Ne EReal (m ((SparseCore.T d).loc main_arg1) i) ⊥ ∧ @Ne EReal (m ((SparseCore.T d).loc main_arg1) i) ⊤)
    ∧ (∀ i, @Ne EReal (m ((SparseCore.T d).loc main_arg2) i) ⊥ ∧ @Ne EReal (m ((SparseCore.T d).loc main_arg2) i) ⊤)
    ∧ (∀ i, @Ne EReal (m ((SparseCore.T d).loc main_arg3) i) ⊥ ∧ @Ne EReal (m ((SparseCore.T d).loc main_arg3) i) ⊤)
    ∧ (∀ i, @Ne EReal (m ((SparseCore.T d).loc main_arg4) i) ⊥ ∧ @Ne EReal (m ((SparseCore.T d).loc main_arg4) i) ⊤)
    ∧ (∀ i, @Ne EReal (m ((SparseCore.T d).loc main_arg5) i) ⊥ ∧ @Ne EReal (m ((SparseCore.T d).loc main_arg5) i) ⊤) :=
  Cert.ReferenceIdeal.RefPre.ne_inf_of_pre _ _ _ _ _ _ (h d)

/-- The launch memory's six argument arrays read by coordinates: the specification's arguments. -/
abbrev seqsOf (d : Dev nD) : Fin 1024 → Fin 50 → BitVec 32 := fun b l => m ((SparseCore.T d).loc main_arg0) (ix2 b l)
abbrev tableOf (d : Dev nD) : Fin 100000 → Fin 128 → EReal := fun r e => m ((SparseCore.T d).loc main_arg1) (ix2 r e)
abbrev w1Of (d : Dev nD) : Fin 128 → Fin 512 → EReal := fun e k => m ((SparseCore.T d).loc main_arg2) (ix2 e k)
abbrev b1Of (d : Dev nD) : Fin 512 → EReal := fun k => m ((SparseCore.T d).loc main_arg3) (ix1 k)
abbrev w2Of (d : Dev nD) : Fin 512 → Fin 100000 → EReal := fun k n => m ((SparseCore.T d).loc main_arg4) (ix2 k n)
abbrev b2Of (d : Dev nD) : Fin 100000 → EReal := fun n => m ((SparseCore.T d).loc main_arg5) (ix1 n)

/-- The same facts over the arrays read by coordinates. -/
theorem seqs_lt_of_pre (h : Cert.Pre_KernelIdeal m) (d : Dev nD) (b : Fin 1024) (l : Fin 50) :
    (seqsOf m d b l).toNat < 100000 := idxOK_of_pre m h d (ix2 b l)
theorem table_ne_of_pre (h : Cert.Pre_KernelIdeal m) (d : Dev nD) (r : Fin 100000) (e : Fin 128) :
    tableOf m d r e ≠ ⊥ ∧ tableOf m d r e ≠ ⊤ := (ne_inf_of_pre m h d).1 (ix2 r e)
theorem w1_ne_of_pre (h : Cert.Pre_KernelIdeal m) (d : Dev nD) (e : Fin 128) (k : Fin 512) :
    w1Of m d e k ≠ ⊥ ∧ w1Of m d e k ≠ ⊤ := (ne_inf_of_pre m h d).2.1 (ix2 e k)
theorem b1_ne_of_pre (h : Cert.Pre_KernelIdeal m) (d : Dev nD) (k : Fin 512) :
    b1Of m d k ≠ ⊥ ∧ b1Of m d k ≠ ⊤ := (ne_inf_of_pre m h d).2.2.1 (ix1 k)
theorem w2_ne_of_pre (h : Cert.Pre_KernelIdeal m) (d : Dev nD) (k : Fin 512) (n : Fin 100000) :
    w2Of m d k n ≠ ⊥ ∧ w2Of m d k n ≠ ⊤ := (ne_inf_of_pre m h d).2.2.2.1 (ix2 k n)
theorem b2_ne_of_pre (h : Cert.Pre_KernelIdeal m) (d : Dev nD) (n : Fin 100000) :
    b2Of m d n ≠ ⊥ ∧ b2Of m d n ≠ ⊤ := (ne_inf_of_pre m h d).2.2.2.2 (ix1 n)

end Cert.KernelIdeal.PreI

end
-- ==== Proof.Region2I_Final.lean ====
/-
  The second TensorCore call of the program: the body obligation, and the arrays after the last write-back.

  The three input arrays end as they were found.  The lz array (f32[1,1024]) is one block, written back at the last
  point: it ends at m + log s of the pair carried through all 25 points.  The scores array (bf16[100000,1024]) is
  written back block by block, the last block cut to the 1696 rows inside the array: row n ends at row n mod 4096
  of the scores block of point n div 4096.
-/
import proofs.«207593_g36137854828637_cont_8to1_b_1462_19_alg».proof.Proof.Region2I
import proofs.«207593_g36137854828637_cont_8to1_b_1462_19_alg».proof.Proof.Region2I_Mask
import Idealize.ShloMosaic.Lib.ValueIdx

set_option maxRecDepth 16384

noncomputable section

namespace Cert.KernelIdeal.Reg2

open Cert.KernelIdeal Cert.KernelIdeal.Gen Cert.KernelIdeal.Common
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

variable (V : (c : Dev nD) → (b : Ref sig .tc) → Buf (Elt F) ((c : Thread nD τ).loc b))
variable (Rc : Set (SemLoc sig × HIx 1))

/-! ## The body obligation -/

/-- THE BODY OBLIGATION of the call's pipeline: the mask fact discharged. -/
theorem body_obligation2 (c : Dev nD) :
    BodyObligationLoose (dat2 (F := F) V Rc c) (defs₀ (F := F)) Variants.none (none : HIx 1) Set.univ :=
  body_obligation2_of V Rc (fun t x0 g1 g2 d1 d1' d2 d2' => pay6_fill_indep t x0 g1 g2 d1 d1' d2 d2') c

/-! ## The arrays after the last write-back -/

/-- The three input arrays end as the call found them. -/
theorem final2_0 (c : Dev nD) : (dat2 V Rc c).arrAt 0 cfg2.N = V c (Pipeline.arrRef spec2 0) :=
  ((dat2 V Rc c).arrAt_in 0 rfl _).trans (A_eq2 V Rc c 0)
theorem final2_1 (c : Dev nD) : (dat2 V Rc c).arrAt 1 cfg2.N = V c (Pipeline.arrRef spec2 1) :=
  ((dat2 V Rc c).arrAt_in 1 rfl _).trans (A_eq2 V Rc c 1)
theorem final2_2 (c : Dev nD) : (dat2 V Rc c).arrAt 2 cfg2.N = V c (Pipeline.arrRef spec2 2) :=
  ((dat2 V Rc c).arrAt_in 2 rfl _).trans (A_eq2 V Rc c 2)

/-- The last point. -/
abbrev tLast : Fin cfg2.N := ⟨24, by decide⟩

/-! ### lz: one block, the whole array, written back at the last point -/

/-- The lz array after the call: m + log s of the pair carried through all 25 points. -/
def lzArr (c : Dev nD) : S1x1024.Idx → Elt F .f32 := out2_3 V c tLast

/-- The lz window's block index is (0, 0) at every point. -/
theorem idx3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)

/-- What the last point writes back is the whole of `lzArr`. -/
theorem flushed3_eq (c : Dev nD) (t : Fin cfg2.N) (hf : (cfg2.win 3).flush t = true) :
    (dat2 V Rc c).flushed 3 t = ((cfg2.win 3).blk t).view.read (Elt F) (lzArr V c) := by
  have h24 : t.val = 24 := by
    have hN : t.val < 25 := lt_of_lt_of_eq t.isLt (show cfg2.N = 25 from N_2)
    have := (flush2_3 t).mp hf; omega
  obtain rfl : t = tLast := Fin.ext h24
  show (cfg2.win 3).cut (grid2.coords tLast) ((dat2 V Rc c).after 3 tLast) = _
  rw [after2_3]
  obtain ⟨e0, e1⟩ := idx3 tLast
  funext j
  show out2_3 V c tLast j = lzArr V c (((cfg2.win 3).blk tLast).view.emb j)
  unfold lzArr
  refine congrArg (out2_3 V c tLast) ?_
  funext a; apply Fin.ext
  match a with
  | ⟨0, _⟩ => show (j 0).val = win2_3.index tLast (0 : Fin 2) * 1 + 1 * (j 0).val; omega
  | ⟨1, _⟩ => show (j 1).val = win2_3.index tLast (1 : Fin 2) * 1024 + 1 * (j 1).val; omega

theorem mem_blk3 (t : Fin cfg2.N) (i : S1x1024.Idx) :
    i ∈ ((cfg2.win 3).blk t).view.set ↔ ∀ a : Fin 2, win2_3.index t a * S1x1024.size a ≤ (i a).val ∧ (i a).val < win2_3.index t a * S1x1024.size a + S1x1024.size a := by
  show i ∈ ((View.whole main_v5_0).slice (win2_3.rect t)).set ↔ _
  rw [View.set_slice_whole, Rect.mem_set_unit]
  exact Iff.rfl

/-- THE lz ARRAY after the call. -/
theorem final2_3 (c : Dev nD) : (dat2 V Rc c).arrAt 3 cfg2.N = lzArr V c :=
  (dat2 V Rc c).arrAt_eq_of_cover 3 (lzArr V c) (fun t hf => flushed3_eq V Rc c t hf) fun i => by
    refine ⟨tLast, (flush2_3 tLast).mpr (by decide), ?_⟩
    rw [mem_blk3]
    obtain ⟨e0, e1⟩ := idx3 tLast
    intro a
    match a with
    | ⟨0, _⟩ => show win2_3.index tLast (0 : Fin 2) * 1 ≤ (i 0).val ∧ (i 0).val < win2_3.index tLast (0 : Fin 2) * 1 + 1; have hi0 : (i 0).val < 1 := (i 0).isLt; omega
    | ⟨1, _⟩ => show win2_3.index tLast (1 : Fin 2) * 1024 ≤ (i 1).val ∧ (i 1).val < win2_3.index tLast (1 : Fin 2) * 1024 + 1024; have hi1 : (i 1).val < 1024 := (i 1).isLt; omega

/-! ### scores: 25 row blocks of 4096, the last cut at the array's end -/

theorem out2_4_congr (c : Dev nD) {t t' : Fin cfg2.N} (h : t = t') {x x' : S4096x1024.Idx} (hx : x = x') :
    out2_4 V c t x = out2_4 V c t' x' := by subst h hx; rfl

/-- The scores array after the call: row n is row n % 4096 of the scores block of point n / 4096. -/
def scoresArr (c : Dev nD) : S100000x1024.Idx → Elt F .bf16 := fun i =>
  out2_4 V c ⟨(i 0).val / 4096, lt_of_lt_of_eq (by have hi0 : (i 0).val < 100000 := (i 0).isLt; omega : (i 0).val / 4096 < 25) N_2.symm⟩
    (ValueIdx.ix2 ⟨(i 0).val % 4096, Nat.mod_lt _ (by decide)⟩ (i 1))

/-- The scores window's block index is (t, 0) at point t; its last block is cut to the 1696 rows inside the array. -/
theorem idx4 : ∀ t : Fin cfg2.N, win2_4.index t (0 : Fin 2) = t.val ∧ win2_4.index t (1 : Fin 2) = 0 :=
  (by decide +kernel : ∀ t : Fin grid2.N, win2_4.index t (0 : Fin 2) = t.val ∧ win2_4.index t (1 : Fin 2) = 0)
theorem xsz4 : ∀ t : Fin cfg2.N, win2_4.xsize (grid2.coords t) (0 : Fin 2) = (if t.val = 24 then 1696 else 4096)
    ∧ win2_4.xsize (grid2.coords t) (1 : Fin 2) = 1024 :=
  (by decide +kernel : ∀ t : Fin grid2.N, win2_4.xsize (grid2.coords t) (0 : Fin 2) = (if t.val = 24 then 1696 else 4096)
    ∧ win2_4.xsize (grid2.coords t) (1 : Fin 2) = 1024)

/-- WHAT POINT `t` WRITES BACK is block `t` of `scoresArr`. -/
theorem flushed4_eq (c : Dev nD) (t : Fin cfg2.N) :
    (dat2 V Rc c).flushed 4 t = ((cfg2.win 4).blk t).view.read (Elt F) (scoresArr V c) := by
  show (cfg2.win 4).cut (grid2.coords t) ((dat2 V Rc c).after 4 t) = _
  rw [after2_4]
  obtain ⟨i0, i1⟩ := idx4 t
  obtain ⟨s0, s1⟩ := xsz4 t
  have hN : t.val < 25 := lt_of_lt_of_eq t.isLt (show cfg2.N = 25 from N_2)
  funext j
  have hj0 : (j 0).val < win2_4.xsize (grid2.coords t) (0 : Fin 2) := (j 0).isLt
  have hj1 : (j 1).val < win2_4.xsize (grid2.coords t) (1 : Fin 2) := (j 1).isLt
  rw [s0] at hj0; rw [s1] at hj1
  have hj0' : (j 0).val < 4096 := by split at hj0 <;> omega
  have e0 : ((((cfg2.win 4).blk t).view.emb j) 0).val = win2_4.index t (0 : Fin 2) * 4096 + 1 * (j 0).val := rfl
  have e1 : ((((cfg2.win 4).blk t).view.emb j) 1).val = win2_4.index t (1 : Fin 2) * 1024 + 1 * (j 1).val := rfl
  show out2_4 V c t (win2_4.xinj (grid2.coords t) j) = scoresArr V c (((cfg2.win 4).blk t).view.emb j)
  unfold scoresArr
  refine out2_4_congr V c (Fin.ext ?_) ?_
  · show t.val = ((((cfg2.win 4).blk t).view.emb j) 0).val / 4096
    rw [e0, i0]; omega
  · funext a; apply Fin.ext
    match a with
    | ⟨0, _⟩ => show (j 0).val = ((((cfg2.win 4).blk t).view.emb j) 0).val % 4096; rw [e0, i0]; omega
    | ⟨1, _⟩ => show (j 1).val = ((((cfg2.win 4).blk t).view.emb j) 1).val; rw [e1, i1]; omega

theorem mem_blk4 (t : Fin cfg2.N) (i : S100000x1024.Idx) :
    i ∈ ((cfg2.win 4).blk t).view.set ↔ ∀ a : Fin 2, win2_4.index t a * S4096x1024.size a ≤ (i a).val
      ∧ (i a).val < win2_4.index t a * S4096x1024.size a + win2_4.xsize (grid2.coords t) a := by
  show i ∈ ((View.whole main_v5_1).slice (win2_4.rect t)).set ↔ _
  rw [View.set_slice_whole, Rect.mem_set_unit]
  exact Iff.rfl

/-- THE SCORES ARRAY after the call: every row is in the block of its point. -/
theorem final2_4 (c : Dev nD) : (dat2 V Rc c).arrAt 4 cfg2.N = scoresArr V c :=
  (dat2 V Rc c).arrAt_eq_of_cover 4 (scoresArr V c) (fun t _ => flushed4_eq V Rc c t) fun i => by
    have hi0 : (i 0).val < 100000 := (i 0).isLt
    have hi1 : (i 1).val < 1024 := (i 1).isLt
    let t : Fin cfg2.N := ⟨(i 0).val / 4096, lt_of_lt_of_eq (by omega : (i 0).val / 4096 < 25) N_2.symm⟩
    have ht : t.val = (i 0).val / 4096 := rfl
    refine ⟨t, flush2_4 t, ?_⟩
    rw [mem_blk4]
    obtain ⟨i0, i1⟩ := idx4 t
    obtain ⟨s0, s1⟩ := xsz4 t
    intro a
    match a with
    | ⟨0, _⟩ =>
      show win2_4.index t (0 : Fin 2) * 4096 ≤ (i 0).val ∧ (i 0).val < win2_4.index t (0 : Fin 2) * 4096 + win2_4.xsize (grid2.coords t) (0 : Fin 2)
      rw [i0, s0, ht]; split <;> omega
    | ⟨1, _⟩ =>
      show win2_4.index t (1 : Fin 2) * 1024 ≤ (i 1).val ∧ (i 1).val < win2_4.index t (1 : Fin 2) * 1024 + win2_4.xsize (grid2.coords t) (1 : Fin 2)
      rw [i1, s1]; omega

end Cert.KernelIdeal.Reg2

end
-- ==== Proof.LseMath.lean ====
/-
  Online log-sum-exp on the extended reals.

  A row of finitely many real scores y n is laid out in tiles: entry (t, r) of the table x holds
  the score y n at the one place (t, r) = e n (e injective) and ⊥ (that is -∞, a padded entry) at
  every place of a tile t < T that no score occupies. A running pair (m, s), started at (⊥, 0),
  is updated tile by tile:
      m' = max m (sup over r of x t r),
      s' = s * exp (m - m') + ∑ r, exp (x t r - m'),
  with exp ⊥ = 0. After T tiles, m is the maximum of all scores and s = ∑ n, exp (y n - m), so
  m + log s is the log-sum-exp of the scores, and y n - (m + log s) is the log-softmax computed the
  textbook way: shift by the maximum M, subtract log ∑ exp (y n' - M).

  The proof keeps the invariant, for t ≤ T and S t the scores placed in tiles below t:
      m_t = sup over S t of y,      s_t = ∑ n ∈ S t, exp (y n - m_t).
  A step multiplies s_t by exp (m_t - m_{t+1}); for S t empty both sides are 0 (m_t = ⊥), else
  m_t and m_{t+1} are real and exp (a - b) * exp (b - c) = exp (a - c). The sum over the rows of
  tile t is the sum over the scores placed there, the padded rows adding exp ⊥ = 0.
-/
import Idealize.ShloMosaic.PureOps.Ideal
import Mathlib.Data.EReal.Operations
import Mathlib.Data.Finset.Lattice.Fold
import Mathlib.Algebra.BigOperators.Group.Finset.Basic
import Mathlib.Analysis.SpecialFunctions.Exp

noncomputable section

namespace Cert.LseMath

open Idealize.ShloMosaic
open scoped BigOperators

/-- One tile's update of the running (maximum, scaled sum) by the tile's column v. -/
def step {R : Type} [Fintype R] (v : R → EReal) (ms : EReal × EReal) : EReal × EReal :=
  (max ms.1 (Finset.univ.sup v),
   ms.2 * Ideal.exp (ms.1 - max ms.1 (Finset.univ.sup v))
     + ∑ r, Ideal.exp (v r - max ms.1 (Finset.univ.sup v)))

/-- The running pair after t tiles, from (⊥, 0). -/
def acc {R : Type} [Fintype R] (x : ℕ → R → EReal) : ℕ → EReal × EReal
  | 0 => (⊥, 0)
  | t + 1 => step (x t) (acc x t)

theorem acc_zero {R : Type} [Fintype R] (x : ℕ → R → EReal) : acc x 0 = (⊥, 0) := rfl

theorem acc_succ {R : Type} [Fintype R] (x : ℕ → R → EReal) (t : ℕ) : acc x (t + 1) = step (x t) (acc x t) := rfl

/-! ### Small facts on the extended reals -/

/-- The coercion of a finite real sum is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- exp of a difference of two reals. -/
theorem exp_coe_sub_coe (a c : ℝ) : Ideal.exp ((a : EReal) - (c : EReal)) = (Real.exp (a - c) : EReal) := by
  rw [← EReal.coe_sub]; rfl

/-- A padded entry adds nothing: exp (⊥ - m) = 0 at every m. -/
theorem exp_bot_sub (m : EReal) : Ideal.exp (⊥ - m) = 0 := by
  rw [EReal.bot_sub]; rfl

/-- ... in particular at a real m. -/
theorem exp_bot_sub_coe (m : ℝ) : Ideal.exp (⊥ - (m : EReal)) = 0 := exp_bot_sub _

/-- A padded row's score: 0 + ⊥ = ⊥. -/
theorem zero_add_bot : (0 : EReal) + ⊥ = ⊥ := EReal.add_bot 0

/-- The supremum of a finite family is the fold of max from ⊥. -/
theorem fold_max_bot_eq_sup {ι : Type} (s : Finset ι) (v : ι → EReal) : s.fold max ⊥ v = s.sup v := rfl

/-- For a real a and c, subtracting c + L is subtracting c, then L, at every extended real L. -/
theorem coe_sub_coe_add (a c : ℝ) (L : EReal) : (a : EReal) - ((c : EReal) + L) = (a : EReal) - (c : EReal) - L := by
  induction L using EReal.rec with
  | bot => rw [EReal.add_bot, ← EReal.coe_sub, EReal.coe_sub_bot, EReal.coe_sub_bot]
  | top => rw [EReal.coe_add_top, ← EReal.coe_sub, EReal.sub_top, EReal.sub_top]
  | coe l => rw [← EReal.coe_add, ← EReal.coe_sub, ← EReal.coe_sub, ← EReal.coe_sub, sub_add_eq_sub_sub]

/-! ### Suprema of finitely many reals -/

section sup
variable {N : Type}

theorem sup_coe_ne_top (S : Finset N) (y : N → ℝ) : S.sup (fun n => (y n : EReal)) ≠ ⊤ :=
  ne_of_lt ((Finset.sup_lt_iff bot_lt_top).2 fun n _ => EReal.coe_lt_top (y n))

theorem exists_coe_of_sup (S : Finset N) (y : N → ℝ) (hS : S.Nonempty) :
    ∃ c : ℝ, S.sup (fun n => (y n : EReal)) = (c : EReal) := by
  obtain ⟨n0, hn0⟩ := hS
  have h1 := sup_coe_ne_top S y
  have h2 : S.sup (fun n => (y n : EReal)) ≠ ⊥ := by
    intro h
    have h3 := Finset.le_sup (f := fun n => (y n : EReal)) hn0
    rw [h] at h3
    exact EReal.coe_ne_bot _ (le_bot_iff.1 h3)
  exact ⟨_, (EReal.coe_toReal h1 h2).symm⟩

/-- Moving the reference point of a scaled sum from the supremum of its scores up to m'. -/
theorem rescale (S : Finset N) (y : N → ℝ) (m' : EReal)
    (hle : S.sup (fun n => (y n : EReal)) ≤ m') (htop : m' ≠ ⊤) :
    (∑ n ∈ S, Ideal.exp ((y n : EReal) - S.sup (fun n => (y n : EReal))))
        * Ideal.exp (S.sup (fun n => (y n : EReal)) - m')
      = ∑ n ∈ S, Ideal.exp ((y n : EReal) - m') := by
  rcases S.eq_empty_or_nonempty with rfl | hS
  · simp
  · obtain ⟨c, hc⟩ := exists_coe_of_sup S y hS
    have hbot : m' ≠ ⊥ := by
      intro h
      rw [h, hc] at hle
      exact EReal.coe_ne_bot _ (le_bot_iff.1 hle)
    obtain ⟨c', rfl⟩ : ∃ c' : ℝ, m' = (c' : EReal) := ⟨_, (EReal.coe_toReal htop hbot).symm⟩
    rw [hc]
    simp only [exp_coe_sub_coe]
    rw [← coe_finset_sum, ← coe_finset_sum, ← EReal.coe_mul, Finset.sum_mul]
    congr 1
    refine Finset.sum_congr rfl fun n _ => ?_
    rw [← Real.exp_add]
    congr 1
    ring

end sup

/-! ### One tile: its rows against the scores placed in it -/

section tiles
variable {R N : Type} [Fintype R] [Fintype N]

/-- The supremum of tile t's column is the supremum of the scores placed in tile t. -/
theorem tile_sup (T : ℕ) (y : N → ℝ) (x : ℕ → R → EReal) (e : N → ℕ × R)
    (hx : ∀ n, x (e n).1 (e n).2 = (y n : EReal))
    (hbot : ∀ t r, t < T → (∀ n, e n ≠ (t, r)) → x t r = ⊥) (t : ℕ) (ht : t < T) :
    Finset.univ.sup (x t) = (Finset.univ.filter fun n => (e n).1 = t).sup (fun n => (y n : EReal)) := by
  apply le_antisymm
  · refine Finset.sup_le fun r _ => ?_
    by_cases h : ∃ n, e n = (t, r)
    · obtain ⟨n, hn⟩ := h
      have h1 : (e n).1 = t := by rw [hn]
      have h2 : (e n).2 = r := by rw [hn]
      have h3 := hx n
      rw [h1, h2] at h3
      rw [h3]
      exact Finset.le_sup (f := fun n => (y n : EReal)) (Finset.mem_filter.2 ⟨Finset.mem_univ _, h1⟩)
    · rw [hbot t r ht (fun n hn => h ⟨n, hn⟩)]
      exact bot_le
  · refine Finset.sup_le fun n hn => ?_
    have h1 : (e n).1 = t := (Finset.mem_filter.1 hn).2
    rw [← hx n, h1]
    exact Finset.le_sup (Finset.mem_univ _)

/-- A sum over tile t's rows of a function that vanishes at ⊥ is the sum over the scores placed in tile t. -/
theorem tile_sum (T : ℕ) (y : N → ℝ) (x : ℕ → R → EReal) (e : N → ℕ × R) (he : Function.Injective e)
    (hx : ∀ n, x (e n).1 (e n).2 = (y n : EReal))
    (hbot : ∀ t r, t < T → (∀ n, e n ≠ (t, r)) → x t r = ⊥) (t : ℕ) (ht : t < T)
    (F : EReal → EReal) (hF : F ⊥ = 0) :
    ∑ r, F (x t r) = ∑ n ∈ Finset.univ.filter (fun n => (e n).1 = t), F (y n : EReal) := by
  classical
  have hinj : ∀ a ∈ Finset.univ.filter (fun n => (e n).1 = t), ∀ b ∈ Finset.univ.filter (fun n => (e n).1 = t),
      (e a).2 = (e b).2 → a = b := by
    intro a ha b hb hab
    have ha' : (e a).1 = t := (Finset.mem_filter.1 ha).2
    have hb' : (e b).1 = t := (Finset.mem_filter.1 hb).2
    exact he (Prod.ext (ha'.trans hb'.symm) hab)
  rw [← Finset.sum_subset (Finset.subset_univ ((Finset.univ.filter fun n => (e n).1 = t).image fun n => (e n).2))]
  · rw [Finset.sum_image hinj]
    refine Finset.sum_congr rfl fun n hn => ?_
    have h1 : (e n).1 = t := (Finset.mem_filter.1 hn).2
    rw [← hx n, h1]
  · intro r _ hr
    rw [hbot t r ht ?_, hF]
    intro n hn
    apply hr
    rw [Finset.mem_image]
    exact ⟨n, Finset.mem_filter.2 ⟨Finset.mem_univ _, by rw [hn]⟩, by rw [hn]⟩

/-- The invariant: after t ≤ T tiles the pair is (maximum, sum of exp of the differences to it) over the
    scores placed in the tiles below t. -/
theorem acc_eq (T : ℕ) (y : N → ℝ) (x : ℕ → R → EReal) (e : N → ℕ × R) (he : Function.Injective e)
    (hx : ∀ n, x (e n).1 (e n).2 = (y n : EReal))
    (hbot : ∀ t r, t < T → (∀ n, e n ≠ (t, r)) → x t r = ⊥) (t : ℕ) (ht : t ≤ T) :
    acc x t = ((Finset.univ.filter fun n => (e n).1 < t).sup (fun n => (y n : EReal)),
               ∑ n ∈ Finset.univ.filter (fun n => (e n).1 < t),
                 Ideal.exp ((y n : EReal) - (Finset.univ.filter fun n => (e n).1 < t).sup (fun n => (y n : EReal)))) := by
  classical
  induction t with
  | zero => simp [acc]
  | succ t ih =>
    have ht' : t < T := ht
    have hC : (Finset.univ.filter fun n => (e n).1 < t + 1)
        = (Finset.univ.filter fun n => (e n).1 < t) ∪ (Finset.univ.filter fun n => (e n).1 = t) := by
      ext n
      simp only [Finset.mem_filter, Finset.mem_union, Finset.mem_univ, true_and]
      omega
    have hdisj : Disjoint (Finset.univ.filter fun n => (e n).1 < t) (Finset.univ.filter fun n => (e n).1 = t) :=
      Finset.disjoint_filter.2 fun n _ h1 h2 => by omega
    have hm : max ((Finset.univ.filter fun n => (e n).1 < t).sup (fun n => (y n : EReal))) (Finset.univ.sup (x t))
        = (Finset.univ.filter fun n => (e n).1 < t + 1).sup (fun n => (y n : EReal)) := by
      rw [tile_sup T y x e hx hbot t ht', hC, Finset.sup_union]
    show step (x t) (acc x t) = _
    rw [ih (le_of_lt ht')]
    unfold step
    simp only
    rw [hm]
    refine Prod.ext rfl ?_
    simp only
    rw [rescale _ y _ (hm ▸ le_max_left _ _) (sup_coe_ne_top _ y),
      tile_sum T y x e he hx hbot t ht' (fun a => Ideal.exp (a - (Finset.univ.filter fun n => (e n).1 < t + 1).sup (fun n => (y n : EReal))))
        (exp_bot_sub _),
      hC, Finset.sum_union hdisj]

/-- After all T tiles: the maximum of all scores and the sum of exp of the differences to it. -/
theorem acc_final (T : ℕ) (y : N → ℝ) (x : ℕ → R → EReal) (e : N → ℕ × R) (he : Function.Injective e)
    (hlt : ∀ n, (e n).1 < T) (hx : ∀ n, x (e n).1 (e n).2 = (y n : EReal))
    (hbot : ∀ t r, t < T → (∀ n, e n ≠ (t, r)) → x t r = ⊥) :
    acc x T = (Finset.univ.sup (fun n => (y n : EReal)),
               ∑ n, Ideal.exp ((y n : EReal) - Finset.univ.sup (fun n => (y n : EReal)))) := by
  have hU : (Finset.univ.filter fun n => (e n).1 < T) = Finset.univ :=
    Finset.filter_true_of_mem fun n _ => hlt n
  rw [acc_eq T y x e he hx hbot T le_rfl, hU]

/-- The online log-sum-exp gives the log-softmax of the scores. -/
theorem online_lse_eq (T : ℕ) (y : N → ℝ) (x : ℕ → R → EReal) (e : N → ℕ × R) (he : Function.Injective e)
    (hlt : ∀ n, (e n).1 < T) (hx : ∀ n, x (e n).1 (e n).2 = (y n : EReal))
    (hbot : ∀ t r, t < T → (∀ n, e n ≠ (t, r)) → x t r = ⊥) (n : N) :
    (y n : EReal) - ((acc x T).1 + Ideal.log (acc x T).2)
      = ((y n : EReal) - max ⊥ (Finset.univ.sup fun n' => (y n' : EReal)))
          - Ideal.log (∑ n', Ideal.exp ((y n' : EReal) - max ⊥ (Finset.univ.sup fun n' => (y n' : EReal)))) := by
  obtain ⟨c, hc⟩ := exists_coe_of_sup Finset.univ y ⟨n, Finset.mem_univ n⟩
  rw [acc_final T y x e he hlt hx hbot, max_bot_left]
  simp only
  rw [hc]
  exact coe_sub_coe_add _ _ _

end tiles

/-! ### The printed forms -/

/-- The step with the tile's maximum written as a fold of max from ⊥. -/
theorem step_eq_fold {R : Type} [Fintype R] (v : R → EReal) (ms : EReal × EReal) :
    step v ms = (max ms.1 (Finset.univ.fold max ⊥ v),
      ms.2 * Ideal.exp (ms.1 - max ms.1 (Finset.univ.fold max ⊥ v))
        + ∑ r, Ideal.exp (v r - max ms.1 (Finset.univ.fold max ⊥ v))) := rfl

/-- The binary32 pattern of -∞ denotes ⊥. -/
theorem ofBits_f32_neg_inf : Ideal.ofBits .f32 0xFF800000#32 = ⊥ := by
  simp [Ideal.ofBits, Ideal.ieee]

/-! ### Rows laid out consecutively: score k sits in tile k / r at row k % r -/

/-- The online log-sum-exp over n scores laid out consecutively in T tiles of r rows (n ≤ T * r), the
    places t * r + i ≥ n being padded with ⊥. -/
theorem online_lse_eq_fin (r T n : ℕ) (hr : 0 < r) (hn : n ≤ T * r) (y : Fin n → ℝ) (x : ℕ → Fin r → EReal)
    (hx : ∀ k : Fin n, x (k.val / r) ⟨k.val % r, Nat.mod_lt _ hr⟩ = (y k : EReal))
    (hbot : ∀ t (i : Fin r), t < T → n ≤ t * r + i.val → x t i = ⊥) (k : Fin n) :
    (y k : EReal) - ((acc x T).1 + Ideal.log (acc x T).2)
      = ((y k : EReal) - max ⊥ (Finset.univ.sup fun k' => (y k' : EReal)))
          - Ideal.log (∑ k', Ideal.exp ((y k' : EReal) - max ⊥ (Finset.univ.sup fun k' => (y k' : EReal)))) := by
  refine online_lse_eq T y x (fun k => (k.val / r, ⟨k.val % r, Nat.mod_lt _ hr⟩)) ?_ ?_ hx ?_ k
  · intro a b hab
    have h1 : a.val / r = b.val / r := congrArg Prod.fst hab
    have h2 : a.val % r = b.val % r := congrArg (fun p : ℕ × Fin r => p.2.val) hab
    apply Fin.ext
    rw [← Nat.div_add_mod a.val r, ← Nat.div_add_mod b.val r, h1, h2]
  · intro a
    exact Nat.div_lt_of_lt_mul (by have := a.isLt; rw [Nat.mul_comm]; omega)
  · intro t i ht hne
    apply hbot t i ht
    by_contra hlt
    have hlt' : t * r + i.val < n := not_le.1 hlt
    apply hne ⟨t * r + i.val, hlt'⟩
    have h1 : (t * r + i.val) / r = t := by
      rw [Nat.mul_comm, Nat.mul_add_div hr, Nat.div_eq_of_lt i.isLt, Nat.add_zero]
    have h2 : (t * r + i.val) % r = i.val := by
      rw [Nat.mul_comm, Nat.mul_add_mod, Nat.mod_eq_of_lt i.isLt]
    exact Prod.ext h1 (Fin.ext h2)

end Cert.LseMath
-- ==== Proof.Region2I_Value.lean ====
/-
  The running log-sum-exp's point, read at the extended reals, index by index.

  At grid point t the body's score of block row r and column b is
      sc (r, b) = ∑ k, w (r, k) · ht (k, b) + bias r,
  where row r of the weights block is kept where 4096·t + r < 100000 and replaced by 0 elsewhere, and
  the bias is the block's where the row is kept and ⊥ (the named constant) elsewhere. The carried pair
  is updated, column by column, by the online log-sum-exp step on the column r ↦ sc (r, b): the
  maximum-reduction from the pattern of -∞ is the supremum of the column, the add-reduction its sum.
  The pair starts at (⊥, 0); so after point n its column b is the online accumulation over the
  columns of the points 0 … n. The stored scores are the scores themselves (a change of format is the
  identity), and the last point stores m + log s.
-/
import proofs.«207593_g36137854828637_cont_8to1_b_1462_19_alg».proof.Proof.Region2I_Defs
import proofs.«207593_g36137854828637_cont_8to1_b_1462_19_alg».proof.Proof.LseMath
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Cert.KernelIdeal.Common
open Idealize.ShloMosaic Idealize.ShloMosaic.TcCoe Idealize.ShloMosaic.ValueIdx
open scoped BigOperators

/-! ## Layout and index facts -/

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- With t < 25 and r < 4096 the 32-bit word 4096·t + r neither wraps nor is negative as a signed word. -/
private theorem slt_row_iff' (t r : ℕ) (ht : t < 25) (hr : r < 4096) :
    (BitVec.ofNat 32 t * 4096#32 + BitVec.ofNat 32 r).slt 100000#32 = true ↔ t * 4096 + r < 100000 := by
  have hv : BitVec.ofNat 32 t * 4096#32 + BitVec.ofNat 32 r = BitVec.ofNat 32 (t * 4096 + r) := by
    apply BitVec.eq_of_toNat_eq
    simp only [BitVec.toNat_add, BitVec.toNat_mul, BitVec.toNat_ofNat]
    omega
  rw [hv]
  have hn : (BitVec.ofNat 32 (t * 4096 + r)).toNat = t * 4096 + r := by
    rw [BitVec.toNat_ofNat]; omega
  have hi : (BitVec.ofNat 32 (t * 4096 + r)).toInt = ((t * 4096 + r : ℕ) : ℤ) := by
    rw [BitVec.toInt_eq_toNat_of_lt (by rw [hn]; omega), hn]
  rw [BitVec.slt_iff_toInt_lt, hi]
  show ((t * 4096 + r : ℕ) : ℤ) < 100000 ↔ _
  omega

/-- The row mask's bit: 1 where the row lies inside the array, 0 past its end. -/
theorem maskBit_eq (i : grid2.Coords) (r : Fin 4096) :
    IntOp.cmpi .slt (IntOp.addi (Scalar.muli (BitVec.ofNat 32 (i 0).val) 4096#32) (BitVec.ofNat 32 r.val)) 100000#32
      = if (i 0).val * 4096 + r.val < 100000 then 1#1 else 0#1 := by
  have ht : (i 0).val < 25 := (i 0).isLt
  have hiff := slt_row_iff' (i 0).val r.val ht r.isLt
  show BitVec.ofBool ((BitVec.ofNat 32 (i 0).val * 4096#32 + BitVec.ofNat 32 r.val).slt 100000#32) = _
  by_cases hv : (i 0).val * 4096 + r.val < 100000
  · rw [if_pos hv, hiff.mpr hv]; rfl
  · rw [if_neg hv]
    have : (BitVec.ofNat 32 (i 0).val * 4096#32 + BitVec.ofNat 32 r.val).slt 100000#32 = false := by
      rw [← Bool.not_eq_true]; exact fun h => hv (hiff.mp h)
    rw [this]; rfl

/-- The named constant of the padded rows and of the carried maximum's start is ⊥. -/
theorem neg_big_eq : Named.named (F := Ideal) Cert.KernelIdeal.κ "neg_big" (φ := .f32) 0xF149F2CA#32 = (⊥ : EReal) :=
  IdealRules.named_const.ideal_named_scalar _ _ _ _ rfl

/-! ## The matrix product's operand indices -/

theorem lhs_dot_0 (i : S4096x1024.Idx) (q : dot_S4096x512_S512x1024_S4096x1024_1_0_0_1_n_n.contr.Idx) :
    (dot_S4096x512_S512x1024_S4096x1024_1_0_0_1_n_n.lhsIdx i q 0).val = (i 0).val := by
  unfold DotDims.lhsIdx
  rw [dif_neg (show ¬(0 : Fin S4096x512.rank) ∈ dot_S4096x512_S512x1024_S4096x1024_1_0_0_1_n_n.lhsBatch by decide),
    dif_pos (show (0 : Fin S4096x512.rank) ∈ dot_S4096x512_S512x1024_S4096x1024_1_0_0_1_n_n.lhsNonContracting by decide)]
  rfl
theorem lhs_dot_1 (i : S4096x1024.Idx) (q : dot_S4096x512_S512x1024_S4096x1024_1_0_0_1_n_n.contr.Idx) :
    (dot_S4096x512_S512x1024_S4096x1024_1_0_0_1_n_n.lhsIdx i q 1).val = (q ⟨0, by decide⟩).val :=
  dot_S4096x512_S512x1024_S4096x1024_1_0_0_1_n_n.lhsIdx_val_of_single rfl i q
theorem rhs_dot_0 (i : S4096x1024.Idx) (q : dot_S4096x512_S512x1024_S4096x1024_1_0_0_1_n_n.contr.Idx) :
    (dot_S4096x512_S512x1024_S4096x1024_1_0_0_1_n_n.rhsIdx i q 0).val = (q ⟨0, by decide⟩).val :=
  dot_S4096x512_S512x1024_S4096x1024_1_0_0_1_n_n.rhsIdx_val_of_single rfl i q
theorem rhs_dot_1 (i : S4096x1024.Idx) (q : dot_S4096x512_S512x1024_S4096x1024_1_0_0_1_n_n.contr.Idx) :
    (dot_S4096x512_S512x1024_S4096x1024_1_0_0_1_n_n.rhsIdx i q 1).val = (i 1).val := by
  unfold DotDims.rhsIdx
  rw [dif_neg (show ¬(1 : Fin S512x1024.rank) ∈ dot_S4096x512_S512x1024_S4096x1024_1_0_0_1_n_n.rhsBatch by decide),
    dif_pos (show (1 : Fin S512x1024.rank) ∈ dot_S4096x512_S512x1024_S4096x1024_1_0_0_1_n_n.rhsNonContracting by decide)]
  rfl

/-- The matrix product into a zero accumulator, at (r, b): the sum over the contracted coordinate. -/
theorem dot_apply (lhs : FVec Ideal S4096x512 .bf16) (rhs : FVec Ideal S512x1024 .bf16) (r : Fin 4096) (b : Fin 1024) :
    matmul dot_S4096x512_S512x1024_S4096x1024_1_0_0_1_n_n none lhs rhs (constant S4096x1024 .f32 0x00000000#32) (ix2 r b)
      = ∑ k : Fin 512, lhs (ix2 r k) * rhs (ix2 k b) := by
  refine (Ideal.matmul_constant_zero_apply dot_S4096x512_S512x1024_S4096x1024_1_0_0_1_n_n none lhs rhs (ix2 r b)).trans ?_
  rw [← Equiv.sum_comp (contrEquiv1 dot_S4096x512_S512x1024_S4096x1024_1_0_0_1_n_n 512 rfl rfl).symm]
  refine Finset.sum_congr rfl fun k _ => ?_
  have hk := contrEquiv1_symm_val dot_S4096x512_S512x1024_S4096x1024_1_0_0_1_n_n 512 rfl rfl k
  have el : dot_S4096x512_S512x1024_S4096x1024_1_0_0_1_n_n.lhsIdx (ix2 r b)
      ((contrEquiv1 dot_S4096x512_S512x1024_S4096x1024_1_0_0_1_n_n 512 rfl rfl).symm k) = ix2 r k := funext fun a => Fin.ext (by
    match a with
    | ⟨0, _⟩ => exact lhs_dot_0 _ _
    | ⟨1, _⟩ => exact (lhs_dot_1 _ _).trans hk)
  have er : dot_S4096x512_S512x1024_S4096x1024_1_0_0_1_n_n.rhsIdx (ix2 r b)
      ((contrEquiv1 dot_S4096x512_S512x1024_S4096x1024_1_0_0_1_n_n 512 rfl rfl).symm k) = ix2 k b := funext fun a => Fin.ext (by
    match a with
    | ⟨0, _⟩ => exact (rhs_dot_0 _ _).trans hk
    | ⟨1, _⟩ => exact rhs_dot_1 _ _)
  rw [el, er]

/-! ## The scores of a point -/

/-- The body's row mask at a point. -/
def rowValid (i : grid2.Coords) : IVec S4096x1 1 :=
  cmpi .slt (addi (broadcast S4096x1 (Scalar.muli (BitVec.ofNat 32 (i 0).val) 4096#32)) (iota .tc S4096x1 32 [0] iota_S4096x1_d0_w32))
    (broadcast S4096x1 100000#32)

theorem rowValid_apply (i : grid2.Coords) (r : Fin 4096) (u : Fin 1) :
    rowValid i (ix2 r u) = if (i 0).val * 4096 + r.val < 100000 then 1#1 else 0#1 := by
  unfold rowValid
  show IntOp.cmpi .slt (IntOp.addi _ (iota .tc S4096x1 32 [0] iota_S4096x1_d0_w32 (ix2 r u))) _ = _
  rw [iota_single_apply]
  exact maskBit_eq i r

theorem select_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-- The point's score at block row r and column b. -/
theorem pay6_apply (i : grid2.Coords) (x1 : Vec Ideal S4096x512 .f32) (x2 : Vec Ideal S4096x1 .f32) (x0 : Vec Ideal S512x1024 .bf16)
    (r : Fin 4096) (b : Fin 1024) :
    k2_pay6 (F := Ideal) i x1 x2 x0 (ix2 r b)
      = (∑ k : Fin 512, (if (i 0).val * 4096 + r.val < 100000 then (x1 (ix2 r k) : EReal) else 0) * (x0 (ix2 k b) : EReal))
        + (if (i 0).val * 4096 + r.val < 100000 then (x2 (ix2 r (0 : Fin 1)) : EReal) else ⊥) := by
  unfold k2_pay6
  try dsimp only
  refine (addf_apply _ _ _).trans ?_
  refine congrArg₂ (· + ·) ?_ ?_
  · refine (dot_apply _ _ r b).trans ?_
    refine Finset.sum_congr rfl fun k _ => ?_
    refine congrArg₂ (· * ·) ?_ ?_
    · refine (select_apply _ _ _ (ix2 r k)).trans ?_
      refine ((congrArg (fun c => Scalar.select c _ _) ((broadcastTo_a1_ab_apply _ _ r k).trans
        ((congrFun (shapeCast_self _ _) _).trans (rowValid_apply i r 0)))).trans ?_)
      refine (select_ite _ _ _).trans ?_
      refine congrArg₂ (fun a c => if (i 0).val * 4096 + r.val < 100000 then a else c) ?_ ?_
      · exact congrFun (shapeCast_self x1 _) _
      · exact Ideal.ofBits_zero_f32
    · exact congrFun (shapeCast_self x0 _) _
  · refine (broadcastTo_a1_ab_apply _ _ r b).trans ?_
    refine (select_apply _ _ _ (ix2 r 0)).trans ?_
    refine ((congrArg (fun c => Scalar.select c _ _) (rowValid_apply i r 0)).trans ?_)
    refine (select_ite _ _ _).trans ?_
    refine congrArg₂ (fun a c => if (i 0).val * 4096 + r.val < 100000 then a else c) ?_ ?_
    · exact congrFun (shapeCast_self x2 _) _
    · exact neg_big_eq

/-- The grid's one coordinate at point t is t. -/
theorem coords2_val : ∀ t : Fin cfg2.N, (grid2.coords t 0).val = t.val :=
  (by decide +kernel : ∀ t : Fin grid2.N, (grid2.coords t 0).val = t.val)

/-- Column b of a point's scores. -/
def col (i : grid2.Coords) (x1 : Vec Ideal S4096x512 .f32) (x2 : Vec Ideal S4096x1 .f32) (x0 : Vec Ideal S512x1024 .bf16)
    (b : Fin 1024) : Fin 4096 → EReal :=
  fun r => k2_pay6 (F := Ideal) i x1 x2 x0 (ix2 r b)

/-- The stored scores are the scores: a change of format is the identity on the extended reals. -/
theorem scoresBlk_apply (i : grid2.Coords) (x0 : Vec Ideal S512x1024 .bf16) (x1 : Vec Ideal S4096x512 .f32) (x2 : Vec Ideal S4096x1 .f32)
    (r : Fin 4096) (b : Fin 1024) :
    scoresBlk (F := Ideal) i x0 x1 x2 (ix2 r b) = k2_pay6 (F := Ideal) i x1 x2 x0 (ix2 r b) := rfl

/-! ## The reductions over the rows -/

/-- The source index over column b with row k. -/
theorem lift_ix1 (b : Fin 1024) (k : Fin 4096) : reduces_S4096x1024_S1024.lift (ix1 b) k = ix2 k b :=
  funext fun c => Fin.ext (by
    match c with
    | ⟨0, _⟩ => rfl
    | ⟨1, _⟩ => rfl)

/-- The column maxima, from the pattern of -∞: the supremum of each column. -/
theorem colMax_apply (v : FVec Ideal S4096x1024 .f32) (u : Fin 1) (b : Fin 1024) :
    shapeCast S1x1024 (multiReduction .maximumf [0] S1024 v 0xFF800000#32 reduces_S4096x1024_S1024 (.inl rfl) rfl) shapeCasts_S1024_S1x1024 (ix2 u b)
      = Finset.univ.sup fun r : Fin 4096 => v (ix2 r b) := by
  refine (shapeCast_a_1a_apply _ _ u b).trans ?_
  refine (Ideal.multiReduction_maximumf_single v _ reduces_S4096x1024_S1024 _ _ (ix1 b)).trans ?_
  have e1 : (fun k : Fin 4096 => v (reduces_S4096x1024_S1024.lift (ix1 b) k)) = fun r : Fin 4096 => v (ix2 r b) :=
    funext fun k => congrArg v (lift_ix1 b k)
  have e2 : (Finset.univ : Finset (Fin 4096)).fold max (Ideal.ofBits .f32 0xFF800000#32) (fun r : Fin 4096 => v (ix2 r b))
      = Finset.univ.sup fun r : Fin 4096 => v (ix2 r b) := by
    rw [Cert.LseMath.ofBits_f32_neg_inf]; rfl
  exact (congrArg (fun f => (Finset.univ : Finset (Fin 4096)).fold max (Ideal.ofBits .f32 0xFF800000#32) f) e1).trans e2

/-- The column sums, from 0. -/
theorem colSum_apply (v : FVec Ideal S4096x1024 .f32) (u : Fin 1) (b : Fin 1024) :
    shapeCast S1x1024 (multiReduction .add [0] S1024 v 0x00000000#32 reduces_S4096x1024_S1024 (.inl rfl) rfl) shapeCasts_S1024_S1x1024 (ix2 u b)
      = ∑ r : Fin 4096, v (ix2 r b) := by
  refine (shapeCast_a_1a_apply _ _ u b).trans ?_
  refine (Ideal.multiReduction_add_single v _ reduces_S4096x1024_S1024 _ _ (ix1 b)).trans ?_
  show ∑ k : Fin 4096, v (reduces_S4096x1024_S1024.lift (ix1 b) k) = _
  exact Finset.sum_congr rfl fun k _ => congrArg v (lift_ix1 b k)

/-! ## One step of the carried pair, column by column -/

theorem pay8_apply (i : grid2.Coords) (x1 : Vec Ideal S4096x512 .f32) (x2 : Vec Ideal S4096x1 .f32) (x0 : Vec Ideal S512x1024 .bf16)
    (m : Vec Ideal S1x1024 .f32) (u : Fin 1) (b : Fin 1024) :
    k2_pay8 (F := Ideal) i x1 x2 x0 m (ix2 u b) = max (m (ix2 u b) : EReal) (Finset.univ.sup (col i x1 x2 x0 b)) := by
  unfold k2_pay8
  try dsimp only
  refine (maximumf_apply _ _ _).trans ?_
  exact congrArg (max (m (ix2 u b) : EReal)) (colMax_apply _ u b)

theorem pay9_apply (i : grid2.Coords) (x1 : Vec Ideal S4096x512 .f32) (x2 : Vec Ideal S4096x1 .f32) (x0 : Vec Ideal S512x1024 .bf16)
    (m s : Vec Ideal S1x1024 .f32) (u : Fin 1) (b : Fin 1024) :
    k2_pay9 (F := Ideal) i x1 x2 x0 m s (ix2 u b)
      = (s (ix2 u b) : EReal) * Ideal.exp ((m (ix2 u b) : EReal) - k2_pay8 (F := Ideal) i x1 x2 x0 m (ix2 u b)) := rfl

theorem pay10_apply (i : grid2.Coords) (x1 : Vec Ideal S4096x512 .f32) (x2 : Vec Ideal S4096x1 .f32) (x0 : Vec Ideal S512x1024 .bf16)
    (m : Vec Ideal S1x1024 .f32) (r : Fin 4096) (b : Fin 1024) :
    k2_pay10 (F := Ideal) i x1 x2 x0 m (ix2 r b)
      = k2_pay6 (F := Ideal) i x1 x2 x0 (ix2 r b) - k2_pay8 (F := Ideal) i x1 x2 x0 m (ix2 (0 : Fin 1) b) := by
  unfold k2_pay10
  try dsimp only
  refine (subf_apply _ _ _).trans ?_
  exact congrArg (k2_pay6 (F := Ideal) i x1 x2 x0 (ix2 r b) - ·) (broadcastTo_1b_ab_apply _ _ r b)

theorem pay1_apply (v34 : FVec Ideal S1x1024 .f32) (v36 : FVec Ideal S4096x1024 .f32) (u : Fin 1) (b : Fin 1024) :
    k2_pay1 (F := Ideal) v34 v36 (ix2 u b) = v34 (ix2 u b) + ∑ r : Fin 4096, Ideal.exp (v36 (ix2 r b)) := by
  unfold k2_pay1
  try dsimp only
  refine (congrFun (shapeCast_self _ _) _).trans ?_
  refine (addf_apply _ _ _).trans ?_
  exact congrArg (v34 (ix2 u b) + ·) (colSum_apply _ u b)

theorem pay3_apply (m s : Vec Ideal S1x1024 .f32) (u : Fin 1) (b : Fin 1024) :
    k2_pay3 (F := Ideal) m s (ix2 u b) = (m (ix2 u b) : EReal) + Ideal.log (s (ix2 u b) : EReal) := rfl

theorem pay4_apply (u : Fin 1) (b : Fin 1024) : k2_pay4 (F := Ideal) (ix2 u b) = (⊥ : EReal) := by
  unfold k2_pay4
  try dsimp only
  refine (congrFun (shapeCast_self _ _) _).trans ?_
  exact neg_big_eq

theorem pay5_apply (u : Fin 1) (b : Fin 1024) : k2_pay5 (F := Ideal) (ix2 u b) = (0 : EReal) := by
  unfold k2_pay5
  try dsimp only
  refine (congrFun (shapeCast_self _ _) _).trans ?_
  exact Ideal.ofBits_zero_f32

theorem mOut_apply (i : grid2.Coords) (x0 : Vec Ideal S512x1024 .bf16) (x1 : Vec Ideal S4096x512 .f32) (x2 : Vec Ideal S4096x1 .f32)
    (a0 : Vec Ideal S1x1024 .f32) (u : Fin 1) (b : Fin 1024) :
    mOut (F := Ideal) i x0 x1 x2 a0 (ix2 u b)
      = max (mIn (F := Ideal) i a0 (ix2 u b) : EReal) (Finset.univ.sup (col i x1 x2 x0 b)) := by
  unfold mOut k2_pay2
  try dsimp only
  refine (congrFun (shapeCast_self _ _) _).trans ?_
  exact pay8_apply i x1 x2 x0 _ u b

theorem sOut_apply (i : grid2.Coords) (x0 : Vec Ideal S512x1024 .bf16) (x1 : Vec Ideal S4096x512 .f32) (x2 : Vec Ideal S4096x1 .f32)
    (a0 a1 : Vec Ideal S1x1024 .f32) (b : Fin 1024) :
    sOut (F := Ideal) i x0 x1 x2 a0 a1 (ix2 (0 : Fin 1) b)
      = (sIn (F := Ideal) i a1 (ix2 (0 : Fin 1) b) : EReal)
          * Ideal.exp ((mIn (F := Ideal) i a0 (ix2 (0 : Fin 1) b) : EReal)
              - max (mIn (F := Ideal) i a0 (ix2 (0 : Fin 1) b) : EReal) (Finset.univ.sup (col i x1 x2 x0 b)))
        + ∑ r : Fin 4096, Ideal.exp (col i x1 x2 x0 b r
              - max (mIn (F := Ideal) i a0 (ix2 (0 : Fin 1) b) : EReal) (Finset.univ.sup (col i x1 x2 x0 b))) := by
  unfold sOut
  refine (pay1_apply _ _ 0 b).trans ?_
  refine congrArg₂ (· + ·) ?_ ?_
  · refine (pay9_apply i x1 x2 x0 _ _ 0 b).trans ?_
    rw [pay8_apply]
  · refine Finset.sum_congr rfl fun r _ => ?_
    rw [pay10_apply, pay8_apply]
    rfl

/-- ONE STEP of the carried pair at column b is the online log-sum-exp step on the column of the point's scores. -/
theorem step_col (i : grid2.Coords) (x0 : Vec Ideal S512x1024 .bf16) (x1 : Vec Ideal S4096x512 .f32) (x2 : Vec Ideal S4096x1 .f32)
    (a0 a1 : Vec Ideal S1x1024 .f32) (b : Fin 1024) :
    ((mOut (F := Ideal) i x0 x1 x2 a0 (ix2 (0 : Fin 1) b) : EReal), (sOut (F := Ideal) i x0 x1 x2 a0 a1 (ix2 (0 : Fin 1) b) : EReal))
      = Cert.LseMath.step (col i x1 x2 x0 b)
          ((mIn (F := Ideal) i a0 (ix2 (0 : Fin 1) b) : EReal), (sIn (F := Ideal) i a1 (ix2 (0 : Fin 1) b) : EReal)) := by
  unfold Cert.LseMath.step
  exact Prod.ext (mOut_apply i x0 x1 x2 a0 0 b) (sOut_apply i x0 x1 x2 a0 a1 b)

/-! ## The carried pair after point n -/

section carried
variable (V : (c : Dev nD) → (b : Ref sig .tc) → Buf (Elt Ideal) ((c : Thread nD τ).loc b))

/-- Column b of the scores of point t, for every natural t (⊥ past the grid): the table the online accumulation runs over. -/
def colsOf (c : Dev nD) (b : Fin 1024) : ℕ → Fin 4096 → EReal :=
  fun t r => if h : t < cfg2.N then
      k2_pay6 (F := Ideal) (grid2.coords ⟨t, h⟩) (wBlk V c ⟨t, h⟩) (bBlk V c ⟨t, h⟩) (htBlk V c ⟨t, h⟩) (ix2 r b)
    else ⊥

theorem colsOf_of_lt (c : Dev nD) (b : Fin 1024) (t : ℕ) (h : t < cfg2.N) :
    colsOf V c b t = col (grid2.coords ⟨t, h⟩) (wBlk V c ⟨t, h⟩) (bBlk V c ⟨t, h⟩) (htBlk V c ⟨t, h⟩) b :=
  funext fun r => dif_pos h

/-- The entries of the table: the masked product plus the masked bias. -/
theorem colsOf_apply (c : Dev nD) (b : Fin 1024) (t : ℕ) (h : t < cfg2.N) (r : Fin 4096) :
    colsOf V c b t r
      = (∑ k : Fin 512, (if t * 4096 + r.val < 100000 then (wBlk V c ⟨t, h⟩ (ix2 r k) : EReal) else 0) * (htBlk V c ⟨t, h⟩ (ix2 k b) : EReal))
        + (if t * 4096 + r.val < 100000 then (bBlk V c ⟨t, h⟩ (ix2 r (0 : Fin 1)) : EReal) else ⊥) := by
  rw [colsOf_of_lt V c b t h]
  unfold col
  rw [pay6_apply, coords2_val ⟨t, h⟩]

/-- The carried pair after point n, at column b, is the online accumulation over the columns of the points 0 … n. -/
theorem carry2_acc (c : Dev nD) (b : Fin 1024) (n : ℕ) (h : n < cfg2.N) :
    (((carry2 V c n h).1 (ix2 (0 : Fin 1) b) : EReal), ((carry2 V c n h).2 (ix2 (0 : Fin 1) b) : EReal))
      = Cert.LseMath.acc (colsOf V c b) (n + 1) := by
  induction n with
  | zero =>
    show (mOut _ _ _ _ _ _, sOut _ _ _ _ _ _ _) = _
    rw [step_col, Cert.LseMath.acc_succ, Cert.LseMath.acc_zero, colsOf_of_lt V c b 0 h]
    congr 1
    refine Prod.ext ?_ ?_
    · show (mIn (F := Ideal) _ _ _ : EReal) = ⊥
      unfold mIn; rw [ite_self]; exact pay4_apply 0 b
    · show (sIn (F := Ideal) _ _ _ : EReal) = 0
      unfold sIn; rw [ite_self]; exact pay5_apply 0 b
  | succ n ih =>
    have hnf : ¬IsFirst (grid2.coords (⟨n + 1, h⟩ : Fin cfg2.N)) := fun hf => absurd ((isFirst_iff _).mp hf) (Nat.succ_ne_zero n)
    show (mOut _ _ _ _ _ _, sOut _ _ _ _ _ _ _) = _
    rw [step_col, Cert.LseMath.acc_succ, colsOf_of_lt V c b (n + 1) h, mIn_rest hnf, sIn_rest hnf, ← ih (Nat.lt_of_succ_lt h)]

/-- What the last point stores at column b: m + log s of the online accumulation. -/
theorem out2_3_apply (c : Dev nD) (t : Fin cfg2.N) (b : Fin 1024) :
    out2_3 V c t (ix2 (0 : Fin 1) b)
      = (Cert.LseMath.acc (colsOf V c b) (t.val + 1)).1 + Ideal.log (Cert.LseMath.acc (colsOf V c b) (t.val + 1)).2 := by
  unfold out2_3
  rw [pay3_apply, ← carry2_acc V c b t.val t.isLt]

/-- What point t stores of the scores: the table's entries. -/
theorem out2_4_apply (c : Dev nD) (t : Fin cfg2.N) (r : Fin 4096) (b : Fin 1024) :
    out2_4 V c t (ix2 r b) = colsOf V c b t.val r := by
  unfold out2_4
  rw [scoresBlk_apply, colsOf_of_lt V c b t.val t.isLt]
  rfl

end carried

end Cert.KernelIdeal.Reg2

end
-- ==== Proof.Spec.lean ====
/-
  The function both programs compute, index by index, on the extended reals.

  For a batch row `b`: the pooled embedding is the sum over the 50 positions of the table rows the
  sequence names; the hidden layer is `max (pooled · W1 + b1) 0`; the score of class `n` is
  `hidden · W2 + b2`; the result is the log-softmax of the scores over the 100000 classes in the
  max-shifted form `(x - M) - log (∑ exp (x - M))` with `M = max ⊥ (sup x)`.
  An index word is read as a table row by its value modulo the table's height (total; in range it is
  the value itself).
-/
import Mathlib.Data.EReal.Basic
import Mathlib.Algebra.BigOperators.Group.Finset.Basic
import Idealize.ShloMosaic.PureOps.Ideal

noncomputable section

namespace Cert.Spec

open Idealize.ShloMosaic

/-- The table row an index word names. -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

variable (seqs : Fin 1024 → Fin 50 → BitVec 32) (table : Fin 100000 → Fin 128 → EReal)
  (W1 : Fin 128 → Fin 512 → EReal) (b1 : Fin 512 → EReal) (W2 : Fin 512 → Fin 100000 → EReal) (b2 : Fin 100000 → EReal)

/-- The pooled embedding: the sum of the named table rows. -/
def pooled (b : Fin 1024) (e : Fin 128) : EReal := ∑ l : Fin 50, table (rowOf (seqs b l)) e

/-- The hidden layer. -/
def hid (b : Fin 1024) (k : Fin 512) : EReal := max (∑ e : Fin 128, pooled seqs table b e * W1 e k + b1 k) 0

/-- The class scores. -/
def score (b : Fin 1024) (n : Fin 100000) : EReal := ∑ k : Fin 512, hid seqs table W1 b1 b k * W2 k n + b2 n

/-- The row maximum as the reference takes it. -/
def rowMax (b : Fin 1024) : EReal := max ⊥ (Finset.univ.sup fun n : Fin 100000 => score seqs table W1 b1 W2 b2 b n)

/-- The log-softmax of the scores, max-shifted. -/
def out (b : Fin 1024) (n : Fin 100000) : EReal :=
  (score seqs table W1 b1 W2 b2 b n - rowMax seqs table W1 b1 W2 b2 b)
    - Ideal.log (∑ n' : Fin 100000, Ideal.exp (score seqs table W1 b1 W2 b2 b n' - rowMax seqs table W1 b1 W2 b2 b))

end Cert.Spec

end
-- ==== Proof.SpecBridge.lean ====
/-
  The specification's intermediate values are real, and the online log-sum-exp of the class scores,
  tile by tile, gives the specification's result.

  With every entry of the table, the two weight matrices and the two bias vectors a real (neither ⊥
  nor ⊤), the pooled embedding (a finite sum of reals), the hidden layer (a finite sum of products of
  reals plus a real, maxed with 0) and the class scores (the same, without the max) are reals. The
  100000 scores of a batch row, laid out consecutively in 25 tiles of 4096 rows and padded with ⊥,
  are then an instance of the online log-sum-exp: score - (m + log s) is the max-shifted log-softmax.

  Also here: sums on the extended reals in the orders and forms a sequential computation takes them
  (factors swapped, an accumulation from 0 by a left fold, a padded row 0 · h + ⊥ = ⊥).
-/
import proofs.«207593_g36137854828637_cont_8to1_b_1462_19_alg».proof.Proof.Spec
import proofs.«207593_g36137854828637_cont_8to1_b_1462_19_alg».proof.Proof.LseMath
import Mathlib.Algebra.BigOperators.Fin
import Batteries.Data.Fin.Fold

noncomputable section

namespace Cert.SpecBridge

open Idealize.ShloMosaic Cert
open scoped BigOperators

/-! ### Real extended reals -/

/-- An extended real that is a real: neither ⊥ nor ⊤. -/
def IsReal (x : EReal) : Prop := x ≠ ⊥ ∧ x ≠ ⊤

theorem IsReal.exists {x : EReal} (h : IsReal x) : ∃ y : ℝ, x = (y : EReal) :=
  ⟨_, (EReal.coe_toReal h.2 h.1).symm⟩

theorem isReal_coe (y : ℝ) : IsReal (y : EReal) := ⟨EReal.coe_ne_bot y, EReal.coe_ne_top y⟩

theorem isReal_zero : IsReal (0 : EReal) := isReal_coe 0

theorem IsReal.add {x y : EReal} (hx : IsReal x) (hy : IsReal y) : IsReal (x + y) := by
  obtain ⟨a, rfl⟩ := hx.exists
  obtain ⟨b, rfl⟩ := hy.exists
  rw [← EReal.coe_add]
  exact isReal_coe _

theorem IsReal.mul {x y : EReal} (hx : IsReal x) (hy : IsReal y) : IsReal (x * y) := by
  obtain ⟨a, rfl⟩ := hx.exists
  obtain ⟨b, rfl⟩ := hy.exists
  rw [← EReal.coe_mul]
  exact isReal_coe _

theorem IsReal.max {x y : EReal} (hx : IsReal x) (hy : IsReal y) : IsReal (max x y) := by
  rcases max_choice x y with h | h <;> rw [h] <;> assumption

theorem isReal_sum {ι : Type} (s : Finset ι) (f : ι → EReal) (h : ∀ i ∈ s, IsReal (f i)) : IsReal (∑ i ∈ s, f i) :=
  Finset.sum_induction f IsReal (fun _ _ => IsReal.add) isReal_zero h

/-! ### The specification's values are real -/

section spec
variable (seqs : Fin 1024 → Fin 50 → BitVec 32) (table : Fin 100000 → Fin 128 → EReal)
  (W1 : Fin 128 → Fin 512 → EReal) (b1 : Fin 512 → EReal) (W2 : Fin 512 → Fin 100000 → EReal) (b2 : Fin 100000 → EReal)

theorem pooled_isReal (hT : ∀ r e, table r e ≠ ⊥ ∧ table r e ≠ ⊤) (b : Fin 1024) (e : Fin 128) :
    IsReal (Spec.pooled seqs table b e) :=
  isReal_sum _ _ fun l _ => hT (Spec.rowOf (seqs b l)) e

theorem hid_isReal (hT : ∀ r e, table r e ≠ ⊥ ∧ table r e ≠ ⊤) (hW1 : ∀ e k, W1 e k ≠ ⊥ ∧ W1 e k ≠ ⊤)
    (hb1 : ∀ k, b1 k ≠ ⊥ ∧ b1 k ≠ ⊤) (b : Fin 1024) (k : Fin 512) :
    IsReal (Spec.hid seqs table W1 b1 b k) :=
  IsReal.max (IsReal.add (isReal_sum _ _ fun e _ => IsReal.mul (pooled_isReal seqs table hT b e) (hW1 e k)) (hb1 k))
    isReal_zero

theorem score_isReal (hT : ∀ r e, table r e ≠ ⊥ ∧ table r e ≠ ⊤) (hW1 : ∀ e k, W1 e k ≠ ⊥ ∧ W1 e k ≠ ⊤)
    (hb1 : ∀ k, b1 k ≠ ⊥ ∧ b1 k ≠ ⊤) (hW2 : ∀ k n, W2 k n ≠ ⊥ ∧ W2 k n ≠ ⊤) (hb2 : ∀ n, b2 n ≠ ⊥ ∧ b2 n ≠ ⊤)
    (b : Fin 1024) (n : Fin 100000) :
    IsReal (Spec.score seqs table W1 b1 W2 b2 b n) :=
  IsReal.add (isReal_sum _ _ fun k _ => IsReal.mul (hid_isReal seqs table W1 b1 hT hW1 hb1 b k) (hW2 k n)) (hb2 n)

theorem pooled_real (hT : ∀ r e, table r e ≠ ⊥ ∧ table r e ≠ ⊤) (b : Fin 1024) (e : Fin 128) :
    ∃ y : ℝ, Spec.pooled seqs table b e = (y : EReal) :=
  (pooled_isReal seqs table hT b e).exists

theorem hid_real (hT : ∀ r e, table r e ≠ ⊥ ∧ table r e ≠ ⊤) (hW1 : ∀ e k, W1 e k ≠ ⊥ ∧ W1 e k ≠ ⊤)
    (hb1 : ∀ k, b1 k ≠ ⊥ ∧ b1 k ≠ ⊤) (b : Fin 1024) (k : Fin 512) :
    ∃ y : ℝ, Spec.hid seqs table W1 b1 b k = (y : EReal) :=
  (hid_isReal seqs table W1 b1 hT hW1 hb1 b k).exists

theorem score_real (hT : ∀ r e, table r e ≠ ⊥ ∧ table r e ≠ ⊤) (hW1 : ∀ e k, W1 e k ≠ ⊥ ∧ W1 e k ≠ ⊤)
    (hb1 : ∀ k, b1 k ≠ ⊥ ∧ b1 k ≠ ⊤) (hW2 : ∀ k n, W2 k n ≠ ⊥ ∧ W2 k n ≠ ⊤) (hb2 : ∀ n, b2 n ≠ ⊥ ∧ b2 n ≠ ⊤)
    (b : Fin 1024) (n : Fin 100000) :
    ∃ y : ℝ, Spec.score seqs table W1 b1 W2 b2 b n = (y : EReal) :=
  (score_isReal seqs table W1 b1 W2 b2 hT hW1 hb1 hW2 hb2 b n).exists

/-- The scores of batch row b laid out in tiles of 4096 rows, the places past the 100000 classes padded with ⊥. -/
def tiled (b : Fin 1024) : ℕ → Fin 4096 → EReal :=
  fun t r => if h : t * 4096 + r.val < 100000 then Spec.score seqs table W1 b1 W2 b2 b ⟨t * 4096 + r.val, h⟩ else ⊥

/-- The online log-sum-exp over the 25 tiles gives the specification's log-softmax. -/
theorem kernel_out_eq (hT : ∀ r e, table r e ≠ ⊥ ∧ table r e ≠ ⊤) (hW1 : ∀ e k, W1 e k ≠ ⊥ ∧ W1 e k ≠ ⊤)
    (hb1 : ∀ k, b1 k ≠ ⊥ ∧ b1 k ≠ ⊤) (hW2 : ∀ k n, W2 k n ≠ ⊥ ∧ W2 k n ≠ ⊤) (hb2 : ∀ n, b2 n ≠ ⊥ ∧ b2 n ≠ ⊤)
    (b : Fin 1024) (n : Fin 100000) :
    Spec.score seqs table W1 b1 W2 b2 b n
        - ((LseMath.acc (fun t (r : Fin 4096) => if h : t * 4096 + r.val < 100000
              then Spec.score seqs table W1 b1 W2 b2 b ⟨t * 4096 + r.val, h⟩ else ⊥) 25).1
            + Ideal.log (LseMath.acc (fun t (r : Fin 4096) => if h : t * 4096 + r.val < 100000
              then Spec.score seqs table W1 b1 W2 b2 b ⟨t * 4096 + r.val, h⟩ else ⊥) 25).2)
      = Spec.out seqs table W1 b1 W2 b2 b n := by
  choose y hy using fun n => score_real seqs table W1 b1 W2 b2 hT hW1 hb1 hW2 hb2 b n
  have h := LseMath.online_lse_eq_fin 4096 25 100000 (by decide) (by decide) y
    (fun t (r : Fin 4096) => if h : t * 4096 + r.val < 100000
      then Spec.score seqs table W1 b1 W2 b2 b ⟨t * 4096 + r.val, h⟩ else ⊥)
    (fun k => by
      have hk : k.val / 4096 * 4096 + k.val % 4096 < 100000 := by
        rw [Nat.div_add_mod']; exact k.isLt
      simp only
      rw [dif_pos hk, ← hy k]
      congr 1
      exact Fin.ext (Nat.div_add_mod' _ _))
    (fun t i _ hge => dif_neg (not_lt.2 hge)) n
  unfold Spec.out Spec.rowMax
  simp only [hy] at h ⊢
  exact h

end spec

/-! ### Sums in the order a sequential computation takes them -/

/-- The factors of each product swapped. -/
theorem sum_mul_comm {ι : Type} (s : Finset ι) (f g : ι → EReal) : ∑ k ∈ s, f k * g k = ∑ k ∈ s, g k * f k :=
  Finset.sum_congr rfl fun _ _ => mul_comm _ _

/-- A sum started from an initial 0. -/
theorem zero_add_sum {ι : Type} (s : Finset ι) (f : ι → EReal) : (0 : EReal) + ∑ k ∈ s, f k = ∑ k ∈ s, f k := zero_add _

/-- An accumulation from 0 in the order of the indices, as a left fold over the list of indices. -/
theorem foldl_finRange_add_eq_sum (n : ℕ) (f : Fin n → EReal) :
    (List.finRange n).foldl (fun a j => a + f j) 0 = ∑ j, f j := by
  rw [Fin.sum_univ_def, List.sum_eq_foldl, List.foldl_map]

/-- The same, as a fold over Fin n. -/
theorem finFoldl_add_eq_sum (n : ℕ) (f : Fin n → EReal) :
    Fin.foldl n (fun a j => a + f j) 0 = ∑ j, f j := by
  rw [Fin.foldl_eq_foldl_finRange, foldl_finRange_add_eq_sum]

/-- The same, as a recursion on the number of terms accumulated. -/
theorem natRec_add_eq_sum (f : ℕ → EReal) (n : ℕ) :
    (Nat.rec (0 : EReal) (fun j a => a + f j) n : EReal) = ∑ j ∈ Finset.range n, f j := by
  induction n with
  | zero => simp
  | succ n ih => rw [Finset.sum_range_succ, ← ih]

/-- A padded row: every weight replaced by 0 and the bias by ⊥. -/
theorem padded_row {ι : Type} (s : Finset ι) (h : ι → EReal) : (∑ k ∈ s, (0 : EReal) * h k) + ⊥ = ⊥ :=
  EReal.add_bot _

end Cert.SpecBridge
-- ==== Proof.KernelValueI.lean ====
/-
  The kernels' result read at an index.

  The program runs four kernels between host operations. The host first lays the first bias out as one row,
  transposes the second weight matrix and lays the second bias out as one column; then the pooled embedding
  `[1024,128]`, the transposed hidden layer `[512,1024]`, the transposed class scores `[100000,1024]` with the
  row `m + log s` of the online log-sum-exp over 25 tiles of 4096 classes (the places past the 100000 classes
  padded with ⊥), and the transposed result `scores - (m + log s)` are computed, and the host transposes the last back.

  Here: each host operation read at explicit coordinates, and, from each stage's array at an index in the form the
  stages deliver it, the chain to the specification — the transposed hidden layer is the specification's hidden
  layer, a class's score with the weight first is the specification's score (the factors of each product swapped),
  the tiled padded scores are the specification's scores laid out in tiles, and, every entry being real, the online
  log-sum-exp gives the max-shifted log-softmax. The result array is the specification read at each index's two
  coordinates.
-/
import proofs.«207593_g36137854828637_cont_8to1_b_1462_19_alg».proof.KernelIdeal
import proofs.«207593_g36137854828637_cont_8to1_b_1462_19_alg».proof.Proof.Gen.KernelIdeal
import proofs.«207593_g36137854828637_cont_8to1_b_1462_19_alg».proof.Proof.Spec
import proofs.«207593_g36137854828637_cont_8to1_b_1462_19_alg».proof.Proof.SpecBridge
import proofs.«207593_g36137854828637_cont_8to1_b_1462_19_alg».proof.Proof.LseMath
import proofs.«207593_g36137854828637_cont_8to1_b_1462_19_alg».proof.Proof.PreI
import Idealize.ShloMosaic.Lib.ValueIdx
import Idealize.ShloMosaic.Lib.Pipeline.Value
import Idealize.ShloMosaic.Lib.ValueLayout

noncomputable section

namespace Cert.KernelIdeal.KernelValue

open Idealize.ShloMosaic Idealize.ShloMosaic.ValueIdx Cert.KernelIdeal
open scoped BigOperators

/-! ## The host operations around the kernels, read at an index -/

/-- The first bias as one row: entry `(0, k)` is entry `k`. -/
theorem biasRow_apply (b1 : (⟨S512, .f32⟩ : BufTy).Contents (Elt Ideal)) (h : S512.ShapeCasts S1x512) (u : Fin 1) (k : Fin 512) :
    (shapeCast S1x512 b1 h : (⟨S1x512, .f32⟩ : BufTy).Contents (Elt Ideal)) (ix2 u k) = b1 (ix1 k) :=
  shapeCast_a_1a_apply b1 h u k

/-- The second weight matrix transposed: entry `(n, k)` is entry `(k, n)`. -/
theorem weightT_apply (W2 : (⟨S512x100000, .f32⟩ : BufTy).Contents (Elt Ideal)) (h : S512x100000.Transposes [1, 0] S100000x512)
    (n : Fin 100000) (k : Fin 512) :
    (transpose S100000x512 [1, 0] W2 h : (⟨S100000x512, .f32⟩ : BufTy).Contents (Elt Ideal)) (ix2 n k) = W2 (ix2 k n) := by
  refine transpose_apply _ _ h _ (ix2 k n) fun a => ?_
  match a with
  | ⟨0, _⟩ => rfl
  | ⟨1, _⟩ => rfl

/-- The second bias as one column: entry `(n, 0)` is entry `n`. -/
theorem biasCol_apply (b2 : (⟨S100000, .f32⟩ : BufTy).Contents (Elt Ideal)) (h : S100000.ShapeCasts S100000x1) (n : Fin 100000) (u : Fin 1) :
    (shapeCast S100000x1 b2 h : (⟨S100000x1, .f32⟩ : BufTy).Contents (Elt Ideal)) (ix2 n u) = b2 (ix1 n) :=
  shapeCast_apply b2 h _ _ (by
    have hu : u.val = 0 := by omega
    rw [Shape.rowMajor_val_two, Shape.rowMajor_val_one]
    show n.val = n.val * 1 + u.val
    rw [hu, Nat.mul_one, Nat.add_zero])

/-- The result transposed back: entry `(b, n)` is entry `(n, b)`. -/
theorem resultT_apply (logp : (⟨S100000x1024, .f32⟩ : BufTy).Contents (Elt Ideal)) (h : S100000x1024.Transposes [1, 0] S1024x100000)
    (b : Fin 1024) (n : Fin 100000) :
    (transpose S1024x100000 [1, 0] logp h : (⟨S1024x100000, .f32⟩ : BufTy).Contents (Elt Ideal)) (ix2 b n) = logp (ix2 n b) := by
  refine transpose_apply _ _ h _ (ix2 n b) fun a => ?_
  match a with
  | ⟨0, _⟩ => rfl
  | ⟨1, _⟩ => rfl

/-! ## From the stages' arrays at an index to the specification -/

section Chain
variable (seqs : (⟨S1024x50, .i32⟩ : BufTy).Contents (Elt Ideal)) (table : (⟨S100000x128, .f32⟩ : BufTy).Contents (Elt Ideal))
  (W1 : (⟨S128x512, .f32⟩ : BufTy).Contents (Elt Ideal)) (b1 : (⟨S512, .f32⟩ : BufTy).Contents (Elt Ideal))
  (W2 : (⟨S512x100000, .f32⟩ : BufTy).Contents (Elt Ideal)) (b2 : (⟨S100000, .f32⟩ : BufTy).Contents (Elt Ideal))
  (b1r : (⟨S1x512, .f32⟩ : BufTy).Contents (Elt Ideal)) (w2t : (⟨S100000x512, .f32⟩ : BufTy).Contents (Elt Ideal))
  (b2c : (⟨S100000x1, .f32⟩ : BufTy).Contents (Elt Ideal))
  (pooled : (⟨S1024x128, .f32⟩ : BufTy).Contents (Elt Ideal)) (ht : (⟨S512x1024, .f32⟩ : BufTy).Contents (Elt Ideal))
  (lz : (⟨S1x1024, .f32⟩ : BufTy).Contents (Elt Ideal)) (scores logp : (⟨S100000x1024, .f32⟩ : BufTy).Contents (Elt Ideal))
  (result : (⟨S1024x100000, .f32⟩ : BufTy).Contents (Elt Ideal))

/-- The specification's arguments: the six arrays read by coordinates. -/
abbrev seqsF : Fin 1024 → Fin 50 → BitVec 32 := fun b l => seqs (ix2 b l)
abbrev tableF : Fin 100000 → Fin 128 → EReal := fun r e => table (ix2 r e)
abbrev w1F : Fin 128 → Fin 512 → EReal := fun e k => W1 (ix2 e k)
abbrev b1F : Fin 512 → EReal := fun k => b1 (ix1 k)
abbrev w2F : Fin 512 → Fin 100000 → EReal := fun k n => W2 (ix2 k n)
abbrev b2F : Fin 100000 → EReal := fun n => b2 (ix1 n)

variable
  (hb1r : ∀ k : Fin 512, b1r (ix2 (0 : Fin 1) k) = b1 (ix1 k))
  (hw2t : ∀ (n : Fin 100000) (k : Fin 512), w2t (ix2 n k) = W2 (ix2 k n))
  (hb2c : ∀ n : Fin 100000, b2c (ix2 n (0 : Fin 1)) = b2 (ix1 n))
  (hres : ∀ (b : Fin 1024) (n : Fin 100000), result (ix2 b n) = logp (ix2 n b))
  (hP : ∀ (b : Fin 1024) (e : Fin 128), pooled (ix2 b e) = Cert.Spec.pooled (seqsF seqs) (tableF table) b e)
  (hH : ∀ (k : Fin 512) (b : Fin 1024),
    ht (ix2 k b) = max (∑ e : Fin 128, pooled (ix2 b e) * W1 (ix2 e k) + b1r (ix2 (0 : Fin 1) k)) 0)

include hb1r hP hH in
/-- The transposed hidden layer is the specification's hidden layer. -/
theorem ht_apply (k : Fin 512) (b : Fin 1024) :
    ht (ix2 k b) = Cert.Spec.hid (seqsF seqs) (tableF table) (w1F W1) (b1F b1) b k := by
  rw [hH, hb1r]
  unfold Cert.Spec.hid
  exact congrArg (fun s => max (s + b1 (ix1 k)) 0) (Finset.sum_congr rfl fun e _ => by rw [hP])

include hb1r hw2t hb2c hP hH in
/-- A class's score as the kernels take it, the weight first, is the specification's score. -/
theorem scoreTerm_eq (n : Fin 100000) (b : Fin 1024) :
    ∑ k : Fin 512, w2t (ix2 n k) * ht (ix2 k b) + b2c (ix2 n (0 : Fin 1))
      = Cert.Spec.score (seqsF seqs) (tableF table) (w1F W1) (b1F b1) (w2F W2) (b2F b2) b n := by
  rw [hb2c]
  unfold Cert.Spec.score
  refine congrArg (fun s => s + b2 (ix1 n)) (Finset.sum_congr rfl fun k _ => ?_)
  rw [hw2t, ht_apply seqs table W1 b1 b1r pooled ht hb1r hP hH k b]
  exact mul_comm _ _

variable
  (hS : ∀ (n : Fin 100000) (b : Fin 1024),
    scores (ix2 n b) = ∑ k : Fin 512, w2t (ix2 n k) * ht (ix2 k b) + b2c (ix2 n (0 : Fin 1)))
  (x : Fin 1024 → ℕ → Fin 4096 → EReal)
  (hx : ∀ (b : Fin 1024) (t : ℕ) (r : Fin 4096), x b t r = if h : t * 4096 + r.val < 100000
    then ∑ k : Fin 512, w2t (ix2 (⟨t * 4096 + r.val, h⟩ : Fin 100000) k) * ht (ix2 k b)
      + b2c (ix2 (⟨t * 4096 + r.val, h⟩ : Fin 100000) (0 : Fin 1))
    else ⊥)
  (hZ : ∀ b : Fin 1024, lz (ix2 (0 : Fin 1) b) = (Cert.LseMath.acc (x b) 25).1 + Ideal.log (Cert.LseMath.acc (x b) 25).2)
  (hL : ∀ (n : Fin 100000) (b : Fin 1024), logp (ix2 n b) = scores (ix2 n b) - lz (ix2 (0 : Fin 1) b))
  (hT : ∀ r e, tableF table r e ≠ ⊥ ∧ tableF table r e ≠ ⊤) (hW1 : ∀ e k, w1F W1 e k ≠ ⊥ ∧ w1F W1 e k ≠ ⊤)
  (hb1 : ∀ k, b1F b1 k ≠ ⊥ ∧ b1F b1 k ≠ ⊤) (hW2 : ∀ k n, w2F W2 k n ≠ ⊥ ∧ w2F W2 k n ≠ ⊤) (hb2 : ∀ n, b2F b2 n ≠ ⊥ ∧ b2F b2 n ≠ ⊤)

include hb1r hw2t hb2c hP hH hx in
/-- The tiled, padded scores of a batch row are the specification's scores laid out in 25 tiles of 4096 rows. -/
theorem tiles_eq (b : Fin 1024) :
    x b = fun t (r : Fin 4096) => if h : t * 4096 + r.val < 100000
      then Cert.Spec.score (seqsF seqs) (tableF table) (w1F W1) (b1F b1) (w2F W2) (b2F b2) b ⟨t * 4096 + r.val, h⟩ else ⊥ := by
  funext t r
  rw [hx]
  by_cases h : t * 4096 + r.val < 100000
  · rw [dif_pos h, dif_pos h, scoreTerm_eq seqs table W1 b1 W2 b2 b1r w2t b2c pooled ht hb1r hw2t hb2c hP hH]
  · rw [dif_neg h, dif_neg h]

include hb1r hw2t hb2c hres hP hH hS hx hZ hL hT hW1 hb1 hW2 hb2 in
/-- THE KERNEL'S RESULT AT `(b, n)`: the specification's log-softmax of the scores. -/
theorem result_apply (b : Fin 1024) (n : Fin 100000) :
    result (ix2 b n) = Cert.Spec.out (seqsF seqs) (tableF table) (w1F W1) (b1F b1) (w2F W2) (b2F b2) b n := by
  rw [hres, hL, hS, scoreTerm_eq seqs table W1 b1 W2 b2 b1r w2t b2c pooled ht hb1r hw2t hb2c hP hH, hZ,
    tiles_eq seqs table W1 b1 W2 b2 b1r w2t b2c pooled ht hb1r hw2t hb2c hP hH x hx b]
  exact Cert.SpecBridge.kernel_out_eq (seqsF seqs) (tableF table) (w1F W1) (b1F b1) (w2F W2) (b2F b2) hT hW1 hb1 hW2 hb2 b n

include hb1r hw2t hb2c hres hP hH hS hx hZ hL hT hW1 hb1 hW2 hb2 in
/-- The same as an equation of arrays: the result is the specification read at each index's two coordinates. -/
theorem result_eq :
    result = fun idx : S1024x100000.Idx =>
      Cert.Spec.out (seqsF seqs) (tableF table) (w1F W1) (b1F b1) (w2F W2) (b2F b2) (idx 0) (idx 1) := by
  funext idx
  obtain ⟨b, n, rfl⟩ : ∃ (b : Fin 1024) (n : Fin 100000), idx = ix2 b n := ⟨idx 0, idx 1, eq_ix2 idx⟩
  exact result_apply seqs table W1 b1 W2 b2 b1r w2t b2c pooled ht lz scores logp result hb1r hw2t hb2c hres hP hH hS x hx hZ hL
    hT hW1 hb1 hW2 hb2 b n
end Chain

/-! ## With the host operations as the program states them, over the launch memory's arrays -/

section Launch
variable (m : (ℓ : Loc nD τ sig) → Buf (Elt Ideal) ℓ) (d : Dev nD)
  (hb1r : S512.ShapeCasts S1x512) (hW2t : S512x100000.Transposes [1, 0] S100000x512) (hb2c : S100000.ShapeCasts S100000x1)
  (hres : S100000x1024.Transposes [1, 0] S1024x100000)
  (pooled : (⟨S1024x128, .f32⟩ : BufTy).Contents (Elt Ideal)) (ht : (⟨S512x1024, .f32⟩ : BufTy).Contents (Elt Ideal))
  (lz : (⟨S1x1024, .f32⟩ : BufTy).Contents (Elt Ideal)) (scores logp : (⟨S100000x1024, .f32⟩ : BufTy).Contents (Elt Ideal))

/-- The three arrays the host prepares for the kernels from the launch memory's arguments. -/
abbrev biasRow : (⟨S1x512, .f32⟩ : BufTy).Contents (Elt Ideal) := shapeCast S1x512 (m ((SparseCore.T d).loc main_arg3)) hb1r
abbrev weightT : (⟨S100000x512, .f32⟩ : BufTy).Contents (Elt Ideal) :=
  transpose S100000x512 [1, 0] (m ((SparseCore.T d).loc main_arg4)) hW2t
abbrev biasCol : (⟨S100000x1, .f32⟩ : BufTy).Contents (Elt Ideal) := shapeCast S100000x1 (m ((SparseCore.T d).loc main_arg5)) hb2c

/-- THE KERNEL'S RESULT ARRAY: under the program's precondition, with each stage's array at an index as the stages
    deliver it, the transposed last stage is the specification of the launch memory's arrays, read at each index's two
    coordinates. -/
theorem result_eq_launch (hpre : Cert.Pre_KernelIdeal m)
    (hP : ∀ (b : Fin 1024) (e : Fin 128),
      pooled (ix2 b e) = Cert.Spec.pooled (Cert.KernelIdeal.PreI.seqsOf m d) (Cert.KernelIdeal.PreI.tableOf m d) b e)
    (hH : ∀ (k : Fin 512) (b : Fin 1024),
      ht (ix2 k b) = max (∑ e : Fin 128, pooled (ix2 b e) * (m ((SparseCore.T d).loc main_arg2) : (⟨S128x512, .f32⟩ : BufTy).Contents (Elt Ideal)) (ix2 e k)
        + biasRow m d hb1r (ix2 (0 : Fin 1) k)) 0)
    (hS : ∀ (n : Fin 100000) (b : Fin 1024),
      scores (ix2 n b) = ∑ k : Fin 512, weightT m d hW2t (ix2 n k) * ht (ix2 k b) + biasCol m d hb2c (ix2 n (0 : Fin 1)))
    (x : Fin 1024 → ℕ → Fin 4096 → EReal)
    (hx : ∀ (b : Fin 1024) (t : ℕ) (r : Fin 4096), x b t r = if h : t * 4096 + r.val < 100000
      then ∑ k : Fin 512, weightT m d hW2t (ix2 (⟨t * 4096 + r.val, h⟩ : Fin 100000) k) * ht (ix2 k b)
        + biasCol m d hb2c (ix2 (⟨t * 4096 + r.val, h⟩ : Fin 100000) (0 : Fin 1))
      else ⊥)
    (hZ : ∀ b : Fin 1024, lz (ix2 (0 : Fin 1) b) = (Cert.LseMath.acc (x b) 25).1 + Ideal.log (Cert.LseMath.acc (x b) 25).2)
    (hL : ∀ (n : Fin 100000) (b : Fin 1024), logp (ix2 n b) = scores (ix2 n b) - lz (ix2 (0 : Fin 1) b)) :
    (transpose S1024x100000 [1, 0] logp hres : (⟨S1024x100000, .f32⟩ : BufTy).Contents (Elt Ideal))
      = fun idx : S1024x100000.Idx =>
          Cert.Spec.out (Cert.KernelIdeal.PreI.seqsOf m d) (Cert.KernelIdeal.PreI.tableOf m d) (Cert.KernelIdeal.PreI.w1Of m d)
            (Cert.KernelIdeal.PreI.b1Of m d) (Cert.KernelIdeal.PreI.w2Of m d) (Cert.KernelIdeal.PreI.b2Of m d) (idx 0) (idx 1) :=
  result_eq (m ((SparseCore.T d).loc main_arg0)) (m ((SparseCore.T d).loc main_arg1)) (m ((SparseCore.T d).loc main_arg2))
    (m ((SparseCore.T d).loc main_arg3)) (m ((SparseCore.T d).loc main_arg4)) (m ((SparseCore.T d).loc main_arg5))
    (biasRow m d hb1r) (weightT m d hW2t) (biasCol m d hb2c) pooled ht lz scores logp
    (transpose S1024x100000 [1, 0] logp hres)
    (fun k => biasRow_apply _ hb1r 0 k) (fun n k => weightT_apply _ hW2t n k) (fun n => biasCol_apply _ hb2c n 0)
    (fun b n => resultT_apply logp hres b n) hP hH hS x hx hZ hL
    (Cert.KernelIdeal.PreI.table_ne_of_pre m hpre d) (Cert.KernelIdeal.PreI.w1_ne_of_pre m hpre d)
    (Cert.KernelIdeal.PreI.b1_ne_of_pre m hpre d) (Cert.KernelIdeal.PreI.w2_ne_of_pre m hpre d)
    (Cert.KernelIdeal.PreI.b2_ne_of_pre m hpre d)
end Launch

end Cert.KernelIdeal.KernelValue

end
-- ==== Proof.ScTileI_Value.lean ====
/-
  The pooled array, read at the extended reals, is the specification's pooled embedding.

  The pooled array's entry (b, e) is the accumulation, from zero and in the order of the positions
  j = 0 … 49, of the table's entry (row (seqs (b, j)), e). On the extended reals the zero word is 0 and
  the float addition is the sum, so the accumulation is the finite sum over the 50 positions: the
  specification's pooled embedding, the row an index word names being the same function of the word.
-/
import proofs.«207593_g36137854828637_cont_8to1_b_1462_19_alg».proof.Proof.ScTileI
import proofs.«207593_g36137854828637_cont_8to1_b_1462_19_alg».proof.Proof.Spec
import proofs.«207593_g36137854828637_cont_8to1_b_1462_19_alg».proof.Proof.SpecBridge
import Idealize.ShloMosaic.Lib.ValueIdx
import Idealize.ShloMosaic.PureOps.Ideal.Laws
import Mathlib.Algebra.BigOperators.Fin

noncomputable section

namespace Cert.KernelIdeal.ScTile

open Cert.KernelIdeal Cert.KernelIdeal.Gen Cert.KernelIdeal.Common
open Idealize.ShloMosaic
open Idealize.ShloMosaic.ValueIdx (ix2 eq_ix2)

open scoped BigOperators

/-- The table row an index word names is the specification's. -/
theorem rowW_eq (w : BitVec 32) : rowW w = Cert.Spec.rowOf w := rfl

/-- The accumulation over the first n ≤ 50 positions, from zero, in their order, is the sum of the named entries. -/
theorem poolSum_eq_sum (seqs : S1024x50.Idx → BitVec 32) (table : S100000x128.Idx → EReal) (b : Fin 1024) (e : Fin 128) :
    ∀ n, n ≤ 50 → poolSum (F := Ideal) seqs table b e n
      = ∑ j ∈ Finset.range n, (if h : j < 50 then table (ix2 (rowW (seqs (ix2 b ⟨j, h⟩))) e) else (0 : EReal)) := by
  intro n
  induction n with
  | zero => intro _; exact Ideal.ofBits_zero_f32
  | succ n ih =>
    intro hn
    have hlt : n < 50 := hn
    rw [Finset.sum_range_succ, ← ih (le_of_lt hlt), dif_pos hlt]
    show (if h : n < 50 then _ else _) = _
    rw [dif_pos hlt]
    rfl

/-- All 50 positions: the specification's pooled sum. -/
theorem poolSum_50 (seqs : S1024x50.Idx → BitVec 32) (table : S100000x128.Idx → EReal) (b : Fin 1024) (e : Fin 128) :
    poolSum (F := Ideal) seqs table b e 50 = ∑ l : Fin 50, table (ix2 (Cert.Spec.rowOf (seqs (ix2 b l))) e) := by
  rw [poolSum_eq_sum seqs table b e 50 le_rfl,
    ← Fin.sum_univ_eq_sum_range (fun j => if h : j < 50 then table (ix2 (rowW (seqs (ix2 b ⟨j, h⟩))) e) else (0 : EReal)) 50]
  exact Finset.sum_congr rfl fun l _ => dif_pos l.isLt

/-- THE POOLED ARRAY at an entry is the specification's pooled embedding of the index array and the table read by coordinates. -/
theorem poolVal_apply (d : Dev nD) (seqs : Buf (Elt Ideal) (a0Loc d)) (table : Buf (Elt Ideal) (a1Loc d)) (b : Fin 1024) (e : Fin 128) :
    poolVal (F := Ideal) d seqs table (ValueIdx.ix2 b e)
      = Cert.Spec.pooled (fun b l => seqs (ValueIdx.ix2 b l)) (fun r e => table (ValueIdx.ix2 r e)) b e := by
  unfold poolVal Cert.Spec.pooled
  exact poolSum_50 seqs table b e

end Cert.KernelIdeal.ScTile

end
-- ==== Proof.ValueChainI.lean ====
/-
  The result array after @main, read at an index: the specification.

  Between the SparseCore call and the final transpose the TensorCore runs three pipelined kernels. Each leaves its
  result arrays at one function of the arrays it found, and every other buffer as it was. Followed from the buffer
  contents when the first kernel is entered:
    the hidden layer's array (transposed, [512,1024]) is relu (pooled · W1 + b1) of the pooled array, the first
      weight matrix and the first bias laid out as a row;
    the scores' array ([100000,1024]) holds at row n the product of row n of the transposed second weight matrix with
      the hidden layer plus entry n of the second bias, and the row array ([1,1024]) holds m + log s of the online
      log-sum-exp over the 25 tiles of 4096 rows, the places past the 100000 classes padded with ⊥;
    the last array ([100000,1024]) holds the scores minus that row.
  Transposed back, and under the program's precondition, this is the specification's log-softmax read at each
  index's two coordinates.
-/
import proofs.«207593_g36137854828637_cont_8to1_b_1462_19_alg».proof.Proof.RegionsI
import proofs.«207593_g36137854828637_cont_8to1_b_1462_19_alg».proof.Proof.Region1I
import proofs.«207593_g36137854828637_cont_8to1_b_1462_19_alg».proof.Proof.Region2I_Final
import proofs.«207593_g36137854828637_cont_8to1_b_1462_19_alg».proof.Proof.Region2I_Value
import proofs.«207593_g36137854828637_cont_8to1_b_1462_19_alg».proof.Proof.Region3I
import proofs.«207593_g36137854828637_cont_8to1_b_1462_19_alg».proof.Proof.KernelValueI
import proofs.«207593_g36137854828637_cont_8to1_b_1462_19_alg».proof.Proof.PreI
import proofs.«207593_g36137854828637_cont_8to1_b_1462_19_alg».proof.Proof.LaunchI
import proofs.«207593_g36137854828637_cont_8to1_b_1462_19_alg».proof.Proof.ScTileI_Value
import Idealize.ShloMosaic.Lib.ValueIdx

set_option maxRecDepth 16384

noncomputable section

namespace Cert.KernelIdeal.ValueChain

open Cert.KernelIdeal Cert.KernelIdeal.Gen Cert.KernelIdeal.Common
open Idealize.ShloMosaic Idealize.ShloMosaic.TcCoe Idealize.ShloMosaic.ValueIdx
open Idealize.ShloMosaic.SparseCore.Cfg (HIx)
open Idealize.SL.Sem
open Cert.KernelIdeal.Regions (Rc W3 W4 W5 V2 V3 V4 W3_arr W3_of_ne W4_arr W4_of_ne W5_arr W5_of_ne)
open Cert.KernelIdeal.Reg2 (htBlk wBlk bBlk colsOf scoresArr lzArr tLast)
open Cert.KernelIdeal.KernelValue (biasRow weightT biasCol)
open scoped BigOperators

/-! ## The second kernel's blocks, read off the arrays it finds -/

section Blocks
variable {F : FTy → Type} [FloatOps F] [Named F]
variable (V : (c : Dev nD) → (b : Ref sig .tc) → Buf (Elt F) ((c : Thread nD τ).loc b))

/-- The grid's one coordinate at point t is t. -/
theorem coords2 : ∀ t : Fin cfg2.N, (grid2.coords t 0).val = t.val :=
  (by decide +kernel : ∀ t : Fin grid2.N, (grid2.coords t 0).val = t.val)

/-- Where the three input windows' blocks lie at point t: the hidden layer's is the whole array; the weight's and the
    bias's are the rows from 4096 t on. -/
theorem idx2_0 : ∀ t : Fin cfg2.N, win2_0.index t (0 : Fin 2) = 0 ∧ win2_0.index t (1 : Fin 2) = 0 :=
  (by decide +kernel : ∀ t : Fin grid2.N, win2_0.index t (0 : Fin 2) = 0 ∧ win2_0.index t (1 : Fin 2) = 0)
theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx2_2 : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)

/-- The hidden layer's block is the array. -/
theorem htBlk_apply (c : Dev nD) (t : Fin cfg2.N) (k : Fin 512) (b : Fin 1024) :
    htBlk V c t (ix2 k b) = (V c main_v4 : Vec F S512x1024 .bf16) (ix2 k b) := by
  obtain ⟨e0, e1⟩ := idx2_0 t
  show (V c main_v4 : Vec F S512x1024 .bf16) (((cfg2.win 0).blk t).view.emb (ix2 k b)) = _
  congr 1; funext a; apply Fin.ext
  match a with
  | ⟨0, _⟩ => show win2_0.index t (0 : Fin 2) * 512 + 1 * k.val = k.val; omega
  | ⟨1, _⟩ => show win2_0.index t (1 : Fin 2) * 1024 + 1 * b.val = b.val; omega

/-- Row r of the weight's block at point t, inside the array, is row 4096 t + r of the array. -/
theorem wBlk_apply (c : Dev nD) (t : Fin cfg2.N) (r : Fin 4096) (k : Fin 512) (h : t.val * 4096 + r.val < 100000) :
    wBlk V c t (ix2 r k) = (V c main_v1 : Vec F S100000x512 .f32) (ix2 ⟨t.val * 4096 + r.val, h⟩ k) := by
  have hm : win2_1.moved (grid2.coords t) (ix2 r k) = true :=
    Reg2.moved1_of_row (grid2.coords t) r k (by rw [coords2]; exact h)
  obtain ⟨e0, e1⟩ := idx2_1 t
  unfold wBlk Pipeline.Window.fill
  rw [dif_pos hm]
  show (V c main_v1 : Vec F S100000x512 .f32) (((cfg2.win 1).blk t).view.emb _) = _
  congr 1; funext a; apply Fin.ext
  match a with
  | ⟨0, _⟩ => show win2_1.index t (0 : Fin 2) * 4096 + 1 * r.val = t.val * 4096 + r.val; omega
  | ⟨1, _⟩ => show win2_1.index t (1 : Fin 2) * 512 + 1 * k.val = k.val; omega

/-- Row r of the bias's block at point t, inside the array, is row 4096 t + r of the array. -/
theorem bBlk_apply (c : Dev nD) (t : Fin cfg2.N) (r : Fin 4096) (u : Fin 1) (h : t.val * 4096 + r.val < 100000) :
    bBlk V c t (ix2 r u) = (V c main_v2 : Vec F S100000x1 .f32) (ix2 ⟨t.val * 4096 + r.val, h⟩ u) := by
  have hm : win2_2.moved (grid2.coords t) (ix2 r u) = true :=
    Reg2.moved2_of_row (grid2.coords t) r u (by rw [coords2]; exact h)
  obtain ⟨e0, e1⟩ := idx2_2 t
  unfold bBlk Pipeline.Window.fill
  rw [dif_pos hm]
  show (V c main_v2 : Vec F S100000x1 .f32) (((cfg2.win 2).blk t).view.emb _) = _
  congr 1; funext a; apply Fin.ext
  match a with
  | ⟨0, _⟩ => show win2_2.index t (0 : Fin 2) * 4096 + 1 * r.val = t.val * 4096 + r.val; omega
  | ⟨1, _⟩ => show win2_2.index t (1 : Fin 2) * 1 + 1 * u.val = u.val; omega

end Blocks

/-! ## The table the online log-sum-exp runs over, off the arrays -/

section Cols
variable (V : (c : Dev nD) → (b : Ref sig .tc) → Buf (Elt Ideal) ((c : Thread nD τ).loc b))

/-- The three arrays the second kernel finds, as functions of the index: the transposed second weight matrix, the
    hidden layer, the second bias as a column. -/
abbrev w2tOf (c : Dev nD) : (⟨S100000x512, .f32⟩ : BufTy).Contents (Elt Ideal) := V c main_v1
abbrev htOf (c : Dev nD) : (⟨S512x1024, .f32⟩ : BufTy).Contents (Elt Ideal) := V c main_v4
abbrev b2cOf (c : Dev nD) : (⟨S100000x1, .f32⟩ : BufTy).Contents (Elt Ideal) := V c main_v2

/-- Column b of the scores of tile t at row r: inside the array, row 4096 t + r of the transposed weight matrix
    times the hidden layer plus that row's bias; ⊥ past the array's end, and past the grid. -/
theorem colsOf_eq (c : Dev nD) (b : Fin 1024) (t : ℕ) (r : Fin 4096) :
    colsOf V c b t r = if h : t * 4096 + r.val < 100000
      then ∑ k : Fin 512, w2tOf V c (ix2 (⟨t * 4096 + r.val, h⟩ : Fin 100000) k) * htOf V c (ix2 k b)
          + b2cOf V c (ix2 (⟨t * 4096 + r.val, h⟩ : Fin 100000) (0 : Fin 1))
      else ⊥ := by
  have hN : cfg2.N = 25 := N_2
  by_cases ht : t < cfg2.N
  · rw [Reg2.colsOf_apply V c b t ht r]
    by_cases h : t * 4096 + r.val < 100000
    · simp only [dif_pos h, if_pos h]
      rw [bBlk_apply V c ⟨t, ht⟩ r 0 h]
      refine congrArg (· + _) (Finset.sum_congr rfl fun k _ => ?_)
      exact congrArg₂ (fun x y : EReal => x * y) (wBlk_apply V c ⟨t, ht⟩ r k h) (htBlk_apply V c ⟨t, ht⟩ k b)
    · simp only [dif_neg h, if_neg h]
      exact Cert.SpecBridge.padded_row _ _
  · have h : ¬ t * 4096 + r.val < 100000 := by omega
    rw [dif_neg h]
    unfold colsOf
    rw [dif_neg ht]

end Cols

/-! ## From the first kernel's entry to the last kernel's exit -/

section Chain
variable (m : (ℓ : Loc nD τ sig) → Buf (Elt Ideal) ℓ)
-- the TensorCore's buffer contents when the first kernel is entered
variable (W2 : Dev nD → Valuation τ sig (Elt Ideal))
variable (c : Dev nD)
variable (hb1r : S512.ShapeCasts S1x512) (hW2t : S512x100000.Transposes [1, 0] S100000x512) (hb2c : S100000.ShapeCasts S100000x1)
  (hres : S100000x1024.Transposes [1, 0] S1024x100000)
variable (pooled : (⟨S1024x128, .f32⟩ : BufTy).Contents (Elt Ideal))

/-- What the kernels read of the buffers as the first kernel finds them: the pooled array where the SparseCore call
    left it, the first weight matrix as launched, and the three arrays the host prepared. -/
structure EntryReads : Prop where
  v3 : W2 c (Proc.devRef .tc (main_v3 : Ref sig .tc)) = pooled
  a2 : W2 c (Proc.devRef .tc (main_arg2 : Ref sig .tc)) = m ((SparseCore.T c).loc main_arg2)
  v0 : W2 c (Proc.devRef .tc (main_v0 : Ref sig .tc)) = biasRow m c hb1r
  v1 : W2 c (Proc.devRef .tc (main_v1 : Ref sig .tc)) = weightT m c hW2t
  v2 : W2 c (Proc.devRef .tc (main_v2 : Ref sig .tc)) = biasCol m c hb2c

/-- The four arrays the kernels leave. -/
abbrev htArr : (⟨S512x1024, .f32⟩ : BufTy).Contents (Elt Ideal) := W3 W2 c (Proc.devRef .tc (main_v4 : Ref sig .tc))
abbrev lzArrOf : (⟨S1x1024, .f32⟩ : BufTy).Contents (Elt Ideal) := W4 W2 c (Proc.devRef .tc (main_v5_0 : Ref sig .tc))
abbrev scoresArrOf : (⟨S100000x1024, .f32⟩ : BufTy).Contents (Elt Ideal) := W4 W2 c (Proc.devRef .tc (main_v5_1 : Ref sig .tc))
abbrev logpArr : (⟨S100000x1024, .f32⟩ : BufTy).Contents (Elt Ideal) := W5 W2 c (Proc.devRef .tc (main_v6 : Ref sig .tc))

variable (E : EntryReads m W2 c hb1r hW2t hb2c pooled)

include E in
/-- The hidden layer's array, after the first kernel. -/
theorem ht_apply (k : Fin 512) (b : Fin 1024) :
    htArr W2 c (ix2 k b)
      = max (∑ e : Fin 128, pooled (ix2 b e) * (m ((SparseCore.T c).loc main_arg2) : (⟨S128x512, .f32⟩ : BufTy).Contents (Elt Ideal)) (ix2 e k)
          + biasRow m c hb1r (ix2 (0 : Fin 1) k)) 0 := by
  have h3 : htArr W2 c = Reg1.H1 (V2 W2) c := (W3_arr W2 c 3).trans (Reg1.final1_3 (V2 W2) (Rc (F := Ideal) c) c)
  rw [h3, Reg1.final1_apply (V2 W2) c k b]
  have e3 : Reg1.inX (V2 W2) c = pooled := E.v3
  have e2 : Reg1.inW (V2 W2) c = (m ((SparseCore.T c).loc main_arg2) : (⟨S128x512, .f32⟩ : BufTy).Contents (Elt Ideal)) := E.a2
  have e0 : Reg1.inB (V2 W2) c = biasRow m c hb1r := E.v0
  rw [e3, e2, e0]

/-- What the second kernel finds: the hidden layer's array from the first, the host's two arrays untouched by it. -/
theorem V3_v4 : htOf (V3 W2) c = htArr W2 c := rfl
include E in
theorem V3_v1 : w2tOf (V3 W2) c = weightT m c hW2t :=
  (W3_of_ne W2 c main_v1 (by decide)).trans E.v1
include E in
theorem V3_v2 : b2cOf (V3 W2) c = biasCol m c hb2c :=
  (W3_of_ne W2 c main_v2 (by decide)).trans E.v2

include E in
/-- The tiled scores of a batch row as the second kernel computes them. -/
theorem cols_apply (b : Fin 1024) (t : ℕ) (r : Fin 4096) :
    colsOf (V3 W2) c b t r = if h : t * 4096 + r.val < 100000
      then ∑ k : Fin 512, weightT m c hW2t (ix2 (⟨t * 4096 + r.val, h⟩ : Fin 100000) k) * htArr W2 c (ix2 k b)
        + biasCol m c hb2c (ix2 (⟨t * 4096 + r.val, h⟩ : Fin 100000) (0 : Fin 1))
      else ⊥ := by
  rw [colsOf_eq (V3 W2) c b t r, V3_v1 m W2 c hb1r hW2t hb2c pooled E, V3_v2 m W2 c hb1r hW2t hb2c pooled E, V3_v4]

include E in
/-- The scores' array, after the second kernel. -/
theorem scores_apply (n : Fin 100000) (b : Fin 1024) :
    scoresArrOf W2 c (ix2 n b)
      = ∑ k : Fin 512, weightT m c hW2t (ix2 n k) * htArr W2 c (ix2 k b) + biasCol m c hb2c (ix2 n (0 : Fin 1)) := by
  have h4 : scoresArrOf W2 c = scoresArr (V3 W2) c := (W4_arr W2 c 4).trans (Reg2.final2_4 (V3 W2) (Rc (F := Ideal) c) c)
  have hn : n.val / 4096 * 4096 + n.val % 4096 < 100000 := by rw [Nat.div_add_mod']; exact n.isLt
  rw [h4]
  show Reg2.out2_4 (V3 W2) c _ (ix2 (⟨n.val % 4096, _⟩ : Fin 4096) b) = _
  rw [Reg2.out2_4_apply, cols_apply m W2 c hb1r hW2t hb2c pooled E b _ _]
  show (if h : n.val / 4096 * 4096 + n.val % 4096 < 100000 then _ else ⊥) = _
  rw [dif_pos hn]
  have e : (⟨n.val / 4096 * 4096 + n.val % 4096, hn⟩ : Fin 100000) = n := Fin.ext (Nat.div_add_mod' _ _)
  rw [e]

/-- The row of log-normalisers, after the second kernel. -/
theorem lz_apply (b : Fin 1024) :
    lzArrOf W2 c (ix2 (0 : Fin 1) b)
      = (Cert.LseMath.acc (colsOf (V3 W2) c b) 25).1 + Ideal.log (Cert.LseMath.acc (colsOf (V3 W2) c b) 25).2 := by
  have h3 : lzArrOf W2 c = lzArr (V3 W2) c := (W4_arr W2 c 3).trans (Reg2.final2_3 (V3 W2) (Rc (F := Ideal) c) c)
  rw [h3]
  exact Reg2.out2_3_apply (V3 W2) c tLast b

/-- The last array, after the third kernel: the scores minus the log-normaliser of the column. -/
theorem logp_apply (n : Fin 100000) (b : Fin 1024) :
    logpArr W2 c (ix2 n b) = scoresArrOf W2 c (ix2 n b) - lzArrOf W2 c (ix2 (0 : Fin 1) b) := by
  have h5 : logpArr W2 c = (Reg3.dat3 (V4 W2) (Rc (F := Ideal) c) c).arrAt 2 cfg3.N := W5_arr W2 c 2
  rw [h5]
  exact Reg3.final3_2_ideal (V4 W2) (Rc (F := Ideal) c) c n b

include E in
/-- THE RESULT: the last array transposed back is the specification of the launch memory's arrays, read at each
    index's two coordinates — given that the pooled array is the specification's pooled embedding. -/
theorem result_eq (hpre : Cert.Pre_KernelIdeal m)
    (hP : ∀ (b : Fin 1024) (e : Fin 128),
      pooled (ix2 b e) = Cert.Spec.pooled (Cert.KernelIdeal.PreI.seqsOf m c) (Cert.KernelIdeal.PreI.tableOf m c) b e) :
    (transpose S1024x100000 [1, 0] (logpArr W2 c) hres : (⟨S1024x100000, .f32⟩ : BufTy).Contents (Elt Ideal))
      = fun idx : S1024x100000.Idx =>
          Cert.Spec.out (Cert.KernelIdeal.PreI.seqsOf m c) (Cert.KernelIdeal.PreI.tableOf m c) (Cert.KernelIdeal.PreI.w1Of m c)
            (Cert.KernelIdeal.PreI.b1Of m c) (Cert.KernelIdeal.PreI.w2Of m c) (Cert.KernelIdeal.PreI.b2Of m c) (idx 0) (idx 1) :=
  Cert.KernelIdeal.KernelValue.result_eq_launch m c hb1r hW2t hb2c hres pooled (htArr W2 c) (lzArrOf W2 c) (scoresArrOf W2 c) (logpArr W2 c)
    hpre hP (ht_apply m W2 c hb1r hW2t hb2c pooled E) (scores_apply m W2 c hb1r hW2t hb2c pooled E)
    (fun b => colsOf (V3 W2) c b) (cols_apply m W2 c hb1r hW2t hb2c pooled E) (lz_apply W2 c) (logp_apply W2 c)

end Chain

/-! ## At the launch's buffers -/

section AtLaunch
variable (m : (ℓ : Loc nD τ sig) → Buf (Elt Ideal) ℓ)

open Cert.KernelIdeal.Launch (W0 op0 op1 op2 op3 a3' a4' a5' v0' v1' v2' v3' v6' v7')

/-- The first bias laid out as a row, where the host left it before the SparseCore call. -/
theorem W1_v0 (c : Dev nD) : Launch.W1 m c v0' = biasRow m c shapeCasts_S512_S1x512 := by
  show (op2 (F := Ideal)).result _ v0' = _
  rw [(op2 (F := Ideal)).result_of_not_mem _ (b := v0') (show v0' ∉ ({v2'} : Finset (DevRef τ sig)) by decide),
    (op1 (F := Ideal)).result_of_not_mem _ (b := v0') (show v0' ∉ ({v1'} : Finset (DevRef τ sig)) by decide)]
  refine (StableHlo.reshape_result main_arg3 main_v0 rfl shapeCasts_S512_S1x512 _ _ (W0 m c)).trans ?_
  rfl

/-- The second weight matrix transposed, where the host left it. -/
theorem W1_v1 (c : Dev nD) : Launch.W1 m c v1' = weightT m c transposes_S512x100000_S100000x512_1_0 := by
  show (op2 (F := Ideal)).result _ v1' = _
  rw [(op2 (F := Ideal)).result_of_not_mem _ (b := v1') (show v1' ∉ ({v2'} : Finset (DevRef τ sig)) by decide)]
  refine (StableHlo.unary_result main_arg4 main_v1 _ _ _ ((op0 (F := Ideal)).result (W0 m c))).trans ?_
  rw [(op0 (F := Ideal)).result_of_not_mem _ (b := a4') (show a4' ∉ ({v0'} : Finset (DevRef τ sig)) by decide)]
  all_goals rfl

/-- The second bias laid out as a column, where the host left it. -/
theorem W1_v2 (c : Dev nD) : Launch.W1 m c v2' = biasCol m c shapeCasts_S100000_S100000x1 := by
  show (op2 (F := Ideal)).result _ v2' = _
  refine (StableHlo.reshape_result main_arg5 main_v2 rfl shapeCasts_S100000_S100000x1 _ _ _).trans ?_
  rw [(op1 (F := Ideal)).result_of_not_mem _ (b := a5') (show a5' ∉ ({v1'} : Finset (DevRef τ sig)) by decide),
    (op0 (F := Ideal)).result_of_not_mem _ (b := a5') (show a5' ∉ ({v0'} : Finset (DevRef τ sig)) by decide)]
  all_goals rfl

/-- What the first kernel finds, at the launch's buffers: the pooled array the SparseCore call left, the first weight
    matrix as launched, the host's three arrays. -/
theorem entryReads (c : Dev nD) :
    EntryReads m (Launch.W2 m) c shapeCasts_S512_S1x512 transposes_S512x100000_S100000x512_1_0 shapeCasts_S100000_S100000x1
      (ScTile.poolVal c (m (ScTile.a0Loc c)) (m (ScTile.a1Loc c))) where
  v3 := Launch.W2_v3 m c
  a2 := (Launch.W2_of_ne m c _ (by decide)).trans (Launch.W1_of_not m c _ (by decide))
  v0 := (Launch.W2_of_ne m c v0' (by decide)).trans (W1_v0 m c)
  v1 := (Launch.W2_of_ne m c v1' (by decide)).trans (W1_v1 m c)
  v2 := (Launch.W2_of_ne m c v2' (by decide)).trans (W1_v2 m c)

/-- THE RESULT ARRAY AFTER @main, under the program's precondition: the specification of the launch memory's six
    argument arrays, read at each index's two coordinates. -/
theorem v7_eq_launch (hpre : Cert.Pre_KernelIdeal m) (c : Dev nD) :
    Cert.KernelIdeal.Launch.W6 m c Cert.KernelIdeal.Launch.v7'
      = fun idx : S1024x100000.Idx =>
          Cert.Spec.out (Cert.KernelIdeal.PreI.seqsOf m c) (Cert.KernelIdeal.PreI.tableOf m c) (Cert.KernelIdeal.PreI.w1Of m c)
            (Cert.KernelIdeal.PreI.b1Of m c) (Cert.KernelIdeal.PreI.w2Of m c) (Cert.KernelIdeal.PreI.b2Of m c) (idx 0) (idx 1) :=
  (StableHlo.unary_result main_v6 main_v7 _ _ _ (Launch.W5 m c)).trans
    (result_eq m (Launch.W2 m) c shapeCasts_S512_S1x512 transposes_S512x100000_S100000x512_1_0 shapeCasts_S100000_S100000x1
      transposes_S100000x1024_S1024x100000_1_0 _ (entryReads m c) hpre
      (fun b e => ScTile.poolVal_apply c (m (ScTile.a0Loc c)) (m (ScTile.a1Loc c)) b e))

end AtLaunch

end Cert.KernelIdeal.ValueChain

end
-- ==== Proof.ClaimsI.lean ====
/-
  What the run of the kernel program leaves, read for the claim: the result array and the six argument
  arrays, on every device. The argument arrays are touched by no host operation, call or kernel (the first
  weight matrix is a kernel's input window and ends as found), so they end as launched; the result array
  holds the final transpose of the third kernel's array.
-/
import proofs.«207593_g36137854828637_cont_8to1_b_1462_19_alg».proof.Defs
import proofs.«207593_g36137854828637_cont_8to1_b_1462_19_alg».proof.Proof.LaunchI
import proofs.«207593_g36137854828637_cont_8to1_b_1462_19_alg».proof.Proof.PreI -- at Ideal only
import proofs.«207593_g36137854828637_cont_8to1_b_1462_19_alg».proof.Proof.ValueChainI -- at Ideal only

noncomputable section

namespace Cert.KernelIdeal.Claims

open Cert.KernelIdeal Cert.KernelIdeal.Gen Cert.KernelIdeal.Common Cert.KernelIdeal.Launch
open Idealize.ShloMosaic Idealize.ShloMosaic.TcCoe
open Idealize.SL.Sem

variable {F : FTy → Type} [FloatOps F] [Named F]

variable (m : (ℓ : Loc nD τ sig) → Buf (Elt F) ℓ) (ρ : Dev nD → PrngReg)

/-- The program runs; the result array ends at the last boundary's contents and every argument array as launched. -/
theorem run_kept [∀ e, Nonempty (Elt F e)] (hidx : ScTile.IdxOK m) :
    θ_run (Cert.KernelIdeal.defs (F := F)) (Cert.KernelIdeal.threads (F := F)) ⟨m, fun _ => 0, ρ⟩ (fun r => ∀ c : Dev nD,
      r.2.mem ((c.tc : Thread nD τ).loc main_v7) = W6 m c v7'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.KernelIdeal.defs (F := F)) _ _).mono (fun r h c =>
    ⟨h c v7' (by decide),
      (h c a0' (by decide)).trans (W6_kept m c a0' (by decide) (by decide) (by decide) (by decide)),
      (h c a1' (by decide)).trans (W6_kept m c a1' (by decide) (by decide) (by decide) (by decide)),
      (h c (Proc.devRef .tc main_arg2) (by decide)).trans (W6_kept m c (Proc.devRef .tc main_arg2) (by decide) (by decide) (by decide) (by decide)),
      (h c a3' (by decide)).trans (W6_kept m c a3' (by decide) (by decide) (by decide) (by decide)),
      (h c a4' (by decide)).trans (W6_kept m c a4' (by decide) (by decide) (by decide) (by decide)),
      (h c a5' (by decide)).trans (W6_kept m c a5' (by decide) (by decide) (by decide) (by decide))⟩)
    (run_main m ρ hidx)

/-! ## At Ideal -/

/-- The frame of the idealized kernel. -/
theorem frame : Cert.frame_KernelIdeal := fun m ρ hpre =>
  (θ_run (Cert.KernelIdeal.defs (F := Ideal)) _ _).mono (fun _ h c => (h c).2)
    (run_kept (F := Ideal) m ρ (PreI.idxOK_of_pre m hpre))

/-- The idealized kernel's half of the equivalence: the result array is the specification of the launch arrays. -/
theorem kernel_half (m : (ℓ : Loc nD τ sig) → Buf (Elt Ideal) ℓ) (ρ : Dev nD → PrngReg) (hpre : Cert.Pre_KernelIdeal m) :
    θ_run (Cert.KernelIdeal.defs (F := Ideal)) (Cert.KernelIdeal.threads (F := Ideal)) ⟨m, fun _ => 0, ρ⟩ (fun r => ∀ c : Dev nD,
      r.2.mem ((c.tc : Thread nD τ).loc main_v7)
        = (fun idx : S1024x100000.Idx => Cert.Spec.out (PreI.seqsOf m c) (PreI.tableOf m c) (PreI.w1Of m c) (PreI.b1Of m c) (PreI.w2Of m c) (PreI.b2Of m c) (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.KernelIdeal.defs (F := Ideal)) _ _).mono (fun _ h c => ⟨(h c).1.trans (ValueChain.v7_eq_launch m hpre c), (h c).2⟩)
    (run_kept (F := Ideal) m ρ (PreI.idxOK_of_pre m hpre))

/-! ## End at Ideal -/

end Cert.KernelIdeal.Claims

end
-- ==== Proof.CommonK.lean ====
/-
  The program as the launch theorems see it, and the resource algebra every module of the proof shares:
  the SparseCore handshakes' rounds, the rounds of the TensorCore pipelines' staging cells, and the
  counters of the vector subcores' own transfers.
-/
import proofs.«207593_g36137854828637_cont_8to1_b_1462_19_alg».proof.Kernel
import proofs.«207593_g36137854828637_cont_8to1_b_1462_19_alg».proof.Proof.Gen.Kernel
import proofs.«207593_g36137854828637_cont_8to1_b_1462_19_alg».proof.Proof.Gen.Kernel.Launch
import Idealize.ShloMosaic.Lib.SparseCore.Launch
import Idealize.ShloMosaic.Lib.Pipeline.Regions
import Idealize.ShloMosaic.Lib.Pipeline.Kit
import Idealize.ShloMosaic.Lib.Transfers

noncomputable section

namespace Cert.Kernel.Common

open Cert.Kernel Cert.Kernel.Gen

open Idealize.ShloMosaic
open Idealize.ShloMosaic.SparseCore.Cfg (HIx)
open Idealize.SL Idealize.SL.RA Idealize.SL.BI
open Idealize.SL.Sem
open Idealize.ShloMosaic.Rounds

variable {F : FTy → Type}

/-! ## The program as the launch theorems see it -/

/-- The labels of the TensorCore pipelines' body table, which the SparseCore launch extends. -/
abbrev ΛP : Labels := Pipeline.Sig Λ₀ (Fin 3) fun p => (pcfgs (F := F) p).Adm
/-- The one SparseCore call. -/
abbrev K : SparseCore.Cfg τ sig (ΛP (F := F)) 1 := sc (F := F)
/-- The pipelines' body table. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The rounds of the pipelines' staging cells. -/
abbrev UP : Type := URounds (GSem nD τ sig) Unit
/-- Handshakes, staging cells, and the counters of the vector subcores' own transfers (found by instance in the right factor). -/
abbrev UU : Type := UH × (UP × Counters)

/-- The model every assertion of the proof is stated in. -/
abbrev MM (F : FTy → Type) : Type := MT nD τ sig (HIx 1) (Elt F) ℕ UU ℕ

def EH : Emb UH (MM F) :=
  (Emb.inl : Emb UH UU).trans (uEmb (nD := nD) (sig := sig) (Ix := HIx 1) (Val := Elt F) (Name := ℕ) (U := UU) (Lvl := ℕ)).toEmb
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

instance : CountersIn UU := inferInstance

end Cert.Kernel.Common

end
-- ==== Proof.ScTileK.lean ====
/-
  The SparseCore kernel of the program: embedding pooling on the vector subcores.

  Task `wid = 2·s + c` (SparseCore `c < 2`, vector subcore `s < 16`) owns the batch rows `[32·wid, 32·wid + 32)`.
  It copies its 32×50 block of the index array into its index scratch; for each of its 32 rows it gathers the 50
  table rows the indices name into its row scratch and sums them, lane chunk by lane chunk, from zero, in the order
  of the positions; the 32 sums go to the rows of the result it owns.

  The pooled array is ONE function of the launch contents of the index array and the table (`poolVal`): entry
  `(b, e)` is the left fold, over the positions `j = 0 … 49`, of the float addition from the zero word of the table's
  entry `(row (seqs (b, j)), e)`. The index array and the result split by 32-row blocks among the 32 tasks; the
  table, which every task reads whole, goes out as read shares: a half per SparseCore, of which each of its
  sixteen tasks takes a token.
-/
import proofs.«207593_g36137854828637_cont_8to1_b_1462_19_alg».proof.Proof.CommonK
import proofs.«207593_g36137854828637_cont_8to1_b_1462_19_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Transfers
import Idealize.ShloMosaic.Lib.Writes
import Idealize.ShloMosaic.Lib.Tactic
import Idealize.ShloMosaic.Lib.ValueLayout

noncomputable section

namespace Cert.Kernel.ScTile

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

theorem nCore_zero : (K (F := F)).nCore 0 = 2 := rfl
theorem nSub_zero : (K (F := F)).nSub 0 = 16 := rfl

/-! ## The arrays -/

variable (m : (ℓ : Loc nD τ sig) → Buf (Elt F) ℓ)

/-- The index array, the table and the pooled result, as the TensorCore names them. -/
abbrev a0Loc (d : Dev nD) : Loc nD τ sig := (SparseCore.T d).loc main_arg0
abbrev a1Loc (d : Dev nD) : Loc nD τ sig := (SparseCore.T d).loc main_arg1
abbrev v3Loc (d : Dev nD) : Loc nD τ sig := (SparseCore.T d).loc main_v3

local notation "qV" => (Memref.whole Cert.Kernel.main_arg0_scv : Memref Cert.Kernel.sig Kind.scVector Space.hbm Cert.Kernel.S1024x50 EltTy.i32)
local notation "tV" => (Memref.whole Cert.Kernel.main_arg1_scv : Memref Cert.Kernel.sig Kind.scVector Space.hbm Cert.Kernel.S100000x128 EltTy.f32)
local notation "oV" => (Memref.whole Cert.Kernel.main_v3_scv : Memref Cert.Kernel.sig Kind.scVector Space.hbm Cert.Kernel.S1024x128 EltTy.f32)
local notation "iS" => (Memref.whole Cert.Kernel.cc0_scratch0 : Memref Cert.Kernel.sig Kind.scVector Space.vmem Cert.Kernel.S32x50 EltTy.i32)
local notation "rS" => (Memref.whole Cert.Kernel.cc0_scratch1 : Memref Cert.Kernel.sig Kind.scVector Space.vmem Cert.Kernel.S50x128 EltTy.f32)
local notation "aS" => (Memref.whole Cert.Kernel.cc0_scratch2 : Memref Cert.Kernel.sig Kind.scVector Space.vmem Cert.Kernel.S32x128 EltTy.f32)

/-! ## The 32-row blocks -/

theorem qdiv : 32 ∣ S1024x50.size 0 := ⟨32, rfl⟩
theorem odiv : 32 ∣ S1024x128.size 0 := ⟨32, rfl⟩
/-- Block `w` of the index array and of the result: rows `[32 w, 32 w + 32)`. -/
abbrev qrow (w : Fin 32) : Rect S1024x50 := Rect.part (s := S1024x50) (a₀ := 0) qdiv w
abbrev orow (w : Fin 32) : Rect S1024x128 := Rect.part (s := S1024x128) (a₀ := 0) odiv w
abbrev qRowSet (w : Fin 32) : Finset S1024x50.Idx := ((qV).view.slice (qrow w)).set
abbrev oRowSet (w : Fin 32) : Finset S1024x128.Idx := ((oV).view.slice (orow w)).set

/-- The number of the task on vector subcore `s` of SparseCore `c`. -/
def wid (c : Fin 2) (s : Fin 16) : Fin 32 := ⟨2 * s.val + c.val, by omega⟩

/-! ## The read shares of the table -/

/-- SparseCore `c`'s half of the table. -/
def coreShare (c : Fin 2) : PosShare TreeShare := if c.val = 0 then (fullShare : PosShare TreeShare).left else (fullShare : PosShare TreeShare).right
/-- The token of task `s` of SparseCore `c`. -/
abbrev tileShare (c : Fin 2) (s : Fin 16) : PosShare TreeShare := Transfers.shareTok (coreShare c) 16 s

/-! ## The pooled array -/

/-- The table row an index word names (total: in range it is the word's value). -/
def rowW (w : BitVec 32) : Fin 100000 := ⟨w.toNat % 100000, Nat.mod_lt _ (by decide)⟩

variable [FloatOps F]

/-- The zero word as a float. -/
abbrev zeroF : F .f32 := Scalar.ofBits .f32 0x00000000#32

/-- The sum, in the order of the positions, from zero, of the first `n` named table entries of column `e` of batch row `b`. -/
def poolSum (seqs : S1024x50.Idx → BitVec 32) (table : S100000x128.Idx → F .f32) (b : Fin 1024) (e : Fin 128) : ℕ → F .f32
  | 0 => zeroF
  | n + 1 => if h : n < 50 then FloatOps.addf (poolSum seqs table b e n) (table (ix2 (rowW (seqs (ix2 b ⟨n, h⟩))) e)) else poolSum seqs table b e n

/-- THE POOLED ARRAY, one function of the launch contents of the index array and of the table. -/
def poolVal (d : Dev nD) (seqs : Buf (Elt F) (a0Loc d)) (table : Buf (Elt F) (a1Loc d)) : Buf (Elt F) (v3Loc d) :=
  fun x : S1024x128.Idx => poolSum seqs table (x 0) (x 1) 50

/-- What the proof asks of the launch memory: every index word names a table row. -/
def IdxOK (m : (ℓ : Loc nD τ sig) → Buf (Elt F) ℓ) : Prop := ∀ (d : Dev nD) j, (m (a0Loc d) j).toNat < 100000

/-! ## What the handshakes carry -/

abbrev qRowPts (d : Dev nD) (w : Fin 32) : sProp 𝕄 := a0Loc d ↦[qRowSet w]{fullShare} m (a0Loc d)
abbrev tTokPts (d : Dev nD) (c : Fin 2) (s : Fin 16) : sProp 𝕄 := a1Loc d ↦{tileShare c s} m (a1Loc d)
abbrev oRowPts (d : Dev nD) (w : Fin 32) (f : Buf (Elt F) (v3Loc d)) : sProp 𝕄 := v3Loc d ↦[oRowSet w]{fullShare} f
/-- The pooled array of the launch memory. -/
abbrev pooled (d : Dev nD) : Buf (Elt F) (v3Loc d) := poolVal d (m (a0Loc d)) (m (a1Loc d))

/-- A task's operands: its block of the index array, its token of the table, its block of the result at any contents; -/
def goT (d : Dev nD) (c : Fin 2) (s : Fin 16) : sProp 𝕄 :=
  iprop(qRowPts m d (wid c s) ∗ tTokPts m d c s ∗ ∃ f, oRowPts d (wid c s) f)
/-- and what it brings back: its block of the result at the pooled array. -/
def tdT (d : Dev nD) (c : Fin 2) (s : Fin 16) : sProp 𝕄 :=
  iprop(qRowPts m d (wid c s) ∗ tTokPts m d c s ∗ oRowPts d (wid c s) (pooled m d))
/-- A SparseCore's operands: its tasks' blocks, its half of the table; -/
def stC (d : Dev nD) (c : Fin 2) : sProp 𝕄 :=
  iprop((bigSep Finset.univ fun s : Fin 16 => qRowPts m d (wid c s)) ∗ (a1Loc d ↦{coreShare c} m (a1Loc d))
    ∗ bigSep Finset.univ fun s : Fin 16 => iprop(∃ f, oRowPts d (wid c s) f))
def dnC (d : Dev nD) (c : Fin 2) : sProp 𝕄 :=
  iprop((bigSep Finset.univ fun s : Fin 16 => qRowPts m d (wid c s)) ∗ (a1Loc d ↦{coreShare c} m (a1Loc d))
    ∗ bigSep Finset.univ fun s : Fin 16 => oRowPts d (wid c s) (pooled m d))

/-- The one SparseCore call's payloads. -/
def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => by show BI.Storable (upEmb : UEmb _ 𝕄) (stC m d _); unfold stC; infer_instance
  dn q d c := match q with | 0 => by show BI.Storable (upEmb : UEmb _ 𝕄) (dnC m d _); unfold dnC; infer_instance
  go q d c i := match q with | 0 => by show BI.Storable (upEmb : UEmb _ 𝕄) (goT m d _ _); unfold goT; infer_instance
  td q d c i := match q with | 0 => by show BI.Storable (upEmb : UEmb _ 𝕄) (tdT m d _ _); unfold tdT; infer_instance

theorem P_x (q : Fin 1) (thr : Thread nD τ) : (P (F := F) m).x q thr = iprop(emp) := rfl
theorem P_ox : (P (F := F) m).ox = fun _ _ => 0 := rfl
theorem P_held : (P (F := F) m).held = ∅ := rfl

/-! ## The blocks split and join; the shares of the table -/

/-- The task number as an equivalence. -/
def widE : Fin 2 × Fin 16 ≃ Fin 32 where
  toFun p := wid p.1 p.2
  invFun w := (⟨w.val % 2, Nat.mod_lt _ (by decide)⟩, ⟨w.val / 2, by have := w.isLt; omega⟩)
  left_inv := by
    rintro ⟨c, s⟩
    refine Prod.ext (Fin.ext ?_) (Fin.ext ?_)
    · show (2 * s.val + c.val) % 2 = c.val
      have := c.isLt; omega
    · show (2 * s.val + c.val) / 2 = s.val
      have := c.isLt; omega
  right_inv := by
    intro w
    refine Fin.ext ?_
    show 2 * (w.val / 2) + w.val % 2 = w.val
    omega

omit [FloatOps F] in
theorem bigSep_wid (Φ : Fin 32 → sProp 𝕄) :
    (bigSep Finset.univ fun c : Fin 2 => bigSep Finset.univ fun s : Fin 16 => Φ (wid c s)) = bigSep Finset.univ Φ := by
  rw [BI.bigSep_univ_equiv widE Φ, BI.bigSep_univ_prod]; rfl

omit [FloatOps F] in
theorem qRowSet_eq (w : Fin 32) : qRowSet w = (qrow w).set := by
  show ((View.whole (main_arg0_scv : Ref sig .scVector)).slice (qrow w)).set = _
  rw [View.set_slice]; exact Finset.map_refl
omit [FloatOps F] in
theorem oRowSet_eq (w : Fin 32) : oRowSet w = (orow w).set := by
  show ((View.whole (main_v3_scv : Ref sig .scVector)).slice (orow w)).set = _
  rw [View.set_slice]; exact Finset.map_refl
omit [FloatOps F] in
theorem qrows_disjoint : ∀ i ∈ (Finset.univ : Finset (Fin 32)), ∀ j ∈ (Finset.univ : Finset (Fin 32)), i ≠ j → Disjoint (qRowSet i) (qRowSet j) :=
  fun i _ j _ h => by rw [qRowSet_eq, qRowSet_eq]; exact Rect.part_disjoint qdiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem qrows_cover : (Finset.univ : Finset (Fin 32)).biUnion qRowSet = Finset.univ :=
  (Finset.biUnion_congr rfl fun i _ => qRowSet_eq i).trans (Rect.biUnion_part qdiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem qPts_rows (d : Dev nD) (f : Buf (Elt F) (a0Loc d)) :
    (a0Loc d ↦{fullShare} f : sProp 𝕄) = bigSep Finset.univ fun w : Fin 32 => a0Loc d ↦[qRowSet w]{fullShare} f := by
  rw [← pointsTo_biUnion Finset.univ (ℓ := a0Loc d) qRowSet qrows_disjoint, qrows_cover]; try rfl
omit [FloatOps F] in
theorem oPts_rows (d : Dev nD) (f : Buf (Elt F) (v3Loc d)) :
    (v3Loc d ↦{fullShare} f : sProp 𝕄) = bigSep Finset.univ fun w : Fin 32 => v3Loc d ↦[oRowSet w]{fullShare} f := by
  rw [← pointsTo_biUnion Finset.univ (ℓ := v3Loc d) oRowSet orows_disjoint, orows_cover]; try rfl

theorem oRows_join (d : Dev nD) :
    (bigSep Finset.univ fun w : Fin 32 => iprop(∃ f, oRowPts d w f)) ⊢ (iprop(∃ f, v3Loc d ↦{fullShare} f) : sProp 𝕄) := by
  refine (bigSep_exists_pi Finset.univ (fun w (f : Buf (Elt F) (v3Loc d)) => oRowPts d w f)).trans ?_
  iintro ⟨%fs, H⟩
  have : Nonempty (Buf (Elt F) (v3Loc d)) := ⟨fs 0⟩
  ihave H' := (pointsTo_biUnion_join (ℓ := v3Loc d) (q := fullShare) (Val := Elt F) Finset.univ oRowSet fs (fs 0) orows_disjoint) $$ H
  icases H' with ⟨%g, -, Hg⟩
  rw [orows_cover]
  iexists g; iexact Hg

omit [FloatOps F] in
theorem oRow_ex (d : Dev nD) (w : Fin 32) (f : Buf (Elt F) (v3Loc d)) :
    (v3Loc d ↦[oRowSet w]{fullShare} f : sProp 𝕄) ⊢ iprop(∃ f, oRowPts d w f) := by
  iintro H; iexists f; iexact H
omit [FloatOps F] in
theorem oRows_split_at (d : Dev nD) (f : Buf (Elt F) (v3Loc d)) :
    (bigSep Finset.univ fun w : Fin 32 => (v3Loc d ↦[oRowSet w]{fullShare} f : sProp 𝕄))
      ⊢ bigSep Finset.univ fun w : Fin 32 => iprop(∃ f, oRowPts d w f) :=
  bigSep_mono fun w _ => oRow_ex d w f

omit [FloatOps F] in
theorem oRows_split (d : Dev nD) :
    (iprop(∃ f, v3Loc d ↦{fullShare} f) : sProp 𝕄) ⊢ bigSep Finset.univ fun w : Fin 32 => iprop(∃ f, oRowPts d w f) := by
  iintro ⟨%f, H⟩
  ihave H' := (Entails.of_eq (oPts_rows d f)) $$ H
  iapply (oRows_split_at d f); iexact H'

theorem oRows_eq (d : Dev nD) :
    (bigSep Finset.univ fun w : Fin 32 => iprop(∃ f, oRowPts d w f)) = (iprop(∃ f, v3Loc d ↦{fullShare} f) : sProp 𝕄) :=
  BI.Entails.antisymm (oRows_join d) (oRows_split d)

omit [FloatOps F] in
/-- The table whole is its two halves. -/
theorem tPts_cores (d : Dev nD) (f : Buf (Elt F) (a1Loc d)) :
    (bigSep Finset.univ fun c : Fin 2 => a1Loc d ↦{coreShare c} f) = (a1Loc d ↦{fullShare} f : sProp 𝕄) := by
  rw [bigSep_univ_two]
  show iprop((a1Loc d ↦{(fullShare : PosShare TreeShare).left} f) ∗ a1Loc d ↦{(fullShare : PosShare TreeShare).right} f) = _
  exact (BI.Entails.antisymm (pointsTo_share (PosShare.mem_left_op_right fullShare)).1 (pointsTo_share (PosShare.mem_left_op_right fullShare)).2).symm

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands split into its sixteen tasks' — each a token of its half of the table, the remainder kept
    aside until they are back — and the results gather from theirs. -/
theorem vecSplit : (K (F := F)).VecSplit' (P m) 0 := by
  intro d c
  show stC m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnC m d (Fin.cast nCore_zero c)))
  generalize Fin.cast nCore_zero c = c'
  rw [bigSep_tasks (F := F) (fun s => goT m d c' s), bigSep_tasks (F := F) (fun s => tdT m d c' s)]
  unfold stC dnC goT tdT
  rw [bigSep_sep', bigSep_sep', bigSep_sep', bigSep_sep']
  iintro ⟨Hq, Ht, Ho⟩
  ihave Ht' := (Transfers.pointsTo_toks_split (ℓ := a1Loc d) (S := Finset.univ) (f := m (a1Loc d)) (coreShare c') 16) $$ Ht
  icases Ht' with ⟨Hrem, Htoks⟩
  imodintro
  isplitl [Hq Htoks Ho]
  · isplitl [Hq]; · iexact Hq
    isplitl [Htoks]; · iexact Htoks
    iexact Ho
  iintro ⟨Hq, Htoks, Ho⟩
  isplitl [Hq]; · iexact Hq
  isplitl [Hrem Htoks]
  · iapply (Transfers.pointsTo_toks_join (ℓ := a1Loc d) (S := Finset.univ) (f := m (a1Loc d)) (coreShare c') 16)
    isplitl [Hrem]; · iexact Hrem
    iexact Htoks
  iexact Ho

/-- What the call takes for the two SparseCores: the index array and the table whole, the result at any contents; -/
theorem st0_eq (d : Dev nD) : (bigSep Finset.univ fun c : Fin ((K (F := F)).nCore 0) => (P m).st 0 d c)
    = (iprop((a0Loc d ↦{fullShare} m (a0Loc d)) ∗ (a1Loc d ↦{fullShare} m (a1Loc d)) ∗ ∃ f, v3Loc d ↦{fullShare} f) : sProp (MM F)) := by
  show (bigSep Finset.univ fun c : Fin ((K (F := F)).nCore 0) => stC m d (Fin.cast nCore_zero c)) = _
  rw [bigSep_cores (F := F) (fun c => stC m d c)]
  unfold stC
  rw [bigSep_sep', bigSep_sep', bigSep_wid (F := F) (fun w => qRowPts m d w), bigSep_wid (F := F) (fun w => iprop(∃ f, oRowPts d w f)),
    tPts_cores, oRows_eq, ← qPts_rows]
/-- and what it hands back: the result at the pooled array. -/
theorem dn0_eq (d : Dev nD) : (bigSep Finset.univ fun c : Fin ((K (F := F)).nCore 0) => (P m).dn 0 d c)
    = (iprop((a0Loc d ↦{fullShare} m (a0Loc d)) ∗ (a1Loc d ↦{fullShare} m (a1Loc d)) ∗ v3Loc d ↦{fullShare} poolVal d (m (a0Loc d)) (m (a1Loc d))) : sProp (MM F)) := by
  show (bigSep Finset.univ fun c : Fin ((K (F := F)).nCore 0) => dnC m d (Fin.cast nCore_zero c)) = _
  rw [bigSep_cores (F := F) (fun c => dnC m d c)]
  unfold dnC
  rw [bigSep_sep', bigSep_sep', bigSep_wid (F := F) (fun w => qRowPts m d w), bigSep_wid (F := F) (fun w => oRowPts d w (pooled m d)),
    tPts_cores, ← qPts_rows, ← oPts_rows]

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)
/-- The task's thread. -/
abbrev thrL (d : Dev nD) (L : grid0.Coords) : Thread nD τ := V d (cV L) (jV L)

/-- The task's blocks as the program slices them. -/
abbrev qrowK (L : grid0.Coords) : Rect S1024x50 := Rect.unit (s := S1024x50) (k0_off1 L) S32x50.size (k0_off1_inb L)
abbrev orowK (L : grid0.Coords) : Rect S1024x128 := Rect.unit (s := S1024x128) (k0_off19 L) S32x128.size (k0_off19_inb L)
abbrev qRowK (L : grid0.Coords) : Memref sig .scVector .hbm S32x50 .i32 := (qV).slice (qrowK L) (fun _ => rfl)
abbrev oRowK (L : grid0.Coords) : Memref sig .scVector .hbm S32x128 .f32 := (oV).slice (orowK L) (fun _ => rfl)

omit [FloatOps F] in
theorem qrowK_eq : qrowK L = qrow (wid (cL L) (sL L)) := by
  unfold qrowK qrow Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]
omit [FloatOps F] in
theorem orowK_eq : orowK L = orow (wid (cL L) (sL L)) := by
  unfold orowK orow Rect.part Rect.block
  congr 1 <;> funext a
  · rw [k0_off19_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_qRowK : (qRowK L).view.set = qRowSet (wid (cL L) (sL L)) := by
  show ((qV).view.slice (qrowK L)).set = ((qV).view.slice (qrow (wid (cL L) (sL L)))).set
  exact qrowK_eq L ▸ rfl
omit [FloatOps F] in
theorem set_oRowK : (oRowK L).view.set = oRowSet (wid (cL L) (sL L)) := by
  show ((oV).view.slice (orowK L)).set = ((oV).view.slice (orow (wid (cL L) (sL L)))).set
  exact orowK_eq L ▸ rfl

omit [FloatOps F] in
theorem pts_qRowK (f : Buf (Elt F) (a0Loc d)) :
    ((qRowK L).view.loc (thrL d L) ↦[(qRowK L).view.set]{fullShare} f : sProp 𝕄) = a0Loc d ↦[qRowSet (wid (cL L) (sL L))]{fullShare} f := by
  rw [set_qRowK]
omit [FloatOps F] in
theorem pts_oRowK (f : Buf (Elt F) (v3Loc d)) :
    ((oRowK L).view.loc (thrL d L) ↦[(oRowK L).view.set]{fullShare} f : sProp 𝕄) = v3Loc d ↦[oRowSet (wid (cL L) (sL L))]{fullShare} f := by
  rw [set_oRowK]
omit [FloatOps F] in
theorem pts_tV (q : PosShare TreeShare) (f : Buf (Elt F) (a1Loc d)) :
    ((tV).view.loc (thrL d L) ↦{q} f : sProp 𝕄) = a1Loc d ↦{q} f := rfl
omit [FloatOps F] in
theorem pts_iS (f : Buf (Elt F) ((thrL d L).loc cc0_scratch0)) :
    ((iS).view.loc (thrL d L) ↦{fullShare} f : sProp 𝕄) = (thrL d L).loc cc0_scratch0 ↦{fullShare} f := rfl
omit [FloatOps F] in
theorem pts_rS (f : Buf (Elt F) ((thrL d L).loc cc0_scratch1)) :
    ((rS).view.loc (thrL d L) ↦{fullShare} f : sProp 𝕄) = (thrL d L).loc cc0_scratch1 ↦{fullShare} f := rfl
omit [FloatOps F] in
theorem pts_aS (f : Buf (Elt F) ((thrL d L).loc cc0_scratch2)) :
    ((aS).view.loc (thrL d L) ↦{fullShare} f : sProp 𝕄) = (thrL d L).loc cc0_scratch2 ↦{fullShare} f := rfl

/-- The kernel's three DMA cells: the index fetch's, the gathers', the write-out's. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scoped1.sem)

omit [FloatOps F] in
/-- The subcore's own cells at zero: the kernel's three DMA cells and the rest. -/
theorem ownSems0_V :
    (ownSems0 (thrL d L) : sProp 𝕄)
      = iprop(semVal (cAcell d (cV L) (jV L)) 0 ∗ semVal (cGcell d (cV L) (jV L)) 0 ∗ semVal (cBcell d (cV L) (jV L)) 0
          ∗ bigSep ((((ownCells (thrL d L)).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch3.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The three scratch buffers are among the subcore's own. -/
theorem ownBufs_V :
    (ownBufs (thrL d L) : sProp 𝕄)
      = iprop((∃ f, (thrL d L).loc cc0_scratch0 ↦{fullShare} f) ∗ (∃ f, (thrL d L).loc cc0_scratch1 ↦{fullShare} f) ∗ (∃ f, (thrL d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ### The landed index block, the invariants -/

/-- The task's block of the index array, as it lands in the index scratch. -/
def idxC (d : Dev nD) (L : grid0.Coords) : Buf (Elt F) ((thrL d L).loc cc0_scratch0) :=
  (qRowK L).view.read (Elt F) (m (a0Loc d))

omit [FloatOps F] in
/-- Every word of the landed block names a table row. -/
theorem idxC_lt (hidx : IdxOK m) (j : S32x50.Idx) : (idxC m d L j).toNat < 100000 := by
  unfold idxC
  rw [show (qRowK L).view.read (Elt F) (m (a0Loc d)) j = m (a0Loc d) ((qRowK L).view.emb j) from (View.read_apply _ _).trans (cast_eq _ _)]
  exact hidx d _

/-- Row `i` of the index scratch as the gather's offset list. -/
abbrev offsK (k : Fin k0_t1_loop.trips) : Memref sig .scVector .vmem S50 .i32 :=
  ((iS).slice (Rect.unit (s := S32x50) (k0_off2 k) S1x50.size (k0_off2_inb k)) (fun _ => rfl)).squeeze S50 squeezes_S1x50_S50

omit [FloatOps F] in
theorem hin_of (hidx : IdxOK m) (k : Fin k0_t1_loop.trips) :
    ∀ x, ((offsK k).view.read (Elt F) (idxC m d L) x).toNat < S100000x128.size gathers_S100000x128_S50x128.axis := by
  intro x
  rw [show (offsK k).view.read (Elt F) (idxC m d L) x = idxC m d L ((offsK k).view.emb x) from (View.read_apply _ _).trans (cast_eq _ _)]
  exact idxC_lt m d L hidx _

/-- The batch row of the task's local row `i`. -/
def brow (L : grid0.Coords) (i : Fin 32) : Fin 1024 := ⟨32 * (wid (cL L) (sL L)).val + i.val, by have := (wid (cL L) (sL L)).isLt; have := i.isLt; omega⟩

/-- The outer loop's invariant before trip `k`: the table's token and the index block as they are, the row scratch at any
    contents, the accumulator scratch with its first `k` rows at the pooled array's rows of the task, the gathers' cell
    at zero, and what the task owes with only waits at index `none` recorded beyond `W`. -/
def inv1 (O : CellTallies nD τ sig (HIx 1)) (W : Waits sig (HIx 1)) (k : Nat) (_ : Unit) : sProp 𝕄 :=
  iprop(Transfers.MayWaits (thrL d L) (default : HIx 1) O
    ∗ ((tV).view.loc (thrL d L) ↦{tileShare (cL L) (sL L)} m (a1Loc d))
    ∗ ((iS).view.loc (thrL d L) ↦{fullShare} idxC m d L)
    ∗ (∃ fr, (rS).view.loc (thrL d L) ↦{fullShare} fr)
    ∗ (∃ fa, ⌜∀ (i : Fin 32) (e : Fin 128), i.val < k → fa (ix2 i e) = pooled m d (ix2 (brow L i) e)⌝ ∗ (aS).view.loc (thrL d L) ↦{fullShare} fa)
    ∗ semVal (cGcell d (cV L) (jV L)) 0
    ∗ ∃ W', ⌜∀ p ∈ W', p ∈ W ∨ p.2 = none⌝ ∗ owes (thrL d L) O W')

/-- The 50 table rows the indices of the task's local row `k` name, as they land in the row scratch. -/
def gatherC (d : Dev nD) (L : grid0.Coords) (k : Fin 32) : Buf (Elt F) ((thrL d L).loc cc0_scratch1) :=
  fun x : S50x128.Idx => m (a1Loc d) (ix2 (rowW (idxC m d L (ix2 k ⟨(x 0).val, (x 0).isLt⟩))) ⟨(x 1).val, (x 1).isLt⟩)

/-- The sum, in the order of the rows, from zero, of the first `n` entries of column `e` of a 50×128 buffer. -/
def rowSum (R : S50x128.Idx → F .f32) (e : Fin 128) : ℕ → F .f32
  | 0 => zeroF
  | n + 1 => if h : n < 50 then FloatOps.addf (rowSum R e n) (R (ix2 ⟨n, h⟩ e)) else rowSum R e n

/-- Lane chunk `c` of those sums. -/
def chunkSum (R : S50x128.Idx → F .f32) (c : Fin 8) (n : ℕ) : FVec F S16 .f32 :=
  fun l => rowSum R ⟨16 * c.val + (l 0).val, by have h1 : (l 0).val < 16 := (l 0).isLt; have := c.isLt; omega⟩ n

abbrev Acc8 (F : FTy → Type) : Type :=
  FVec F S16 .f32 × FVec F S16 .f32 × FVec F S16 .f32 × FVec F S16 .f32 × FVec F S16 .f32 × FVec F S16 .f32 × FVec F S16 .f32 × FVec F S16 .f32

/-- The eight accumulators before trip `n` of the inner loop. -/
def accAt (R : S50x128.Idx → F .f32) (n : ℕ) : Acc8 F :=
  (chunkSum R 0 n, chunkSum R 1 n, chunkSum R 2 n, chunkSum R 3 n, chunkSum R 4 n, chunkSum R 5 n, chunkSum R 6 n, chunkSum R 7 n)

/-- The inner loop's invariant: the row scratch as it is, the accumulators the partial sums. -/
def inv2 (R : Buf (Elt F) ((thrL d L).loc cc0_scratch1)) (n : Nat) (acc : Acc8 F) : sProp 𝕄 :=
  iprop(((rS).view.loc (thrL d L) ↦{fullShare} R) ∗ ⌜acc = accAt R n⌝)

/-! ### The accumulators' step -/

theorem accAt_zero (R : S50x128.Idx → F .f32) (z : FVec F S16 .f32) (hz : z = broadcast S16 (FloatOps.ofBits .f32 0x00000000#32)) :
    (z, z, z, z, z, z, z, z) = accAt R 0 := by
  subst hz; rfl

/-- One trip's addition on lane chunk `c`: the partial sums move on by the row just read. -/
theorem chunk_step (R : Buf (Elt F) ((thrL d L).loc cc0_scratch1)) (c : Fin 8) (n : Fin 50) (off : Fin 2 → ℕ)
    (hinb : ∀ a, off a + S1x16.size a ≤ S50x128.size a) (hoff : off = ![n.val, 16 * c.val]) (h : S1x16.ShapeCasts S16) :
    addf (chunkSum R c n.val) (shapeCast S16 ((rS).view.readAt (Elt F) (Rect.unit (s := S50x128) off S1x16.size hinb).toLoadRect R) h)
      = chunkSum R c (n.val + 1) := by
  subst hoff
  funext l
  obtain ⟨i, rfl⟩ : ∃ i : Fin 16, l = ix1 i := ⟨l 0, eq_ix1 l⟩
  have e := shapeCast_1a_a_apply (a := 16) ((rS).view.readAt (Elt F) (Rect.unit (s := S50x128) ![n.val, 16 * c.val] S1x16.size hinb).toLoadRect R) h i
  refine (congrArg (FloatOps.addf (chunkSum R c n.val (ix1 i))) e).trans ?_
  unfold chunkSum
  conv_rhs => unfold rowSum
  rw [dif_pos n.isLt]
  congr 1
  show R _ = R _
  congr 1
  funext a
  match a with
  | 0 => exact Fin.ext (by show n.val + 1 * 0 = n.val; omega)
  | 1 => exact Fin.ext (by show 16 * c.val + 1 * i.val = 16 * c.val + i.val; omega)

/-! ### The stores of one trip: row `k` of the accumulator scratch -/

omit [FloatOps F] in
/-- Writes that all lie in row `k`, agree with one function `G` and cover the row leave `G` on row `k` and the other rows
    as they were. -/
theorem writes_row (fa' : Buf (Elt F) ((thrL d L).loc cc0_scratch2)) (k : Fin 32) (G : S32x128.Idx → F .f32)
    (Ls : List (View.Piece (Elt F) S32x128 .f32))
    (hrow : ∀ p ∈ Ls, ∀ y ∈ p.1.set, (y 0).val = k.val)
    (hG : ∀ p ∈ Ls, ∀ x : p.1.shape.Idx, p.2 x = G (p.1.emb x))
    (hcov : ∀ e : Fin 128, ∃ p ∈ Ls, (ix2 k e : S32x128.Idx) ∈ p.1.set) (i : Fin 32) (e : Fin 128) :
    ((aS).view.writes (Elt F) fa' Ls) (ix2 i e) = if i = k then G (ix2 k e) else fa' (ix2 i e) := by
  by_cases hik : i = k
  · subst hik
    rw [if_pos rfl]
    exact View.read_writes_apply_of_pieces (aS).view fa' G Ls hG (ix2 i e) (hcov e)
  · rw [if_neg hik]
    exact View.read_writes_apply_of_forall_not_mem (aS).view fa' (ix2 i e) Ls fun p hp hy => hik (Fin.ext (hrow p hp _ hy))

/-! ### The landed values -/

omit [FloatOps F] in
/-- The landed index block at local row `k`, position `j`: the index array at the task's batch row. -/
theorem idxC_apply (k : Fin 32) (j : Fin 50) : idxC m d L (ix2 k j) = m (a0Loc d) (ix2 (brow L k) j) := by
  unfold idxC
  rw [show (qRowK L).view.read (Elt F) (m (a0Loc d)) (ix2 k j) = m (a0Loc d) ((qRowK L).view.emb (ix2 k j)) from (View.read_apply _ _).trans (cast_eq _ _)]
  congr 1
  funext a
  match a with
  | 0 =>
    refine Fin.ext ?_
    show k0_off1 L 0 + 1 * k.val = 32 * (2 * (L 1).val + (L 0).val) + k.val
    rw [k0_off1_eq]; show 64 * (L 1).val + 32 * (L 0).val + 1 * k.val = _; omega
  | 1 =>
    refine Fin.ext ?_
    show k0_off1 L 1 + 1 * j.val = j.val
    rw [k0_off1_eq]; show 0 + 1 * j.val = j.val; omega

/-- The partial sums over the gathered rows are the pooled array's. -/
theorem rowSum_gatherC (k : Fin 32) (e : Fin 128) (n : ℕ) :
    rowSum (gatherC m d L k) e n = poolSum (m (a0Loc d)) (m (a1Loc d)) (brow L k) e n := by
  induction n with
  | zero => rfl
  | succ n ih =>
    unfold rowSum poolSum
    by_cases h : n < 50
    · rw [dif_pos h, dif_pos h, ih]
      congr 1
      show m (a1Loc d) (ix2 (rowW (idxC m d L (ix2 k _))) _) = _
      rw [idxC_apply]
    · rw [dif_neg h, dif_neg h, ih]

/-! ### What the gather lands -/

omit [FloatOps F] in
/-- Word `j` of the offset list of local row `k` is entry `(k, j)` of the index scratch. -/
theorem offsK_emb (k : Fin 32) (j : Fin 50) : (offsK k).view.emb (ix1 j) = (ix2 k j : S32x50.Idx) := by
  show ((iS).view.slice (Rect.unit (s := S32x50) (k0_off2 k) S1x50.size (k0_off2_inb k))).emb
      (Shape.reshapeEquiv squeezes_S1x50_S50.numel_eq (ix1 j)) = _
  rw [Shape.reshapeEquiv_eq_of_rowMajor squeezes_S1x50_S50.numel_eq (x := (ix1 j : S50.Idx)) (y := (ix2 (0 : Fin 1) j : S1x50.Idx))
    (by rw [Shape.rowMajor_val_two, Shape.rowMajor_val_one]; show 0 * 50 + j.val = j.val; omega)]
  funext a
  match a with
  | 0 =>
    refine Fin.ext ?_
    show k0_off2 k 0 + 1 * 0 = k.val
    have e0 : k0_off2 k 0 = k.val := congrFun (k0_off2_eq k) 0
    omega
  | 1 =>
    refine Fin.ext ?_
    show k0_off2 k 1 + 1 * j.val = j.val
    have e1 : k0_off2 k 1 = 0 := congrFun (k0_off2_eq k) 1
    omega

/-- The row scratch after the gather of local row `k`: the named table rows. -/
theorem gathered_eq (hidx : IdxOK m) (k : Fin 32) (hg : S100000x128.Gathers 0 S50x128)
    (hinb : ∀ a, (![0, 0] : Fin 2 → ℕ) a + S100000x128.size a ≤ S100000x128.size a)
    (hn : S50.numel = S50x128.size hg.axis')
    (hin : ∀ x, ((offsK k).view.read (Elt F) (idxC m d L) x).toNat < S100000x128.size hg.axis) :
    (rS).view.writes (Elt F) (rS).view.junk
      [⟨Rect.whole _, SparseCore.gatherPayload hg
          (View.read (Elt F) ((tV).slice (Rect.unit (s := S100000x128) ![0, 0] S100000x128.size hinb) (fun _ => rfl)).view (m (a1Loc d)))
          (SparseCore.rows (View.read (Elt F) (offsK k).view (idxC m d L)) hn hin)⟩]
      = gatherC m d L k := by
  refine (View.read_writes_whole (Val := Elt F) (rS).view (rS).view.junk _).trans ?_
  funext x
  obtain ⟨j, e, rfl⟩ : ∃ (j : Fin 50) (e : Fin 128), x = ix2 j e := ⟨x 0, x 1, eq_ix2 x⟩
  unfold SparseCore.gatherPayload gatherC
  rw [show ∀ y, View.read (Elt F) ((tV).slice (Rect.unit (s := S100000x128) ![0, 0] S100000x128.size hinb) (fun _ => rfl)).view (m (a1Loc d)) y
      = m (a1Loc d) (((tV).slice (Rect.unit (s := S100000x128) ![0, 0] S100000x128.size hinb) (fun _ => rfl)).view.emb y)
      from fun y => (View.read_apply _ _).trans (cast_eq _ _)]
  congr 1
  funext a
  match a with
  | 0 =>
    refine Fin.ext ?_
    show 0 + 1 * (hg.idx (SparseCore.rows (View.read (Elt F) (offsK k).view (idxC m d L)) hn hin) (ix2 j e) 0).val = (idxC m d L (ix2 k j)).toNat % 100000
    have h0 : (hg.idx (SparseCore.rows (View.read (Elt F) (offsK k).view (idxC m d L)) hn hin) (ix2 j e) 0).val
        = (idxC m d L (ix2 k j)).toNat := by
      have := congrArg Fin.val (Shape.Gathers.idx_axis hg (SparseCore.rows (View.read (Elt F) (offsK k).view (idxC m d L)) hn hin) (ix2 j e))
      refine this.trans ?_
      show (View.read (Elt F) (offsK k).view (idxC m d L) (S50.rowMajor.symm _)).toNat = _
      rw [show ∀ y, View.read (Elt F) (offsK k).view (idxC m d L) y = idxC m d L ((offsK k).view.emb y) from fun y => (View.read_apply _ _).trans (cast_eq _ _)]
      have hy : S50.rowMajor.symm ((((ix2 j e : S50x128.Idx) hg.axis')).cast hn.symm) = (ix1 j : S50.Idx) := by
        apply S50.rowMajor.injective
        rw [Equiv.apply_symm_apply]
        exact Fin.ext (by rw [Shape.rowMajor_val_one]; rfl)
      rw [hy, offsK_emb]
    rw [h0, Nat.mod_eq_of_lt (idxC_lt m d L hidx _)]; omega
  | 1 =>
    refine Fin.ext ?_
    show 0 + 1 * (hg.idx (SparseCore.rows (View.read (Elt F) (offsK k).view (idxC m d L)) hn hin) (ix2 j e) 1).val = e.val
    rw [Shape.Gathers.idx_of_ne hg _ _ 1 (by decide)]
    show 0 + 1 * e.val = e.val
    omega

/-! ### The eight stores of a trip -/

/-- The row a trip leaves: the full sums of the row scratch's columns. -/
def rowG (R : S50x128.Idx → F .f32) : S32x128.Idx → F .f32 := fun y => rowSum R ⟨(y 1).val, (y 1).isLt⟩ 50

omit [FloatOps F] in
theorem piece_row (k : Fin 32) (c : Fin 8) (o : Fin 2 → ℕ) (hb : ∀ a, o a + S1x16.size a ≤ S32x128.size a) (ho : o = ![k.val, 16 * c.val]) :
    ∀ y ∈ (Rect.unit (s := S32x128) o S1x16.size hb).set, (y 0).val = k.val := by
  subst ho
  intro y hy
  have h0 := (Rect.mem_set_unit.mp hy) 0
  have e1 : (![k.val, 16 * c.val] : Fin 2 → ℕ) 0 = k.val := rfl
  have e2 : S1x16.size 0 = 1 := rfl
  rw [e1, e2] at h0
  omega

theorem piece_G (R : S50x128.Idx → F .f32) (k : Fin 32) (c : Fin 8) (o : Fin 2 → ℕ) (hb : ∀ a, o a + S1x16.size a ≤ S32x128.size a) (ho : o = ![k.val, 16 * c.val])
    (p : S1x16.Idx → F .f32) (h : S16.ShapeCasts S1x16) (hp : p = shapeCast S1x16 (chunkSum R c 50) h) :
    ∀ x : (Rect.unit (s := S32x128) o S1x16.size hb).shape.Idx, p x = rowG R ((Rect.unit (s := S32x128) o S1x16.size hb).emb x) := by
  subst ho hp
  intro x
  obtain ⟨u, i, rfl⟩ : ∃ (u : Fin 1) (i : Fin 16), x = ix2 u i := ⟨x 0, x 1, eq_ix2 x⟩
  refine (shapeCast_a_1a_apply (a := 16) (chunkSum R c 50) h u i).trans ?_
  unfold chunkSum rowG
  congr 1
  exact Fin.ext (by show 16 * c.val + i.val = 16 * c.val + 1 * i.val; omega)

omit [FloatOps F] in
theorem piece_cov (k : Fin 32) (c : Fin 8) (o : Fin 2 → ℕ) (hb : ∀ a, o a + S1x16.size a ≤ S32x128.size a) (ho : o = ![k.val, 16 * c.val])
    (e : Fin 128) (he : 16 * c.val ≤ e.val ∧ e.val < 16 * c.val + 16) :
    (ix2 k e : S32x128.Idx) ∈ (Rect.unit (s := S32x128) o S1x16.size hb).set := by
  subst ho
  refine Rect.mem_set_unit.mpr fun a => ?_
  match a with
  | 0 => exact ⟨Nat.le_refl _, by show k.val < k.val + 1; omega⟩
  | 1 => exact ⟨he.1, by show e.val < 16 * c.val + 16; exact he.2⟩

/-- After the eight stores of trip `k`: row `k` holds the full column sums of the row scratch, every other row is as it was. -/
theorem stored8 (fa' : Buf (Elt F) ((thrL d L).loc cc0_scratch2)) (k : Fin 32) (R : S50x128.Idx → F .f32)
    (o0 : Fin 2 → ℕ) (hb0 : ∀ a, o0 a + S1x16.size a ≤ S32x128.size a) (ho0 : o0 = ![k.val, 16 * (0 : Fin 8).val])
    (o1 : Fin 2 → ℕ) (hb1 : ∀ a, o1 a + S1x16.size a ≤ S32x128.size a) (ho1 : o1 = ![k.val, 16 * (1 : Fin 8).val])
    (o2 : Fin 2 → ℕ) (hb2 : ∀ a, o2 a + S1x16.size a ≤ S32x128.size a) (ho2 : o2 = ![k.val, 16 * (2 : Fin 8).val])
    (o3 : Fin 2 → ℕ) (hb3 : ∀ a, o3 a + S1x16.size a ≤ S32x128.size a) (ho3 : o3 = ![k.val, 16 * (3 : Fin 8).val])
    (o4 : Fin 2 → ℕ) (hb4 : ∀ a, o4 a + S1x16.size a ≤ S32x128.size a) (ho4 : o4 = ![k.val, 16 * (4 : Fin 8).val])
    (o5 : Fin 2 → ℕ) (hb5 : ∀ a, o5 a + S1x16.size a ≤ S32x128.size a) (ho5 : o5 = ![k.val, 16 * (5 : Fin 8).val])
    (o6 : Fin 2 → ℕ) (hb6 : ∀ a, o6 a + S1x16.size a ≤ S32x128.size a) (ho6 : o6 = ![k.val, 16 * (6 : Fin 8).val])
    (o7 : Fin 2 → ℕ) (hb7 : ∀ a, o7 a + S1x16.size a ≤ S32x128.size a) (ho7 : o7 = ![k.val, 16 * (7 : Fin 8).val])
    (p0 : S1x16.Idx → F .f32) (h0 : S16.ShapeCasts S1x16) (hp0 : p0 = shapeCast S1x16 (chunkSum R 0 50) h0)
    (p1 : S1x16.Idx → F .f32) (h1 : S16.ShapeCasts S1x16) (hp1 : p1 = shapeCast S1x16 (chunkSum R 1 50) h1)
    (p2 : S1x16.Idx → F .f32) (h2 : S16.ShapeCasts S1x16) (hp2 : p2 = shapeCast S1x16 (chunkSum R 2 50) h2)
    (p3 : S1x16.Idx → F .f32) (h3 : S16.ShapeCasts S1x16) (hp3 : p3 = shapeCast S1x16 (chunkSum R 3 50) h3)
    (p4 : S1x16.Idx → F .f32) (h4 : S16.ShapeCasts S1x16) (hp4 : p4 = shapeCast S1x16 (chunkSum R 4 50) h4)
    (p5 : S1x16.Idx → F .f32) (h5 : S16.ShapeCasts S1x16) (hp5 : p5 = shapeCast S1x16 (chunkSum R 5 50) h5)
    (p6 : S1x16.Idx → F .f32) (h6 : S16.ShapeCasts S1x16) (hp6 : p6 = shapeCast S1x16 (chunkSum R 6 50) h6)
    (p7 : S1x16.Idx → F .f32) (h7 : S16.ShapeCasts S1x16) (hp7 : p7 = shapeCast S1x16 (chunkSum R 7 50) h7)
    (i : Fin 32) (e : Fin 128) :
    ((aS).view.writes (Elt F) fa'
      [⟨Rect.unit (s := S32x128) o7 S1x16.size hb7, p7⟩, ⟨Rect.unit (s := S32x128) o6 S1x16.size hb6, p6⟩, ⟨Rect.unit (s := S32x128) o5 S1x16.size hb5, p5⟩, ⟨Rect.unit (s := S32x128) o4 S1x16.size hb4, p4⟩, ⟨Rect.unit (s := S32x128) o3 S1x16.size hb3, p3⟩, ⟨Rect.unit (s := S32x128) o2 S1x16.size hb2, p2⟩, ⟨Rect.unit (s := S32x128) o1 S1x16.size hb1, p1⟩, ⟨Rect.unit (s := S32x128) o0 S1x16.size hb0, p0⟩]) (ix2 i e)
      = if i = k then rowSum R e 50 else fa' (ix2 i e) := by
  refine (writes_row d L fa' k (rowG R) _ ?_ ?_ ?_ i e).trans rfl
  · intro p hp
    simp only [List.mem_cons, List.not_mem_nil, or_false] at hp
    rcases hp with rfl | rfl | rfl | rfl | rfl | rfl | rfl | rfl
    · exact piece_row k 7 o7 hb7 ho7
    · exact piece_row k 6 o6 hb6 ho6
    · exact piece_row k 5 o5 hb5 ho5
    · exact piece_row k 4 o4 hb4 ho4
    · exact piece_row k 3 o3 hb3 ho3
    · exact piece_row k 2 o2 hb2 ho2
    · exact piece_row k 1 o1 hb1 ho1
    · exact piece_row k 0 o0 hb0 ho0
  · intro p hp
    simp only [List.mem_cons, List.not_mem_nil, or_false] at hp
    rcases hp with rfl | rfl | rfl | rfl | rfl | rfl | rfl | rfl
    · exact piece_G R k 7 o7 hb7 ho7 p7 h7 hp7
    · exact piece_G R k 6 o6 hb6 ho6 p6 h6 hp6
    · exact piece_G R k 5 o5 hb5 ho5 p5 h5 hp5
    · exact piece_G R k 4 o4 hb4 ho4 p4 h4 hp4
    · exact piece_G R k 3 o3 hb3 ho3 p3 h3 hp3
    · exact piece_G R k 2 o2 hb2 ho2 p2 h2 hp2
    · exact piece_G R k 1 o1 hb1 ho1 p1 h1 hp1
    · exact piece_G R k 0 o0 hb0 ho0 p0 h0 hp0
  · intro e
    have he := e.isLt
    rcases (by omega : (16 * 0 ≤ e.val ∧ e.val < 16 * 0 + 16) ∨ (16 * 1 ≤ e.val ∧ e.val < 16 * 1 + 16) ∨ (16 * 2 ≤ e.val ∧ e.val < 16 * 2 + 16) ∨ (16 * 3 ≤ e.val ∧ e.val < 16 * 3 + 16) ∨ (16 * 4 ≤ e.val ∧ e.val < 16 * 4 + 16) ∨ (16 * 5 ≤ e.val ∧ e.val < 16 * 5 + 16) ∨ (16 * 6 ≤ e.val ∧ e.val < 16 * 6 + 16) ∨ (16 * 7 ≤ e.val ∧ e.val < 16 * 7 + 16)) with hc | hc | hc | hc | hc | hc | hc | hc
    · exact ⟨⟨Rect.unit (s := S32x128) o0 S1x16.size hb0, p0⟩, by simp, piece_cov k 0 o0 hb0 ho0 e hc⟩
    · exact ⟨⟨Rect.unit (s := S32x128) o1 S1x16.size hb1, p1⟩, by simp, piece_cov k 1 o1 hb1 ho1 e hc⟩
    · exact ⟨⟨Rect.unit (s := S32x128) o2 S1x16.size hb2, p2⟩, by simp, piece_cov k 2 o2 hb2 ho2 e hc⟩
    · exact ⟨⟨Rect.unit (s := S32x128) o3 S1x16.size hb3, p3⟩, by simp, piece_cov k 3 o3 hb3 ho3 e hc⟩
    · exact ⟨⟨Rect.unit (s := S32x128) o4 S1x16.size hb4, p4⟩, by simp, piece_cov k 4 o4 hb4 ho4 e hc⟩
    · exact ⟨⟨Rect.unit (s := S32x128) o5 S1x16.size hb5, p5⟩, by simp, piece_cov k 5 o5 hb5 ho5 e hc⟩
    · exact ⟨⟨Rect.unit (s := S32x128) o6 S1x16.size hb6, p6⟩, by simp, piece_cov k 6 o6 hb6 ho6 e hc⟩
    · exact ⟨⟨Rect.unit (s := S32x128) o7 S1x16.size hb7, p7⟩, by simp, piece_cov k 7 o7 hb7 ho7 e hc⟩

/-! ### The write-out -/

/-- The task's block of the result after the write-out: the pooled array there. -/
theorem out_eq (fo : Buf (Elt F) (v3Loc d)) (fa2 : Buf (Elt F) ((thrL d L).loc cc0_scratch2))
    (hfa2 : ∀ (i : Fin 32) (e : Fin 128), fa2 (ix2 i e) = pooled m d (ix2 (brow L i) e))
    (pay : S32x128.Idx → F .f32) (hpay : pay = (aS).view.read (Elt F) fa2) :
    ∀ i ∈ (oRowK L).view.set, ((oRowK L).view.writes (Elt F) fo [⟨Rect.whole S32x128, pay⟩]) i = pooled m d i := by
  subst hpay
  intro i hi
  obtain ⟨x, -, rfl⟩ := Finset.mem_map.mp hi
  obtain ⟨r, e, rfl⟩ : ∃ (r : Fin 32) (e : Fin 128), x = ix2 r e := ⟨x 0, x 1, eq_ix2 x⟩
  have h1 := congrFun (View.read_writes_whole (Val := Elt F) (oRowK L).view fo ((aS).view.read (Elt F) fa2)) (ix2 r e)
  rw [View.read_apply] at h1
  refine ((cast_eq _ _).symm.trans h1).trans ?_
  show fa2 (ix2 r e) = _
  rw [hfa2 r e]
  congr 1
  funext a
  match a with
  | 0 =>
    refine Fin.ext ?_
    show 32 * (2 * (L 1).val + (L 0).val) + r.val = k0_off19 L 0 + 1 * r.val
    have e0 : k0_off19 L 0 = 64 * (L 1).val + 32 * (L 0).val := congrFun (k0_off19_eq L) 0
    omega
  | 1 =>
    refine Fin.ext ?_
    show e.val = k0_off19 L 1 + 1 * e.val
    have e1 : k0_off19 L 1 = 0 := congrFun (k0_off19_eq L) 1
    omega

set_option maxHeartbeats 4000000 in
/-- The task on vector subcore `(L 0, L 1)` of device `d`: the index fetch and its wait; per local row the gather of the
    named table rows and its wait, the fifty additions on eight lane chunks, the eight stores; the write-out and its wait. -/
theorem tile_body (hF : (K (F := F)).Facts) (hidx : IdxOK m) (O : CellTallies nD τ sig (HIx 1)) (W : Waits sig (HIx 1)) (hO : ∀ g, O g none = 0) :
    iprop(levAts (K (F := F)).L (K (F := F)).lev ∗ emp
        ∗ goT m d (cL L) (sL L)
        ∗ scopedBufs (thrL d L) ∗ scopedSems0 (thrL d L) ∗ owes (thrL d L) O W)
      ⊢ wp frame (wpE (defs₀ (F := F)) 𝒱₀ (thrL d L) none) Set.univ
          (cc0__sc_pool_body L qV (Memref.isWhole_whole _) tV (Memref.isWhole_whole _) oV (Memref.isWhole_whole _)
            iS (Memref.isWhole_whole _) rS (Memref.isWhole_whole _) aS (Memref.isWhole_whole _) cc0_scratch3 cc0_scoped0 cc0_scoped1)
          fun _ => iprop(tdT m d (cL L) (sL L)
            ∗ scopedBufs (thrL d L) ∗ scopedSems0 (thrL d L)
            ∗ ∃ W', ⌜∀ p ∈ W', p ∈ W ∨ p.2 = none⌝ ∗ owes (thrL d L) O W') := by
  simp only [cc0__sc_pool_body_eq_skeleton]; unfold cc0__sc_pool_body_skel
  unfold goT tdT
  rw [(K (F := F)).scopedBufs_V hF d (cV L) (jV L), SparseCore.Cfg.scopedSems0_V (Val := Elt F) d (cV L) (jV L), ownSems0_V, ownBufs_V]
  iintro ⟨#Hlv, -, ⟨Hq, Ht, ⟨%fo, Ho⟩⟩, ⟨⟨%fi, Hi⟩, ⟨%fr, Hr⟩, ⟨%fa, Ha⟩, Hbufs⟩, ⟨HsemA, HsemG, HsemB, Hsems⟩, HO⟩
  ihave Hmw := (show levAts (K (F := F)).L (K (F := F)).lev ⊢ Transfers.MayWaits (thrL d L) (default : HIx 1) O from
    (K (F := F)).mayWaits_none (thr := thrL d L) hO) $$ Hlv
  ihave Hq' := (Entails.of_eq (pts_qRowK (F := F) d L _).symm) $$ Hq
  ihave Ho' := (Entails.of_eq (pts_oRowK (F := F) d L _).symm) $$ Ho
  ihave Ht' := (Entails.of_eq (pts_tV (F := F) d L _ _).symm) $$ Ht
  ihave Hi' := (Entails.of_eq (pts_iS (F := F) d L _).symm) $$ Hi
  ihave Hr' := (Entails.of_eq (pts_rS (F := F) d L _).symm) $$ Hr
  ihave Ha' := (Entails.of_eq (pts_aS (F := F) d L _).symm) $$ Ha
  sl_exec
  have hidxW : ∀ pay, pay = idxC m d L → ((iS).view.loc (thrL d L) ↦{fullShare} View.write (Elt F) (iS).view fi pay Finset.univ : sProp 𝕄)
      = (iS).view.loc (thrL d L) ↦{fullShare} idxC m d L := by
    intro pay h; subst h; rw [View.write_whole_univ]
  ihave Hi2 := (Entails.of_eq (hidxW (tile_body.sl.dma0 m d L) rfl)) $$ Hi'
  sl_for (inv1 m d L O (insert (SemLoc.dma cc0_scoped0.sem, (default : HIx 1)) W)) $$ [Hmw Ht' Hi2 Hr' Ha' HsemG HO]
  case region =>
    intro k _
    unfold inv1
    iintro ⟨Hmw, Ht, Hi, ⟨%fr', Hr⟩, ⟨%fa', %hfa, Ha⟩, Hsem, %W', %hW', HO⟩
    have hin := hin_of m d L hidx k
    sl_exec
    have hR : (rS).view.writes (Elt F) (rS).view.junk [⟨Rect.whole _, tile_body.sl.gather0 m d L k hin⟩] = gatherC m d L k :=
      gathered_eq m d L hidx k _ _ _ hin
    ihave Hr2 := (Entails.of_eq (congrArg (fun g => ((rS).view.loc (thrL d L) ↦{fullShare} g : sProp 𝕄)) hR)) $$ Hr
    sl_for (inv2 d L (gatherC m d L k)) $$ [Hr2]
    case region =>
      intro k2 acc
      unfold inv2
      iintro ⟨Hr, %hacc⟩
      sl_exec
      sl_step
      isplitl [Hr]; · iexact Hr
      ipureintro
      subst hacc
      refine Prod.ext ?_ (Prod.ext ?_ (Prod.ext ?_ (Prod.ext ?_ (Prod.ext ?_ (Prod.ext ?_ (Prod.ext ?_ ?_))))))
      · exact chunk_step d L (gatherC m d L k) 0 k2 _ _ (k0_off3_eq k2) _
      · exact chunk_step d L (gatherC m d L k) 1 k2 _ _ (k0_off4_eq k2) _
      · exact chunk_step d L (gatherC m d L k) 2 k2 _ _ (k0_off5_eq k2) _
      · exact chunk_step d L (gatherC m d L k) 3 k2 _ _ (k0_off6_eq k2) _
      · exact chunk_step d L (gatherC m d L k) 4 k2 _ _ (k0_off7_eq k2) _
      · exact chunk_step d L (gatherC m d L k) 5 k2 _ _ (k0_off8_eq k2) _
      · exact chunk_step d L (gatherC m d L k) 6 k2 _ _ (k0_off9_eq k2) _
      · exact chunk_step d L (gatherC m d L k) 7 k2 _ _ (k0_off10_eq k2) _
    · unfold inv2
      isplitl [Hr2]; · iexact Hr2
      ipureintro
      exact accAt_zero (gatherC m d L k) _ rfl
    iintro %acc HI
    unfold inv2
    icases HI with ⟨Hr, %hacc⟩
    sl_exec
    sl_step
    isplitl [Hmw]; · iexact Hmw
    isplitl [Ht]; · iexact Ht
    isplitl [Hi]; · iexact Hi
    isplitl [Hr]; · iexists _; iexact Hr
    isplitl [Ha]
    · iexists _; isplitr
      swap; · iexact Ha
      ipureintro
      intro i e hi
      subst hacc
      refine (stored8 d L fa' k (gatherC m d L k)
        _ _ (k0_off11_eq k) _ _ (k0_off12_eq k) _ _ (k0_off13_eq k) _ _ (k0_off14_eq k) _ _ (k0_off15_eq k) _ _ (k0_off16_eq k) _ _ (k0_off17_eq k) _ _ (k0_off18_eq k)
        _ _ rfl _ _ rfl _ _ rfl _ _ rfl _ _ rfl _ _ rfl _ _ rfl _ _ rfl i e).trans ?_
      by_cases hik : i = k
      · rw [if_pos hik, hik]; exact rowSum_gatherC m d L k e 50
      · rw [if_neg hik]
        have hne : i.val ≠ k.val := fun h => hik (Fin.ext h)
        exact hfa i e (by omega)
    isplitl [Hsem]; · iexact Hsem
    iexists _; isplitr
    swap; · iexact HO
    ipureintro; intro p hp
    rcases Finset.mem_insert.mp hp with hp | hp
    · exact .inr (hp ▸ rfl)
    · exact hW' p hp
  · unfold inv1
    isplitl [Hmw]; · iexact Hmw
    isplitl [Ht']; · iexact Ht'
    isplitl [Hi2]; · iexact Hi2
    isplitl [Hr']; · iexists _; iexact Hr'
    isplitl [Ha']
    · iexists _; isplitr
      swap; · iexact Ha'
      ipureintro; intro i e h; exact absurd h (Nat.not_lt_zero _)
    isplitl [HsemG]; · iexact HsemG
    iexists _; isplitr
    swap; · iexact HO
    ipureintro; exact fun p hp => .inl hp
  iintro %_ HI
  unfold inv1
  icases HI with ⟨-, Ht, Hi, ⟨%fr2, Hr⟩, ⟨%fa2, %hfa2, Ha⟩, Hsem, %W2, %hW2, HO⟩
  sl_exec
  sl_step
  isplitl [Hq' Ht Ho']
  · isplitl [Hq']; · iapply (Entails.of_eq (pts_qRowK (F := F) d L _)); iexact Hq'
    isplitl [Ht]; · iexact Ht
    iapply (Entails.of_eq (pts_oRowK (F := F) d L _))
    ihave Ho2 := (Entails.of_eq (pointsTo_congr (ℓ := (oRowK L).view.loc (thrL d L)) (q := fullShare)
      (out_eq m d L fo fa2 (fun i e => hfa2 i e i.isLt) (tile_body.sl.dma0_1 d L fa2) rfl))) $$ Ho'
    iexact Ho2
  isplitl [Hi Hr Ha Hbufs]
  · isplitl [Hi]; · iexists _; iexact Hi
    isplitl [Hr]; · iexists _; iexact Hr
    isplitl [Ha]; · iexists _; iexact Ha
    iexact Hbufs
  isplitl [HsemA Hsem HsemB Hsems]
  · isplitl [HsemA]; · iexact HsemA
    isplitl [Hsem]; · iexact Hsem
    isplitl [HsemB]; · iexact HsemB
    iexact Hsems
  iexists _; isplitr
  swap; · iexact HO
  ipureintro; intro p hp
  rcases Finset.mem_insert.mp hp with hp | hp
  · exact .inr (hp ▸ rfl)
  rcases hW2 p hp with h | h
  · rcases Finset.mem_insert.mp h with h | h
    · exact .inr (h ▸ rfl)
    · exact .inl h
  · exact .inr h

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_pool_body (coordsV c s)
          qV (Memref.isWhole_whole _) tV (Memref.isWhole_whole _) oV (Memref.isWhole_whole _)
          iS (Memref.isWhole_whole _) rS (Memref.isWhole_whole _) aS (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hidx : IdxOK m) : (K (F := F)).TileObl (D (F := F)) 𝒱 (P m) v₀ 0 := by
  intro d c i O W hO _ _
  simp only [P_ox, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) facts hidx O W hO).trans (wp_mono frame _ _ fun _ => obl_post)

end Tile

end Cert.Kernel.ScTile

end
-- ==== Proof.LaunchElemK.lean ====
/-
  The launch element of the ghost state and what the launch deals from it.

  The resource algebra is a product: the handshakes' rounds, the staging cells' rounds, the counters.
  Owning the launch element (the rounds library's initial elements in the first two factors, the unit
  in the third) is owning each factor's element through that factor's embedding. The handshakes'
  element is handed on as it is; from the staging cells' element the rounds library deals, per device
  and pipeline, the cells' launch state and the duty tokens of the transfers the loops issue, which
  regrouped per device is the pipelines' rounds ghost state there; the counters' unit is dropped; the
  per-thread extras are empty.
-/
import proofs.«207593_g36137854828637_cont_8to1_b_1462_19_alg».proof.Proof.CommonK
import proofs.«207593_g36137854828637_cont_8to1_b_1462_19_alg».proof.Proof.ScTileK

noncomputable section

namespace Cert.Kernel.LaunchElem

open Cert.Kernel Cert.Kernel.Gen Cert.Kernel.Common Cert.Kernel.ScTile
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- No pipeline has a prefetched table. -/
abbrev adm : (p : Fin 3) → (pcfgs (F := F) p).Adm := fun p => (cfgs p).toPCfg_adm

/-- The launch element: the handshakes' rounds, the staging cells' rounds, no counter. -/
def u₀ : UU := (initOf (K (F := F)).hsCells (K (F := F)).hsToks, (initOf (Pipeline.cells cfgs cellOf_inj) (Pipeline.launchToks cfgs cellOf_inj), 1))

/-- What @main's proof starts from beside the launch's deal: the pipelines' rounds ghost state on the device. -/
def G (d : Dev nD) : sProp (MM F) := Pipeline.ghostOn (pcfgs (F := F)) adm EP Finset.univ d

/-- Owning a triple of the product algebra is owning its first two components, each through its embedding. -/
theorem ownU_split (a : UH) (b : UP) (c : Counters) :
    (ownU ((a, (b, c)) : UU) : sProp (MM F)) ⊢ iprop(BI.own (EH a) ∗ BI.own (EP b)) := by
  iintro Hu
  ihave H := (ownU_pair (nD := nD) (τ := τ) (sig := sig) (Ix := HIx 1) (Val := Elt F) (Name := ℕ) (Lvl := ℕ) a ((b, c) : UP × Counters)) $$ Hu
  icases H with ⟨HH, HR⟩
  ihave H2 := (own_pair_emb (embR (nD := nD) (τ := τ) (sig := sig) (Ix := HIx 1) (Val := Elt F) (Name := ℕ) (Lvl := ℕ) (A := UH) (B := UP × Counters)) b c) $$ HR
  icases H2 with ⟨HP, -⟩
  isplitl [HH]
  · iexact HH
  · iexact HP

theorem bigSep_emp' {I : Type} (s : Finset I) : (bigSep s fun _ => iprop(emp)) = (iprop(emp) : sProp (MM F)) := BI.bigSep_emp_const s

/-- The per-thread extras are empty. -/
theorem Px_emp : (bigSep Finset.univ fun thr : Thread nD τ => bigSep Finset.univ fun q : Fin 1 => (P (F := F) m).x q thr)
    = (iprop(emp) : sProp (MM F)) := by
  simp only [P_x]
  rw [bigSep_emp', bigSep_emp']

/-- The cells' launch state and the duty tokens, dealt per device and pipeline, regrouped per device. -/
theorem ghost_deal :
    iprop((bigSep Finset.univ fun c : Dev nD => bigSep Finset.univ fun p => Pipeline.cellsGhost (nD := nD) (τ := τ) cfgs (EP (F := F)) p c)
        ∗ (bigSep Finset.univ fun c : Dev nD => bigSep Finset.univ fun p => (Pipeline.toksInit (nD := nD) (τ := τ) cfgs (EP (F := F)) p c : sProp (MM F))))
      ⊢ bigSep Finset.univ fun d : Dev nD => G (F := F) d := by
  rw [← bigSep_sep']
  exact bigSep_mono fun c _ => show iprop((bigSep Finset.univ fun p => Pipeline.cellsGhost (nD := nD) (τ := τ) cfgs (EP (F := F)) p c)
        ∗ bigSep Finset.univ fun p => (Pipeline.toksInit (nD := nD) (τ := τ) cfgs (EP (F := F)) p c : sProp (MM F))) ⊢ G (F := F) c
    from Entails.of_eq (by unfold G Pipeline.ghostOn Pipeline.PerCore.ghostOn; rw [bigSep_sep'])

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost cfgs EP cellOf_inj) $$ HP with ⟨Hg, Ht⟩
  imodintro
  isplitl [HH]; · iexact HH
  isplitl [Hg Ht]
  · iapply ghost_deal
    isplitl [Hg]
    · iexact Hg
    · iexact Ht
  · rw [Px_emp]; iempintro

end Cert.Kernel.LaunchElem

end
-- ==== Proof.Region1K.lean ====
/-
  The first TensorCore pipeline of the program, the dense layer  h = relu (x · W1 + b1)ᵀ  rounded to bf16:
  its proof data, its body obligation, and the arrays it leaves — all stated at a parameter `V`, the
  TensorCore's buffer contents when the pipeline is entered.

  The pipeline has no grid (one point). Its four windows are whole arrays: the pooled embeddings
  x : f32[1024,128], the weights W1 : f32[128,512], the bias row b1 : f32[1,512] are fetched whole, and the
  result h : bf16[512,1024] is written back whole. The body loads the three inputs, forms
  relu (x · W1 + b1) : f32[1024,512], transposes, rounds to bf16, and stores the whole block once. So the
  result array ends at ONE function of the three input arrays as the pipeline found them, and the input
  arrays end as they were found.
-/
import proofs.«207593_g36137854828637_cont_8to1_b_1462_19_alg».proof.Proof.CommonK
import proofs.«207593_g36137854828637_cont_8to1_b_1462_19_alg».proof.Proof.Gen.Kernel.Skeleton
import proofs.«207593_g36137854828637_cont_8to1_b_1462_19_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

namespace Cert.Kernel.Reg1

open Cert.Kernel Cert.Kernel.Gen Cert.Kernel.Common

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the pipeline is entered
variable (V : (c : Dev nD) → (b : Ref sig .tc) → Buf (Elt F) ((c : Thread nD τ).loc b))
-- a bound on the (own cell, index) pairs the core's waits have recorded, constant over the pipeline: the body waits on nothing
variable (Rc : Set (SemLoc sig × HIx 1))

/-! ## The invariant -/

/-- The pipeline's invariant on core `c`: the core's scoped buffers that are no staging buffer of this pipeline, at
    some contents each, and its generator register at some state — what the body neither reads nor writes. -/
def Φ1 (c : Dev nD) : sProp (MM F) :=
  iprop(Pipeline.scopedRest (Ix := HIx 1) (Name := ℕ) (U := UU) (Lvl := ℕ) (Val := Elt F) spec1 c ∗ ∃ r, prngReg c r)

/-! ## The windows' blocks -/

/-- Window `w`'s block at the point, read off its array as the pipeline finds it: for these whole-array
    windows, the array itself read through its own view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the result window's buffer -/

/-- The whole-block rectangles the body loads and stores through. -/
abbrev rX : Rect S1024x128 := Rect.unit (s := S1024x128) ![0, 0] S1024x128.size inb_S1024x128_S1024x128_0_0
abbrev rW : Rect S128x512 := Rect.unit (s := S128x512) ![0, 0] S128x512.size inb_S128x512_S128x512_0_0
abbrev rB : Rect S1x512 := Rect.unit (s := S1x512) ![0, 0] S1x512.size inb_S1x512_S1x512_0_0
abbrev rH : Rect S512x1024 := Rect.unit (s := S512x1024) ![0, 0] S512x1024.size inb_S512x1024_S512x1024_0_0

theorem zero2 : (![0, 0] : Fin 2 → Nat) = fun _ => 0 := by
  funext a; match a with | ⟨0, _⟩ => rfl | ⟨1, _⟩ => rfl

/-- The result window's staging buffer after the body, from the three input blocks: the body's one store covers
    the block, so it is the stored value, relu (x · W1 + b1) transposed and rounded. -/
def out1_3 (x : Vec F S1024x128 .f32) (w1 : Vec F S128x512 .f32) (b1 : Vec F S1x512 .f32) : Vec F S512x1024 .bf16 :=
  k1_pay1 x w1 b1

/-- One store through the whole-block rectangle, of the value computed from whole-block loads, leaves `out1_3`. -/
theorem canon_out1_3 (x : Vec F S1024x128 .f32) (w1 : Vec F S128x512 .f32) (b1 : Vec F S1x512 .f32) :
    View.canon [(⟨rH, k1_pay1 (View.ld x rX) (View.ld w1 rW) (View.ld b1 rB)⟩ : View.Piece (Elt F) S512x1024 .bf16)] = out1_3 x w1 b1 := by
  rw [View.canon_unit_zero zero2, View.ld_unit_zero zero2, View.ld_unit_zero zero2, View.ld_unit_zero zero2]; rfl

/-! ## The body's triple -/

set_option maxHeartbeats 1000000 in
/-- The body on whole staging memrefs — the inputs' reading `x`, `w1`, `b1`, the result's holding anything — runs to
    the continuation with the inputs' as they were and the result's reading `out1_3 x w1 b1`. -/
theorem sound_kernel1 (c : Dev nD) (E : Set ℕ)
    (arg0 : Memref sig .tc .vmem S1024x128 .f32) (harg0 : arg0.IsWhole) (arg1 : Memref sig .tc .vmem S128x512 .f32) (harg1 : arg1.IsWhole)
    (arg2 : Memref sig .tc .vmem S1x512 .f32) (harg2 : arg2.IsWhole) (arg3 : Memref sig .tc .vmem S512x1024 .bf16) (harg3 : arg3.IsWhole)
    (x : Vec F S1024x128 .f32) (w1 : Vec F S128x512 .f32) (b1 : Vec F S1x512 .f32) (K : PUnit → sProp (MM F)) :
    iprop(owns (c : Thread nD τ) arg0 fullShare x ∗ owns (c : Thread nD τ) arg1 fullShare w1 ∗ owns (c : Thread nD τ) arg2 fullShare b1
        ∗ (∃ d, owns (c : Thread nD τ) arg3 fullShare d)
        ∗ (iprop(owns (c : Thread nD τ) arg0 fullShare x ∗ owns (c : Thread nD τ) arg1 fullShare w1 ∗ owns (c : Thread nD τ) arg2 fullShare b1
            ∗ owns (c : Thread nD τ) arg3 fullShare (out1_3 x w1 b1)) -∗ K ⟨⟩))
      ⊢ wp frame (wpE (defs₀ (F := F)) Variants.none c none) E (cc1__h_body arg0 harg0 arg1 harg1 arg2 harg2 arg3 harg3) K := by
  simp only [cc1__h_body_eq_skeleton]; unfold cc1__h_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero zero2 inb_S512x1024_S512x1024_0_0 y⟩)]
  exact canon_out1_3 _ _ _

/-! ## The pipeline's proof data -/

/-- The proof data of the pipeline on core `c`: the arrays as the pipeline finds them; after the body each input's
    buffer at its block and the result's at `out1_3` of the three input blocks; the invariant: the core's other
    scoped buffers at some contents each and its generator register at some state, which the body does not touch;
    nothing owed; full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Φ1 c
  q _ := fullShare
  owed _ := 0
  recorded _ := Rc

/-- The proof data's arrays are the entry contents. -/
theorem A_eq1 (c : Dev nD) (w : Fin cfg1.W) : (dat1 V Rc c).A w = V c (Pipeline.arrRef spec1 w) := by
  dsimp only [dat1]

/-- What the body leaves, window by window. -/
theorem after1_0 (c : Dev nD) (t : Fin cfg1.N) : (dat1 V Rc c).after 0 t = iblk1 V c 0 t := by dsimp only [dat1]
theorem after1_1 (c : Dev nD) (t : Fin cfg1.N) : (dat1 V Rc c).after 1 t = iblk1 V c 1 t := by dsimp only [dat1]
theorem after1_2 (c : Dev nD) (t : Fin cfg1.N) : (dat1 V Rc c).after 2 t = iblk1 V c 2 t := by dsimp only [dat1]
theorem after1_3 (c : Dev nD) (t : Fin cfg1.N) :
    (dat1 V Rc c).after 3 t = out1_3 (iblk1 V c 0 t) (iblk1 V c 1 t) (iblk1 V c 2 t) := by dsimp only [dat1]

/-- The invariant at the two ends, and that nothing is owed. -/
theorem Φ1_first (c : Dev nD) : (dat1 V Rc c).Φ 0 = Φ1 c := rfl
theorem Φ1_last (c : Dev nD) : (dat1 V Rc c).Φ (Fin.last _) = Φ1 c := rfl
theorem Φ1_at (c : Dev nD) (t : Fin (cfg1.N + 1)) : (dat1 V Rc c).Φ t = Φ1 c := rfl
theorem recorded1 (c : Dev nD) (t : Fin (cfg1.N + 1)) : (dat1 V Rc c).recorded t = Rc := rfl
theorem owed1 (c : Dev nD) (t : Fin (cfg1.N + 1)) : (dat1 V Rc c).owed t = 0 := rfl
theorem share1 (c : Dev nD) (w : Fin cfg1.W) : (dat1 V Rc c).share w = fullShare := by
  unfold Dat.share; dsimp only [dat1]; split <;> rfl

/-- Each input window is fetched at the point, so its staging buffer holds its block when the body runs. -/
theorem before1_0 (c : Dev nD) (t : Fin cfg1.N) (d) : (dat1 V Rc c).before 0 t d = iblk1 V c 0 t := by
  rw [(dat1 V Rc c).before_fetched 0 t (fetch1_0 t) d]; unfold Dat.fetched Dat.blockOf iblk1; rw [A_eq1]; rfl
theorem before1_1 (c : Dev nD) (t : Fin cfg1.N) (d) : (dat1 V Rc c).before 1 t d = iblk1 V c 1 t := by
  rw [(dat1 V Rc c).before_fetched 1 t (fetch1_1 t) d]; unfold Dat.fetched Dat.blockOf iblk1; rw [A_eq1]; rfl
theorem before1_2 (c : Dev nD) (t : Fin cfg1.N) (d) : (dat1 V Rc c).before 2 t d = iblk1 V c 2 t := by
  rw [(dat1 V Rc c).before_fetched 2 t (fetch1_2 t) d]; unfold Dat.fetched Dat.blockOf iblk1; rw [A_eq1]; rfl

/-! ## The body obligation -/

/-- What the body is called with at the point, the windows one by one, -/
def bodyPre1 (c : Dev nD) (t : Fin cfg1.N) : sProp (MM F) :=
  iprop((dat1 V Rc c).Φ t.castSucc ∗ (dat1 V Rc c).owesAt none t.castSucc
    ∗ (∃ d, owns (c : Thread nD τ) (st1_0 t) fullShare ((dat1 V Rc c).before 0 t d))
    ∗ (∃ d, owns (c : Thread nD τ) (st1_1 t) fullShare ((dat1 V Rc c).before 1 t d))
    ∗ (∃ d, owns (c : Thread nD τ) (st1_2 t) fullShare ((dat1 V Rc c).before 2 t d))
    ∗ (∃ d, owns (c : Thread nD τ) (st1_3 t) fullShare ((dat1 V Rc c).before 3 t d)))

/-- and what it returns. -/
def bodyPost1 (c : Dev nD) (t : Fin cfg1.N) : sProp (MM F) :=
  iprop((dat1 V Rc c).Φ t.succ ∗ (dat1 V Rc c).owesAt none t.succ
    ∗ owns (c : Thread nD τ) (st1_0 t) fullShare ((dat1 V Rc c).after 0 t)
    ∗ owns (c : Thread nD τ) (st1_1 t) fullShare ((dat1 V Rc c).after 1 t)
    ∗ owns (c : Thread nD τ) (st1_2 t) fullShare ((dat1 V Rc c).after 2 t)
    ∗ owns (c : Thread nD τ) (st1_3 t) fullShare ((dat1 V Rc c).after 3 t))

/-- The body at the point: the inputs' buffers hold their blocks, so the body's triple applies; the invariant and what
    the core owes pass through unread. -/
theorem sound_body1 (c : Dev nD) (t : Fin cfg1.N) :
    bodyPre1 V Rc c t ⊢ wp frame (wpE (defs₀ (F := F)) Variants.none c none) Set.univ (bodyAt1 t) (fun _ => bodyPost1 V Rc c t) := by
  unfold bodyPre1 bodyPost1 bodyAt1
  simp only [before1_0, before1_1, before1_2]
  rw [show (dat1 V Rc c).Φ t.succ = (dat1 V Rc c).Φ t.castSucc from rfl,
    show (dat1 V Rc c).owesAt none t.succ = (dat1 V Rc c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the pipeline's one point. -/
theorem body_obligation1 (c : Dev nD) : BodyObligation (dat1 (F := F) V Rc c) (defs₀ (F := F)) Variants.none (none : HIx 1) Set.univ := fun t => by
  rw [bigSep_W1, bigSep_W1]
  exact sound_body1 V Rc c t

/-! ## The arrays the pipeline leaves -/

/-- A whole-array window's block is its array: contents read through the block's view are themselves. -/
theorem read_blk1_0 (t : Fin cfg1.N) (f : S1024x128.Idx → Elt F .f32) : ((cfg1.win 0).blk t).view.read (Elt F) f = f := by
  funext y
  show f (((cfg1.win 0).blk t).view.emb y) = f y
  congr 1; funext a; apply Fin.ext
  match a with
  | ⟨0, _⟩ => show 0 * 1024 + 1 * (y 0).val = (y 0).val; omega
  | ⟨1, _⟩ => show 0 * 128 + 1 * (y 1).val = (y 1).val; omega
theorem read_blk1_1 (t : Fin cfg1.N) (f : S128x512.Idx → Elt F .f32) : ((cfg1.win 1).blk t).view.read (Elt F) f = f := by
  funext y
  show f (((cfg1.win 1).blk t).view.emb y) = f y
  congr 1; funext a; apply Fin.ext
  match a with
  | ⟨0, _⟩ => show 0 * 128 + 1 * (y 0).val = (y 0).val; omega
  | ⟨1, _⟩ => show 0 * 512 + 1 * (y 1).val = (y 1).val; omega
theorem read_blk1_2 (t : Fin cfg1.N) (f : S1x512.Idx → Elt F .f32) : ((cfg1.win 2).blk t).view.read (Elt F) f = f := by
  funext y
  show f (((cfg1.win 2).blk t).view.emb y) = f y
  congr 1; funext a; apply Fin.ext
  match a with
  | ⟨0, _⟩ => show 0 * 1 + 1 * (y 0).val = (y 0).val; omega
  | ⟨1, _⟩ => show 0 * 512 + 1 * (y 1).val = (y 1).val; omega
theorem read_blk1_3 (t : Fin cfg1.N) (f : S512x1024.Idx → Elt F .bf16) : ((cfg1.win 3).blk t).view.read (Elt F) f = f := by
  funext y
  show f (((cfg1.win 3).blk t).view.emb y) = f y
  congr 1; funext a; apply Fin.ext
  match a with
  | ⟨0, _⟩ => show 0 * 512 + 1 * (y 0).val = (y 0).val; omega
  | ⟨1, _⟩ => show 0 * 1024 + 1 * (y 1).val = (y 1).val; omega

/-- So each input block is the input array as the pipeline finds it. -/
theorem iblk1_0 (c : Dev nD) (t : Fin cfg1.N) : iblk1 V c 0 t = V c main_v3 := read_blk1_0 t _
theorem iblk1_1 (c : Dev nD) (t : Fin cfg1.N) : iblk1 V c 1 t = V c main_arg2 := read_blk1_1 t _
theorem iblk1_2 (c : Dev nD) (t : Fin cfg1.N) : iblk1 V c 2 t = V c main_v0 := read_blk1_2 t _

/-- The three input arrays as the pipeline finds them, as functions of the index: x, W1 and the bias row. -/
abbrev inX (c : Dev nD) : Vec F S1024x128 .f32 := V c main_v3
abbrev inW (c : Dev nD) : Vec F S128x512 .f32 := V c main_arg2
abbrev inB (c : Dev nD) : Vec F S1x512 .f32 := V c main_v0

/-- The result array the pipeline leaves: relu (x · W1 + b1) transposed and rounded, of the three input arrays as the
    pipeline finds them. -/
def H1 (c : Dev nD) : S512x1024.Idx → Elt F .bf16 :=
  out1_3 (F := F) (inX V c) (inW V c) (inB V c)

/-- What the point writes back is the (one, whole) block of `H1`. -/
theorem flushed1_3 (c : Dev nD) (t : Fin cfg1.N) :
    (dat1 V Rc c).flushed 3 t = ((cfg1.win 3).blk t).view.read (Elt F) (H1 V c) := by
  show (dat1 V Rc c).after 3 t = _
  rw [after1_3, read_blk1_3, iblk1_0, iblk1_1, iblk1_2]; rfl

/-- The one point's block of the result window is the whole array. -/
theorem cover1_3 (c : Dev nD) (i : ((cfg1.win 3).arr.view.loc (c.tc : Thread nD τ)).2.ty.Idx) :
    ∃ t : Fin cfg1.N, (cfg1.win 3).flush t = true ∧ i ∈ ((cfg1.win 3).blk t).view.set := by
  refine ⟨t1_0, flush1_3 _, ?_⟩
  show i ∈ ((View.whole main_v4).slice (win1_3.rect t1_0)).set
  rw [View.set_slice_whole, Rect.mem_set_unit]
  intro a
  match a with
  | ⟨0, _⟩ => show 0 * 512 ≤ (i 0).val ∧ (i 0).val < 0 * 512 + 512; have h : (i 0).val < 512 := (i 0).isLt; omega
  | ⟨1, _⟩ => show 0 * 1024 ≤ (i 1).val ∧ (i 1).val < 0 * 1024 + 1024; have h : (i 1).val < 1024 := (i 1).isLt; omega

/-- THE RESULT ARRAY after the pipeline is `H1` of the input arrays as found; -/
theorem final1_3 (c : Dev nD) : (dat1 V Rc c).arrAt 3 cfg1.N = H1 V c :=
  (dat1 V Rc c).arrAt_eq_of_cover 3 (H1 V c) (fun t _ => flushed1_3 V Rc c t) (cover1_3 c)

/-- and each input array ends as it was found. -/
theorem final1_0 (c : Dev nD) : (dat1 V Rc c).arrAt 0 cfg1.N = V c main_v3 :=
  ((dat1 V Rc c).arrAt_in 0 rfl _).trans (A_eq1 V Rc c 0)
theorem final1_1 (c : Dev nD) : (dat1 V Rc c).arrAt 1 cfg1.N = V c main_arg2 :=
  ((dat1 V Rc c).arrAt_in 1 rfl _).trans (A_eq1 V Rc c 1)
theorem final1_2 (c : Dev nD) : (dat1 V Rc c).arrAt 2 cfg1.N = V c main_v0 :=
  ((dat1 V Rc c).arrAt_in 2 rfl _).trans (A_eq1 V Rc c 2)

/-- All four at once, by the window's array. -/
theorem final1 (c : Dev nD) (w : Fin cfg1.W) :
    (dat1 V Rc c).arrAt w cfg1.N = match w with
      | ⟨0, _⟩ => V c main_v3
      | ⟨1, _⟩ => V c main_arg2
      | ⟨2, _⟩ => V c main_v0
      | ⟨3, _⟩ => H1 V c :=
  match w with
  | ⟨0, _⟩ => final1_0 V Rc c
  | ⟨1, _⟩ => final1_1 V Rc c
  | ⟨2, _⟩ => final1_2 V Rc c
  | ⟨3, _⟩ => final1_3 V Rc c

end Cert.Kernel.Reg1

end
-- ==== Proof.Region2K_Defs.lean ====
/-
  The second TensorCore call of the program: a running log-sum-exp over 25 row blocks of the vocabulary — the
  values.

  At grid point t the body reads the whole activation block ht (bf16[512,1024]), rows 4096·t … 4096·t+4095 of
  W2ᵀ (f32[100000,512]) and of b2 (f32[100000,1]); the last block overhangs the arrays (25·4096 > 100000), so the
  rows past the end hold whatever the fetch left there.  The body masks them: a row r of the block is valid iff
  4096·t + r < 100000; an invalid row of W2ᵀ is replaced by 0 and of b2 by the named constant neg_big.  With
  sc = (masked W2ᵀ-block) · ht + broadcast (masked b2-block) it stores the scores block truncf sc, and updates the
  carried pair (m, s) — reset to (neg_big, 0) at the first point — by
      m' = max m (column maxima of sc),   s' = s · exp (m − m') + column sums of exp (sc − m');
  at the last point it stores lz = m' + log s'.

  This module names those values: what one run of the body computes from what its buffers hold, the blocks the
  windows hold at each point, and the carried pair as a fold over the points.
-/
import proofs.«207593_g36137854828637_cont_8to1_b_1462_19_alg».proof.Proof.CommonK
import proofs.«207593_g36137854828637_cont_8to1_b_1462_19_alg».proof.Proof.Gen.Kernel.Skeleton
import proofs.«207593_g36137854828637_cont_8to1_b_1462_19_alg».proof.Proof.Gen.Kernel.Points

set_option maxRecDepth 16384

noncomputable section

namespace Cert.Kernel.Reg2

open Cert.Kernel Cert.Kernel.Gen Cert.Kernel.Common
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The body's two branch conditions -/

/-- The body resets the carried pair: the grid coordinate is 0 (the scalar chain of the first `scf.if`). -/
abbrev IsFirst (i : grid2.Coords) : Prop :=
  Scalar.cmpi .ne (Scalar.extui (Scalar.cmpi .eq (BitVec.ofNat 32 (i 0).val) 0#32)) 0#32 = 1#1
/-- The body stores lz: the grid coordinate is 24. -/
abbrev IsLast (i : grid2.Coords) : Prop := k2_cond2 i = 1#1

/-- The two conditions over the grid: the first point, the last point. -/
theorem isFirst_iff : ∀ t : Fin cfg2.N, IsFirst (grid2.coords t) ↔ t.val = 0 :=
  (by decide +kernel : ∀ t : Fin grid2.N, IsFirst (grid2.coords t) ↔ t.val = 0)
theorem isLast_iff : ∀ t : Fin cfg2.N, IsLast (grid2.coords t) ↔ t.val = 24 :=
  (by decide +kernel : ∀ t : Fin grid2.N, IsLast (grid2.coords t) ↔ t.val = 24)

/-! ## What one run of the body computes -/

/-- The running maximum the body reads: neg_big in every column at the first point, else what the scratch holds. -/
def mIn (i : grid2.Coords) (a0 : Vec F S1x1024 .f32) : Vec F S1x1024 .f32 := if IsFirst i then k2_pay4 (F := F) else a0
/-- The running sum the body reads: 0 at the first point, else what the scratch holds. -/
def sIn (i : grid2.Coords) (a1 : Vec F S1x1024 .f32) : Vec F S1x1024 .f32 := if IsFirst i then k2_pay5 (F := F) else a1
/-- The new running maximum: the old one against the column maxima of the point's scores. -/
def mOut (i : grid2.Coords) (x0 : Vec F S512x1024 .bf16) (x1 : Vec F S4096x512 .f32) (x2 : Vec F S4096x1 .f32)
    (a0 : Vec F S1x1024 .f32) : Vec F S1x1024 .f32 :=
  k2_pay2 (k2_pay8 i x1 x2 x0 (mIn i a0))
/-- The new running sum: the old one rescaled to the new maximum, plus the column sums of exp (scores − new maximum). -/
def sOut (i : grid2.Coords) (x0 : Vec F S512x1024 .bf16) (x1 : Vec F S4096x512 .f32) (x2 : Vec F S4096x1 .f32)
    (a0 a1 : Vec F S1x1024 .f32) : Vec F S1x1024 .f32 :=
  k2_pay1 (k2_pay9 i x1 x2 x0 (mIn i a0) (sIn i a1)) (k2_pay10 i x1 x2 x0 (mIn i a0))
/-- The scores block the point stores (bf16). -/
def scoresBlk (i : grid2.Coords) (x0 : Vec F S512x1024 .bf16) (x1 : Vec F S4096x512 .f32) (x2 : Vec F S4096x1 .f32) :
    Vec F S4096x1024 .bf16 :=
  k2_pay7 i x1 x2 x0
/-- What the lz buffer holds after the body: m' + log s' at the last point, else what it held. -/
def lzOut (i : grid2.Coords) (x0 : Vec F S512x1024 .bf16) (x1 : Vec F S4096x512 .f32) (x2 : Vec F S4096x1 .f32)
    (x3 a0 a1 : Vec F S1x1024 .f32) : Vec F S1x1024 .f32 :=
  if IsLast i then k2_pay3 (mOut i x0 x1 x2 a0) (sOut i x0 x1 x2 a0 a1) else x3

theorem mIn_first {i : grid2.Coords} (h : IsFirst i) (a0 : Vec F S1x1024 .f32) : mIn i a0 = k2_pay4 (F := F) := if_pos h
theorem mIn_rest {i : grid2.Coords} (h : ¬IsFirst i) (a0 : Vec F S1x1024 .f32) : mIn i a0 = a0 := if_neg h
theorem sIn_first {i : grid2.Coords} (h : IsFirst i) (a1 : Vec F S1x1024 .f32) : sIn i a1 = k2_pay5 (F := F) := if_pos h
theorem sIn_rest {i : grid2.Coords} (h : ¬IsFirst i) (a1 : Vec F S1x1024 .f32) : sIn i a1 = a1 := if_neg h

/-! ## The windows' blocks at a point, and the carried pair

Stated at a parameter `V`: the TensorCore's buffer contents when the call is entered. -/

variable (V : (c : Dev nD) → (b : Ref sig .tc) → Buf (Elt F) ((c : Thread nD τ).loc b))

/-- Window `w`'s block at point `t`, read off its array as the call finds it: the part inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations ht: the whole array at every point. -/
def htBlk (c : Dev nD) (t : Fin cfg2.N) : Vec F S512x1024 .bf16 := iblk2 V c 0 t
/-- Rows 4096·t … of W2ᵀ, filled out past the array's end with the zero word (which the body masks). -/
def wBlk (c : Dev nD) (t : Fin cfg2.N) : Vec F S4096x512 .f32 :=
  win2_1.fill (grid2.coords t) (fun _ => Scalar.ofBits .f32 0#32) (iblk2 V c 1 t)
/-- Rows 4096·t … of b2, filled out likewise. -/
def bBlk (c : Dev nD) (t : Fin cfg2.N) : Vec F S4096x1 .f32 :=
  win2_2.fill (grid2.coords t) (fun _ => Scalar.ofBits .f32 0#32) (iblk2 V c 2 t)

/-- ONE STEP of the carried pair (m, s) at point `t`. -/
def step2 (c : Dev nD) (t : Fin cfg2.N) (p : Vec F S1x1024 .f32 × Vec F S1x1024 .f32) : Vec F S1x1024 .f32 × Vec F S1x1024 .f32 :=
  (mOut (grid2.coords t) (htBlk V c t) (wBlk V c t) (bBlk V c t) p.1,
   sOut (grid2.coords t) (htBlk V c t) (wBlk V c t) (bBlk V c t) p.1 p.2)

/-- THE FOLD: the carried pair after point `n`, from (neg_big, 0) in every column. -/
def carry2 (c : Dev nD) : (n : ℕ) → n < cfg2.N → Vec F S1x1024 .f32 × Vec F S1x1024 .f32
  | 0, h => step2 V c ⟨0, h⟩ (k2_pay4 (F := F), k2_pay5 (F := F))
  | n + 1, h => step2 V c ⟨n + 1, h⟩ (carry2 c n (Nat.lt_of_succ_lt h))

/-- The pair BEFORE position `t` of the N + 1 positions between points. -/
def prev2 (c : Dev nD) (t : Fin (cfg2.N + 1)) : Vec F S1x1024 .f32 × Vec F S1x1024 .f32 :=
  if h : t.val = 0 then (k2_pay4 (F := F), k2_pay5 (F := F)) else carry2 V c (t.val - 1) (by have := t.isLt; omega)

theorem prev2_succ (c : Dev nD) (t : Fin cfg2.N) : prev2 V c t.succ = carry2 V c t.val t.isLt := by
  unfold prev2; rw [dif_neg (by simp)]; rfl

theorem carry2_eq (c : Dev nD) (t : Fin cfg2.N) : carry2 V c t.val t.isLt = step2 V c t (prev2 V c t.castSucc) := by
  obtain ⟨n, hn⟩ := t
  cases n with
  | zero => rfl
  | succ n => unfold prev2; simp only [Fin.castSucc_mk, Nat.add_one_ne_zero, dif_neg, not_false_eq_true]; rfl

/-- At the first point the step does not read the pair it is given. -/
theorem step2_first (c : Dev nD) (t : Fin cfg2.N) (h : t.val = 0) (p p' : Vec F S1x1024 .f32 × Vec F S1x1024 .f32) :
    step2 V c t p = step2 V c t p' := by
  have hf := (isFirst_iff t).mpr h
  unfold step2 mOut sOut; rw [mIn_first hf, mIn_first hf, sIn_first hf, sIn_first hf]

/-- What the scores window's staging buffer holds after the body at point `t`. -/
def out2_4 (c : Dev nD) (t : Fin cfg2.N) : Vec F S4096x1024 .bf16 :=
  scoresBlk (grid2.coords t) (htBlk V c t) (wBlk V c t) (bBlk V c t)
/-- What the lz window's staging buffer holds after the body at the last point: m + log s of the pair carried there
    (stated at every point; only the last stores it). -/
def out2_3 (c : Dev nD) (t : Fin cfg2.N) : Vec F S1x1024 .f32 :=
  k2_pay3 (carry2 V c t.val t.isLt).1 (carry2 V c t.val t.isLt).2

end Cert.Kernel.Reg2

end
-- ==== Proof.Region2K_Body.lean ====
/-
  The second TensorCore call of the program: the body's triple.

  On whole staging buffers — ht's, the W2ᵀ-block's and the b2-block's at read contents, the lz window's at read
  contents, the scores window's at anything, the two scratch buffers at read contents — one run of the body leaves the
  inputs as they were, the scores buffer at the point's scores block, the scratch pair at the updated (m', s'), and
  the lz buffer at m' + log s' at the last point and untouched elsewhere.  One run per control case (the carried
  pair reset or not; lz stored or not); the statement is the same in all four.
-/
import proofs.«207593_g36137854828637_cont_8to1_b_1462_19_alg».proof.Proof.Region2K_Defs
import Idealize.ShloMosaic.Lib.Pipeline.FrameBody
import Idealize.ShloMosaic.Lib.Pipeline.Value
import Idealize.ShloMosaic.Lib.Writes
import Idealize.ShloMosaic.Lib.Ring
import Idealize.ShloMosaic.Lib.Tactic

set_option maxRecDepth 16384

noncomputable section

namespace Cert.Kernel.Reg2

open Cert.Kernel Cert.Kernel.Gen Cert.Kernel.Common
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## Whole-buffer stores and loads -/

theorem hz2 : (![0, 0] : Fin 2 → Nat) = fun _ => 0 := funext fun a => by fin_cases a <;> rfl

/-- After a store of the whole buffer, LAST, the buffer reads the payload, whatever was stored before. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  funext y
  rw [View.read_writes_apply_eq_canon v f y _ ⟨_, List.mem_cons.mpr (Or.inl rfl), View.mem_set_unit_zero h inb y⟩,
    View.canon_cons_unit_zero h inb w L]

/-- A load of the whole buffer after such a store reads the payload. -/
theorem readCov_store_whole {κ : Kind} {sp : Space} {S : Shape} {e : EltTy} (v : View sig κ sp S e)
    {off : Fin S.rank → Nat} (h : off = fun _ => 0) (inb : ∀ a, off a + S.size a ≤ S.size a) (w : S.Idx → Elt F e)
    (L : List (View.Piece (Elt F) S e)) :
    v.readCov (⟨Rect.unit off S.size inb, w⟩ :: L) (Rect.unit off S.size inb).toLoadRect = w := by
  subst h
  rw [View.readCov_eq_canon_ld _ _ _ (fun y => ⟨_, List.mem_cons.mpr (Or.inl rfl), View.mem_set_unit_zero rfl inb y⟩),
    View.canon_cons_unit_zero rfl, View.ld_unit_zero rfl]

/-! ## The body's triple, case by case -/

set_option maxHeartbeats 1000000 in
/-- The body's run at a middle point: the carried pair read from the scratch, lz not stored. -/
theorem sound_kernel2_mid (c : Dev nD) (E : Set ℕ) (i : grid2.Coords) (hf : ¬IsFirst i) (hl : ¬IsLast i)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  simp only [cc2__lse_body_eq_skeleton]; unfold cc2__lse_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (unfold lzOut; rw [if_neg hl])
  isplitl [H4]
  · iexists _; isplitr
    swap; · iexact H4
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H5]
  · iexists _; isplitr
    swap; · iexact H5
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  · iexists _; isplitr
    swap; · iexact H6
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])

set_option maxHeartbeats 1000000 in
/-- The body's run at the first point: the carried pair reset, then updated; lz not stored. -/
theorem sound_kernel2_first (c : Dev nD) (E : Set ℕ) (i : grid2.Coords) (hf : IsFirst i) (hl : ¬IsLast i)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  simp only [cc2__lse_body_eq_skeleton]; unfold cc2__lse_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (unfold lzOut; rw [if_neg hl])
  isplitl [H4]
  · iexists _; isplitr
    swap; · iexact H4
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H5]
  · iexists _; isplitr
    swap; · iexact H5
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  · iexists _; isplitr
    swap; · iexact H6
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])

set_option maxHeartbeats 1000000 in
/-- The body's run at the last point: the carried pair updated, lz stored from it. -/
theorem sound_kernel2_last (c : Dev nD) (E : Set ℕ) (i : grid2.Coords) (hf : ¬IsFirst i) (hl : IsLast i)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  simp only [cc2__lse_body_eq_skeleton]; unfold cc2__lse_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (sl_unfold_words
     rw [read_store_whole _ _ hz2]
     simp only [lzOut, if_pos hl, scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H4]
  · iexists _; isplitr
    swap; · iexact H4
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H5]
  · iexists _; isplitr
    swap; · iexact H5
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  · iexists _; isplitr
    swap; · iexact H6
    ipureintro
    (sl_unfold_words
     rw [read_store_whole _ _ hz2]
     simp only [scoresBlk, mOut, sOut, mIn_rest hf, sIn_rest hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])

set_option maxHeartbeats 1000000 in
/-- The body's run where both conditions hold (a grid of one point; no point of this grid). -/
theorem sound_kernel2_both (c : Dev nD) (E : Set ℕ) (i : grid2.Coords) (hf : IsFirst i) (hl : IsLast i)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  simp only [cc2__lse_body_eq_skeleton]; unfold cc2__lse_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (sl_unfold_words
     rw [read_store_whole _ _ hz2]
     simp only [lzOut, if_pos hl, scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H4]
  · iexists _; isplitr
    swap; · iexact H4
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  isplitl [H5]
  · iexists _; isplitr
    swap; · iexact H5
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])
  · iexists _; isplitr
    swap; · iexact H6
    ipureintro
    (sl_unfold_words
     rw [read_store_whole _ _ hz2]
     simp only [scoresBlk, mOut, sOut, mIn_first hf, sIn_first hf, View.readAt_eq_ld, View.ld_unit_zero (S := S4096x512) hz2,
       View.ld_unit_zero (S := S4096x1) hz2, View.ld_unit_zero (S := S512x1024) hz2, View.ld_unit_zero (S := S1x1024) hz2,
       readCov_store_whole (S := S1x1024) _ hz2])

/-- THE BODY'S TRIPLE at any grid coordinates: the case the two conditions select. -/
theorem sound_kernel2 (c : Dev nD) (E : Set ℕ) (i : grid2.Coords)
    (arg1 : Memref sig .tc .vmem S512x1024 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S1x1024 .f32) (harg4 : arg4.IsWhole)
    (arg5 : Memref sig .tc .vmem S4096x1024 .bf16) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .bf16) (x1 : Vec F S4096x512 .f32) (x2 : Vec F S4096x1 .f32) (x3 a0 a1 : Vec F S1x1024 .f32)
    (K : PUnit → sProp (MM F)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1 ∗ owns (c : Thread nD τ) arg3 fullShare x2
              ∗ owns (c : Thread nD τ) arg4 fullShare (lzOut i x0 x1 x2 x3 a0 a1)
              ∗ owns (c : Thread nD τ) arg5 fullShare (scoresBlk i x0 x1 x2)
              ∗ owns (c : Thread nD τ) arg6 fullShare (mOut i x0 x1 x2 a0)
              ∗ owns (c : Thread nD τ) arg7 fullShare (sOut i x0 x1 x2 a0 a1)) -∗ K ⟨⟩))
      ⊢ wp frame (wpE (defs₀ (F := F)) Variants.none c none) E
          (cc2__lse_body i arg1 harg1 arg2 harg2 arg3 harg3 arg4 harg4 arg5 harg5 arg6 harg6 arg7 harg7) K := by
  by_cases hf : IsFirst i <;> by_cases hl : IsLast i
  · exact sound_kernel2_both c E i hf hl arg1 harg1 arg2 harg2 arg3 harg3 arg4 harg4 arg5 harg5 arg6 harg6 arg7 harg7 x0 x1 x2 x3 a0 a1 K
  · exact sound_kernel2_first c E i hf hl arg1 harg1 arg2 harg2 arg3 harg3 arg4 harg4 arg5 harg5 arg6 harg6 arg7 harg7 x0 x1 x2 x3 a0 a1 K
  · exact sound_kernel2_last c E i hf hl arg1 harg1 arg2 harg2 arg3 harg3 arg4 harg4 arg5 harg5 arg6 harg6 arg7 harg7 x0 x1 x2 x3 a0 a1 K
  · exact sound_kernel2_mid c E i hf hl arg1 harg1 arg2 harg2 arg3 harg3 arg4 harg4 arg5 harg5 arg6 harg6 arg7 harg7 x0 x1 x2 x3 a0 a1 K

end Cert.Kernel.Reg2

end
-- ==== Proof.Region2K.lean ====
/-
  The second TensorCore call of the program: the pipeline's proof data, the body obligation, and the arrays after
  the last write-back.

  After the body at point t the staging buffers hold: ht's, the whole activation array; the W2ᵀ window's and the b2
  window's, their blocks on the rows inside the array (the rows past the end are not stated: the two windows overhang
  at the last point, and so does the scores window); the scores window's, the point's scores block; the lz window's,
  at the last point, m + log s of the carried pair.  The carried pair lives in the two scratch buffers, which the
  invariant between points holds at the fold's value (anything before the first point, which resets them).
-/
import proofs.«207593_g36137854828637_cont_8to1_b_1462_19_alg».proof.Proof.Region2K_Body

set_option maxRecDepth 16384

noncomputable section

namespace Cert.Kernel.Reg2

open Cert.Kernel Cert.Kernel.Gen Cert.Kernel.Common
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))
variable (Rc : Set (SemLoc sig × HIx 1))

/-! ## The invariant between points -/

/-- The core's scoped buffers that this call neither stages through nor uses as scratch, each at some contents. -/
def rest2 (c : Dev nD) : sProp (MM F) :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg0_1), ((c : Thread nD τ).loc cc3_stg0_1) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg2_1), ((c : Thread nD τ).loc cc3_stg2_1) ↦{fullShare} f))

/-- The two scratch buffers: before the first point at anything, after point t − 1 at the fold's pair. -/
def carried2 (c : Dev nD) (t : Fin (cfg2.N + 1)) : sProp (MM F) :=
  iprop(∃ (a0 a1 : Vec F S1x1024 .f32), ⌜t.val ≠ 0 → (a0, a1) = prev2 V c t⌝
    ∗ owns (c : Thread nD τ) (Memref.whole cc2_scratch0) fullShare a0
    ∗ owns (c : Thread nD τ) (Memref.whole cc2_scratch1) fullShare a1)

/-- THE INVARIANT before point `t`. -/
def Φ2 (c : Dev nD) (t : Fin (cfg2.N + 1)) : sProp (MM F) := iprop(rest2 (F := F) c ∗ carried2 V c t)

/-! ## The pipeline's proof data -/

/-- The proof data of the call's pipeline on core `c`. -/
def dat2 (c : Dev nD) : Dat τ (Elt F) (HIx 1) ℕ UU ℕ cfg2 c where
  A w := V c (Pipeline.arrRef spec2 w)
  after w t := match w with
    | ⟨0, _⟩ => htBlk V c t
    | ⟨1, _⟩ => wBlk V c t
    | ⟨2, _⟩ => bBlk V c t
    | ⟨3, _⟩ => out2_3 V c t
    | ⟨4, _⟩ => out2_4 V c t
  Φ t := Φ2 V c t
  q _ := fullShare
  owed _ := 0
  recorded _ := Rc

theorem A_eq2 (c : Dev nD) (w : Fin cfg2.W) : (dat2 V Rc c).A w = V c (Pipeline.arrRef spec2 w) := by
  dsimp only [dat2]
theorem recorded2 (c : Dev nD) (t : Fin (cfg2.N + 1)) : (dat2 V Rc c).recorded t = Rc := rfl
theorem owed2 (c : Dev nD) (t : Fin (cfg2.N + 1)) : (dat2 V Rc c).owed t = 0 := rfl
theorem q2 (c : Dev nD) (w : Fin cfg2.W) : (dat2 V Rc c).q w = fullShare := rfl
theorem Φ_eq2 (c : Dev nD) (t : Fin (cfg2.N + 1)) : (dat2 V Rc c).Φ t = Φ2 V c t := rfl

theorem after2_0 (c : Dev nD) (t : Fin cfg2.N) : (dat2 V Rc c).after 0 t = htBlk V c t := by dsimp only [dat2]
theorem after2_1 (c : Dev nD) (t : Fin cfg2.N) : (dat2 V Rc c).after 1 t = wBlk V c t := by dsimp only [dat2]
theorem after2_2 (c : Dev nD) (t : Fin cfg2.N) : (dat2 V Rc c).after 2 t = bBlk V c t := by dsimp only [dat2]
theorem after2_3 (c : Dev nD) (t : Fin cfg2.N) : (dat2 V Rc c).after 3 t = out2_3 V c t := by dsimp only [dat2]
theorem after2_4 (c : Dev nD) (t : Fin cfg2.N) : (dat2 V Rc c).after 4 t = out2_4 V c t := by dsimp only [dat2]

/-! ## The invariant at the two ends -/

/-- Before the first point the invariant asks nothing of the scratch: the scoped rest yields it. -/
theorem phi2_in (c : Dev nD) : (Pipeline.scopedRest spec2 c : sProp (MM F)) ⊢ (dat2 V Rc c).Φ 0 := by
  rw [scopedRest2_eq, Φ_eq2]; unfold Φ2 rest2 carried2
  iintro ⟨A1, A2, A3, A4, ⟨%f0, S0⟩, ⟨%f1, S1⟩, B1, B2, B3, B4, B5⟩
  isplitl [A1 A2 A3 A4 B1 B2 B3 B4 B5]
  · isplitl [A1]; · iexact A1
    isplitl [A2]; · iexact A2
    isplitl [A3]; · iexact A3
    isplitl [A4]; · iexact A4
    isplitl [B1]; · iexact B1
    isplitl [B2]; · iexact B2
    isplitl [B3]; · iexact B3
    isplitl [B4]; · iexact B4
    iexact B5
  iexists f0; iexists f1
  isplitr; · ipureintro; intro h; exact absurd rfl h
  rw [owns_whole, owns_whole]
  isplitl [S0]; · iexact S0
  iexact S1

/-- After the last point it gives the scoped rest back, the scratch forgotten. -/
theorem phi2_out (c : Dev nD) : (dat2 V Rc c).Φ (Fin.last cfg2.N) ⊢ (Pipeline.scopedRest spec2 c : sProp (MM F)) := by
  rw [scopedRest2_eq, Φ_eq2]; unfold Φ2 rest2 carried2
  simp only [owns_whole]
  iintro ⟨⟨A1, A2, A3, A4, B1, B2, B3, B4, B5⟩, ⟨%a0, %a1, -, S0, S1⟩⟩
  isplitl [A1]; · iexact A1
  isplitl [A2]; · iexact A2
  isplitl [A3]; · iexact A3
  isplitl [A4]; · iexact A4
  isplitl [S0]; · iexists a0; iexact S0
  isplitl [S1]; · iexists a1; iexact S1
  isplitl [B1]; · iexact B1
  isplitl [B2]; · iexact B2
  isplitl [B3]; · iexact B3
  isplitl [B4]; · iexact B4
  iexact B5

/-! ## What each window's staging buffer holds when the body runs -/

/-- ht's buffer holds the whole array at every point, fetched there or not. -/
theorem before2_0 (c : Dev nD) (t : Fin cfg2.N) (d) : (dat2 V Rc c).before 0 t d = htBlk V c t :=
  ((dat2 V Rc c).before_in_eq_fetched 0 rfl (fun _ => rfl) (fun _ _ _ => rfl)
      (fun t => by rw [after2_0]; unfold Dat.blockOf htBlk iblk2; rw [A_eq2]; try rfl) t d).trans
    (by unfold Dat.fetched Dat.blockOf htBlk iblk2; rw [A_eq2]; try rfl)

/-- The W2ᵀ window is fetched at every point: its buffer holds the block on the rows inside the array and, past the
    array's end, what the fetch left there (`d`). -/
theorem before2_1 (c : Dev nD) (t : Fin cfg2.N) (d) :
    (dat2 V Rc c).before 1 t d = win2_1.fill (grid2.coords t) d (iblk2 V c 1 t) := by
  unfold Dat.before; rw [if_pos (fetch2_1 t)]; unfold Dat.fetched Dat.blockOf iblk2; rw [A_eq2]
/-- The b2 window likewise. -/
theorem before2_2 (c : Dev nD) (t : Fin cfg2.N) (d) :
    (dat2 V Rc c).before 2 t d = win2_2.fill (grid2.coords t) d (iblk2 V c 2 t) := by
  unfold Dat.before; rw [if_pos (fetch2_2 t)]; unfold Dat.fetched Dat.blockOf iblk2; rw [A_eq2]

/-- The part of the W2ᵀ block that the transfers move is the array's block. -/
theorem cut_wBlk (c : Dev nD) (t : Fin cfg2.N) : (cfg2.win 1).cut (cfg2.grid.coords t) (wBlk V c t) = iblk2 V c 1 t := by
  unfold wBlk; exact win2_1.cut_fill _ _ _
theorem cut_bBlk (c : Dev nD) (t : Fin cfg2.N) : (cfg2.win 2).cut (cfg2.grid.coords t) (bBlk V c t) = iblk2 V c 2 t := by
  unfold bBlk; exact win2_2.cut_fill _ _ _

/-! ## The mask: what the rows past the arrays' end hold does not matter -/

/-- The body's mask makes the point's scores independent of what the overhanging rows of the two blocks hold. -/
def MaskIndep (F : FTy → Type) [FloatOps F] : Prop :=
  ∀ (t : Fin cfg2.N) (x0 : Vec F S512x1024 .bf16)
    (g1 : (win2_1.xblock (grid2.coords t)).Idx → Elt F .f32) (g2 : (win2_2.xblock (grid2.coords t)).Idx → Elt F .f32)
    (d1 d1' : Vec F S4096x512 .f32) (d2 d2' : Vec F S4096x1 .f32),
    k2_pay6 (grid2.coords t) (win2_1.fill (grid2.coords t) d1 g1) (win2_2.fill (grid2.coords t) d2 g2) x0
      = k2_pay6 (grid2.coords t) (win2_1.fill (grid2.coords t) d1' g1) (win2_2.fill (grid2.coords t) d2' g2) x0

section Congr
variable {i : grid2.Coords} {x0 : Vec F S512x1024 .bf16} {x1 x1' : Vec F S4096x512 .f32} {x2 x2' : Vec F S4096x1 .f32}
  (h : k2_pay6 i x1 x2 x0 = k2_pay6 i x1' x2' x0)
include h
/-- Everything the body computes from the two blocks it computes from the scores. -/
theorem pay7_congr : k2_pay7 i x1 x2 x0 = k2_pay7 i x1' x2' x0 := by unfold k2_pay7; rw [h]
theorem pay8_congr (v27 : Vec F S1x1024 .f32) : k2_pay8 i x1 x2 x0 v27 = k2_pay8 i x1' x2' x0 v27 := by unfold k2_pay8; rw [h]
theorem pay9_congr (v27 v31 : Vec F S1x1024 .f32) : k2_pay9 i x1 x2 x0 v27 v31 = k2_pay9 i x1' x2' x0 v27 v31 := by
  unfold k2_pay9; rw [pay8_congr h]
theorem pay10_congr (v27 : Vec F S1x1024 .f32) : k2_pay10 i x1 x2 x0 v27 = k2_pay10 i x1' x2' x0 v27 := by
  unfold k2_pay10; rw [pay8_congr h, h]
theorem scoresBlk_congr : scoresBlk i x0 x1 x2 = scoresBlk i x0 x1' x2' := by unfold scoresBlk; exact pay7_congr h
theorem mOut_congr (a0 : Vec F S1x1024 .f32) : mOut i x0 x1 x2 a0 = mOut i x0 x1' x2' a0 := by unfold mOut; rw [pay8_congr h]
theorem sOut_congr (a0 a1 : Vec F S1x1024 .f32) : sOut i x0 x1 x2 a0 a1 = sOut i x0 x1' x2' a0 a1 := by
  unfold sOut; rw [pay9_congr h, pay10_congr h]
end Congr

/-- The pair after point `t` is the step of the pair the invariant holds before it. -/
theorem carried_step (c : Dev nD) (t : Fin cfg2.N) (a0 a1 : Vec F S1x1024 .f32)
    (hp : t.castSucc.val ≠ 0 → (a0, a1) = prev2 V c t.castSucc) : step2 V c t (a0, a1) = prev2 V c t.succ := by
  rw [prev2_succ, carry2_eq]
  by_cases h0 : t.val = 0
  · exact step2_first V c t h0 _ _
  · rw [hp h0]

/-! ## The body obligation -/

/-- What the obligation says of the lz window's buffer after the body: stored at the last point, else as found. -/
def lzPost (c : Dev nD) (t : Fin cfg2.N) : sProp (MM F) :=
  if IsLast (grid2.coords t) then owns (c : Thread nD τ) (st2_3 t) fullShare ((dat2 V Rc c).after 3 t)
  else iprop(∃ d, owns (c : Thread nD τ) (st2_3 t) fullShare ((dat2 V Rc c).before 3 t d))

set_option maxHeartbeats 1000000 in
/-- The body at any point: the input buffers hold their blocks (the overhanging rows anything), the scratch the pair
    carried so far, so the body's triple applies; by the mask what it leaves is the fold's next pair and the point's
    scores block whatever the overhanging rows held. -/
theorem sound_body2 (hM : MaskIndep F) (c : Dev nD) (t : Fin cfg2.N) :
    iprop((dat2 V Rc c).Φ t.castSucc ∗ (dat2 V Rc c).owesAt none t.castSucc
        ∗ (∃ d, owns (c : Thread nD τ) (st2_0 t) fullShare ((dat2 V Rc c).before 0 t d))
        ∗ (∃ d, owns (c : Thread nD τ) (st2_1 t) fullShare ((dat2 V Rc c).before 1 t d))
        ∗ (∃ d, owns (c : Thread nD τ) (st2_2 t) fullShare ((dat2 V Rc c).before 2 t d))
        ∗ (∃ d, owns (c : Thread nD τ) (st2_3 t) fullShare ((dat2 V Rc c).before 3 t d))
        ∗ (∃ d, owns (c : Thread nD τ) (st2_4 t) fullShare ((dat2 V Rc c).before 4 t d)))
      ⊢ wp frame (wpE (defs₀ (F := F)) Variants.none c none) Set.univ (bodyAt2 t) (fun _ =>
          iprop((dat2 V Rc c).Φ t.succ ∗ (dat2 V Rc c).owesAt none t.succ
            ∗ owns (c : Thread nD τ) (st2_0 t) fullShare ((dat2 V Rc c).after 0 t)
            ∗ (∃ d, owns (c : Thread nD τ) (st2_1 t) fullShare ((cfg2.win 1).fill (cfg2.grid.coords t) d ((cfg2.win 1).cut (cfg2.grid.coords t) ((dat2 V Rc c).after 1 t))))
            ∗ (∃ d, owns (c : Thread nD τ) (st2_2 t) fullShare ((cfg2.win 2).fill (cfg2.grid.coords t) d ((cfg2.win 2).cut (cfg2.grid.coords t) ((dat2 V Rc c).after 2 t))))
            ∗ lzPost V Rc c t
            ∗ (∃ d, owns (c : Thread nD τ) (st2_4 t) fullShare ((cfg2.win 4).fill (cfg2.grid.coords t) d ((cfg2.win 4).cut (cfg2.grid.coords t) ((dat2 V Rc c).after 4 t)))))) := by
  rw [Φ_eq2, Φ_eq2, show (dat2 V Rc c).owesAt none t.succ = (dat2 V Rc c).owesAt none t.castSucc from rfl]
  unfold lzPost
  simp only [before2_0, before2_1, before2_2, after2_0, after2_1, after2_2, after2_3, after2_4]
  unfold Φ2 carried2 bodyAt2
  iintro ⟨⟨HR, ⟨%a0, %a1, %hp, S0, S1⟩⟩, Ho, ⟨%d0, H0⟩, ⟨%d1, H1⟩, ⟨%d2, H2⟩, ⟨%d3, H3⟩, ⟨%d4, H4⟩⟩
  have hm := hM t (htBlk V c t) (iblk2 V c 1 t) (iblk2 V c 2 t) d1 (fun _ => Scalar.ofBits .f32 0#32) d2 (fun _ => Scalar.ofBits .f32 0#32)
  have hk := sound_kernel2 (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (Memref.whole cc2_scratch0) (Memref.isWhole_whole _) (Memref.whole cc2_scratch1) (Memref.isWhole_whole _)
    (htBlk V c t) (win2_1.fill (grid2.coords t) d1 (iblk2 V c 1 t)) (win2_2.fill (grid2.coords t) d2 (iblk2 V c 2 t))
    ((dat2 V Rc c).before 3 t d3) a0 a1
  have e4 : scoresBlk (grid2.coords t) (htBlk V c t) (win2_1.fill (grid2.coords t) d1 (iblk2 V c 1 t)) (win2_2.fill (grid2.coords t) d2 (iblk2 V c 2 t)) = out2_4 V c t := by
    unfold out2_4 wBlk bBlk; exact scoresBlk_congr hm
  have em : mOut (grid2.coords t) (htBlk V c t) (win2_1.fill (grid2.coords t) d1 (iblk2 V c 1 t)) (win2_2.fill (grid2.coords t) d2 (iblk2 V c 2 t)) a0 = (prev2 V c t.succ).1 := by
    rw [← carried_step V c t a0 a1 hp]; unfold step2 wBlk bBlk; exact mOut_congr hm a0
  have es : sOut (grid2.coords t) (htBlk V c t) (win2_1.fill (grid2.coords t) d1 (iblk2 V c 1 t)) (win2_2.fill (grid2.coords t) d2 (iblk2 V c 2 t)) a0 a1 = (prev2 V c t.succ).2 := by
    rw [← carried_step V c t a0 a1 hp]; unfold step2 wBlk bBlk; exact sOut_congr hm a0 a1
  have e3 : lzOut (grid2.coords t) (htBlk V c t) (win2_1.fill (grid2.coords t) d1 (iblk2 V c 1 t)) (win2_2.fill (grid2.coords t) d2 (iblk2 V c 2 t)) ((dat2 V Rc c).before 3 t d3) a0 a1
      = if IsLast (grid2.coords t) then out2_3 V c t else (dat2 V Rc c).before 3 t d3 := by
    unfold lzOut out2_3; rw [em, es, prev2_succ]
  rw [e4, em, es, e3] at hk
  iapply hk
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  iintro ⟨H0, H1, H2, H3, H4, S0, S1⟩
  isplitl [HR S0 S1]
  · isplitl [HR]; · iexact HR
    iexists _; iexists _
    isplitr; · ipureintro; intro _; rfl
    isplitl [S0]; · iexact S0
    iexact S1
  isplitl [Ho]; · iexact Ho
  isplitl [H0]; · iexact H0
  isplitl [H1]
  · iexists d1; rw [show (win2 1).cut (grid2.coords t) (wBlk V c t) = iblk2 V c 1 t from cut_wBlk V c t]; iexact H1
  isplitl [H2]
  · iexists d2; rw [show (win2 2).cut (grid2.coords t) (bBlk V c t) = iblk2 V c 2 t from cut_bBlk V c t]; iexact H2
  isplitl [H3]
  · by_cases hl : IsLast (grid2.coords t)
    · rw [if_pos hl, if_pos hl]; iexact H3
    · rw [if_neg hl, if_neg hl]; iexists d3; iexact H3
  · iexists out2_4 V c t; rw [Window.fill_cut]; iexact H4

/-- The library's body obligation at every point, given the mask fact: the lz window is idle except at the last
    point, where it is stored and written back. -/
theorem body_obligation2_of (hM : MaskIndep F) (c : Dev nD) :
    BodyObligationLoose (dat2 (F := F) V Rc c) (defs₀ (F := F)) Variants.none (none : HIx 1) Set.univ := fun t => by
  rw [bigSep_W2, bigSep_W2]
  have h := sound_body2 V Rc hM c t
  unfold lzPost at h
  by_cases hl : IsLast (grid2.coords t)
  · have hi : cfg2.idle 3 (cfg2.grid.coords t) = false := by
      show (!(k2_cond2 (grid2.coords t) == 1#1)) = false
      rw [show k2_cond2 (grid2.coords t) = 1#1 from hl]; rfl
    rw [if_pos hl] at h
    rw [hi]
    exact h
  · have hi : cfg2.idle 3 (cfg2.grid.coords t) = true := by
      show (!(k2_cond2 (grid2.coords t) == 1#1)) = true
      rw [Bool.not_eq_true', beq_eq_false_iff_ne]; exact hl
    have hfl : (cfg2.win 3).flush t = false := by
      have h24 : t.val ≠ 24 := fun e => hl ((isLast_iff t).mpr e)
      have hN : t.val < 25 := lt_of_lt_of_eq t.isLt (show cfg2.N = 25 from N_2)
      exact Bool.eq_false_iff.mpr fun hf => by have := (flush2_3 t).mp hf; omega
    rw [if_neg hl] at h
    rw [hi, hfl]
    exact h

end Cert.Kernel.Reg2

end
-- ==== Proof.Region2K_Mask.lean ====
/-
  The masked rows of the running log-sum-exp's point: the scores do not depend on the rows past the arrays' end.

  At grid point t the body holds rows 4096·t … 4096·t+4095 of W2ᵀ and of b2 in two staging blocks.  The arrays have
  100000 rows and 25·4096 = 102400 > 100000, so at the last point the blocks overhang: a fetch moves only the rows
  inside the array — the block's leading xsize = min 4096 (100000 − 4096·t) rows — and leaves the others as they were
  (Window.fill d g: the moved part g, the rest d).  The body selects, row by row, the loaded value where
  4096·t + r < 100000 (a signed 32-bit comparison of 4096·t + iota with 100000) and a constant elsewhere.  Since
  t < 25 and r < 4096, the word 4096·t + r is below 2³¹ and the comparison is the one of the naturals; a row it
  selects is therefore a row the fetch moved, where the filled block reads g whatever d was.  So both selects, and
  with them the scores  (masked W2ᵀ-block)·ht + broadcast (masked b2-block),  are the same for every d.
-/
import proofs.«207593_g36137854828637_cont_8to1_b_1462_19_alg».proof.Proof.Region2K_Defs
import Idealize.ShloMosaic.Lib.ValueIdx
import Idealize.ShloMosaic.Lib.Pipeline.Value

set_option maxRecDepth 16384

noncomputable section

namespace Cert.Kernel.Reg2

open Cert.Kernel Cert.Kernel.Gen Cert.Kernel.Common
open Idealize.ShloMosaic Idealize.ShloMosaic.ValueIdx
open Idealize.ShloMosaic.Pipeline (Window Clip)

variable {F : FTy → Type} [FloatOps F]

/-! ## The comparison, as one of naturals -/

/-- With t < 25 and r < 4096 the 32-bit word 4096·t + r does not wrap and is non-negative as a signed word:
    it is signed-less-than 100000 exactly when the natural is. -/
theorem slt_row_iff (t r : ℕ) (ht : t < 25) (hr : r < 4096) :
    (BitVec.ofNat 32 t * 4096#32 + BitVec.ofNat 32 r).slt 100000#32 = true ↔ t * 4096 + r < 100000 := by
  have hv : BitVec.ofNat 32 t * 4096#32 + BitVec.ofNat 32 r = BitVec.ofNat 32 (t * 4096 + r) := by
    apply BitVec.eq_of_toNat_eq
    simp only [BitVec.toNat_add, BitVec.toNat_mul, BitVec.toNat_ofNat]
    omega
  rw [hv]
  have hn : (BitVec.ofNat 32 (t * 4096 + r)).toNat = t * 4096 + r := by
    rw [BitVec.toNat_ofNat]; omega
  have hi : (BitVec.ofNat 32 (t * 4096 + r)).toInt = ((t * 4096 + r : ℕ) : ℤ) := by
    rw [BitVec.toInt_eq_toNat_of_lt (by rw [hn]; omega), hn]
  rw [BitVec.slt_iff_toInt_lt, hi]
  show ((t * 4096 + r : ℕ) : ℤ) < 100000 ↔ _
  omega

/-! ## The row mask of a point -/

/-- The body's row mask at coordinates i: bit 1 at block row r iff 4096·(i 0) + r <ₛ 100000. -/
def rowMask (i : grid2.Coords) : IVec S4096x1 1 :=
  cmpi .slt (addi (broadcast S4096x1 (Scalar.muli (BitVec.ofNat 32 (i 0).val) 4096#32)) (iota .tc S4096x1 32 [0] iota_S4096x1_d0_w32))
    (broadcast S4096x1 100000#32)

/-- A set bit of the mask says the row lies inside the array. -/
theorem rowMask_one (i : grid2.Coords) (r : Fin 4096) (k : Fin 1) (h : rowMask i (ix2 r k) = 1#1) :
    (i 0).val * 4096 + r.val < 100000 := by
  have ht : (i 0).val < 25 := (i 0).isLt
  have hb : (BitVec.ofNat 32 (i 0).val * 4096#32 + BitVec.ofNat 32 r.val).slt 100000#32 = true := by
    by_contra hc
    rw [Bool.not_eq_true] at hc
    have : rowMask i (ix2 r k) = BitVec.ofBool ((BitVec.ofNat 32 (i 0).val * 4096#32 + BitVec.ofNat 32 r.val).slt 100000#32) := by
      unfold rowMask
      show IntOp.cmpi .slt (IntOp.addi _ (iota .tc S4096x1 32 [0] iota_S4096x1_d0_w32 (ix2 r k))) _ = _
      rw [iota_single_apply]
      rfl
    rw [this, hc] at h
    exact absurd h (by decide)
  exact (slt_row_iff _ _ ht r.isLt).mp hb

/-! ## Rows the mask selects are rows the fetch moved -/

/-- A block coordinate r with ix·k + r inside an array of d is among those the cut transfer moves. -/
theorem lt_extent_of_lt {ix k d r : ℕ} (hr : r < k) (h : ix * k + r < d) : r < (Clip.of ix k d).extent k := by
  unfold Clip.of; split
  · exact hr
  · show r < d - ix * k; omega

/-- The grid coordinate, below 25, is its own 32-bit word. -/
theorem coord_toNat (i : grid2.Coords) : (BitVec.ofNat 32 (i 0).val).toNat = (i 0).val := by
  have ht : (i 0).val < 25 := (i 0).isLt
  rw [BitVec.toNat_ofNat]; omega

/-- A row of the W2ᵀ-block inside the array is moved by the fetch (all 512 columns are). -/
theorem moved1_of_row (i : grid2.Coords) (r : Fin 4096) (c : Fin 512) (h : (i 0).val * 4096 + r.val < 100000) :
    win2_1.moved i (ix2 r c) = true := by
  rw [Window.moved_iff]
  intro a
  match a with
  | ⟨0, _⟩ =>
    show r.val < (Clip.of (BitVec.ofNat 32 (i 0).val).toNat 4096 100000).extent 4096
    rw [coord_toNat]; exact lt_extent_of_lt r.isLt h
  | ⟨1, _⟩ =>
    show c.val < (Clip.of 0 512 512).extent 512
    exact lt_extent_of_lt c.isLt (by rw [Nat.zero_mul, Nat.zero_add]; exact c.isLt)

/-- A row of the b2-block inside the array is moved by the fetch. -/
theorem moved2_of_row (i : grid2.Coords) (r : Fin 4096) (c : Fin 1) (h : (i 0).val * 4096 + r.val < 100000) :
    win2_2.moved i (ix2 r c) = true := by
  rw [Window.moved_iff]
  intro a
  match a with
  | ⟨0, _⟩ =>
    show r.val < (Clip.of (BitVec.ofNat 32 (i 0).val).toNat 4096 100000).extent 4096
    rw [coord_toNat]; exact lt_extent_of_lt r.isLt h
  | ⟨1, _⟩ =>
    show c.val < (Clip.of 0 1 1).extent 1
    exact lt_extent_of_lt c.isLt (by rw [Nat.zero_mul, Nat.zero_add]; exact c.isLt)

/-- What a filled block reads at a moved index does not depend on what the buffer held before the fetch. -/
theorem fill_indep_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-! ## The two masked blocks -/

/-- The mask over the W2ᵀ-block: the row mask along the 512 columns. -/
def maskW (i : grid2.Coords) : IVec S4096x512 1 :=
  broadcastTo S4096x512 (shapeCast S4096x1 (rowMask i) shapeCasts_S4096x1_S4096x1) broadcasts_S4096x1_S4096x512

theorem maskW_apply (i : grid2.Coords) (r : Fin 4096) (c : Fin 512) : maskW i (ix2 r c) = rowMask i (ix2 r (0 : Fin 1)) := by
  unfold maskW
  rw [shapeCast_self]
  refine broadcastTo_apply _ _ _ (ix2 r (0 : Fin 1)) ?_
  intro a
  match a with
  | ⟨0, h0⟩ => exact (if_neg (by decide : ¬ (4096 : ℕ) = 1)).symm
  | ⟨1, h1⟩ => exact (if_pos (rfl : (1 : ℕ) = 1)).symm

/-- The masked W2ᵀ-block reads its operand only on the rows inside the array. -/
theorem selW_congr (i : grid2.Coords) (b : FVec F S4096x512 .f32) (X X' : Vec F S4096x512 .f32)
    (h : ∀ (r : Fin 4096) (c : Fin 512), (i 0).val * 4096 + r.val < 100000 → X (ix2 r c) = X' (ix2 r c)) :
    select (maskW i) (shapeCast S4096x512 X shapeCasts_S4096x512_S4096x512) b
      = select (maskW i) (shapeCast S4096x512 X' shapeCasts_S4096x512_S4096x512) b := by
  rw [shapeCast_self, shapeCast_self]
  funext j
  obtain ⟨r, c, rfl⟩ : ∃ (r : Fin 4096) (c : Fin 512), j = ix2 r c := ⟨j 0, j 1, eq_ix2 j⟩
  rw [select_apply, select_apply]
  by_cases hm : maskW i (ix2 r c) = 1#1
  · rw [h r c (rowMask_one i r 0 ((maskW_apply i r c).symm.trans hm))]
  · unfold Scalar.select; exact (if_neg hm).trans (if_neg hm).symm

/-- The masked b2-block reads its operand only on the rows inside the array. -/
theorem selB_congr (i : grid2.Coords) (b : FVec F S4096x1 .f32) (X X' : Vec F S4096x1 .f32)
    (h : ∀ (r : Fin 4096) (c : Fin 1), (i 0).val * 4096 + r.val < 100000 → X (ix2 r c) = X' (ix2 r c)) :
    select (rowMask i) (shapeCast S4096x1 X shapeCasts_S4096x1_S4096x1) b
      = select (rowMask i) (shapeCast S4096x1 X' shapeCasts_S4096x1_S4096x1) b := by
  rw [shapeCast_self, shapeCast_self]
  funext j
  obtain ⟨r, c, rfl⟩ : ∃ (r : Fin 4096) (c : Fin 1), j = ix2 r c := ⟨j 0, j 1, eq_ix2 j⟩
  rw [select_apply, select_apply]
  by_cases hm : rowMask i (ix2 r c) = 1#1
  · rw [h r c (rowMask_one i r c hm)]
  · unfold Scalar.select; exact (if_neg hm).trans (if_neg hm).symm

/-! ## The scores -/

/-- The point's scores from the two blocks and ht, over the constant nb the body puts in b2's masked rows:
    (masked W2ᵀ-block as bf16) · ht + broadcast (masked b2-block). -/
def scoresOf (nb : F .f32) (i : grid2.Coords) (x1 : Vec F S4096x512 .f32) (x2 : Vec F S4096x1 .f32) (x0 : Vec F S512x1024 .bf16) :
    FVec F S4096x1024 .f32 :=
  addf
    (matmul dot_S4096x512_S512x1024_S4096x1024_1_0_0_1_n_n none
      (truncf .bf16 (select (maskW i) (shapeCast S4096x512 x1 shapeCasts_S4096x512_S4096x512)
        (broadcast S4096x512 (Scalar.ofBits .f32 0x00000000#32))) bitsLt_bf16_f32)
      (shapeCast S512x1024 x0 shapeCasts_S512x1024_S512x1024) (constant S4096x1024 .f32 0x00000000#32))
    (broadcastTo S4096x1024 (select (rowMask i) (shapeCast S4096x1 x2 shapeCasts_S4096x1_S4096x1) (broadcast S4096x1 nb))
      broadcasts_S4096x1_S4096x1024)

theorem scoresOf_fill_indep (nb : F .f32) (i : grid2.Coords) (x0 : Vec F S512x1024 .bf16)
    (g1 : (win2_1.xblock i).Idx → Elt F .f32) (g2 : (win2_2.xblock i).Idx → Elt F .f32)
    (d1 d1' : Vec F S4096x512 .f32) (d2 d2' : Vec F S4096x1 .f32) :
    scoresOf nb i (win2_1.fill i d1 g1) (win2_2.fill i d2 g2) x0 = scoresOf nb i (win2_1.fill i d1' g1) (win2_2.fill i d2' g2) x0 := by
  unfold scoresOf
  rw [selW_congr i _ (win2_1.fill i d1 g1) (win2_1.fill i d1' g1)
      (fun r c h => fill_indep_of_moved win2_1 i d1 d1' g1 (ix2 r c) (moved1_of_row i r c h)),
    selB_congr i _ (win2_2.fill i d2 g2) (win2_2.fill i d2' g2)
      (fun r c h => fill_indep_of_moved win2_2 i d2 d2' g2 (ix2 r c) (moved2_of_row i r c h))]

/-- The same of the body's own scores, at any grid coordinates. -/
theorem pay6_fill_indep_at (i : grid2.Coords) (x0 : Vec F S512x1024 .bf16) (g1 : (win2_1.xblock i).Idx → Elt F .f32)
    (g2 : (win2_2.xblock i).Idx → Elt F .f32) (d1 d1' : Vec F S4096x512 .f32) (d2 d2' : Vec F S4096x1 .f32) :
    k2_pay6 i (win2_1.fill i d1 g1) (win2_2.fill i d2 g2) x0 = k2_pay6 i (win2_1.fill i d1' g1) (win2_2.fill i d2' g2) x0 :=
  scoresOf_fill_indep _ i x0 g1 g2 d1 d1' d2 d2'

/-- THE POINT'S SCORES DO NOT DEPEND ON THE OVERHANG: whatever the two staging blocks held before the fetches
    (d1, d2 against d1', d2'), the scores computed from the fetched blocks are the same. -/
theorem pay6_fill_indep (t : Fin cfg2.N) (x0 : Vec F S512x1024 .bf16) (g1 : (win2_1.xblock (grid2.coords t)).Idx → Elt F .f32) (g2 : (win2_2.xblock (grid2.coords t)).Idx → Elt F .f32) (d1 d1' : Vec F S4096x512 .f32) (d2 d2' : Vec F S4096x1 .f32) :
    k2_pay6 (grid2.coords t) (win2_1.fill (grid2.coords t) d1 g1) (win2_2.fill (grid2.coords t) d2 g2) x0 = k2_pay6 (grid2.coords t) (win2_1.fill (grid2.coords t) d1' g1) (win2_2.fill (grid2.coords t) d2' g2) x0 :=
  pay6_fill_indep_at (grid2.coords t) x0 g1 g2 d1 d1' d2 d2'

end Cert.Kernel.Reg2

end
-- ==== Proof.Region3K.lean ====
/-
  The third TensorCore kernel of the program: the scores made log-probabilities.

  On a grid of 25 points the kernel takes the block of 4096 rows of the scores (bf16[100000, 1024]) at the
  point, widens it to f32, subtracts the row vector of log-normalisers (f32[1, 1024], the same block at every
  point) broadcast over the block's rows, and stores the whole difference into the block of 4096 rows of the
  result (f32[100000, 1024]) at the point. 25 blocks of 4096 rows are 102400 rows: the last block overhangs both
  arrays by 2400 rows. Its transfers are cut at the arrays' end: the fetch brings the block's first 1696 rows and
  leaves the rest of the staging buffer at contents nothing names, the body computes on all 4096 rows, and the
  write-back writes the first 1696 rows of what it left and nothing past the array.

  This file gives, at the contents the arrays have when the kernel is entered (a parameter): each window's block at
  a point (what a fetch there reads); what the body leaves in the result's staging buffer, as a function of what
  the two inputs' buffers hold; the body's triple; the pipeline's proof data; the body obligation at every point,
  which for the two windows whose last block is cut speaks of the rows inside the array only; and the arrays after
  the last write-back: the inputs as they were found, the result at every row the difference of the widened score
  and the log-normaliser of its column.
-/
import proofs.«207593_g36137854828637_cont_8to1_b_1462_19_alg».proof.Proof.CommonK
import proofs.«207593_g36137854828637_cont_8to1_b_1462_19_alg».proof.Proof.Gen.Kernel.Launch
import proofs.«207593_g36137854828637_cont_8to1_b_1462_19_alg».proof.Proof.Gen.Kernel.Skeleton
import proofs.«207593_g36137854828637_cont_8to1_b_1462_19_alg».proof.Proof.Gen.Kernel.Points
import Idealize.ShloMosaic.Lib.Pipeline.FrameBody
import Idealize.ShloMosaic.Lib.Pipeline.Value
import Idealize.ShloMosaic.Lib.Tactic
import Idealize.ShloMosaic.Lib.ValueIdx

set_option maxRecDepth 16384

noncomputable section

namespace Cert.Kernel.Reg3

open Cert.Kernel Cert.Kernel.Gen Cert.Kernel.Common

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {F : FTy → Type} [FloatOps F]

-- the contents of the TensorCore's buffers when the kernel is entered
variable (V : (c : Dev nD) → (b : Ref sig .tc) → Buf (Elt F) ((c : Thread nD τ).loc b))
-- a bound on the pairs the core's waits have recorded before the kernel: the kernel waits on nothing of its own
variable (Rc : Set (SemLoc sig × HIx 1))

/-! ## The windows' blocks -/

/-- A window's block at a point, its part inside the array, read off the array as the kernel finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scores' block at a point as the staging buffer holds it after the fetch when it held d before: the rows
    inside the array are the array's, the others d's. -/
def sblk3 (c : Dev nD) (t : Fin cfg3.N) (d : Vec F S4096x1024 .bf16) : Vec F S4096x1024 .bf16 :=
  win3_0.fill (grid3.coords t) d (iblk3 V c 0 t)

/-- A word for the rows nothing names. -/
def pad3 : Vec F S4096x1024 .bf16 := fun _ => (Elt.inhabited F .bf16).default

/-! ## What the body leaves in the result's buffer -/

/-- The whole buffer, as the body's loads and its store address it. -/
abbrev r3_big : Rect S4096x1024 := Rect.unit (s := S4096x1024) ![0, 0] S4096x1024.size inb_S4096x1024_S4096x1024_0_0
abbrev r3_row : Rect S1x1024 := Rect.unit (s := S1x1024) ![0, 0] S1x1024.size inb_S1x1024_S1x1024_0_0

/-- The result's staging buffer after the body, from what the scores' and the log-normalisers' buffers hold: the
    body's one store, of the whole block. -/
def out3_2 (x0 : Vec F S4096x1024 .bf16) (x1 : Vec F S1x1024 .f32) : Vec F S4096x1024 .f32 :=
  View.canon [⟨r3_big, k3_pay1 (View.ld x0 r3_big) (View.ld x1 r3_row)⟩]

theorem zeros2 : (![0, 0] : Fin 2 → Nat) = fun _ => 0 := funext fun a => by fin_cases a <;> rfl

/-- It is the payload: entry (i, j) the widened score minus the log-normaliser of column j. -/
theorem out3_2_eq (x0 : Vec F S4096x1024 .bf16) (x1 : Vec F S1x1024 .f32) : out3_2 x0 x1 = k3_pay1 x0 x1 := by
  unfold out3_2
  rw [View.canon_unit_zero zeros2, View.ld_unit_zero zeros2, View.ld_unit_zero zeros2]

/-- The one store covers the buffer. -/
theorem cover3_2 (p0 : Vec F S4096x1024 .f32) (y : S4096x1024.Idx) :
    ∃ pc ∈ ([⟨r3_big, p0⟩] : List (View.Piece (Elt F) S4096x1024 .f32)), y ∈ pc.1.set :=
  ⟨_, List.mem_singleton_self _, View.mem_set_unit_zero zeros2 inb_S4096x1024_S4096x1024_0_0 y⟩

/-! ## The body's triple -/

set_option maxHeartbeats 1000000 in
/-- The kernel body on whole staging memrefs, the scores' reading x0, the log-normalisers' reading x1 and the
    result's holding anything, runs to the continuation with the two inputs' as they were and the result's reading
    out3_2 x0 x1: two whole loads, a load of the result's buffer whose value nothing uses, one whole store. -/
theorem sound_kernel3 (c : Dev nD) (E : Set ℕ) (i : grid3.Coords)
    (arg1 : Memref sig .tc .vmem S4096x1024 .bf16) (harg1 : arg1.IsWhole)
    (arg2 : Memref sig .tc .vmem S1x1024 .f32) (harg2 : arg2.IsWhole)
    (arg3 : Memref sig .tc .vmem S4096x1024 .f32) (harg3 : arg3.IsWhole)
    (x0 : Vec F S4096x1024 .bf16) (x1 : Vec F S1x1024 .f32) (K : PUnit → sProp (MM F)) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__fix_body i arg1 harg1 arg2 harg2 arg3 harg3) K := by
  simp only [cc3__fix_body_eq_skeleton]; unfold cc3__fix_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr
    · ipureintro; rfl
    iexact H0
  isplitl [H1]
  · iexists f1; isplitr
    · ipureintro; rfl
    iexact H1
  iexists _; isplitr
  swap
  · iexact H2
  ipureintro
  exact View.read_writes_eq_canon _ _ _ (cover3_2 _)

/-! ## The pipeline's proof data -/

/-- What the kernel may use and need not describe, between points: the core's scoped buffers that are none of its
    staging buffers, each at some contents, and the generator register at some state. -/
def Φ3 (c : Dev nD) : sProp (MM F) :=
  iprop(Pipeline.scopedRest (Ix := HIx 1) (Name := ℕ) (U := UU) (Lvl := ℕ) (Val := Elt F) spec3 c ∗ ∃ r, prngReg c r)

/-- The proof data of the kernel's pipeline on a core: the arrays as the kernel finds them; after the body at a
    point the scores' buffer at its block there (filled out, past the array's end, with a word nothing reads), the
    log-normalisers' at its one block, the result's at out3_2 of those two; the invariant Φ3; nothing owed; full
    shares; the recorded pairs within the bound the kernel was entered with. -/
def dat3 (c : Dev nD) : Dat τ (Elt F) (HIx 1) ℕ UU ℕ cfg3 c where
  A w := V c (Pipeline.arrRef spec3 w)
  after w t := match w with
    | ⟨0, _⟩ => sblk3 V c t pad3
    | ⟨1, _⟩ => iblk3 V c 1 t
    | ⟨2, _⟩ => out3_2 (sblk3 V c t pad3) (iblk3 V c 1 t)
  Φ _ := Φ3 c
  q _ := fullShare
  owed _ := 0
  recorded _ := Rc

/-- The proof data's arrays are the contents at entry. -/
theorem A_eq3 (c : Dev nD) (w : Fin cfg3.W) : (dat3 V Rc c).A w = V c (Pipeline.arrRef spec3 w) := by
  dsimp only [dat3]

/-- The invariant is the same between any two points, -/
theorem Φ3_first (c : Dev nD) : (dat3 V Rc c).Φ 0 = Φ3 c := rfl
theorem Φ3_last (c : Dev nD) : (dat3 V Rc c).Φ (Fin.last _) = Φ3 c := rfl
theorem Φ3_at (c : Dev nD) (t : Fin (cfg3.N + 1)) : (dat3 V Rc c).Φ t = Φ3 c := rfl
/-- the core owes nothing at any of them, -/
theorem owed3 (c : Dev nD) (t : Fin (cfg3.N + 1)) : (dat3 V Rc c).owed t = 0 := rfl
/-- its recorded pairs stay within the bound it came with, -/
theorem recorded3 (c : Dev nD) (t : Fin (cfg3.N + 1)) : (dat3 V Rc c).recorded t = Rc := rfl
/-- and every input array is held whole. -/
theorem q3 (c : Dev nD) (w : Fin cfg3.W) : (dat3 V Rc c).q w = fullShare := rfl

/-- What the body leaves, window by window. -/
theorem after3_0 (c : Dev nD) (t : Fin cfg3.N) : (dat3 V Rc c).after 0 t = sblk3 V c t pad3 := by dsimp only [dat3]
theorem after3_1 (c : Dev nD) (t : Fin cfg3.N) : (dat3 V Rc c).after 1 t = iblk3 V c 1 t := by dsimp only [dat3]
theorem after3_2 (c : Dev nD) (t : Fin cfg3.N) :
    (dat3 V Rc c).after 2 t = out3_2 (sblk3 V c t pad3) (iblk3 V c 1 t) := by dsimp only [dat3]

/-! ## What the body finds -/

/-- The scores' buffer, fetched at every point: the block on the rows inside the array, what the buffer held on
    the others. -/
theorem before3_0 (c : Dev nD) (t : Fin cfg3.N) (d) : (dat3 V Rc c).before 0 t d = sblk3 V c t d := by
  rw [(dat3 V Rc c).before_fetched 0 t (fetch3_0 t) d]
  unfold Dat.fetched Dat.blockOf sblk3 iblk3
  rw [A_eq3]

/-- The log-normalisers' buffer, fetched at the first point only and never written: its block, the same at every
    point. -/
theorem before3_1 (c : Dev nD) (t : Fin cfg3.N) (d) : (dat3 V Rc c).before 1 t d = iblk3 V c 1 t := by
  rw [(dat3 V Rc c).before_in_eq_fetched 1 rfl (fun _ => rfl) (fun _ _ _ => rfl)
    (fun t => by rw [after3_1]; unfold Dat.blockOf iblk3; rw [A_eq3]) t d]
  unfold Dat.fetched Dat.blockOf iblk3
  rw [A_eq3]
  rfl

/-- The result's buffer, written back at every point: fresh at each, holding anything. -/
theorem before3_2 (c : Dev nD) (t : Fin cfg3.N) (d) : (dat3 V Rc c).before 2 t d = d := by
  refine (dat3 V Rc c).before_out_reset 2 rfl t ?_ d
  by_cases h0 : t.val = 0
  · exact .inl h0
  · exact .inr ⟨h0, flush3_2 _⟩

/-! ## The payload at an entry -/

/-- Entry (i, j) of the block the body stores: the score there widened, minus the log-normaliser of column j. -/
theorem k3_pay1_apply (v0 : Vec F S4096x1024 .bf16) (v3 : Vec F S1x1024 .f32) (k : S4096x1024.Idx) :
    k3_pay1 v0 v3 k
      = FloatOps.subf (FloatOps.extf .f32 bitsLt_bf16_f32 (v0 k)) (v3 (ix2 (0 : Fin 1) (k 1 : Fin 1024))) := by
  unfold k3_pay1
  show FloatOps.subf (FloatOps.extf .f32 _ (shapeCast S4096x1024 v0 _ k))
      (broadcastTo S4096x1024 (shapeCast S1x1024 v3 _) _ k) = _
  rw [shapeCast_self, shapeCast_self,
    broadcastTo_apply v3 broadcasts_S1x1024_S4096x1024 k (ix2 (0 : Fin 1) (k 1 : Fin 1024)) (by
      intro a
      match a with
      | ⟨0, _⟩ => rfl
      | ⟨1, _⟩ => rfl)]

/-! ## The rows the cut transfers move -/

/-- On a row the transfers move, the scores' buffer after the fetch holds the array's row, whatever it held. -/
theorem sblk3_moved (c : Dev nD) (t : Fin cfg3.N) (d d' : Vec F S4096x1024 .bf16) (k : S4096x1024.Idx)
    (hk : win3_0.moved (grid3.coords t) k = true) : sblk3 V c t d k = sblk3 V c t d' k := by
  unfold sblk3 Window.fill
  rw [dif_pos hk, dif_pos hk]

/-- So on those rows what the body leaves in the result's buffer does not depend on what the scores' buffer held
    past the array's end: the two windows are cut alike, and an entry of the result is computed from the score
    at the same place. -/
theorem cut_out3_2 (c : Dev nD) (t : Fin cfg3.N) (d : Vec F S4096x1024 .bf16) :
    win3_2.cut (grid3.coords t) (out3_2 (sblk3 V c t d) (iblk3 V c 1 t))
      = win3_2.cut (grid3.coords t) (out3_2 (sblk3 V c t pad3) (iblk3 V c 1 t)) := by
  funext j
  show out3_2 (sblk3 V c t d) (iblk3 V c 1 t) (win3_2.xinj (grid3.coords t) j)
    = out3_2 (sblk3 V c t pad3) (iblk3 V c 1 t) (win3_2.xinj (grid3.coords t) j)
  rw [out3_2_eq, out3_2_eq, k3_pay1_apply, k3_pay1_apply,
    sblk3_moved V c t d pad3 _ (win3_2.moved_xinj (grid3.coords t) j)]

/-! ## The body obligation -/

/-- What the body is called with at a point, -/
def bodyPre3 (c : Dev nD) (t : Fin cfg3.N) : sProp (MM F) :=
  iprop((dat3 V Rc c).Φ t.castSucc ∗ (dat3 V Rc c).owesAt (none : HIx 1) t.castSucc
    ∗ (∃ d, owns (c : Thread nD τ) (st3_0 t) fullShare ((dat3 V Rc c).before 0 t d))
    ∗ (∃ d, owns (c : Thread nD τ) (st3_1 t) fullShare ((dat3 V Rc c).before 1 t d))
    ∗ (∃ d, owns (c : Thread nD τ) (st3_2 t) fullShare ((dat3 V Rc c).before 2 t d)))

/-- and what it returns: the two cut windows' buffers stated on the rows their transfers move. -/
def bodyPost3 (c : Dev nD) (t : Fin cfg3.N) : sProp (MM F) :=
  iprop((dat3 V Rc c).Φ t.succ ∗ (dat3 V Rc c).owesAt (none : HIx 1) t.succ
    ∗ (∃ d, owns (c : Thread nD τ) (st3_0 t) fullShare
        (win3_0.fill (grid3.coords t) d (win3_0.cut (grid3.coords t) ((dat3 V Rc c).after 0 t))))
    ∗ owns (c : Thread nD τ) (st3_1 t) fullShare ((dat3 V Rc c).after 1 t)
    ∗ (∃ d, owns (c : Thread nD τ) (st3_2 t) fullShare
        (win3_2.fill (grid3.coords t) d (win3_2.cut (grid3.coords t) ((dat3 V Rc c).after 2 t)))))

/-- The body at any point: the two inputs' buffers hold their blocks, so the triple applies; the invariant and what
    the core owes pass through unread; the scores' buffer is handed back as found, which on the moved rows is its
    block, and the result's at the payload, which on the moved rows does not see the filler. -/
theorem sound_body3 (c : Dev nD) (t : Fin cfg3.N) :
    bodyPre3 V Rc c t ⊢ wp frame (wpE (defs₀ (F := F)) Variants.none c none) Set.univ (bodyAt3 t) (fun _ => bodyPost3 V Rc c t) := by
  unfold bodyPre3 bodyPost3 bodyAt3
  simp only [before3_0, before3_1, before3_2]
  rw [show (dat3 V Rc c).Φ t.succ = (dat3 V Rc c).Φ t.castSucc from rfl,
    show (dat3 V Rc c).owesAt (none : HIx 1) t.succ = (dat3 V Rc c).owesAt (none : HIx 1) t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (sblk3 V c t d0) (iblk3 V c 1 t) _)
  isplitl [H0]
  · iexact H0
  isplitl [H1]
  · iexact H1
  isplitl [H2]
  · iexists d2; iexact H2
  iintro ⟨H0, H1, H2⟩
  isplitl [HΦ]
  · iexact HΦ
  isplitl [Ho]
  · iexact Ho
  isplitl [H0]
  · iexists d0
    rw [show win3_0.cut (grid3.coords t) (sblk3 V c t pad3) = iblk3 V c 0 t from win3_0.cut_fill _ _ _]
    iexact H0
  isplitl [H1]
  · iexact H1
  · iexists out3_2 (sblk3 V c t d0) (iblk3 V c 1 t)
    rw [← cut_out3_2 V c t d0, win3_2.fill_cut]
    iexact H2

/-- What the pipeline's rule asks of the body, at every point: the three windows one by one. -/
theorem body_obligation3 (c : Dev nD) :
    BodyObligationLoose (dat3 (F := F) V Rc c) (defs₀ (F := F)) Variants.none (none : HIx 1) Set.univ := fun t => by
  rw [bigSep_W3, bigSep_W3]
  exact sound_body3 V Rc c t

/-! ## The arrays after the last write-back -/

/-- The two inputs are never written: they end as the kernel found them. -/
theorem final3_0 (c : Dev nD) : (dat3 V Rc c).arrAt 0 cfg3.N = V c (Pipeline.arrRef spec3 0) :=
  (dat3 V Rc c).arrAt_in 0 rfl _
theorem final3_1 (c : Dev nD) : (dat3 V Rc c).arrAt 1 cfg3.N = V c (Pipeline.arrRef spec3 1) :=
  (dat3 V Rc c).arrAt_in 1 rfl _

/-- The log-probabilities over the whole array: at row n and column b the score there, widened, minus the
    log-normaliser of column b. -/
def logp3 (s : Vec F S100000x1024 .bf16) (lz : Vec F S1x1024 .f32) : Vec F S100000x1024 .f32 :=
  fun i => FloatOps.subf (FloatOps.extf .f32 bitsLt_bf16_f32 (s i)) (lz (ix2 (0 : Fin 1) (i 1 : Fin 1024)))

/-- Where the result's block at a point lies in the array and how much of it the transfers move: rows from
    4096 t on, 4096 of them but at the last point, where the array ends after 1696; every column. -/
theorem geom3_2 : ∀ t : Fin cfg3.N, win3_2.index t 0 * win3_2.size 0 = t.val * 4096
      ∧ win3_2.xsize (grid3.coords t) 0 = min 4096 (100000 - t.val * 4096)
      ∧ win3_2.index t 1 * win3_2.size 1 = 0 ∧ win3_2.xsize (grid3.coords t) 1 = 1024 :=
  (by decide +kernel : ∀ t : Fin grid3.N, win3_2.index t 0 * win3_2.size 0 = t.val * 4096
      ∧ win3_2.xsize (grid3.coords t) 0 = min 4096 (100000 - t.val * 4096)
      ∧ win3_2.index t 1 * win3_2.size 1 = 0 ∧ win3_2.xsize (grid3.coords t) 1 = 1024)

/-- What a point writes back is its block of the log-probabilities: on a row the transfers move the scores'
    buffer holds the array's row, the log-normalisers' buffer holds the one row of its array, and the body's
    payload at an entry is computed from the score at the same place and the log-normaliser of the same column. -/
theorem flushed3_2 (c : Dev nD) (t : Fin cfg3.N) :
    (dat3 V Rc c).flushed 2 t = (win3_2.blk t).view.read (Elt F) (logp3 (V c main_v5_1) (V c main_v5_0)) := by
  show win3_2.cut (grid3.coords t) ((dat3 V Rc c).after 2 t) = _
  rw [after3_2]
  funext j
  show out3_2 (sblk3 V c t pad3) (iblk3 V c 1 t) (win3_2.xinj (grid3.coords t) j) = _
  rw [out3_2_eq, k3_pay1_apply]
  have hs : sblk3 V c t pad3 (win3_2.xinj (grid3.coords t) j) = V c main_v5_1 ((win3_2.rect t).emb j) :=
    win3_0.fill_xinj (grid3.coords t) pad3 (iblk3 V c 0 t) j
  have hl : iblk3 V c 1 t (ix2 (0 : Fin 1) (win3_2.xinj (grid3.coords t) j 1 : Fin 1024))
      = V c main_v5_0 (ix2 (0 : Fin 1) ((win3_2.rect t).emb j 1 : Fin 1024)) := by
    show V c main_v5_0 ((win3_1.rect t).emb (ix2 (0 : Fin 1) (win3_2.xinj (grid3.coords t) j 1 : Fin 1024))) = _
    congr 1
    exact Shape.idx_ext₂ rfl rfl
  rw [hs, hl]
  rfl

/-- An index of the result array is in a point's block iff its row is one of those the block's transfers move. -/
theorem mem_blk3_2 (t : Fin cfg3.N) (i : S100000x1024.Idx) :
    i ∈ ((cfg3.win 2).blk t).view.set
      ↔ t.val * 4096 ≤ (i 0 : ℕ) ∧ (i 0 : ℕ) < t.val * 4096 + min 4096 (100000 - t.val * 4096) := by
  show i ∈ ((View.whole main_v6).slice (win3_2.rect t)).set ↔ _
  rw [View.set_slice_whole, Rect.mem_set_unit]
  obtain ⟨e0, x0, e1, x1⟩ := geom3_2 t
  have h1 : (i 1 : ℕ) < 1024 := (i 1).isLt
  refine ⟨fun h => ?_, fun h a => ?_⟩
  · have := h 0
    rw [e0, x0] at this
    exact this
  · match a with
    | ⟨0, _⟩ =>
      show win3_2.index t 0 * win3_2.size 0 ≤ (i 0 : ℕ)
        ∧ (i 0 : ℕ) < win3_2.index t 0 * win3_2.size 0 + win3_2.xsize (grid3.coords t) 0
      rw [e0, x0]; exact h
    | ⟨1, _⟩ =>
      show win3_2.index t 1 * win3_2.size 1 ≤ (i 1 : ℕ)
        ∧ (i 1 : ℕ) < win3_2.index t 1 * win3_2.size 1 + win3_2.xsize (grid3.coords t) 1
      rw [e1, x1]; omega

/-- The blocks' moved rows are 0 to 4095, 4096 to 8191, and so on to 98304 to 99999: together all the array's. -/
theorem cover3 (i : S100000x1024.Idx) :
    ∃ t : Fin cfg3.N, (cfg3.win 2).flush t = true ∧ i ∈ ((cfg3.win 2).blk t).view.set := by
  have h0 : (i 0 : ℕ) < 100000 := (i 0).isLt
  have hN : cfg3.N = 25 := N_3
  refine ⟨⟨(i 0 : ℕ) / 4096, by omega⟩, flush3_2 _, ?_⟩
  rw [mem_blk3_2]
  dsimp only
  omega

/-- So the result array ends holding the log-probabilities, every row of it. -/
theorem final3_2 (c : Dev nD) : (dat3 V Rc c).arrAt 2 cfg3.N = logp3 (V c main_v5_1) (V c main_v5_0) :=
  (dat3 V Rc c).arrAt_eq_of_cover 2 (logp3 (V c main_v5_1) (V c main_v5_0)) (fun t _ => flushed3_2 V Rc c t) cover3

/-- At row n and column b: the score, widened, minus the log-normaliser of the column. -/
theorem final3_2_apply (c : Dev nD) (n : Fin 100000) (b : Fin 1024) :
    (dat3 V Rc c).arrAt 2 cfg3.N (ix2 n b)
      = FloatOps.subf (FloatOps.extf .f32 bitsLt_bf16_f32 (V c main_v5_1 (ix2 n b))) (V c main_v5_0 (ix2 (0 : Fin 1) b)) := by
  rw [final3_2]
  rfl

end Cert.Kernel.Reg3

end
-- ==== Proof.RegionsK.lean ====
/-
  The three TensorCore kernels of the program as consecutive segments of @main on the TensorCore.

  Between two kernels the TensorCore holds every unscoped buffer of its device at known contents, its generator
  register at some state, and what it owes the other threads: nothing, its recorded (cell, index) pairs within
  a bound fixed for the whole stretch (the pairs of level at most 8 on its own cells, which contains every pair
  at index none, so every pair a pipeline's own waits record).

  The first kernel is entered at contents W2, a parameter. A kernel takes its windows' arrays out of the unscoped
  buffers, runs its pipeline on them, and hands them back at what its write-backs leave; every other unscoped
  buffer passes by untouched. So the contents at the next boundary are the previous ones updated at the
  kernel's arrays:  W3 = W2 updated at the first kernel's four arrays,  W4 = W3 updated at the second's five,
  W5 = W4 updated at the third's three.  The generator register enters the first and the third kernel's
  invariant and comes back from it; the second kernel's invariant is made of the scoped buffers alone, and the
  register passes it by. The core's owes enters each pipeline at the bound widened by the pipeline's own pairs
  and comes back within the bound.

  The result is one theorem: from the boundary, the unscoped buffers at W2, the register and the owes, the level
  facts and the three pipelines' ghost state, the three custom calls in order run to the boundary, the unscoped
  buffers at W5, the register and the owes.
-/
import proofs.«207593_g36137854828637_cont_8to1_b_1462_19_alg».proof.Proof.CommonK
import proofs.«207593_g36137854828637_cont_8to1_b_1462_19_alg».proof.Proof.Region1K
import proofs.«207593_g36137854828637_cont_8to1_b_1462_19_alg».proof.Proof.Region2K
import proofs.«207593_g36137854828637_cont_8to1_b_1462_19_alg».proof.Proof.Region2K_Mask
import proofs.«207593_g36137854828637_cont_8to1_b_1462_19_alg».proof.Proof.Region3K
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Regions

open Cert.Kernel Cert.Kernel.Gen Cert.Kernel.Common
-- the three kernels' proof data and what their modules state of them
open Cert.Kernel.Reg1 (dat1 body_obligation1 A_eq1 owed1 recorded1 share1 Φ1 Φ1_first Φ1_last)
open Cert.Kernel.Reg2 (dat2 body_obligation2_of MaskIndep A_eq2 owed2 recorded2 q2 phi2_in phi2_out)
open Cert.Kernel.Reg3 (dat3 body_obligation3 A_eq3 owed3 recorded3 q3 Φ3 Φ3_first Φ3_last)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose cellOf)

variable {F : FTy → Type} [FloatOps F]

/-- The second kernel's mask makes its scores independent of what the rows past the arrays' end hold: the fact its
    body obligation is stated under. -/
theorem maskIndep : MaskIndep F := fun t x0 g1 g2 d1 d1' d2 d2' => Reg2.pay6_fill_indep t x0 g1 g2 d1 d1' d2 d2'

/-! ## The thread state that rides through: the generator register and what the core owes -/

/-- The bound on the (cell, index) pairs the TensorCore's waits have recorded: those of level at most 8 on its own
    cells. -/
def Rc (c : Dev nD) : Set (SemLoc sig × HIx 1) := {p | (K (F := F)).lev ((SparseCore.T c), p.1) p.2 ≤ 8}

/-- A pair at index none has level 0: every pair a pipeline's own waits record is within the bound. -/
theorem waitPairs_sub (cfg : Pipeline.Cfg sig Λ₀) (c : Dev nD) : cfg.waitPairs (none : HIx 1) ⊆ Rc (F := F) c := by
  rintro p ⟨w, s, rfl⟩
  show (K (F := F)).lev _ none ≤ 8
  rw [SparseCore.Cfg.lev_none]; exact Nat.zero_le _

/-- The generator register at some state, and the core owing nothing with its recorded pairs within the bound. -/
def Rr (c : Dev nD) : sProp (MM F) := iprop((∃ r, prngReg c r) ∗ Pipeline.owesWithin c (0 : CellTallies nD τ sig (HIx 1)) (Rc (F := F) c))

/-- Into a pipeline: the bound widens by the pipeline's own pairs. -/
theorem owes_in (c : Dev nD) (B : Set (SemLoc sig × HIx 1)) :
    (Pipeline.owesWithin c 0 (Rc (F := F) c) : sProp (MM F)) ⊢ Pipeline.owesWithin c 0 (Rc (F := F) c ∪ B) :=
  Pipeline.owesWithin_mono c 0 Set.subset_union_left

/-- Out of it: the pipeline's own pairs were within the bound already. -/
theorem owes_out (cfg : Pipeline.Cfg sig Λ₀) (c : Dev nD) :
    (Pipeline.owesWithin c 0 (Rc (F := F) c ∪ cfg.waitPairs (none : HIx 1)) : sProp (MM F)) ⊢ Pipeline.owesWithin c 0 (Rc (F := F) c) :=
  Pipeline.owesWithin_mono c 0 (Set.union_subset le_rfl (waitPairs_sub cfg c))

/-- No pipeline has a prefetched table: the tables held are nothing. -/
theorem prefHeld_emp (p : Fin 3) (c : Dev nD) (a : (pcfgs (F := F) p).Adm) :
    (Pipeline.prefHeld (pcfgs (F := F) p).pre c (fun _ => fullShare) a.1 : sProp (MM F)) = BI.emp := by
  unfold Pipeline.prefHeld
  rw [show (Finset.univ : Finset (Fin 0)) = ∅ from rfl, BI.bigSep_empty]

/-! ## The buffer contents at each boundary -/

-- the TensorCore's buffer contents when the first kernel is entered
variable (W2 : Dev nD → Valuation τ sig (Elt F))

/-- The same read at the TensorCore's references (what the first kernel's proof data take). -/
abbrev V2 : (c : Dev nD) → (b : Ref sig .tc) → Buf (Elt F) ((c : Thread nD τ).loc b) := fun c b => W2 c b

/-- After the first kernel: its four arrays at what its write-backs leave, every other buffer as it was. -/
def W3 (c : Dev nD) : Valuation τ sig (Elt F) :=
  Pipeline.withArrays spec1 c (W2 c) fun w => (dat1 (V2 W2) (Rc (F := F) c) c).arrAt w cfg1.N
abbrev V3 : (c : Dev nD) → (b : Ref sig .tc) → Buf (Elt F) ((c : Thread nD τ).loc b) := fun c b => W3 W2 c b

theorem W3_arr (c : Dev nD) (w : Fin cfg1.W) :
    W3 W2 c (Proc.devRef .tc (Pipeline.arrRef spec1 w)) = (dat1 (V2 W2) (Rc (F := F) c) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 W2 c (Proc.devRef .tc b) = W2 c (Proc.devRef .tc b) := by
  unfold W3; exact Pipeline.withArrays_of_ne spec1 c _ _ b hb
/-- At the first kernel's exit each of its arrays holds what the pipeline leaves, and every other buffer what it held. -/
theorem hF1 (c : Dev nD) (w : Fin cfg1.W) : (dat1 (V2 W2) (Rc (F := F) c) c).arrAt w cfg1.N = V3 W2 c (Pipeline.arrRef spec1 w) :=
  (W3_arr W2 c w).symm
theorem hrest1 (c : Dev nD) : ∀ b, b ∉ Finset.univ.image (Pipeline.arrRef spec1) → V3 W2 c b = V2 W2 c b :=
  fun b hb => W3_of_ne W2 c b fun w e => hb (Finset.mem_image.mpr ⟨w, Finset.mem_univ _, e⟩)

/-- After the second kernel: its five arrays at what its write-backs leave, every other buffer as it was. -/
def W4 (c : Dev nD) : Valuation τ sig (Elt F) :=
  Pipeline.withArrays spec2 c (W3 W2 c) fun w => (dat2 (V3 W2) (Rc (F := F) c) c).arrAt w cfg2.N
abbrev V4 : (c : Dev nD) → (b : Ref sig .tc) → Buf (Elt F) ((c : Thread nD τ).loc b) := fun c b => W4 W2 c b

theorem W4_arr (c : Dev nD) (w : Fin cfg2.W) :
    W4 W2 c (Proc.devRef .tc (Pipeline.arrRef spec2 w)) = (dat2 (V3 W2) (Rc (F := F) c) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 W2 c (Proc.devRef .tc b) = W3 W2 c (Proc.devRef .tc b) := by
  unfold W4; exact Pipeline.withArrays_of_ne spec2 c _ _ b hb
theorem hF2 (c : Dev nD) (w : Fin cfg2.W) : (dat2 (V3 W2) (Rc (F := F) c) c).arrAt w cfg2.N = V4 W2 c (Pipeline.arrRef spec2 w) :=
  (W4_arr W2 c w).symm
theorem hrest2 (c : Dev nD) : ∀ b, b ∉ Finset.univ.image (Pipeline.arrRef spec2) → V4 W2 c b = V3 W2 c b :=
  fun b hb => W4_of_ne W2 c b fun w e => hb (Finset.mem_image.mpr ⟨w, Finset.mem_univ _, e⟩)

/-- After the third kernel: its three arrays at what its write-backs leave, every other buffer as it was. -/
def W5 (c : Dev nD) : Valuation τ sig (Elt F) :=
  Pipeline.withArrays spec3 c (W4 W2 c) fun w => (dat3 (V4 W2) (Rc (F := F) c) c).arrAt w cfg3.N
abbrev V5 : (c : Dev nD) → (b : Ref sig .tc) → Buf (Elt F) ((c : Thread nD τ).loc b) := fun c b => W5 W2 c b

theorem W5_arr (c : Dev nD) (w : Fin cfg3.W) :
    W5 W2 c (Proc.devRef .tc (Pipeline.arrRef spec3 w)) = (dat3 (V4 W2) (Rc (F := F) c) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 W2 c (Proc.devRef .tc b) = W4 W2 c (Proc.devRef .tc b) := by
  unfold W5; exact Pipeline.withArrays_of_ne spec3 c _ _ b hb
theorem hF3 (c : Dev nD) (w : Fin cfg3.W) : (dat3 (V4 W2) (Rc (F := F) c) c).arrAt w cfg3.N = V5 W2 c (Pipeline.arrRef spec3 w) :=
  (W5_arr W2 c w).symm
theorem hrest3 (c : Dev nD) : ∀ b, b ∉ Finset.univ.image (Pipeline.arrRef spec3) → V5 W2 c b = V4 W2 c b :=
  fun b hb => W5_of_ne W2 c b fun w e => hb (Finset.mem_image.mpr ⟨w, Finset.mem_univ _, e⟩)

/-! ## What the three kernels leave alone

Only a kernel's OUTPUT arrays change: the activations (the first kernel's), the log-normalisers and the scores (the
second's), the log-probabilities (the third's). An input window's array ends as its kernel found it, and a buffer no
kernel stages passes by. -/

/-- The four output arrays. -/
abbrev outs : Finset (DevRef τ sig) :=
  {Proc.devRef .tc main_v4, Proc.devRef .tc main_v5_0, Proc.devRef .tc main_v5_1, Proc.devRef .tc main_v6}
theorem v4_mem : Proc.devRef .tc main_v4 ∈ (outs : Finset (DevRef τ sig)) := Finset.mem_insert_self _ _
theorem v5_0_mem : Proc.devRef .tc main_v5_0 ∈ (outs : Finset (DevRef τ sig)) := Finset.mem_insert_of_mem (Finset.mem_insert_self _ _)
theorem v5_1_mem : Proc.devRef .tc main_v5_1 ∈ (outs : Finset (DevRef τ sig)) :=
  Finset.mem_insert_of_mem (Finset.mem_insert_of_mem (Finset.mem_insert_self _ _))
theorem v6_mem : Proc.devRef .tc main_v6 ∈ (outs : Finset (DevRef τ sig)) :=
  Finset.mem_insert_of_mem (Finset.mem_insert_of_mem (Finset.mem_insert_of_mem (Finset.mem_singleton_self _)))

/-- The update at a pipeline's arrays leaves a buffer that is none of them as it was. -/
theorem withArrays_of_not_arr {gr W : Nat} (win : Fin W → Pipeline.WinSpec sig gr) (c : Dev nD) (V : Valuation τ sig (Elt F))
    (A : (w : Fin W) → Buf (Elt F) ((win w).arr.view.loc (c.tc : Thread nD τ))) (b : DevRef τ sig)
    (hb : ∀ w, Proc.devRef .tc (Pipeline.arrRef win w) ≠ b) : Pipeline.withArrays win c V A b = V b := by
  unfold Pipeline.withArrays
  rw [dif_neg]
  rintro ⟨w, e⟩
  exact hb w e

/-- The first kernel changes its result array only: its three inputs end as found. -/
theorem W3_of_W2 (c : Dev nD) (b : DevRef τ sig) (hb : b ∉ (outs : Finset (DevRef τ sig))) : W3 W2 c b = W2 c b := by
  by_cases h : ∃ w, Proc.devRef .tc (Pipeline.arrRef spec1 w) = b
  · obtain ⟨w, rfl⟩ := h
    rw [W3_arr]
    match w with
    | ⟨0, _⟩ => exact ((dat1 (V2 W2) (Rc (F := F) c) c).arrAt_in 0 rfl _).trans (A_eq1 (V2 W2) (Rc (F := F) c) c 0)
    | ⟨1, _⟩ => exact ((dat1 (V2 W2) (Rc (F := F) c) c).arrAt_in 1 rfl _).trans (A_eq1 (V2 W2) (Rc (F := F) c) c 1)
    | ⟨2, _⟩ => exact ((dat1 (V2 W2) (Rc (F := F) c) c).arrAt_in 2 rfl _).trans (A_eq1 (V2 W2) (Rc (F := F) c) c 2)
    | ⟨3, _⟩ => exact absurd v4_mem hb
  · unfold W3; exact withArrays_of_not_arr spec1 c _ _ b fun w e => h ⟨w, e⟩

/-- The second kernel changes its two result arrays only: the weights and the bias column end as found (the activations,
    its third input, are the first kernel's result). -/
theorem W4_of_W3 (c : Dev nD) (b : DevRef τ sig) (hb : b ∉ (outs : Finset (DevRef τ sig))) : W4 W2 c b = W3 W2 c b := by
  by_cases h : ∃ w, Proc.devRef .tc (Pipeline.arrRef spec2 w) = b
  · obtain ⟨w, rfl⟩ := h
    rw [W4_arr]
    match w with
    | ⟨0, _⟩ => exact absurd v4_mem hb
    | ⟨1, _⟩ => exact ((dat2 (V3 W2) (Rc (F := F) c) c).arrAt_in 1 rfl _).trans (A_eq2 (V3 W2) (Rc (F := F) c) c 1)
    | ⟨2, _⟩ => exact ((dat2 (V3 W2) (Rc (F := F) c) c).arrAt_in 2 rfl _).trans (A_eq2 (V3 W2) (Rc (F := F) c) c 2)
    | ⟨3, _⟩ => exact absurd v5_0_mem hb
    | ⟨4, _⟩ => exact absurd v5_1_mem hb
  · unfold W4; exact withArrays_of_not_arr spec2 c _ _ b fun w e => h ⟨w, e⟩

/-- The third kernel's three arrays are all results of the kernels. -/
theorem W5_of_W4 (c : Dev nD) (b : DevRef τ sig) (hb : b ∉ (outs : Finset (DevRef τ sig))) : W5 W2 c b = W4 W2 c b := by
  unfold W5
  refine withArrays_of_not_arr spec3 c _ _ b fun w e => ?_
  subst e
  match w with
  | ⟨0, _⟩ => exact hb v5_1_mem
  | ⟨1, _⟩ => exact hb v5_0_mem
  | ⟨2, _⟩ => exact hb v6_mem

/-- Every buffer that is no kernel's result array is, after the three kernels, as the first one found it. -/
theorem W5_of_W2 (c : Dev nD) (b : DevRef τ sig)
    (hb : b ∉ ({Proc.devRef .tc main_v4, Proc.devRef .tc main_v5_0, Proc.devRef .tc main_v5_1, Proc.devRef .tc main_v6} : Finset (DevRef τ sig))) :
    W5 W2 c b = W2 c b :=
  (W5_of_W4 W2 c b hb).trans ((W4_of_W3 W2 c b hb).trans (W3_of_W2 W2 c b hb))

/-! ## The proof data family -/

/-- The prefetched tables' admissible contents: no pipeline has a table. -/
abbrev adm : (p : Fin 3) → (pcfgs (F := F) p).Adm := fun p => (cfgs p).toPCfg_adm
/-- Every pipeline's proof data, each at the contents its kernel is entered at. -/
def pdats : (p : Fin 3) → (c : Dev nD) → Dat τ (Elt F) (HIx 1) ℕ UU ℕ (Pipeline.pin (pcfgs (F := F)) adm p) c
  | ⟨0, _⟩ => fun c => dat1 (V2 W2) (Rc (F := F) c) c
  | ⟨1, _⟩ => fun c => dat2 (V3 W2) (Rc (F := F) c) c
  | ⟨2, _⟩ => fun c => dat3 (V4 W2) (Rc (F := F) c) c

/-- What the TensorCore holds at a boundary: every unscoped buffer at the boundary's contents, the register, the owes. -/
abbrev St (W : Dev nD → Valuation τ sig (Elt F)) (c : Dev nD) : sProp (MM F) :=
  iprop(StableHlo.held (c : Thread nD τ) (Pipeline.ucRefs τ sig) (W c) ∗ Rr c)

/-! ## The kernels as segments -/

-- the library's lemmas are stated over the pinned configuration ‹pin pcfgs adm p›, which unifies with the printed
-- one only when unification may unfold plain definitions in a metavariable's type
set_option backward.isDefEq.respectTransparency.types false in
/-- THE FIRST KERNEL, entered at W2 and left at W3. Its four arrays come out of the unscoped buffers and go back at
    what the pipeline leaves; the generator register goes into its invariant and comes back; the owes goes in at the
    widened bound and comes back within the bound; the other unscoped buffers pass by. No semaphore of its own. -/
def reg1 : Pipeline.RegionSeg (pcfgs (F := F)) adm (pdats W2) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 (V2 W2) (Rc (F := F) c) c).loose
  hwaits := Pipeline.hwaits_of_owed_zero _ _ _ _ (K (F := F)).L (K (F := F)).lev 0 fun c t => owed1 (V2 W2) (Rc (F := F) c) c t
  pre := St W2
  post := St (W3 W2)
  X c := iprop(∃ r, prngReg c r)
  Y c := iprop(∃ r, prngReg c r)
  Z c := Pipeline.unscopedRest (Ix := HIx 1) (Name := ℕ) (U := UU) (Lvl := ℕ) spec1 c (V2 W2 c)
  hentry c := by
    rw [Pipeline.ownSems0_none, prefHeld_emp]
    have hsplit := Pipeline.arrays_of_unscopedBufs (p := 0) (pcfgs (F := F)) adm (pdats W2) launch1.win launch1.arr_whole c
      (share1 (V2 W2) (Rc (F := F) c) c) (V2 W2 c) (A_eq1 (V2 W2) (Rc (F := F) c) c)
    rw [Pipeline.unscopedBufs_held] at hsplit
    have hO : (Pipeline.owesWithin c 0 (Rc (F := F) c) : sProp (MM F)) ⊢ (pdats W2 0 c).owesAt (none : HIx 1) 0 := by
      unfold Pipeline.Dat.owesAt Pipeline.Dat.bound
      rw [show (pdats W2 0 c).owed 0 = 0 from owed1 _ _ c 0, show (pdats W2 0 c).recorded 0 = Rc (F := F) c from recorded1 _ _ c 0]
      exact owes_in c _
    unfold St Rr
    iintro ⟨⟨Hbufs, Hprng, Howes⟩, -, -⟩
    ihave Hs := hsplit $$ Hbufs
    icases Hs with ⟨Harr, Hrest⟩
    imodintro
    isplitl [Harr]; · iexact Harr
    isplitr; · iempintro
    isplitl [Howes]; · iapply hO; iexact Howes
    isplitl [Hprng]; · iexact Hprng
    iexact Hrest
  hin c := by
    rw [prefHeld_emp, show (pdats W2 0 c).Φ 0 = Φ1 c from Φ1_first (V2 W2) (Rc (F := F) c) c]; unfold Φ1
    iintro ⟨Hprng, -, Hsc⟩
    isplitl [Hsc]; · iexact Hsc
    iexact Hprng
  hout c := by
    rw [Pipeline.ownSems0_none, show (pdats W2 0 c).Φ (Fin.last _) = Φ1 c from Φ1_last (V2 W2) (Rc (F := F) c) c]; unfold Φ1
    iintro ⟨Hsc, Hprng⟩
    isplitl [Hprng]; · iexact Hprng
    isplitr; · iempintro
    iexact Hsc
  hexit c := by
    have hjoin := Pipeline.unscopedBufs_of_arrays (p := 0) (pcfgs (F := F)) adm (Ix := HIx 1) (Name := ℕ) (U := UU) (Lvl := ℕ)
      launch1.win launch1.arr_whole c (pdats W2) (share1 (V2 W2) (Rc (F := F) c) c)
      (V2 W2 c) (V3 W2 c) ((pdats W2 0 c).arrAt · cfg1.N) (hF1 W2 c) (hrest1 W2 c)
    rw [Pipeline.unscopedBufs_held] at hjoin
    have hO : (pdats W2 0 c).owesAt (none : HIx 1) (Fin.last _) ⊢ (Pipeline.owesWithin c 0 (Rc (F := F) c) : sProp (MM F)) := by
      unfold Pipeline.Dat.owesAt Pipeline.Dat.bound
      rw [show (pdats W2 0 c).owed (Fin.last _) = 0 from owed1 _ _ c _, show (pdats W2 0 c).recorded (Fin.last _) = Rc (F := F) c from recorded1 _ _ c _]
      exact owes_out cfg1 c
    unfold St Rr
    iintro ⟨Harr, Howes, Hprng, Hrest⟩
    imodintro
    isplitl [Harr Hrest]
    · iapply hjoin; isplitl [Harr] <;> iassumption
    isplitl [Hprng]; · iexact Hprng
    iapply hO; iexact Howes

set_option backward.isDefEq.respectTransparency.types false in
/-- THE SECOND KERNEL, entered at W3 and left at W4. Its five arrays come out of the unscoped buffers and go back at
    what the pipeline leaves; its invariant is made of the scoped buffers alone, so nothing else enters it: the
    generator register passes by with the other unscoped buffers; the owes as before. No semaphore of its own. -/
def reg2 : Pipeline.RegionSeg (pcfgs (F := F)) adm (pdats W2) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obligation2_of (V3 W2) (Rc (F := F) c) maskIndep c
  hwaits := Pipeline.hwaits_of_owed_zero _ _ _ _ (K (F := F)).L (K (F := F)).lev 1 fun c t => owed2 (V3 W2) (Rc (F := F) c) c t
  pre := St (W3 W2)
  post := St (W4 W2)
  X _ := iprop(emp)
  Y _ := iprop(emp)
  Z c := iprop(Pipeline.unscopedRest (Ix := HIx 1) (Name := ℕ) (U := UU) (Lvl := ℕ) spec2 c (V3 W2 c) ∗ ∃ r, prngReg c r)
  hentry c := by
    rw [Pipeline.ownSems0_none, prefHeld_emp]
    have hsplit := Pipeline.arrays_of_unscopedBufs (p := 1) (pcfgs (F := F)) adm (pdats W2) launch2.win launch2.arr_whole c
      ((pdats W2 1 c).share_full (q2 (V3 W2) (Rc (F := F) c) c)) (V3 W2 c) (A_eq2 (V3 W2) (Rc (F := F) c) c)
    rw [Pipeline.unscopedBufs_held] at hsplit
    have hO : (Pipeline.owesWithin c 0 (Rc (F := F) c) : sProp (MM F)) ⊢ (pdats W2 1 c).owesAt (none : HIx 1) 0 := by
      unfold Pipeline.Dat.owesAt Pipeline.Dat.bound
      rw [show (pdats W2 1 c).owed 0 = 0 from owed2 _ _ c 0, show (pdats W2 1 c).recorded 0 = Rc (F := F) c from recorded2 _ _ c 0]
      exact owes_in c _
    unfold St Rr
    iintro ⟨⟨Hbufs, Hprng, Howes⟩, -, -⟩
    ihave Hs := hsplit $$ Hbufs
    icases Hs with ⟨Harr, Hrest⟩
    imodintro
    isplitl [Harr]; · iexact Harr
    isplitr; · iempintro
    isplitl [Howes]; · iapply hO; iexact Howes
    isplitr; · iempintro
    isplitl [Hrest]; · iexact Hrest
    iexact Hprng
  hin c := by
    rw [prefHeld_emp]
    refine BIBase.Entails.trans ?_ (phi2_in (V3 W2) (Rc (F := F) c) c)
    iintro ⟨-, -, Hsc⟩; iexact Hsc
  hout c := by
    rw [Pipeline.ownSems0_none]
    refine (phi2_out (V3 W2) (Rc (F := F) c) c).trans ?_
    iintro Hsc
    isplitr; · iempintro
    isplitr; · iempintro
    iexact Hsc
  hexit c := by
    have hjoin := Pipeline.unscopedBufs_of_arrays (p := 1) (pcfgs (F := F)) adm (Ix := HIx 1) (Name := ℕ) (U := UU) (Lvl := ℕ)
      launch2.win launch2.arr_whole c (pdats W2) ((pdats W2 1 c).share_full (q2 (V3 W2) (Rc (F := F) c) c))
      (V3 W2 c) (V4 W2 c) ((pdats W2 1 c).arrAt · cfg2.N) (hF2 W2 c) (hrest2 W2 c)
    rw [Pipeline.unscopedBufs_held] at hjoin
    have hO : (pdats W2 1 c).owesAt (none : HIx 1) (Fin.last _) ⊢ (Pipeline.owesWithin c 0 (Rc (F := F) c) : sProp (MM F)) := by
      unfold Pipeline.Dat.owesAt Pipeline.Dat.bound
      rw [show (pdats W2 1 c).owed (Fin.last _) = 0 from owed2 _ _ c _, show (pdats W2 1 c).recorded (Fin.last _) = Rc (F := F) c from recorded2 _ _ c _]
      exact owes_out cfg2 c
    unfold St Rr
    iintro ⟨Harr, Howes, -, Hrest, Hprng⟩
    imodintro
    isplitl [Harr Hrest]
    · iapply hjoin; isplitl [Harr] <;> iassumption
    isplitl [Hprng]; · iexact Hprng
    iapply hO; iexact Howes

set_option backward.isDefEq.respectTransparency.types false in
/-- THE THIRD KERNEL, entered at W4 and left at W5: as the first, over its three arrays. -/
def reg3 : Pipeline.RegionSeg (pcfgs (F := F)) adm (pdats W2) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := body_obligation3 (V4 W2) (Rc (F := F) c) c
  hwaits := Pipeline.hwaits_of_owed_zero _ _ _ _ (K (F := F)).L (K (F := F)).lev 2 fun c t => owed3 (V4 W2) (Rc (F := F) c) c t
  pre := St (W4 W2)
  post := St (W5 W2)
  X c := iprop(∃ r, prngReg c r)
  Y c := iprop(∃ r, prngReg c r)
  Z c := Pipeline.unscopedRest (Ix := HIx 1) (Name := ℕ) (U := UU) (Lvl := ℕ) spec3 c (V4 W2 c)
  hentry c := by
    rw [Pipeline.ownSems0_none, prefHeld_emp]
    have hsplit := Pipeline.arrays_of_unscopedBufs (p := 2) (pcfgs (F := F)) adm (pdats W2) launch3.win launch3.arr_whole c
      ((pdats W2 2 c).share_full (q3 (V4 W2) (Rc (F := F) c) c)) (V4 W2 c) (A_eq3 (V4 W2) (Rc (F := F) c) c)
    rw [Pipeline.unscopedBufs_held] at hsplit
    have hO : (Pipeline.owesWithin c 0 (Rc (F := F) c) : sProp (MM F)) ⊢ (pdats W2 2 c).owesAt (none : HIx 1) 0 := by
      unfold Pipeline.Dat.owesAt Pipeline.Dat.bound
      rw [show (pdats W2 2 c).owed 0 = 0 from owed3 _ _ c 0, show (pdats W2 2 c).recorded 0 = Rc (F := F) c from recorded3 _ _ c 0]
      exact owes_in c _
    unfold St Rr
    iintro ⟨⟨Hbufs, Hprng, Howes⟩, -, -⟩
    ihave Hs := hsplit $$ Hbufs
    icases Hs with ⟨Harr, Hrest⟩
    imodintro
    isplitl [Harr]; · iexact Harr
    isplitr; · iempintro
    isplitl [Howes]; · iapply hO; iexact Howes
    isplitl [Hprng]; · iexact Hprng
    iexact Hrest
  hin c := by
    rw [prefHeld_emp, show (pdats W2 2 c).Φ 0 = Φ3 c from Φ3_first (V4 W2) (Rc (F := F) c) c]; unfold Φ3
    iintro ⟨Hprng, -, Hsc⟩
    isplitl [Hsc]; · iexact Hsc
    iexact Hprng
  hout c := by
    rw [Pipeline.ownSems0_none, show (pdats W2 2 c).Φ (Fin.last _) = Φ3 c from Φ3_last (V4 W2) (Rc (F := F) c) c]; unfold Φ3
    iintro ⟨Hsc, Hprng⟩
    isplitl [Hprng]; · iexact Hprng
    isplitr; · iempintro
    iexact Hsc
  hexit c := by
    have hjoin := Pipeline.unscopedBufs_of_arrays (p := 2) (pcfgs (F := F)) adm (Ix := HIx 1) (Name := ℕ) (U := UU) (Lvl := ℕ)
      launch3.win launch3.arr_whole c (pdats W2) ((pdats W2 2 c).share_full (q3 (V4 W2) (Rc (F := F) c) c))
      (V4 W2 c) (V5 W2 c) ((pdats W2 2 c).arrAt · cfg3.N) (hF3 W2 c) (hrest3 W2 c)
    rw [Pipeline.unscopedBufs_held] at hjoin
    have hO : (pdats W2 2 c).owesAt (none : HIx 1) (Fin.last _) ⊢ (Pipeline.owesWithin c 0 (Rc (F := F) c) : sProp (MM F)) := by
      unfold Pipeline.Dat.owesAt Pipeline.Dat.bound
      rw [show (pdats W2 2 c).owed (Fin.last _) = 0 from owed3 _ _ c _, show (pdats W2 2 c).recorded (Fin.last _) = Rc (F := F) c from recorded3 _ _ c _]
      exact owes_out cfg3 c
    unfold St Rr
    iintro ⟨Harr, Howes, Hprng, Hrest⟩
    imodintro
    isplitl [Harr Hrest]
    · iapply hjoin; isplitl [Harr] <;> iassumption
    isplitl [Hprng]; · iexact Hprng
    iapply hO; iexact Howes

/-! ## The three kernels in order -/

/-- The segments' run is the three custom calls and the return. -/
theorem segs_run :
    Pipeline.Seg.run [.region (reg1 W2), .region (reg2 W2), .region (reg3 W2)]
      = .op (.customCall (Pipeline.entry 0) ()) fun _ => .op (.customCall (Pipeline.entry 1) ()) fun _ =>
          .op (.customCall (Pipeline.entry 2) ()) fun _ => .ret ⟨⟩ := rfl

set_option backward.isDefEq.respectTransparency.types false in
/-- THE RUN of the three kernels on the TensorCore: from the boundary, every unscoped buffer at W2 beside the register
    and the owes, the level facts and the three pipelines' ghost state, the three custom calls in order run to the
    boundary and every unscoped buffer at W5 beside the register and the owes, for the continuation. Each pipeline
    is entered once; each segment is entered from what the one before it left. -/
theorem wp_regions (c : Dev nD) (Q : PUnit → sProp (MM F)) :
    iprop((iprop(boundary (c.tc : Thread nD τ) ∗ StableHlo.held (c : Thread nD τ) (Pipeline.ucRefs τ sig) (W5 W2 c) ∗ Rr c) -∗ Q ⟨⟩)
        ∗ boundary (c.tc : Thread nD τ)
        ∗ (StableHlo.held (c : Thread nD τ) (Pipeline.ucRefs τ sig) (W2 c) ∗ Rr c)
        ∗ levAts (K (F := F)).L (K (F := F)).lev
        ∗ Pipeline.ghostOn (pcfgs (F := F)) adm EP Finset.univ c)
      ⊢ wp frame (wpE (D (F := F)) 𝒱 (c.tc : Thread nD τ) none) Set.univ
          (Pipeline.Seg.run [.region (reg1 W2), .region (reg2 W2), .region (reg3 W2)]) Q :=
  Pipeline.wp_segs (pcfgs (F := F)) adm (pdats W2) (none : HIx 1) cellOf_inj EP defs₀ 𝒱₀ (K (F := F)).L (K (F := F)).lev c
    [.region (reg1 W2), .region (reg2 W2), .region (reg3 W2)] Finset.univ (St W2) (St (W5 W2))
    (by simp only [Pipeline.Seg.pipes_region, Pipeline.Seg.pipes_nil]; decide)
    (fun p _ => Finset.mem_univ p)
    ⟨fun _ => .rfl, fun _ => .rfl, fun _ => .rfl, fun _ => .rfl⟩

/-- The same, the program written out: the three custom calls and the return. -/
theorem wp_regions_run (c : Dev nD) (Q : PUnit → sProp (MM F)) :
    iprop((iprop(boundary (c.tc : Thread nD τ) ∗ StableHlo.held (c : Thread nD τ) (Pipeline.ucRefs τ sig) (W5 W2 c) ∗ Rr c) -∗ Q ⟨⟩)
        ∗ boundary (c.tc : Thread nD τ)
        ∗ (StableHlo.held (c : Thread nD τ) (Pipeline.ucRefs τ sig) (W2 c) ∗ Rr c)
        ∗ levAts (K (F := F)).L (K (F := F)).lev
        ∗ Pipeline.ghostOn (pcfgs (F := F)) adm EP Finset.univ c)
      ⊢ wp frame (wpE (D (F := F)) 𝒱 (c.tc : Thread nD τ) none) Set.univ
          (.op (.customCall (Pipeline.entry 0) ()) fun _ => .op (.customCall (Pipeline.entry 1) ()) fun _ =>
            .op (.customCall (Pipeline.entry 2) ()) fun _ => .ret ⟨⟩) Q := by
  rw [← segs_run W2]; exact wp_regions W2 c Q

end Cert.Kernel.Regions

end
-- ==== Proof.LaunchK.lean ====
/-
  The launch of the whole program: the TensorCore's @main — three host operations, the SparseCore call,
  three pipelined regions, a final transpose — against the SparseCore launch theorem.
-/
import proofs.«207593_g36137854828637_cont_8to1_b_1462_19_alg».proof.Proof.CommonK
import proofs.«207593_g36137854828637_cont_8to1_b_1462_19_alg».proof.Proof.ScTileK
import proofs.«207593_g36137854828637_cont_8to1_b_1462_19_alg».proof.Proof.LaunchElemK
import proofs.«207593_g36137854828637_cont_8to1_b_1462_19_alg».proof.Proof.RegionsK
import Idealize.ShloMosaic.Lib.Pipeline.RegionsLoop
import Idealize.ShloMosaic.Lib.Tactic

noncomputable section

namespace Cert.Kernel.Launch

open Cert.Kernel Cert.Kernel.Gen Cert.Kernel.Common Cert.Kernel.ScTile Cert.Kernel.LaunchElem
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.StableHlo (held wp_hlo_within)
open Cert.Kernel.Regions (Rc Rr)

variable {F : FTy → Type} [FloatOps F]

variable (m : (ℓ : Loc nD τ sig) → Buf (Elt F) ℓ) (ρ : Dev nD → PrngReg)

/-! ## The TensorCore's buffer contents at each boundary of @main -/

/-- The three host operations before the SparseCore call. -/
abbrev op0 : HloOp τ sig (Elt F) := StableHlo.reshape main_arg3 main_v0 rfl shapeCasts_S512_S1x512
abbrev op1 : HloOp τ sig (Elt F) := StableHlo.unary main_arg4 main_v1 ((transpose S100000x512 [1, 0] · transposes_S512x100000_S100000x512_1_0) : (⟨S512x100000, .f32⟩ : BufTy).Contents (Elt F) → (⟨S100000x512, .f32⟩ : BufTy).Contents (Elt F))
abbrev op2 : HloOp τ sig (Elt F) := StableHlo.reshape main_arg5 main_v2 rfl shapeCasts_S100000_S100000x1
/-- The transpose after the regions. -/
abbrev op3 : HloOp τ sig (Elt F) := StableHlo.unary main_v6 main_v7 ((transpose S1024x100000 [1, 0] · transposes_S100000x1024_S1024x100000_1_0) : (⟨S100000x1024, .f32⟩ : BufTy).Contents (Elt F) → (⟨S1024x100000, .f32⟩ : BufTy).Contents (Elt F))

abbrev a0' : DevRef τ sig := Proc.devRef .tc (main_arg0 : Ref sig .tc)
abbrev a1' : DevRef τ sig := Proc.devRef .tc (main_arg1 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v6' : DevRef τ sig := Proc.devRef .tc (main_v6 : Ref sig .tc)
abbrev v7' : DevRef τ sig := Proc.devRef .tc (main_v7 : Ref sig .tc)

/-- Each host operation touches unscoped TensorCore buffers only. -/
theorem op0_sub : (op0 (F := F)).bufs ⊆ Pipeline.ucRefs τ sig := by
  intro b hb
  have : b = a3' ∨ b = v0' := by simpa [op0, StableHlo.reshape, StableHlo.unary, HloOp.bufs] using hb
  rcases this with rfl | rfl <;> decide
theorem op1_sub : (op1 (F := F)).bufs ⊆ Pipeline.ucRefs τ sig := by
  intro b hb
  have : b = a4' ∨ b = v1' := by simpa [op1, StableHlo.unary, HloOp.bufs] using hb
  rcases this with rfl | rfl <;> decide
theorem op2_sub : (op2 (F := F)).bufs ⊆ Pipeline.ucRefs τ sig := by
  intro b hb
  have : b = a5' ∨ b = v2' := by simpa [op2, StableHlo.reshape, StableHlo.unary, HloOp.bufs] using hb
  rcases this with rfl | rfl <;> decide
theorem op3_sub : (op3 (F := F)).bufs ⊆ Pipeline.ucRefs τ sig := by
  intro b hb
  have : b = v6' ∨ b = v7' := by simpa [op3, StableHlo.unary, HloOp.bufs] using hb
  rcases this with rfl | rfl <;> decide

/-- At the launch. -/
abbrev W0 (d : Dev nD) : Valuation τ sig (Elt F) := fun b => m (d, b)
/-- After the three host operations. -/
abbrev W1 (d : Dev nD) : Valuation τ sig (Elt F) := (op2 (F := F)).result ((op1 (F := F)).result ((op0 (F := F)).result (W0 m d)))
/-- After the SparseCore call: the pooled embeddings in place. -/
def W2 (d : Dev nD) : Valuation τ sig (Elt F) := Function.update (W1 m d) v3' (poolVal d (m (a0Loc d)) (m (a1Loc d)))

/-- The SparseCore call's three arrays. -/
abbrev S3 : Finset (DevRef τ sig) := {a0', a1', v3'}
theorem S3_sub : (S3 : Finset (DevRef τ sig)) ⊆ Pipeline.ucRefs τ sig := by decide

theorem held_S3 (d : Dev nD) (W : Valuation τ sig (Elt F)) :
    (held (SparseCore.T d) S3 W : sProp (MM F)) = iprop((a0Loc d ↦{fullShare} W a0') ∗ (a1Loc d ↦{fullShare} W a1') ∗ v3Loc d ↦{fullShare} W v3') := by
  unfold held S3
  rw [SparseCore.bigSep_insert' (by decide), SparseCore.bigSep_insert' (by decide), bigSep_singleton]

theorem W1_a0 (d : Dev nD) : W1 m d a0' = m (a0Loc d) := by
  show (op2 (F := F)).result _ a0' = _
  rw [(op2 (F := F)).result_of_not_mem _ (b := a0') (show a0' ∉ ({v2'} : Finset (DevRef τ sig)) by decide),
    (op1 (F := F)).result_of_not_mem _ (b := a0') (show a0' ∉ ({v1'} : Finset (DevRef τ sig)) by decide),
    (op0 (F := F)).result_of_not_mem _ (b := a0') (show a0' ∉ ({v0'} : Finset (DevRef τ sig)) by decide)]
theorem W1_a1 (d : Dev nD) : W1 m d a1' = m (a1Loc d) := by
  show (op2 (F := F)).result _ a1' = _
  rw [(op2 (F := F)).result_of_not_mem _ (b := a1') (show a1' ∉ ({v2'} : Finset (DevRef τ sig)) by decide),
    (op1 (F := F)).result_of_not_mem _ (b := a1') (show a1' ∉ ({v1'} : Finset (DevRef τ sig)) by decide),
    (op0 (F := F)).result_of_not_mem _ (b := a1') (show a1' ∉ ({v0'} : Finset (DevRef τ sig)) by decide)]

theorem W2_a0 (d : Dev nD) : W2 m d a0' = m (a0Loc d) := (Function.update_of_ne (show a0' ≠ v3' by decide) _ _).trans (W1_a0 m d)
theorem W2_a1 (d : Dev nD) : W2 m d a1' = m (a1Loc d) := (Function.update_of_ne (show a1' ≠ v3' by decide) _ _).trans (W1_a1 m d)
theorem W2_v3 (d : Dev nD) : W2 m d v3' = poolVal d (m (a0Loc d)) (m (a1Loc d)) := Function.update_self _ _ _
theorem held_rest_W2 (d : Dev nD) :
    (held (SparseCore.T d) (Pipeline.ucRefs τ sig \ S3) (W2 m d) : sProp (MM F)) = held (SparseCore.T d) (Pipeline.ucRefs τ sig \ S3) (W1 m d) :=
  StableHlo.held_congr (SparseCore.T d) fun b hb => Function.update_of_ne (fun e => by
    subst e; exact (Finset.mem_sdiff.mp hb).2 (by decide)) _ _

/-! ## What rides through the regions beside the buffers -/

theorem Rr_intro (d : Dev nD) (r : PrngReg) (W : Waits sig (HIx 1)) (hW : (K (F := F)).WBelow (SparseCore.T d) W 8) :
    iprop(prngReg d r ∗ owes (SparseCore.T d) (0 : CellTallies nD τ sig (HIx 1)) W) ⊢ (Rr (F := F) d : sProp (MM F)) := by
  unfold Regions.Rr Pipeline.owesWithin
  iintro ⟨Hp, HO⟩
  isplitl [Hp]; · iexists r; iexact Hp
  iexists W
  isplitr; · ipureintro; exact fun p hp => hW p hp
  iexact HO

theorem Rr_elim (d : Dev nD) :
    (Rr (F := F) d : sProp (MM F)) ⊢ iprop((∃ r, prngReg d r) ∗ ∃ W, ⌜(K (F := F)).WBelow (SparseCore.T d) W 8⌝ ∗ owes (SparseCore.T d) (0 : CellTallies nD τ sig (HIx 1)) W) := by
  unfold Regions.Rr Pipeline.owesWithin
  iintro ⟨Hp, ⟨%W, %hW, HO⟩⟩
  isplitl [Hp]; · iexact Hp
  iexists W
  isplitr; · ipureintro; exact fun p hp => hW hp
  iexact HO

/-- After the three regions. -/
abbrev W5 (d : Dev nD) : Valuation τ sig (Elt F) := Regions.W5 (W2 m) d

/-- After the final transpose. -/
abbrev W6 (d : Dev nD) : Valuation τ sig (Elt F) := (op3 (F := F)).result (W5 m d)

/-- What @main leaves the claim: every unscoped TensorCore buffer at its final contents. -/
def FIN (d : Dev nD) : sProp (MM F) := held (SparseCore.T d) (Pipeline.ucRefs τ sig) (W6 m d)

/-- The three regions, run in order: the segments' run, lifted to the SparseCore launch's body table. -/
theorem regionsStep (d : Dev nD) (Ψ : sProp (MM F)) :
  iprop((iprop(boundary (SparseCore.T d) ∗ held (SparseCore.T d) (Pipeline.ucRefs τ sig) (W5 m d) ∗ Rr (F := F) d) -∗ Ψ)
      ∗ boundary (SparseCore.T d) ∗ (held (SparseCore.T d) (Pipeline.ucRefs τ sig) (W2 m d) ∗ Rr (F := F) d) ∗ levAts (K (F := F)).L (K (F := F)).lev
      ∗ G (F := F) d)
    ⊢ wp frame (wpE ((K (F := F)).defs (D (F := F))) 𝒱 (SparseCore.T d) none) Set.univ (Prog.lift (TpuEff.customCall (SparseCore.inner (Pipeline.entry 0)) ()))
        fun _ => wp frame (wpE ((K (F := F)).defs (D (F := F))) 𝒱 (SparseCore.T d) none) Set.univ (Prog.lift (TpuEff.customCall (SparseCore.inner (Pipeline.entry 1)) ()))
          fun _ => wp frame (wpE ((K (F := F)).defs (D (F := F))) 𝒱 (SparseCore.T d) none) Set.univ (Prog.lift (TpuEff.customCall (SparseCore.inner (Pipeline.entry 2)) ()))
            fun _ => Ψ := by
  refine (Regions.wp_regions_run (W2 m) d (fun _ => Ψ)).trans ?_
  refine ((K (F := F)).wp_liftProg (D (F := F)) 𝒱 (SparseCore.T d) Set.univ none _ (fun _ => Ψ)).trans ?_
  show wp frame (wpE ((K (F := F)).defs (D (F := F))) 𝒱 (SparseCore.T d) none) Set.univ
      ((Prog.lift (TpuEff.customCall (SparseCore.inner (Pipeline.entry 0)) ())) >>= fun _ =>
        (Prog.lift (TpuEff.customCall (SparseCore.inner (Pipeline.entry 1)) ())) >>= fun _ =>
          Prog.lift (TpuEff.customCall (SparseCore.inner (Pipeline.entry 2)) ())) (fun _ => Ψ) ⊢ _
  rw [wp_bind, wp_bind]

theorem hmain (hidx : IdxOK m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = StableHlo.held (SparseCore.T d) (Pipeline.ucRefs τ sig) (W0 m d)
        from Pipeline.unscopedBufs_held d (W0 m d)]
  simp only [main, wp_bind, wp_pure]
  iintro ⟨#Hctx, Hst, ⟨Hb, Hheld, Hsems, Hp⟩, HG⟩
  -- the three host operations
  iapply (wp_hlo_within 𝒱 (SparseCore.T d) none Set.univ (op := op0 (F := F)) (S := Pipeline.ucRefs τ sig) op0_sub (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := Pipeline.ucRefs τ sig) op1_sub (V := (op0 (F := F)).result (W0 m d))) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := Pipeline.ucRefs τ sig) op2_sub (V := (op1 (F := F)).result ((op0 (F := F)).result (W0 m d)))) $$ [Hb Hheld]
  · isplitl [Hb]; · iexact Hb
    iexact Hheld
  iintro ⟨Hb, Hheld⟩
  rw [wp_ret]; imodintro
  -- the SparseCore call: the index array, the table and the result array out of the held buffers, and back
  ihave Hsp := (Entails.of_eq (StableHlo.held_sub_split (SparseCore.T d) S3_sub (W1 m d))) $$ Hheld
  icases Hsp with ⟨H3, Hrest⟩
  ihave H3' := (Entails.of_eq (held_S3 d (W1 m d))) $$ H3
  icases H3' with ⟨Ha0, Ha1, Hv3⟩
  iapply ((K (F := F)).wp_run (D (F := F)) 𝒱 (EH := EH) (P := P m) κ d 0) $$ [Hst Ha0 Ha1 Hv3 Hb Hrest Hsems Hp HG]
  isplitr; · iexact Hctx
  isplitl [Hst]; · iexact Hst
  isplitl [Ha0 Ha1 Hv3]
  · rw [st0_eq, W1_a0, W1_a1]
    isplitl [Ha0]; · iexact Ha0
    isplitl [Ha1]; · iexact Ha1
    iexists _; iexact Hv3
  iintro ⟨Hst, Hdn⟩
  ihave Hdn' := (Entails.of_eq (dn0_eq m d)) $$ Hdn
  icases Hdn' with ⟨Ha0, Ha1, Hv3⟩
  -- the buffers again, the result array at the pooled embeddings
  ihave Hheld := (Entails.of_eq (StableHlo.held_sub_split (SparseCore.T d) S3_sub (W2 m d)).symm) $$ [Ha0 Ha1 Hv3 Hrest]
  · isplitl [Ha0 Ha1 Hv3]
    · rw [held_S3, W2_a0, W2_a1, W2_v3]
      isplitl [Ha0]; · iexact Ha0
      isplitl [Ha1]; · iexact Ha1
      iexact Hv3
    · rw [held_rest_W2]; iexact Hrest
  -- the core's owes out of its handshake state
  unfold SparseCore.Cfg.tcSt
  icases Hst with ⟨⟨%W, %hW, HO⟩, Hst'⟩
  ihave HO := (Entails.of_eq (congrArg (fun O => owes (SparseCore.T d) O W) ((K (F := F)).Otc_end d (n := (0 : Fin 1).val + 1) (le_refl _)))) $$ HO
  ihave HR := (Rr_intro (F := F) d (ρ d) W hW) $$ [Hp HO]
  · isplitl [Hp]; · iexact Hp
    iexact HO
  ihave Hlev := ((K (F := F)).ctx_levAts (EH := EH) (P := P m) κ) $$ Hctx
  -- the three regions
  iapply (regionsStep m d _) $$ [Hb Hheld HR Hlev HG Hst' Hsems]
  isplitl [Hst' Hsems]
  · iintro ⟨Hb, Hheld, HR⟩
    -- the final transpose
    iapply (wp_hlo_within 𝒱 (SparseCore.T d) none Set.univ (op := op3 (F := F)) (S := Pipeline.ucRefs τ sig) op3_sub (V := W5 m d)) $$ [Hb Hheld]
    · isplitl [Hb]; · iexact Hb
      iexact Hheld
    iintro ⟨Hb, Hheld⟩
    rw [wp_ret]; imodintro; imodintro
    ihave HR' := (Rr_elim (F := F) d) $$ HR
    icases HR' with ⟨-, ⟨%W', %hW', HO⟩⟩
    isplitl [HO Hst']
    · isplitl [HO]
      · iexists W'
        isplitr; · ipureintro; exact hW'
        rw [(K (F := F)).Otc_end d (n := 1) (le_refl _)]; iexact HO
      · iexact Hst'
    · unfold FIN; iexact Hheld
  isplitl [Hb]; · iexact Hb
  isplitl [Hheld HR]
  · isplitl [Hheld]; · iexact Hheld
    iexact HR
  isplitl [Hlev]; · iexact Hlev
  iexact HG

/-! ## The argument arrays end as launched -/

theorem W1_of_not (d : Dev nD) (b : DevRef τ sig) (hb : b ∉ ({v0', v1', v2'} : Finset (DevRef τ sig))) : W1 m d b = m (d, b) := by
  have h0 : b ∉ ({v0'} : Finset (DevRef τ sig)) := fun h => hb (by simp only [Finset.mem_insert, Finset.mem_singleton] at h ⊢; exact Or.inl h)
  have h1 : b ∉ ({v1'} : Finset (DevRef τ sig)) := fun h => hb (by simp only [Finset.mem_insert, Finset.mem_singleton] at h ⊢; exact Or.inr (Or.inl h))
  have h2 : b ∉ ({v2'} : Finset (DevRef τ sig)) := fun h => hb (by simp only [Finset.mem_insert, Finset.mem_singleton] at h ⊢; exact Or.inr (Or.inr h))
  show (op2 (F := F)).result _ b = _
  rw [(op2 (F := F)).result_of_not_mem _ (b := b) h2, (op1 (F := F)).result_of_not_mem _ (b := b) h1, (op0 (F := F)).result_of_not_mem _ (b := b) h0]

theorem W2_of_ne (d : Dev nD) (b : DevRef τ sig) (hb : b ≠ v3') : W2 m d b = W1 m d b := Function.update_of_ne hb _ _

theorem W6_of_ne (d : Dev nD) (b : DevRef τ sig) (hb : b ∉ ({v7'} : Finset (DevRef τ sig))) : W6 m d b = W5 m d b :=
  (op3 (F := F)).result_of_not_mem _ (b := b) hb

/-- The regions' output arrays. -/
abbrev outs : Finset (DevRef τ sig) := {Proc.devRef .tc (main_v4 : Ref sig .tc), Proc.devRef .tc (main_v5_0 : Ref sig .tc), Proc.devRef .tc (main_v5_1 : Ref sig .tc), v6'}

/-- A buffer no host operation, call or region writes ends as launched. -/
theorem W6_kept (d : Dev nD) (b : DevRef τ sig)
    (h7 : b ∉ ({v7'} : Finset (DevRef τ sig))) (ho : b ∉ (outs : Finset (DevRef τ sig))) (h3 : b ≠ v3') (h012 : b ∉ ({v0', v1', v2'} : Finset (DevRef τ sig))) :
    W6 m d b = m (d, b) := by
  rw [W6_of_ne m d b h7, show W5 m d b = W2 m d b from Regions.W5_of_W2 (W2 m) d b ho, W2_of_ne m d b h3, W1_of_not m d b h012]

def fq (d : Dev nD) (s' : Phys nD τ sig (Elt F)) : Prop := ∀ b ∈ Pipeline.ucRefs τ sig, s'.mem.mem (d, b) = W6 m d b

theorem hfin (d : Dev nD) (s' : Phys nD τ sig (Elt F)) : iprop(FIN m d ∗ SI s') ⊢ (⌜fq m d s'⌝ : sProp (MM F)) := by
  unfold FIN StableHlo.held
  iintro ⟨Hh, HSI⟩
  ihave H := (pointsTo_read_all (Pipeline.ucRefs τ sig) (fun b => ((SparseCore.T d).1, b)) (W6 m d) s') $$ [Hh HSI]
  · isplitl [Hh] <;> iassumption
  icases H with ⟨%h, -⟩
  ipureintro; exact h

theorem run_main [∀ e, Nonempty (Elt F e)] (hidx : IdxOK m) :
    θ_run (Cert.Kernel.defs (F := F)) (Cert.Kernel.threads (F := F)) ⟨m, fun _ => 0, ρ⟩ (fun r => ∀ d : Dev nD, ∀ b ∈ Pipeline.ucRefs τ sig, r.2.mem (d, b) = W6 m d b) :=
  SparseCore.Cfg.θ_run_sc (K := K (F := F)) (D := D (F := F)) (𝒱 := 𝒱) (EH := EH) (P := P m) facts v₀
    (fun q hq => match q with | 0 => nomatch hq)
    (fun q _ => match q with | 0 => tileObl m hidx)
    (fun q _ => match q with | 0 => SparseCore.Cfg.VecSplit.of_plain (vecSplit m))
    m ρ main (G (F := F)) (FIN m) (u₀ (F := F)) (sep_elim_left.trans (hu₀ m)) (hmain m ρ hidx) (fq m) (hfin m) _ (fun _ h d => h d) (hheld := P_held m)

end Cert.Kernel.Launch

end
-- ==== Proof.ClaimsK.lean ====
/-
  What the run of the kernel program leaves, read for the claim: the result array and the six argument
  arrays, on every device. The argument arrays are touched by no host operation, call or kernel (the first
  weight matrix is a kernel's input window and ends as found), so they end as launched; the result array
  holds the final transpose of the third kernel's array.
-/
import proofs.«207593_g36137854828637_cont_8to1_b_1462_19_alg».proof.Defs
import proofs.«207593_g36137854828637_cont_8to1_b_1462_19_alg».proof.Proof.LaunchK

noncomputable section

namespace Cert.Kernel.Claims

open Cert.Kernel Cert.Kernel.Gen Cert.Kernel.Common Cert.Kernel.Launch
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The program runs; the result array ends at the last boundary's contents and every argument array as launched. -/
theorem run_kept [∀ e, Nonempty (Elt F e)] (hidx : ScTile.IdxOK m) :
    θ_run (Cert.Kernel.defs (F := F)) (Cert.Kernel.threads (F := F)) ⟨m, fun _ => 0, ρ⟩ (fun r => ∀ c : Dev nD,
      r.2.mem ((c.tc : Thread nD τ).loc main_v7) = W6 m c v7'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.Kernel.defs (F := F)) _ _).mono (fun r h c =>
    ⟨h c v7' (by decide),
      (h c a0' (by decide)).trans (W6_kept m c a0' (by decide) (by decide) (by decide) (by decide)),
      (h c a1' (by decide)).trans (W6_kept m c a1' (by decide) (by decide) (by decide) (by decide)),
      (h c (Proc.devRef .tc main_arg2) (by decide)).trans (W6_kept m c (Proc.devRef .tc main_arg2) (by decide) (by decide) (by decide) (by decide)),
      (h c a3' (by decide)).trans (W6_kept m c a3' (by decide) (by decide) (by decide) (by decide)),
      (h c a4' (by decide)).trans (W6_kept m c a4' (by decide) (by decide) (by decide) (by decide)),
      (h c a5' (by decide)).trans (W6_kept m c a5' (by decide) (by decide) (by decide) (by decide))⟩)
    (run_main m ρ hidx)

end Cert.Kernel.Claims

end
-- ==== Proof.PreK.lean ====
/-
  What the word-level program's precondition says of the launch memory's index array: on every device every
  index word, read unsigned, is below the table's height 100000. The integer conjunct of the input-domain
  predicate does not look at the float values, so the reading is the same as at the extended reals.
-/
import proofs.«207593_g36137854828637_cont_8to1_b_1462_19_alg».proof.Defs
import proofs.«207593_g36137854828637_cont_8to1_b_1462_19_alg».proof.Proof.RefPre
import proofs.«207593_g36137854828637_cont_8to1_b_1462_19_alg».proof.Proof.Gen.Pre_input_domain

noncomputable section

namespace Cert.Kernel.PreK

open Idealize.ShloMosaic Idealize.ShloMosaic.ValueIdx Cert.Kernel

variable (m : (ℓ : Loc nD τ sig) → Buf (Elt Bits) ℓ)

/-- Under the program's precondition every index word of the launch memory's index array, read unsigned, is below
    the table's height, on every device and at every index of the array. -/
theorem idxOK_of_pre (h : Cert.Pre_Kernel m) :
    ∀ (d : Dev nD) j, (m ((SparseCore.T d).loc main_arg0) j).toNat < 100000 :=
  fun d j => Cert.ReferenceIdeal.RefPre.idx_all_of_pre _ _ _ _ _ _ (h d) j

end Cert.Kernel.PreK

end
-- ==== Proof.FrameK.lean ====
/-
  The frame of the word-level kernel program: its run, with the values dropped.
-/
import proofs.«207593_g36137854828637_cont_8to1_b_1462_19_alg».proof.Defs
import proofs.«207593_g36137854828637_cont_8to1_b_1462_19_alg».proof.Proof.ClaimsK
import proofs.«207593_g36137854828637_cont_8to1_b_1462_19_alg».proof.Proof.PreK

noncomputable section

namespace Cert.Kernel.Claims

open Idealize.ShloMosaic Idealize.SL.Sem

theorem frame : Cert.frame_Kernel := fun m ρ hpre =>
  (θ_run (Cert.Kernel.defs (F := Bits)) _ _).mono (fun _ h c => (h c).2)
    (run_kept (F := Bits) m ρ (Cert.Kernel.PreK.idxOK_of_pre m hpre))

end Cert.Kernel.Claims

end
-- ==== Proof.RefTerm.lean ====
/-
# The reference function as a tower of pure terms

The reference computes, for a table `E : f32[100000,128]`, indices `ids : i32[1024,50]`, weights
`W₁ : f32[128,512]`, `b₁ : f32[512]`, `W₂ : f32[512,100000]`, `b₂ : f32[100000]`:

* `taken[b,s,:]  = E[wrap ids[b,s], :]` where `wrap i = if i < 0 then i + 100000 else i`, and the row is
  replaced by the NaN fill when the wrapped index is outside `[0, 99999]`;
* `pooled[b,:]   = Σ_s taken[b,s,:]`;
* `hidPre        = pooled · W₁ + b₁`,  `hid = max hidPre 0`;
* `score         = hid · W₂ + b₂`;
* `out[b,:]      = (score[b,:] - M_b) - log Σ_j exp (score[b,j] - M_b)` with `M_b = max(-∞, max_j score[b,j])`.

Each definition below is ONE operation of the printed program applied to the definitions before it: the
operation's function is the printed one, letter for letter, so that a stage unfolds to exactly one operation
over earlier stages.
-/
import proofs.«207593_g36137854828637_cont_8to1_b_1462_19_alg».proof.Proof.Gen.ReferenceIdeal

noncomputable section

namespace Cert.ReferenceIdeal.RefTerm

open Cert.ReferenceIdeal Cert.ReferenceIdeal.Gen Idealize.ShloMosaic

variable {F : FTy → Type} [FloatOps F]

/-! ## The index arithmetic of the take: wrap-around of negative indices -/

/-- The scalar `0` spread over the index array. -/
def zeroIdx : (⟨S1024x50, .i32⟩ : BufTy).Contents (Elt F) :=
  broadcastInDim S1024x50 ![] bcast_S_S1024x50 (constantI S_ 32 0#32 : (⟨S_, .i32⟩ : BufTy).Contents (Elt F))

/-- `ids < 0`, signed, element by element. -/
def isNeg (ids : (⟨S1024x50, .i32⟩ : BufTy).Contents (Elt F)) : (⟨S1024x50, .i1⟩ : BufTy).Contents (Elt F) :=
  cmpi .slt ids (zeroIdx (F := F))

/-- The table's row count `100000` spread over the index array. -/
def sizeIdx : (⟨S1024x50, .i32⟩ : BufTy).Contents (Elt F) :=
  broadcastInDim S1024x50 ![] bcast_S_S1024x50 (constantI S_ 32 100000#32 : (⟨S_, .i32⟩ : BufTy).Contents (Elt F))

/-- `ids + 100000`. -/
def shifted (ids : (⟨S1024x50, .i32⟩ : BufTy).Contents (Elt F)) : (⟨S1024x50, .i32⟩ : BufTy).Contents (Elt F) :=
  addi ids (sizeIdx (F := F))

/-- The wrapped index: `ids + 100000` where `ids < 0`, else `ids`. -/
def wrapped (ids : (⟨S1024x50, .i32⟩ : BufTy).Contents (Elt F)) : (⟨S1024x50, .i32⟩ : BufTy).Contents (Elt F) :=
  select (isNeg (F := F) ids) (shifted (F := F) ids) ids

/-- The wrapped index with a trailing unit axis: the gather's index vectors. -/
def idx3 (ids : (⟨S1024x50, .i32⟩ : BufTy).Contents (Elt F)) : (⟨S1024x50x1, .i32⟩ : BufTy).Contents (Elt F) :=
  broadcastInDim S1024x50x1 ![0, 1] bcast_S1024x50_S1024x50x1_0_1 (wrapped (F := F) ids)

/-! ## The range test of the take: `0 ≤ wrapped ≤ 99999` -/

/-- The scalar `0` spread over the index vectors. -/
def zero3 : (⟨S1024x50x1, .i32⟩ : BufTy).Contents (Elt F) :=
  broadcastInDim S1024x50x1 ![] bcast_S_S1024x50x1 (constantI S_ 32 0#32 : (⟨S_, .i32⟩ : BufTy).Contents (Elt F))

/-- `wrapped ≥ 0`. -/
def geZero (ids : (⟨S1024x50, .i32⟩ : BufTy).Contents (Elt F)) : (⟨S1024x50x1, .i1⟩ : BufTy).Contents (Elt F) :=
  cmpi .sge (idx3 (F := F) ids) (zero3 (F := F))

/-- The last row `99999`, as a `1×1×1` array. -/
def last1 : (⟨S1x1x1, .i32⟩ : BufTy).Contents (Elt F) :=
  broadcastInDim S1x1x1 ![2] bcast_S1_S1x1x1_2 (constantI S1 32 99999#32 : (⟨S1, .i32⟩ : BufTy).Contents (Elt F))

/-- The last row `99999` spread over the index vectors. -/
def last3 : (⟨S1024x50x1, .i32⟩ : BufTy).Contents (Elt F) :=
  broadcastInDim S1024x50x1 ![0, 1, 2] bcast_S1x1x1_S1024x50x1_0_1_2 (last1 (F := F))

/-- `wrapped ≤ 99999`. -/
def leLast (ids : (⟨S1024x50, .i32⟩ : BufTy).Contents (Elt F)) : (⟨S1024x50x1, .i1⟩ : BufTy).Contents (Elt F) :=
  cmpi .sle (idx3 (F := F) ids) (last3 (F := F))

/-- `0 ≤ wrapped ≤ 99999`, per index vector component. -/
def inRange3 (ids : (⟨S1024x50, .i32⟩ : BufTy).Contents (Elt F)) : (⟨S1024x50x1, .i1⟩ : BufTy).Contents (Elt F) :=
  andi (geZero (F := F) ids) (leLast (F := F) ids)

/-- The conjunction over the (unit) index-vector axis, from `true`: is the wrapped index a row of the table? -/
def inRange (ids : (⟨S1024x50, .i32⟩ : BufTy).Contents (Elt F)) : (⟨S1024x50, .i1⟩ : BufTy).Contents (Elt F) :=
  Host.reduce IntOp.andi (inRange3 (F := F) ids) (constantI S_ 1 1#1 : (⟨S_, .i1⟩ : BufTy).Contents (Elt F))
    reducesTo_S1024x50x1_S1024x50_d2 h_S_

/-! ## The gather and the out-of-range fill -/

/-- The gathered rows `E[wrapped[b,s], :]` (the gather clamps a start index into the table). -/
def gathered (ids : (⟨S1024x50, .i32⟩ : BufTy).Contents (Elt F)) (E : (⟨S100000x128, .f32⟩ : BufTy).Contents (Elt F)) :
    (⟨S1024x50x128, .f32⟩ : BufTy).Contents (Elt F) :=
  Host.gather gather_S100000x128_S1024x50x1_S1024x50x128_2_0_n_n_0_2_1128 E (idx3 (F := F) ids)

/-- The range test spread along the row. -/
def mask (ids : (⟨S1024x50, .i32⟩ : BufTy).Contents (Elt F)) : (⟨S1024x50x128, .i1⟩ : BufTy).Contents (Elt F) :=
  broadcastInDim S1024x50x128 ![0, 1] bcast_S1024x50_S1024x50x128_0_1 (inRange (F := F) ids)

/-- The fill for an out-of-range index: the quiet NaN pattern, everywhere. -/
def nanFill : (⟨S1024x50x128, .f32⟩ : BufTy).Contents (Elt F) :=
  broadcastInDim S1024x50x128 ![] bcast_S_S1024x50x128 (constant S_ .f32 0x7FC00000#32 : (⟨S_, .f32⟩ : BufTy).Contents (Elt F))

/-- The take's result: the gathered row where the index is in range, the fill elsewhere. -/
def taken (ids : (⟨S1024x50, .i32⟩ : BufTy).Contents (Elt F)) (E : (⟨S100000x128, .f32⟩ : BufTy).Contents (Elt F)) :
    (⟨S1024x50x128, .f32⟩ : BufTy).Contents (Elt F) :=
  select (mask (F := F) ids) (gathered ids E) (nanFill (F := F))

/-! ## Pooling and the first layer -/

/-- The sum over the sequence axis, from `0`. -/
def pooled (ids : (⟨S1024x50, .i32⟩ : BufTy).Contents (Elt F)) (E : (⟨S100000x128, .f32⟩ : BufTy).Contents (Elt F)) :
    (⟨S1024x128, .f32⟩ : BufTy).Contents (Elt F) :=
  Host.reduceAdd (taken ids E) (constant S_ .f32 0x00000000#32 : (⟨S_, .f32⟩ : BufTy).Contents (Elt F))
    reducesTo_S1024x50x128_S1024x128_d1 h_S_

/-- `pooled · W₁`. -/
def proj1 (ids : (⟨S1024x50, .i32⟩ : BufTy).Contents (Elt F)) (E : (⟨S100000x128, .f32⟩ : BufTy).Contents (Elt F))
    (W1 : (⟨S128x512, .f32⟩ : BufTy).Contents (Elt F)) : (⟨S1024x512, .f32⟩ : BufTy).Contents (Elt F) :=
  Host.dotGeneral dot_S1024x128_S128x512_S1024x512_1_0_0_1_n_n none (pooled ids E) W1

/-- `b₁` as one row. -/
def bias1Row (b1 : (⟨S512, .f32⟩ : BufTy).Contents (Elt F)) : (⟨S1x512, .f32⟩ : BufTy).Contents (Elt F) :=
  broadcastInDim S1x512 ![1] bcast_S512_S1x512_1 b1

/-- `b₁` on every row. -/
def bias1 (b1 : (⟨S512, .f32⟩ : BufTy).Contents (Elt F)) : (⟨S1024x512, .f32⟩ : BufTy).Contents (Elt F) :=
  broadcastInDim S1024x512 ![0, 1] bcast_S1x512_S1024x512_0_1 (bias1Row b1)

/-- `pooled · W₁ + b₁`. -/
def hidPre (ids : (⟨S1024x50, .i32⟩ : BufTy).Contents (Elt F)) (E : (⟨S100000x128, .f32⟩ : BufTy).Contents (Elt F))
    (W1 : (⟨S128x512, .f32⟩ : BufTy).Contents (Elt F)) (b1 : (⟨S512, .f32⟩ : BufTy).Contents (Elt F)) :
    (⟨S1024x512, .f32⟩ : BufTy).Contents (Elt F) :=
  addf (proj1 ids E W1) (bias1 b1)

/-- The scalar `0` spread over the hidden layer. -/
def zeroHid : (⟨S1024x512, .f32⟩ : BufTy).Contents (Elt F) :=
  broadcastInDim S1024x512 ![] bcast_S_S1024x512 (constant S_ .f32 0x00000000#32 : (⟨S_, .f32⟩ : BufTy).Contents (Elt F))

/-- `max hidPre 0`. -/
def hid (ids : (⟨S1024x50, .i32⟩ : BufTy).Contents (Elt F)) (E : (⟨S100000x128, .f32⟩ : BufTy).Contents (Elt F))
    (W1 : (⟨S128x512, .f32⟩ : BufTy).Contents (Elt F)) (b1 : (⟨S512, .f32⟩ : BufTy).Contents (Elt F)) :
    (⟨S1024x512, .f32⟩ : BufTy).Contents (Elt F) :=
  maximumf (hidPre ids E W1 b1) (zeroHid (F := F))

/-! ## The second layer -/

/-- `hid · W₂`. -/
def proj2 (ids : (⟨S1024x50, .i32⟩ : BufTy).Contents (Elt F)) (E : (⟨S100000x128, .f32⟩ : BufTy).Contents (Elt F))
    (W1 : (⟨S128x512, .f32⟩ : BufTy).Contents (Elt F)) (b1 : (⟨S512, .f32⟩ : BufTy).Contents (Elt F))
    (W2 : (⟨S512x100000, .f32⟩ : BufTy).Contents (Elt F)) : (⟨S1024x100000, .f32⟩ : BufTy).Contents (Elt F) :=
  Host.dotGeneral dot_S1024x512_S512x100000_S1024x100000_1_0_0_1_n_n none (hid ids E W1 b1) W2

/-- `b₂` as one row. -/
def bias2Row (b2 : (⟨S100000, .f32⟩ : BufTy).Contents (Elt F)) : (⟨S1x100000, .f32⟩ : BufTy).Contents (Elt F) :=
  broadcastInDim S1x100000 ![1] bcast_S100000_S1x100000_1 b2

/-- `b₂` on every row. -/
def bias2 (b2 : (⟨S100000, .f32⟩ : BufTy).Contents (Elt F)) : (⟨S1024x100000, .f32⟩ : BufTy).Contents (Elt F) :=
  broadcastInDim S1024x100000 ![0, 1] bcast_S1x100000_S1024x100000_0_1 (bias2Row b2)

/-- `hid · W₂ + b₂`. -/
def score (ids : (⟨S1024x50, .i32⟩ : BufTy).Contents (Elt F)) (E : (⟨S100000x128, .f32⟩ : BufTy).Contents (Elt F))
    (W1 : (⟨S128x512, .f32⟩ : BufTy).Contents (Elt F)) (b1 : (⟨S512, .f32⟩ : BufTy).Contents (Elt F))
    (W2 : (⟨S512x100000, .f32⟩ : BufTy).Contents (Elt F)) (b2 : (⟨S100000, .f32⟩ : BufTy).Contents (Elt F)) :
    (⟨S1024x100000, .f32⟩ : BufTy).Contents (Elt F) :=
  addf (proj2 ids E W1 b1 W2) (bias2 b2)

/-! ## The log-softmax of a score array `x : f32[1024,100000]`, stage by stage -/

/-- The row maximum, folded from `-∞`. -/
def lsRowMax0 (x : (⟨S1024x100000, .f32⟩ : BufTy).Contents (Elt F)) : (⟨S1024, .f32⟩ : BufTy).Contents (Elt F) :=
  Host.reduce FloatOps.maximumf x (constant S_ .f32 0xFF800000#32 : (⟨S_, .f32⟩ : BufTy).Contents (Elt F))
    reducesTo_S1024x100000_S1024_d1 h_S_

/-- `-∞` per row. -/
def lsNegInf : (⟨S1024, .f32⟩ : BufTy).Contents (Elt F) :=
  broadcastInDim S1024 ![] bcast_S_S1024 (constant S_ .f32 0xFF800000#32 : (⟨S_, .f32⟩ : BufTy).Contents (Elt F))

/-- `M = max (-∞) rowMax`. -/
def lsRowMax (x : (⟨S1024x100000, .f32⟩ : BufTy).Contents (Elt F)) : (⟨S1024, .f32⟩ : BufTy).Contents (Elt F) :=
  maximumf (lsNegInf (F := F)) (lsRowMax0 x)

/-- `M` as a column. -/
def lsRowMaxCol (x : (⟨S1024x100000, .f32⟩ : BufTy).Contents (Elt F)) : (⟨S1024x1, .f32⟩ : BufTy).Contents (Elt F) :=
  broadcastInDim S1024x1 ![0] bcast_S1024_S1024x1_0 (lsRowMax x)

/-- `M` along every row. -/
def lsRowMaxB (x : (⟨S1024x100000, .f32⟩ : BufTy).Contents (Elt F)) : (⟨S1024x100000, .f32⟩ : BufTy).Contents (Elt F) :=
  broadcastInDim S1024x100000 ![0, 1] bcast_S1024x1_S1024x100000_0_1 (lsRowMaxCol x)

/-- `x - M`. -/
def lsShift (x : (⟨S1024x100000, .f32⟩ : BufTy).Contents (Elt F)) : (⟨S1024x100000, .f32⟩ : BufTy).Contents (Elt F) :=
  subf x (lsRowMaxB x)

/-- `exp (x - M)`. -/
def lsExp (x : (⟨S1024x100000, .f32⟩ : BufTy).Contents (Elt F)) : (⟨S1024x100000, .f32⟩ : BufTy).Contents (Elt F) :=
  Host.exp (lsShift x)

/-- `Σ_j exp (x - M)`, from `0`. -/
def lsSum (x : (⟨S1024x100000, .f32⟩ : BufTy).Contents (Elt F)) : (⟨S1024, .f32⟩ : BufTy).Contents (Elt F) :=
  Host.reduceAdd (lsExp x) (constant S_ .f32 0x00000000#32 : (⟨S_, .f32⟩ : BufTy).Contents (Elt F))
    reducesTo_S1024x100000_S1024_d1 h_S_

/-- The row sums as a column. -/
def lsSumCol (x : (⟨S1024x100000, .f32⟩ : BufTy).Contents (Elt F)) : (⟨S1024x1, .f32⟩ : BufTy).Contents (Elt F) :=
  broadcastInDim S1024x1 ![0] bcast_S1024_S1024x1_0 (lsSum x)

/-- `log Σ_j exp (x - M)`. -/
def lsLog (x : (⟨S1024x100000, .f32⟩ : BufTy).Contents (Elt F)) : (⟨S1024x1, .f32⟩ : BufTy).Contents (Elt F) :=
  Host.log (lsSumCol x)

/-- The log of the row sum along every row. -/
def lsLogB (x : (⟨S1024x100000, .f32⟩ : BufTy).Contents (Elt F)) : (⟨S1024x100000, .f32⟩ : BufTy).Contents (Elt F) :=
  broadcastInDim S1024x100000 ![0, 1] bcast_S1024x1_S1024x100000_0_1 (lsLog x)

/-- `(x - M) - log Σ_j exp (x - M)`. -/
def logSoftmax (x : (⟨S1024x100000, .f32⟩ : BufTy).Contents (Elt F)) : (⟨S1024x100000, .f32⟩ : BufTy).Contents (Elt F) :=
  subf (lsShift x) (lsLogB x)

/-! ## The result -/

/-- The reference's result: the log-softmax of the scores. -/
def out (ids : (⟨S1024x50, .i32⟩ : BufTy).Contents (Elt F)) (E : (⟨S100000x128, .f32⟩ : BufTy).Contents (Elt F))
    (W1 : (⟨S128x512, .f32⟩ : BufTy).Contents (Elt F)) (b1 : (⟨S512, .f32⟩ : BufTy).Contents (Elt F))
    (W2 : (⟨S512x100000, .f32⟩ : BufTy).Contents (Elt F)) (b2 : (⟨S100000, .f32⟩ : BufTy).Contents (Elt F)) :
    (⟨S1024x100000, .f32⟩ : BufTy).Contents (Elt F) :=
  logSoftmax (score ids E W1 b1 W2 b2)

end Cert.ReferenceIdeal.RefTerm

end
-- ==== Proof.RefRun.lean ====
/-
# The reference program's run, and its value as the tower of pure terms

The reference's @main is a straight line of fifty-one tensor operations once its four module-local functions
(the take with wrap-around and out-of-range fill, the select inside it, the rectifier, the log-softmax) are
unfolded at their calls: each call's operations are listed in place, over that call's own buffers. Such a line
runs to its end from any memory with zero counters, and each buffer then holds the fold of the operations'
results over the launch contents. Read at the result buffer, the fold is the composition of the operations'
functions over the six argument arrays, which is `RefTerm.out`; read at an argument buffer, which no
operation writes, it is the launch contents.
-/
import proofs.«207593_g36137854828637_cont_8to1_b_1462_19_alg».proof.Defs
import proofs.«207593_g36137854828637_cont_8to1_b_1462_19_alg».proof.Proof.Gen.ReferenceIdeal
import proofs.«207593_g36137854828637_cont_8to1_b_1462_19_alg».proof.Proof.Gen.Pre_input_domain
import proofs.«207593_g36137854828637_cont_8to1_b_1462_19_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's fifty-one operations in order, the calls unfolded, each at its own buffers: the take's twenty-three (its
    select, the seventh, is the inner function's one operation), the zero and the sum over the sequence axis, the first
    product with its bias (two broadcasts and the sum), the rectifier's three, the second product with its bias, and the
    log-softmax's fifteen. Every operation's function is stated at the types of its operand and result arrays. -/
abbrev ops : List (HloOp τ sig (Elt F)) :=
  [
    nullary main_call0_c (constantI S_ 32 0#32 : (⟨S_, .i32⟩ : BufTy).Contents (Elt F)),
    unary main_call0_c main_call0_v0 (broadcastInDim S1024x50 ![] bcast_S_S1024x50 : (⟨S_, .i32⟩ : BufTy).Contents (Elt F) → (⟨S1024x50, .i32⟩ : BufTy).Contents (Elt F)),
    binary main_arg0 main_call0_v0 main_call0_v1 (cmpi .slt : (⟨S1024x50, .i32⟩ : BufTy).Contents (Elt F) → (⟨S1024x50, .i32⟩ : BufTy).Contents (Elt F) → (⟨S1024x50, .i1⟩ : BufTy).Contents (Elt F)),
    nullary main_call0_c_0 (constantI S_ 32 100000#32 : (⟨S_, .i32⟩ : BufTy).Contents (Elt F)),
    unary main_call0_c_0 main_call0_v2 (broadcastInDim S1024x50 ![] bcast_S_S1024x50 : (⟨S_, .i32⟩ : BufTy).Contents (Elt F) → (⟨S1024x50, .i32⟩ : BufTy).Contents (Elt F)),
    binary main_arg0 main_call0_v2 main_call0_v3 (addi : (⟨S1024x50, .i32⟩ : BufTy).Contents (Elt F) → (⟨S1024x50, .i32⟩ : BufTy).Contents (Elt F) → (⟨S1024x50, .i32⟩ : BufTy).Contents (Elt F)),
    ternary main_call0_v1 main_call0_v3 main_arg0 main_call0_v4 (select : (⟨S1024x50, .i1⟩ : BufTy).Contents (Elt F) → (⟨S1024x50, .i32⟩ : BufTy).Contents (Elt F) → (⟨S1024x50, .i32⟩ : BufTy).Contents (Elt F) → (⟨S1024x50, .i32⟩ : BufTy).Contents (Elt F)),
    unary main_call0_v4 main_call0_v5 (broadcastInDim S1024x50x1 ![0, 1] bcast_S1024x50_S1024x50x1_0_1 : (⟨S1024x50, .i32⟩ : BufTy).Contents (Elt F) → (⟨S1024x50x1, .i32⟩ : BufTy).Contents (Elt F)),
    nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S1024x50x1 ![] bcast_S_S1024x50x1 : (⟨S_, .i32⟩ : BufTy).Contents (Elt F) → (⟨S1024x50x1, .i32⟩ : BufTy).Contents (Elt F)),
    binary main_call0_v5 main_call0_v6 main_call0_v7 (cmpi .sge : (⟨S1024x50x1, .i32⟩ : BufTy).Contents (Elt F) → (⟨S1024x50x1, .i32⟩ : BufTy).Contents (Elt F) → (⟨S1024x50x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S1024x50x1 ![0, 1, 2] bcast_S1x1x1_S1024x50x1_0_1_2 : (⟨S1x1x1, .i32⟩ : BufTy).Contents (Elt F) → (⟨S1024x50x1, .i32⟩ : BufTy).Contents (Elt F)),
    binary main_call0_v5 main_call0_v9 main_call0_v10 (cmpi .sle : (⟨S1024x50x1, .i32⟩ : BufTy).Contents (Elt F) → (⟨S1024x50x1, .i32⟩ : BufTy).Contents (Elt F) → (⟨S1024x50x1, .i1⟩ : BufTy).Contents (Elt F)),
    binary main_call0_v7 main_call0_v10 main_call0_v11 (andi : (⟨S1024x50x1, .i1⟩ : BufTy).Contents (Elt F) → (⟨S1024x50x1, .i1⟩ : BufTy).Contents (Elt F) → (⟨S1024x50x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S1024x50x1_S1024x50_d2 h_S_) : (⟨S1024x50x1, .i1⟩ : BufTy).Contents (Elt F) → (⟨S_, .i1⟩ : BufTy).Contents (Elt F) → (⟨S1024x50, .i1⟩ : BufTy).Contents (Elt F)),
    binary main_arg1 main_call0_v5 main_call0_v13 ((fun x i => Host.gather gather_S100000x128_S1024x50x1_S1024x50x128_2_0_n_n_0_2_1128 x i) : (⟨S100000x128, .f32⟩ : BufTy).Contents (Elt F) → (⟨S1024x50x1, .i32⟩ : BufTy).Contents (Elt F) → (⟨S1024x50x128, .f32⟩ : BufTy).Contents (Elt F)),
    unary main_call0_v12 main_call0_v14 (broadcastInDim S1024x50x128 ![0, 1] bcast_S1024x50_S1024x50x128_0_1 : (⟨S1024x50, .i1⟩ : BufTy).Contents (Elt F) → (⟨S1024x50x128, .i1⟩ : BufTy).Contents (Elt F)),
    nullary main_call0_cst (constant S_ .f32 0x7FC00000#32 : (⟨S_, .f32⟩ : BufTy).Contents (Elt F)),
    unary main_call0_cst main_call0_v15 (broadcastInDim S1024x50x128 ![] bcast_S_S1024x50x128 : (⟨S_, .f32⟩ : BufTy).Contents (Elt F) → (⟨S1024x50x128, .f32⟩ : BufTy).Contents (Elt F)),
    ternary main_call0_v14 main_call0_v13 main_call0_v15 main_v0 (select : (⟨S1024x50x128, .i1⟩ : BufTy).Contents (Elt F) → (⟨S1024x50x128, .f32⟩ : BufTy).Contents (Elt F) → (⟨S1024x50x128, .f32⟩ : BufTy).Contents (Elt F) → (⟨S1024x50x128, .f32⟩ : BufTy).Contents (Elt F)),
    nullary main_cst (constant S_ .f32 0x00000000#32 : (⟨S_, .f32⟩ : BufTy).Contents (Elt F)),
    binary main_v0 main_cst main_v1 ((fun x v => Host.reduceAdd x v reducesTo_S1024x50x128_S1024x128_d1 h_S_) : (⟨S1024x50x128, .f32⟩ : BufTy).Contents (Elt F) → (⟨S_, .f32⟩ : BufTy).Contents (Elt F) → (⟨S1024x128, .f32⟩ : BufTy).Contents (Elt F)),
    binary main_v1 main_arg2 main_v2 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    unary main_arg3 main_v3 (broadcastInDim S1x512 ![1] bcast_S512_S1x512_1 : (⟨S512, .f32⟩ : BufTy).Contents (Elt F) → (⟨S1x512, .f32⟩ : BufTy).Contents (Elt F)),
    unary main_v3 main_v4 (broadcastInDim S1024x512 ![0, 1] bcast_S1x512_S1024x512_0_1 : (⟨S1x512, .f32⟩ : BufTy).Contents (Elt F) → (⟨S1024x512, .f32⟩ : BufTy).Contents (Elt F)),
    binary main_v2 main_v4 main_v5 (addf : (⟨S1024x512, .f32⟩ : BufTy).Contents (Elt F) → (⟨S1024x512, .f32⟩ : BufTy).Contents (Elt F) → (⟨S1024x512, .f32⟩ : BufTy).Contents (Elt F)),
    nullary main_call1_cst (constant S_ .f32 0x00000000#32 : (⟨S_, .f32⟩ : BufTy).Contents (Elt F)),
    unary main_call1_cst main_call1_v0 (broadcastInDim S1024x512 ![] bcast_S_S1024x512 : (⟨S_, .f32⟩ : BufTy).Contents (Elt F) → (⟨S1024x512, .f32⟩ : BufTy).Contents (Elt F)),
    binary main_v5 main_call1_v0 main_v6 (maximumf : (⟨S1024x512, .f32⟩ : BufTy).Contents (Elt F) → (⟨S1024x512, .f32⟩ : BufTy).Contents (Elt F) → (⟨S1024x512, .f32⟩ : BufTy).Contents (Elt F)),
    binary main_v6 main_arg4 main_v7 ((fun l r => Host.dotGeneral dot_S1024x512_S512x100000_S1024x100000_1_0_0_1_n_n none l r) : (⟨S1024x512, .f32⟩ : BufTy).Contents (Elt F) → (⟨S512x100000, .f32⟩ : BufTy).Contents (Elt F) → (⟨S1024x100000, .f32⟩ : BufTy).Contents (Elt F)),
    unary main_arg5 main_v8 (broadcastInDim S1x100000 ![1] bcast_S100000_S1x100000_1 : (⟨S100000, .f32⟩ : BufTy).Contents (Elt F) → (⟨S1x100000, .f32⟩ : BufTy).Contents (Elt F)),
    unary main_v8 main_v9 (broadcastInDim S1024x100000 ![0, 1] bcast_S1x100000_S1024x100000_0_1 : (⟨S1x100000, .f32⟩ : BufTy).Contents (Elt F) → (⟨S1024x100000, .f32⟩ : BufTy).Contents (Elt F)),
    binary main_v7 main_v9 main_v10 (addf : (⟨S1024x100000, .f32⟩ : BufTy).Contents (Elt F) → (⟨S1024x100000, .f32⟩ : BufTy).Contents (Elt F) → (⟨S1024x100000, .f32⟩ : BufTy).Contents (Elt F)),
    nullary main_call2_cst (constant S_ .f32 0xFF800000#32 : (⟨S_, .f32⟩ : BufTy).Contents (Elt F)),
    binary main_v10 main_call2_cst main_call2_v0 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    nullary main_call2_cst_0 (constant S_ .f32 0xFF800000#32 : (⟨S_, .f32⟩ : BufTy).Contents (Elt F)),
    unary main_call2_cst_0 main_call2_v1 (broadcastInDim S1024 ![] bcast_S_S1024 : (⟨S_, .f32⟩ : BufTy).Contents (Elt F) → (⟨S1024, .f32⟩ : BufTy).Contents (Elt F)),
    binary main_call2_v1 main_call2_v0 main_call2_v2 (maximumf : (⟨S1024, .f32⟩ : BufTy).Contents (Elt F) → (⟨S1024, .f32⟩ : BufTy).Contents (Elt F) → (⟨S1024, .f32⟩ : BufTy).Contents (Elt F)),
    unary main_call2_v2 main_call2_v3 (broadcastInDim S1024x1 ![0] bcast_S1024_S1024x1_0 : (⟨S1024, .f32⟩ : BufTy).Contents (Elt F) → (⟨S1024x1, .f32⟩ : BufTy).Contents (Elt F)),
    unary main_call2_v3 main_call2_v4 (broadcastInDim S1024x100000 ![0, 1] bcast_S1024x1_S1024x100000_0_1 : (⟨S1024x1, .f32⟩ : BufTy).Contents (Elt F) → (⟨S1024x100000, .f32⟩ : BufTy).Contents (Elt F)),
    binary main_v10 main_call2_v4 main_call2_v5 (subf : (⟨S1024x100000, .f32⟩ : BufTy).Contents (Elt F) → (⟨S1024x100000, .f32⟩ : BufTy).Contents (Elt F) → (⟨S1024x100000, .f32⟩ : BufTy).Contents (Elt F)),
    unary main_call2_v5 main_call2_v6 (Host.exp : (⟨S1024x100000, .f32⟩ : BufTy).Contents (Elt F) → (⟨S1024x100000, .f32⟩ : BufTy).Contents (Elt F)),
    nullary main_call2_cst_1 (constant S_ .f32 0x00000000#32 : (⟨S_, .f32⟩ : BufTy).Contents (Elt F)),
    binary main_call2_v6 main_call2_cst_1 main_call2_v7 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    unary main_call2_v7 main_call2_v8 (broadcastInDim S1024x1 ![0] bcast_S1024_S1024x1_0 : (⟨S1024, .f32⟩ : BufTy).Contents (Elt F) → (⟨S1024x1, .f32⟩ : BufTy).Contents (Elt F)),
    unary main_call2_v8 main_call2_v9 (Host.log : (⟨S1024x1, .f32⟩ : BufTy).Contents (Elt F) → (⟨S1024x1, .f32⟩ : BufTy).Contents (Elt F)),
    unary main_call2_v9 main_call2_v10 (broadcastInDim S1024x100000 ![0, 1] bcast_S1024x1_S1024x100000_0_1 : (⟨S1024x1, .f32⟩ : BufTy).Contents (Elt F) → (⟨S1024x100000, .f32⟩ : BufTy).Contents (Elt F)),
    binary main_call2_v5 main_call2_v10 main_v11 (subf : (⟨S1024x100000, .f32⟩ : BufTy).Contents (Elt F) → (⟨S1024x100000, .f32⟩ : BufTy).Contents (Elt F) → (⟨S1024x100000, .f32⟩ : BufTy).Contents (Elt F)) ]

-- fifty-one binds re-associated, and the closing comparison walks the whole chain
set_option maxRecDepth 100000 in
/-- @main is that straight line: the functions' definitions unfolded at their calls, both sides are one chain of
    operation steps once sequencing is re-associated; a function's operation over typed references is the same
    operation over the references themselves, the transport of contents along a literal reference's type being the
    identity. -/
theorem main_eq (c : Dev nD) : main (F := F) c = seq ops := by
  simp only [main, fn_take.body, fn_where.body, fn_relu.body, fn_log_softmax.body, seq, bind_assoc, pure_bind,
    TRef.nullary, TRef.unary, TRef.binary, TRef.ternary, TRef.toBuf, TRef.ofBuf, cast_eq]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the argument buffers: no operation writes them -/

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-! ## One operation over earlier stages is the next stage

Each stage of `RefTerm` is by definition one operation applied to earlier stages; stated here operation-side first,
the operation's function at the very types the line states it at, so that a composed term is folded into the tower
from the inside out. -/

section Fold

variable (ids : (⟨S1024x50, .i32⟩ : BufTy).Contents (Elt F)) (E : (⟨S100000x128, .f32⟩ : BufTy).Contents (Elt F))
  (W1 : (⟨S128x512, .f32⟩ : BufTy).Contents (Elt F)) (b1 : (⟨S512, .f32⟩ : BufTy).Contents (Elt F))
  (W2 : (⟨S512x100000, .f32⟩ : BufTy).Contents (Elt F)) (b2 : (⟨S100000, .f32⟩ : BufTy).Contents (Elt F))
  (x : (⟨S1024x100000, .f32⟩ : BufTy).Contents (Elt F))

theorem fold_zeroIdx : (broadcastInDim S1024x50 ![] bcast_S_S1024x50 : (⟨S_, .i32⟩ : BufTy).Contents (Elt F) → (⟨S1024x50, .i32⟩ : BufTy).Contents (Elt F)) (constantI S_ 32 0#32 : (⟨S_, .i32⟩ : BufTy).Contents (Elt F)) = (RefTerm.zeroIdx (F := F)) := rfl
theorem fold_isNeg : (cmpi .slt : (⟨S1024x50, .i32⟩ : BufTy).Contents (Elt F) → (⟨S1024x50, .i32⟩ : BufTy).Contents (Elt F) → (⟨S1024x50, .i1⟩ : BufTy).Contents (Elt F)) ids (RefTerm.zeroIdx (F := F)) = RefTerm.isNeg ids := rfl
theorem fold_sizeIdx : (broadcastInDim S1024x50 ![] bcast_S_S1024x50 : (⟨S_, .i32⟩ : BufTy).Contents (Elt F) → (⟨S1024x50, .i32⟩ : BufTy).Contents (Elt F)) (constantI S_ 32 100000#32 : (⟨S_, .i32⟩ : BufTy).Contents (Elt F)) = (RefTerm.sizeIdx (F := F)) := rfl
theorem fold_shifted : (addi : (⟨S1024x50, .i32⟩ : BufTy).Contents (Elt F) → (⟨S1024x50, .i32⟩ : BufTy).Contents (Elt F) → (⟨S1024x50, .i32⟩ : BufTy).Contents (Elt F)) ids (RefTerm.sizeIdx (F := F)) = RefTerm.shifted ids := rfl
theorem fold_wrapped : (select : (⟨S1024x50, .i1⟩ : BufTy).Contents (Elt F) → (⟨S1024x50, .i32⟩ : BufTy).Contents (Elt F) → (⟨S1024x50, .i32⟩ : BufTy).Contents (Elt F) → (⟨S1024x50, .i32⟩ : BufTy).Contents (Elt F)) (RefTerm.isNeg ids) (RefTerm.shifted ids) ids = RefTerm.wrapped ids := rfl
theorem fold_idx3 : (broadcastInDim S1024x50x1 ![0, 1] bcast_S1024x50_S1024x50x1_0_1 : (⟨S1024x50, .i32⟩ : BufTy).Contents (Elt F) → (⟨S1024x50x1, .i32⟩ : BufTy).Contents (Elt F)) (RefTerm.wrapped ids) = RefTerm.idx3 ids := rfl
theorem fold_zero3 : (broadcastInDim S1024x50x1 ![] bcast_S_S1024x50x1 : (⟨S_, .i32⟩ : BufTy).Contents (Elt F) → (⟨S1024x50x1, .i32⟩ : BufTy).Contents (Elt F)) (constantI S_ 32 0#32 : (⟨S_, .i32⟩ : BufTy).Contents (Elt F)) = (RefTerm.zero3 (F := F)) := rfl
theorem fold_geZero : (cmpi .sge : (⟨S1024x50x1, .i32⟩ : BufTy).Contents (Elt F) → (⟨S1024x50x1, .i32⟩ : BufTy).Contents (Elt F) → (⟨S1024x50x1, .i1⟩ : BufTy).Contents (Elt F)) (RefTerm.idx3 ids) (RefTerm.zero3 (F := F)) = RefTerm.geZero ids := rfl
theorem fold_last1 : (broadcastInDim S1x1x1 ![2] bcast_S1_S1x1x1_2 : (⟨S1, .i32⟩ : BufTy).Contents (Elt F) → (⟨S1x1x1, .i32⟩ : BufTy).Contents (Elt F)) (constantI S1 32 99999#32 : (⟨S1, .i32⟩ : BufTy).Contents (Elt F)) = (RefTerm.last1 (F := F)) := rfl
theorem fold_last3 : (broadcastInDim S1024x50x1 ![0, 1, 2] bcast_S1x1x1_S1024x50x1_0_1_2 : (⟨S1x1x1, .i32⟩ : BufTy).Contents (Elt F) → (⟨S1024x50x1, .i32⟩ : BufTy).Contents (Elt F)) (RefTerm.last1 (F := F)) = (RefTerm.last3 (F := F)) := rfl
theorem fold_leLast : (cmpi .sle : (⟨S1024x50x1, .i32⟩ : BufTy).Contents (Elt F) → (⟨S1024x50x1, .i32⟩ : BufTy).Contents (Elt F) → (⟨S1024x50x1, .i1⟩ : BufTy).Contents (Elt F)) (RefTerm.idx3 ids) (RefTerm.last3 (F := F)) = RefTerm.leLast ids := rfl
theorem fold_inRange3 : (andi : (⟨S1024x50x1, .i1⟩ : BufTy).Contents (Elt F) → (⟨S1024x50x1, .i1⟩ : BufTy).Contents (Elt F) → (⟨S1024x50x1, .i1⟩ : BufTy).Contents (Elt F)) (RefTerm.geZero ids) (RefTerm.leLast ids) = RefTerm.inRange3 ids := rfl
theorem fold_inRange : Host.reduce IntOp.andi (RefTerm.inRange3 ids) (constantI S_ 1 1#1 : (⟨S_, .i1⟩ : BufTy).Contents (Elt F)) reducesTo_S1024x50x1_S1024x50_d2 h_S_ = RefTerm.inRange ids := rfl
theorem fold_gathered : Host.gather gather_S100000x128_S1024x50x1_S1024x50x128_2_0_n_n_0_2_1128 E (RefTerm.idx3 ids) = RefTerm.gathered ids E := rfl
theorem fold_mask : (broadcastInDim S1024x50x128 ![0, 1] bcast_S1024x50_S1024x50x128_0_1 : (⟨S1024x50, .i1⟩ : BufTy).Contents (Elt F) → (⟨S1024x50x128, .i1⟩ : BufTy).Contents (Elt F)) (RefTerm.inRange ids) = RefTerm.mask ids := rfl
theorem fold_nanFill : (broadcastInDim S1024x50x128 ![] bcast_S_S1024x50x128 : (⟨S_, .f32⟩ : BufTy).Contents (Elt F) → (⟨S1024x50x128, .f32⟩ : BufTy).Contents (Elt F)) (constant S_ .f32 0x7FC00000#32 : (⟨S_, .f32⟩ : BufTy).Contents (Elt F)) = (RefTerm.nanFill (F := F)) := rfl
theorem fold_taken : (select : (⟨S1024x50x128, .i1⟩ : BufTy).Contents (Elt F) → (⟨S1024x50x128, .f32⟩ : BufTy).Contents (Elt F) → (⟨S1024x50x128, .f32⟩ : BufTy).Contents (Elt F) → (⟨S1024x50x128, .f32⟩ : BufTy).Contents (Elt F)) (RefTerm.mask ids) (RefTerm.gathered ids E) (RefTerm.nanFill (F := F)) = RefTerm.taken ids E := rfl
theorem fold_pooled : Host.reduceAdd (RefTerm.taken ids E) (constant S_ .f32 0x00000000#32 : (⟨S_, .f32⟩ : BufTy).Contents (Elt F)) reducesTo_S1024x50x128_S1024x128_d1 h_S_ = RefTerm.pooled ids E := rfl
theorem fold_proj1 : Host.dotGeneral dot_S1024x128_S128x512_S1024x512_1_0_0_1_n_n none (RefTerm.pooled ids E) W1 = RefTerm.proj1 ids E W1 := rfl
theorem fold_bias1Row : (broadcastInDim S1x512 ![1] bcast_S512_S1x512_1 : (⟨S512, .f32⟩ : BufTy).Contents (Elt F) → (⟨S1x512, .f32⟩ : BufTy).Contents (Elt F)) b1 = RefTerm.bias1Row b1 := rfl
theorem fold_bias1 : (broadcastInDim S1024x512 ![0, 1] bcast_S1x512_S1024x512_0_1 : (⟨S1x512, .f32⟩ : BufTy).Contents (Elt F) → (⟨S1024x512, .f32⟩ : BufTy).Contents (Elt F)) (RefTerm.bias1Row b1) = RefTerm.bias1 b1 := rfl
theorem fold_hidPre : (addf : (⟨S1024x512, .f32⟩ : BufTy).Contents (Elt F) → (⟨S1024x512, .f32⟩ : BufTy).Contents (Elt F) → (⟨S1024x512, .f32⟩ : BufTy).Contents (Elt F)) (RefTerm.proj1 ids E W1) (RefTerm.bias1 b1) = RefTerm.hidPre ids E W1 b1 := rfl
theorem fold_zeroHid : (broadcastInDim S1024x512 ![] bcast_S_S1024x512 : (⟨S_, .f32⟩ : BufTy).Contents (Elt F) → (⟨S1024x512, .f32⟩ : BufTy).Contents (Elt F)) (constant S_ .f32 0x00000000#32 : (⟨S_, .f32⟩ : BufTy).Contents (Elt F)) = (RefTerm.zeroHid (F := F)) := rfl
theorem fold_hid : (maximumf : (⟨S1024x512, .f32⟩ : BufTy).Contents (Elt F) → (⟨S1024x512, .f32⟩ : BufTy).Contents (Elt F) → (⟨S1024x512, .f32⟩ : BufTy).Contents (Elt F)) (RefTerm.hidPre ids E W1 b1) (RefTerm.zeroHid (F := F)) = RefTerm.hid ids E W1 b1 := rfl
theorem fold_proj2 : Host.dotGeneral dot_S1024x512_S512x100000_S1024x100000_1_0_0_1_n_n none (RefTerm.hid ids E W1 b1) W2 = RefTerm.proj2 ids E W1 b1 W2 := rfl
theorem fold_bias2Row : (broadcastInDim S1x100000 ![1] bcast_S100000_S1x100000_1 : (⟨S100000, .f32⟩ : BufTy).Contents (Elt F) → (⟨S1x100000, .f32⟩ : BufTy).Contents (Elt F)) b2 = RefTerm.bias2Row b2 := rfl
theorem fold_bias2 : (broadcastInDim S1024x100000 ![0, 1] bcast_S1x100000_S1024x100000_0_1 : (⟨S1x100000, .f32⟩ : BufTy).Contents (Elt F) → (⟨S1024x100000, .f32⟩ : BufTy).Contents (Elt F)) (RefTerm.bias2Row b2) = RefTerm.bias2 b2 := rfl
theorem fold_score : (addf : (⟨S1024x100000, .f32⟩ : BufTy).Contents (Elt F) → (⟨S1024x100000, .f32⟩ : BufTy).Contents (Elt F) → (⟨S1024x100000, .f32⟩ : BufTy).Contents (Elt F)) (RefTerm.proj2 ids E W1 b1 W2) (RefTerm.bias2 b2) = RefTerm.score ids E W1 b1 W2 b2 := rfl
theorem fold_lsRowMax0 : Host.reduce FloatOps.maximumf x (constant S_ .f32 0xFF800000#32 : (⟨S_, .f32⟩ : BufTy).Contents (Elt F)) reducesTo_S1024x100000_S1024_d1 h_S_ = RefTerm.lsRowMax0 x := rfl
theorem fold_lsNegInf : (broadcastInDim S1024 ![] bcast_S_S1024 : (⟨S_, .f32⟩ : BufTy).Contents (Elt F) → (⟨S1024, .f32⟩ : BufTy).Contents (Elt F)) (constant S_ .f32 0xFF800000#32 : (⟨S_, .f32⟩ : BufTy).Contents (Elt F)) = (RefTerm.lsNegInf (F := F)) := rfl
theorem fold_lsRowMax : (maximumf : (⟨S1024, .f32⟩ : BufTy).Contents (Elt F) → (⟨S1024, .f32⟩ : BufTy).Contents (Elt F) → (⟨S1024, .f32⟩ : BufTy).Contents (Elt F)) (RefTerm.lsNegInf (F := F)) (RefTerm.lsRowMax0 x) = RefTerm.lsRowMax x := rfl
theorem fold_lsRowMaxCol : (broadcastInDim S1024x1 ![0] bcast_S1024_S1024x1_0 : (⟨S1024, .f32⟩ : BufTy).Contents (Elt F) → (⟨S1024x1, .f32⟩ : BufTy).Contents (Elt F)) (RefTerm.lsRowMax x) = RefTerm.lsRowMaxCol x := rfl
theorem fold_lsRowMaxB : (broadcastInDim S1024x100000 ![0, 1] bcast_S1024x1_S1024x100000_0_1 : (⟨S1024x1, .f32⟩ : BufTy).Contents (Elt F) → (⟨S1024x100000, .f32⟩ : BufTy).Contents (Elt F)) (RefTerm.lsRowMaxCol x) = RefTerm.lsRowMaxB x := rfl
theorem fold_lsShift : (subf : (⟨S1024x100000, .f32⟩ : BufTy).Contents (Elt F) → (⟨S1024x100000, .f32⟩ : BufTy).Contents (Elt F) → (⟨S1024x100000, .f32⟩ : BufTy).Contents (Elt F)) x (RefTerm.lsRowMaxB x) = RefTerm.lsShift x := rfl
theorem fold_lsExp : (Host.exp : (⟨S1024x100000, .f32⟩ : BufTy).Contents (Elt F) → (⟨S1024x100000, .f32⟩ : BufTy).Contents (Elt F)) (RefTerm.lsShift x) = RefTerm.lsExp x := rfl
theorem fold_lsSum : Host.reduceAdd (RefTerm.lsExp x) (constant S_ .f32 0x00000000#32 : (⟨S_, .f32⟩ : BufTy).Contents (Elt F)) reducesTo_S1024x100000_S1024_d1 h_S_ = RefTerm.lsSum x := rfl
theorem fold_lsSumCol : (broadcastInDim S1024x1 ![0] bcast_S1024_S1024x1_0 : (⟨S1024, .f32⟩ : BufTy).Contents (Elt F) → (⟨S1024x1, .f32⟩ : BufTy).Contents (Elt F)) (RefTerm.lsSum x) = RefTerm.lsSumCol x := rfl
theorem fold_lsLog : (Host.log : (⟨S1024x1, .f32⟩ : BufTy).Contents (Elt F) → (⟨S1024x1, .f32⟩ : BufTy).Contents (Elt F)) (RefTerm.lsSumCol x) = RefTerm.lsLog x := rfl
theorem fold_lsLogB : (broadcastInDim S1024x100000 ![0, 1] bcast_S1024x1_S1024x100000_0_1 : (⟨S1024x1, .f32⟩ : BufTy).Contents (Elt F) → (⟨S1024x100000, .f32⟩ : BufTy).Contents (Elt F)) (RefTerm.lsLog x) = RefTerm.lsLogB x := rfl
theorem fold_logSoftmax : (subf : (⟨S1024x100000, .f32⟩ : BufTy).Contents (Elt F) → (⟨S1024x100000, .f32⟩ : BufTy).Contents (Elt F) → (⟨S1024x100000, .f32⟩ : BufTy).Contents (Elt F)) (RefTerm.lsShift x) (RefTerm.lsLogB x) = RefTerm.logSoftmax x := rfl
theorem fold_out : RefTerm.logSoftmax (RefTerm.score ids E W1 b1 W2 b2) = RefTerm.out ids E W1 b1 W2 b2 := rfl

end Fold

/-! ## The fold read at the result buffer: the tower of pure terms -/

/-- The fold at the result buffer is `RefTerm.out` of the six arguments' contents: each operation's result at its own
    buffer is its function of its operands' contents and at any other buffer what was there, which composes the
    operations' functions over the arguments' contents; that composed term is folded into the tower from the inside
    out, one operation a stage. -/
theorem out_eq (V : Valuation τ sig (Elt F)) :
    after ops V (main_v11 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rw [fold_zeroIdx, fold_isNeg, fold_sizeIdx, fold_shifted, fold_wrapped, fold_idx3, fold_zero3, fold_geZero, fold_last1, fold_last3, fold_leLast, fold_inRange3, fold_inRange, fold_gathered, fold_mask, fold_nanFill, fold_taken, fold_pooled, fold_proj1, fold_bias1Row, fold_bias1, fold_hidPre, fold_zeroHid, fold_hid, fold_proj2, fold_bias2Row, fold_bias2, fold_score, fold_lsRowMax0, fold_lsNegInf, fold_lsRowMax, fold_lsRowMaxCol, fold_lsRowMaxB, fold_lsShift, fold_lsExp, fold_lsSum, fold_lsSumCol, fold_lsLog, fold_lsLogB, fold_logSoftmax, fold_out]

/-! ## The run -/

/-- On every device, for any float values, from any memory with zero counters: every weakly fair execution of
    @main terminates with the result buffer at `RefTerm.out` of the arguments' launch contents and the arguments
    unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev nD,
      r.2.mem ((c.tc : Thread nD τ).loc main_v11) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v11).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_main m ρ)

/-- The reference runs (terminates, no fault) and its argument arrays end unchanged, at the ideal instance: the run
    with the value dropped (the precondition on the inputs is not needed). -/
theorem frame : Cert.frame_ReferenceIdeal :=
  fun m g _ => (θ_run _ _ _).mono (fun _ h c => (h c).2) (run (F := Ideal) m g)

end Cert.ReferenceIdeal.RefRun

end
-- ==== Proof.RefValue.lean ====
/-
  The reference's result read at an index.

  The reference is a tower of array operations: a take of table rows by index words (a wrap of negative
  words, a gather that clamps its start index, a range mask and a fill), a sum over the 50 positions, two
  matrix products each followed by a broadcast bias (the first also by a maximum with zero), and a
  max-shifted log-softmax over the 100000 classes. Each stage is read here at explicit coordinates:

  * with an index word `w` below the table's height, `w` is neither wrapped nor clamped and passes the
    range test, so the taken row is the table's row `w`;
  * the sum over the positions is `0 + ∑ l`, a matrix product is `∑` over the contracted axis of the
    products of the entries, a broadcast bias reads its own entry;
  * the row maximum folded from `-∞` is the supremum of the row, and the log-softmax is
    `(x - M) - log (∑ exp (x - M))` with `M = max ⊥ (sup x)`.

  Composed: entry `(b, n)` of the reference's result is the specification's value at `(b, n)`.
-/
import proofs.«207593_g36137854828637_cont_8to1_b_1462_19_alg».proof.ReferenceIdeal
import proofs.«207593_g36137854828637_cont_8to1_b_1462_19_alg».proof.Proof.Gen.ReferenceIdeal
import proofs.«207593_g36137854828637_cont_8to1_b_1462_19_alg».proof.Proof.Spec
import proofs.«207593_g36137854828637_cont_8to1_b_1462_19_alg».proof.Proof.RefTerm
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Idealize.ShloMosaic Idealize.ShloMosaic.ValueIdx Cert.ReferenceIdeal Cert.ReferenceIdeal.Gen
open scoped BigOperators

/-! ## Words: an index word below the table's height -/

/-- A word below `100000` is not negative as a signed word. -/
theorem slt_zero_of_lt {w : BitVec 32} (h : w.toNat < 100000) : IntOp.cmpi .slt w 0#32 = 0#1 :=
  eq_zero_of_ne_one fun h1 => absurd ((StableHlo.Predicate.slt_iff_toNat (by omega) (by decide)).mp h1) (by simp)

/-- A word below `100000` is at least zero as a signed word. -/
theorem sge_zero_of_lt {w : BitVec 32} (h : w.toNat < 100000) : IntOp.cmpi .sge w 0#32 = 1#1 :=
  (StableHlo.Predicate.sge_iff_toNat (by omega) (by decide)).mpr (by simp)

/-- A word below `100000` is at most `99999` as a signed word. -/
theorem sle_last_of_lt {w : BitVec 32} (h : w.toNat < 100000) : IntOp.cmpi .sle w 99999#32 = 1#1 :=
  (StableHlo.Predicate.sle_iff_toNat (by omega) (by decide)).mpr (by
    show w.toNat ≤ (99999#32 : BitVec 32).toNat
    rw [show (99999#32 : BitVec 32).toNat = 99999 from by decide]; omega)

/-- The gather's clamp of a start index below `100000` is the index itself, the row the specification names. -/
theorem clamp_eq_rowOf {w : BitVec 32} (h : w.toNat < 100000) (hlt : min w.toInt.toNat 99999 < 100000) :
    (⟨min w.toInt.toNat 99999, hlt⟩ : Fin 100000) = Cert.Spec.rowOf w := by
  refine Fin.ext ?_
  show min w.toInt.toNat 99999 = w.toNat % 100000
  rw [StableHlo.Predicate.toInt_eq_toNat_of_lt (by omega), Int.toNat_natCast, Nat.mod_eq_of_lt h]
  omega

/-- A fold of `and` from `1` over words that are all `1` is `1`. -/
theorem fold_andi_one {ι : Type} [DecidableEq ι] (s : Finset ι) (g : ι → BitVec 1) (h : ∀ k, g k = 1#1) :
    s.fold IntOp.andi 1#1 g = 1#1 := by
  induction s using Finset.induction_on with
  | empty => rfl
  | insert a s ha ih => rw [Finset.fold_insert ha, ih, h a]; rfl

/-! ## The take, read at an index -/

section Take
variable (ids : (⟨S1024x50, .i32⟩ : BufTy).Contents (Elt Ideal)) (E : (⟨S100000x128, .f32⟩ : BufTy).Contents (Elt Ideal))

/-- An in-range index is not wrapped. -/
theorem wrapped_apply (b : Fin 1024) (l : Fin 50) (h : (ids (ix2 b l)).toNat < 100000) :
    RefTerm.wrapped (F := Ideal) ids (ix2 b l) = ids (ix2 b l) := by
  show Scalar.select (IntOp.cmpi .slt (ids (ix2 b l)) 0#32) _ _ = _
  rw [slt_zero_of_lt h, select_zero]

/-- The index vector of position `(b, l)` has the wrapped index as its one component. -/
theorem idx3_apply (b : Fin 1024) (l : Fin 50) (z : Fin 1) :
    RefTerm.idx3 (F := Ideal) ids (ix3 b l z) = RefTerm.wrapped (F := Ideal) ids (ix2 b l) := by
  unfold RefTerm.idx3
  refine broadcastInDim_apply _ _ _ _ (ix2 b l) fun a => ?_
  match a with
  | ⟨0, _⟩ => rfl
  | ⟨1, _⟩ => rfl

/-- The range test of an in-range index, per component. -/
theorem inRange3_apply (b : Fin 1024) (l : Fin 50) (z : Fin 1) (h : (ids (ix2 b l)).toNat < 100000) :
    RefTerm.inRange3 (F := Ideal) ids (ix3 b l z) = 1#1 := by
  show IntOp.andi (IntOp.cmpi .sge (RefTerm.idx3 (F := Ideal) ids (ix3 b l z)) 0#32)
    (IntOp.cmpi .sle (RefTerm.idx3 (F := Ideal) ids (ix3 b l z)) 99999#32) = 1#1
  rw [idx3_apply, wrapped_apply ids b l h, sge_zero_of_lt h, sle_last_of_lt h]
  rfl

/-- The index-vector axis as a reduced axis. -/
abbrev redVec : S1024x50x1.Reduces [2] S1024x50 := by decide

theorem lift_redVec (b : Fin 1024) (l : Fin 50) (z : Fin 1) : redVec.lift (ix2 b l) z = ix3 b l z := by
  funext c; refine Fin.ext ?_
  match c with
  | ⟨0, _⟩ => rfl
  | ⟨1, _⟩ => rfl
  | ⟨2, _⟩ => rfl

/-- An in-range index passes the range test. -/
theorem inRange_apply (b : Fin 1024) (l : Fin 50) (h : (ids (ix2 b l)).toNat < 100000) :
    RefTerm.inRange (F := Ideal) ids (ix2 b l) = 1#1 := by
  unfold RefTerm.inRange
  rw [Host.reduce_eq_fold_single IntOp.andi _ _ reducesTo_S1024x50x1_S1024x50_d2 redVec h_S_ (ix2 b l)]
  refine fold_andi_one _ _ fun z => ?_
  exact (congrArg (RefTerm.inRange3 (F := Ideal) ids) (lift_redVec b l z)).trans (inRange3_apply ids b l z h)

/-- The mask along a row is the range test of its position. -/
theorem mask_apply (b : Fin 1024) (l : Fin 50) (e : Fin 128) :
    RefTerm.mask (F := Ideal) ids (ix3 b l e) = RefTerm.inRange (F := Ideal) ids (ix2 b l) := by
  unfold RefTerm.mask
  refine broadcastInDim_apply _ _ _ _ (ix2 b l) fun a => ?_
  match a with
  | ⟨0, _⟩ => rfl
  | ⟨1, _⟩ => rfl
end Take

/-! ## The gather, read at an index -/

section Gather
variable (x : (⟨S100000x128, .f32⟩ : BufTy).Contents (Elt Ideal)) (idx : (⟨S1024x50x1, .i32⟩ : BufTy).Contents (Elt Ideal))

/-- On the table's row axis the gather reads the start index of position `(b, l)`, signed and clamped into the table. -/
theorem gather_axis0 (b : Fin 1024) (l : Fin 50) (e : Fin 128) :
    ((gather_S100000x128_S1024x50x1_S1024x50x128_2_0_n_n_0_2_1128).operandIdx (ix3 b l e) idx 0).val
      = min (idx (ix3 b l (0 : Fin 1))).toInt.toNat 99999 := by
  show (gather_S100000x128_S1024x50x1_S1024x50x128_2_0_n_n_0_2_1128).start (ix3 b l e) idx 0
      + (gather_S100000x128_S1024x50x1_S1024x50x128_2_0_n_n_0_2_1128).batchCoord (ix3 b l e) 0
      + (gather_S100000x128_S1024x50x1_S1024x50x128_2_0_n_n_0_2_1128).offCoord (ix3 b l e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S100000x128.rank) ∈ (gather_S100000x128_S1024x50x1_S1024x50x128_2_0_n_n_0_2_1128).startIndexMap from List.mem_singleton.mpr rfl)]
  have hsi : (gather_S100000x128_S1024x50x1_S1024x50x128_2_0_n_n_0_2_1128).siIdx (ix3 b l e)
      ⟨List.idxOf (0 : Fin S100000x128.rank) (gather_S100000x128_S1024x50x1_S1024x50x128_2_0_n_n_0_2_1128).startIndexMap,
        List.idxOf_lt_length_iff.2 (List.mem_singleton.mpr rfl)⟩ = ix3 b l (0 : Fin 1) := by
    funext c; refine Fin.ext ?_
    match c with
    | ⟨0, _⟩ => rfl
    | ⟨1, _⟩ => rfl
    | ⟨2, _⟩ => rfl
  rw [hsi]
  rfl

/-- On the table's column axis the gather reads the result's own column. -/
theorem gather_axis1 (b : Fin 1024) (l : Fin 50) (e : Fin 128) :
    ((gather_S100000x128_S1024x50x1_S1024x50x128_2_0_n_n_0_2_1128).operandIdx (ix3 b l e) idx 1).val = e.val := by
  show (gather_S100000x128_S1024x50x1_S1024x50x128_2_0_n_n_0_2_1128).start (ix3 b l e) idx 1
      + (gather_S100000x128_S1024x50x1_S1024x50x128_2_0_n_n_0_2_1128).batchCoord (ix3 b l e) 1
      + (gather_S100000x128_S1024x50x1_S1024x50x128_2_0_n_n_0_2_1128).offCoord (ix3 b l e) 1 = _
  rw [GatherDims.batchCoord_eq_zero _ _ _ List.not_mem_nil]
  unfold GatherDims.start
  rw [dif_neg (show ¬(1 : Fin S100000x128.rank) ∈ (gather_S100000x128_S1024x50x1_S1024x50x128_2_0_n_n_0_2_1128).startIndexMap by decide)]
  unfold GatherDims.offCoord
  rw [dif_pos (show (1 : Fin S100000x128.rank) ∈ (gather_S100000x128_S1024x50x1_S1024x50x128_2_0_n_n_0_2_1128).sKept by decide)]
  simp only [Nat.zero_add]
  rfl

/-- The gather at `(b, l, e)`: column `e` of the table row the start index of `(b, l)` names, signed and clamped. -/
theorem gather_apply (b : Fin 1024) (l : Fin 50) (e : Fin 128) :
    (Host.gather gather_S100000x128_S1024x50x1_S1024x50x128_2_0_n_n_0_2_1128 x idx : (⟨S1024x50x128, .f32⟩ : BufTy).Contents (Elt Ideal)) (ix3 b l e)
      = x (ix2 (⟨min (idx (ix3 b l (0 : Fin 1))).toInt.toNat 99999, by omega⟩ : Fin 100000) e) := by
  unfold Host.gather
  refine congrArg x ?_
  funext a; refine Fin.ext ?_
  match a with
  | ⟨0, _⟩ => exact gather_axis0 idx b l e
  | ⟨1, _⟩ => exact gather_axis1 idx b l e
end Gather

section Taken
variable (ids : (⟨S1024x50, .i32⟩ : BufTy).Contents (Elt Ideal)) (E : (⟨S100000x128, .f32⟩ : BufTy).Contents (Elt Ideal))

/-- The gathered row of an in-range index is the table row it names. -/
theorem gathered_apply (b : Fin 1024) (l : Fin 50) (e : Fin 128) (h : (ids (ix2 b l)).toNat < 100000) :
    RefTerm.gathered (F := Ideal) ids E (ix3 b l e) = E (ix2 (Cert.Spec.rowOf (ids (ix2 b l))) e) := by
  unfold RefTerm.gathered
  rw [gather_apply]
  refine congrArg E (congrArg (fun r : Fin 100000 => ix2 r e) ?_)
  have hw : RefTerm.idx3 (F := Ideal) ids (ix3 b l (0 : Fin 1)) = ids (ix2 b l) := (idx3_apply ids b l 0).trans (wrapped_apply ids b l h)
  rw [← clamp_eq_rowOf h (by omega)]
  exact Fin.ext (congrArg (fun w : BitVec 32 => min w.toInt.toNat 99999) hw)

/-- The take at an in-range position: the table row the index names. -/
theorem taken_apply (b : Fin 1024) (l : Fin 50) (e : Fin 128) (h : (ids (ix2 b l)).toNat < 100000) :
    RefTerm.taken (F := Ideal) ids E (ix3 b l e) = E (ix2 (Cert.Spec.rowOf (ids (ix2 b l))) e) := by
  rw [RefTerm.taken, select_apply, mask_apply, inRange_apply ids b l h, select_one, gathered_apply ids E b l e h]
end Taken

/-! ## The sums: the pooling and the two matrix products, read at an index -/

/-- The sequence axis as a reduced axis. -/
abbrev redSeq : S1024x50x128.Reduces [1] S1024x128 := by decide

theorem lift_redSeq (b : Fin 1024) (e : Fin 128) (l : Fin 50) : redSeq.lift (ix2 b e) l = ix3 b l e := by
  funext c; refine Fin.ext ?_
  match c with
  | ⟨0, _⟩ => rfl
  | ⟨1, _⟩ => rfl
  | ⟨2, _⟩ => rfl

/-- The host's sum over the sequence axis at `(b, e)`: the initial value plus the sum over the 50 positions. -/
theorem reduceAdd_seq_apply (x : (⟨S1024x50x128, .f32⟩ : BufTy).Contents (Elt Ideal)) (v : (⟨S_, .f32⟩ : BufTy).Contents (Elt Ideal)) (b : Fin 1024) (e : Fin 128) :
    (Host.reduceAdd (F := Ideal) (φ := .f32) x v reducesTo_S1024x50x128_S1024x128_d1 h_S_ : (⟨S1024x128, .f32⟩ : BufTy).Contents (Elt Ideal)) (ix2 b e)
      = v ix0 + ∑ l : Fin 50, x (ix3 b l e) := by
  unfold Host.reduceAdd
  rw [Ideal.hostReduceAdd_def, Ideal.hostReduceAdd_single _ redSeq]
  exact congr (congrArg _ (congrArg v (eq_ix0 _))) (Finset.sum_congr rfl fun l _ => congrArg x (lift_redSeq b e l))

theorem lhs_dotHid_0 (j : S1024x512.Idx) (q : (dot_S1024x128_S128x512_S1024x512_1_0_0_1_n_n).contr.Idx) :
    ((dot_S1024x128_S128x512_S1024x512_1_0_0_1_n_n).lhsIdx j q 0).val = (j 0).val := by
  unfold DotDims.lhsIdx
  rw [dif_neg (show ¬(0 : Fin S1024x128.rank) ∈ (dot_S1024x128_S128x512_S1024x512_1_0_0_1_n_n).lhsBatch by decide),
    dif_pos (show (0 : Fin S1024x128.rank) ∈ (dot_S1024x128_S128x512_S1024x512_1_0_0_1_n_n).lhsNonContracting by decide)]
  rfl

theorem lhs_dotHid_1 (j : S1024x512.Idx) (q : (dot_S1024x128_S128x512_S1024x512_1_0_0_1_n_n).contr.Idx) :
    ((dot_S1024x128_S128x512_S1024x512_1_0_0_1_n_n).lhsIdx j q 1).val = (q ⟨0, by decide⟩).val :=
  DotDims.lhsIdx_val_of_single _ rfl j q

theorem rhs_dotHid_0 (j : S1024x512.Idx) (q : (dot_S1024x128_S128x512_S1024x512_1_0_0_1_n_n).contr.Idx) :
    ((dot_S1024x128_S128x512_S1024x512_1_0_0_1_n_n).rhsIdx j q 0).val = (q ⟨0, by decide⟩).val :=
  DotDims.rhsIdx_val_of_single _ rfl j q

theorem rhs_dotHid_1 (j : S1024x512.Idx) (q : (dot_S1024x128_S128x512_S1024x512_1_0_0_1_n_n).contr.Idx) :
    ((dot_S1024x128_S128x512_S1024x512_1_0_0_1_n_n).rhsIdx j q 1).val = (j 1).val := by
  unfold DotDims.rhsIdx
  rw [dif_neg (show ¬(1 : Fin S128x512.rank) ∈ (dot_S1024x128_S128x512_S1024x512_1_0_0_1_n_n).rhsBatch by decide),
    dif_pos (show (1 : Fin S128x512.rank) ∈ (dot_S1024x128_S128x512_S1024x512_1_0_0_1_n_n).rhsNonContracting by decide)]
  rfl

/-- The product at `(r, c)`: the sum over the contracted axis of the row of the left factor against the column of the right. -/
theorem dotHid_apply (l : (⟨S1024x128, .f32⟩ : BufTy).Contents (Elt Ideal)) (r : (⟨S128x512, .f32⟩ : BufTy).Contents (Elt Ideal)) (b : Fin 1024) (k : Fin 512) :
    (Host.dotGeneral (F := Ideal) (φ₁ := .f32) (φ₂ := .f32) dot_S1024x128_S128x512_S1024x512_1_0_0_1_n_n none l r : (⟨S1024x512, .f32⟩ : BufTy).Contents (Elt Ideal)) (ix2 b k)
      = ∑ e : Fin 128, l (ix2 b e) * r (ix2 e k) := by
  refine (Ideal.dotGeneral_apply dot_S1024x128_S128x512_S1024x512_1_0_0_1_n_n none .single l r (ix2 b k)).trans ?_
  rw [← Equiv.sum_comp (contrEquiv1 dot_S1024x128_S128x512_S1024x512_1_0_0_1_n_n 128 rfl rfl).symm]
  refine Finset.sum_congr rfl fun e _ => ?_
  have hk := contrEquiv1_symm_val dot_S1024x128_S128x512_S1024x512_1_0_0_1_n_n 128 rfl rfl e
  refine congr (congrArg _ (congrArg l ?_)) (congrArg r ?_)
  · funext a; refine Fin.ext ?_
    match a with
    | ⟨0, _⟩ => exact lhs_dotHid_0 _ _
    | ⟨1, _⟩ => exact (lhs_dotHid_1 _ _).trans hk
  · funext a; refine Fin.ext ?_
    match a with
    | ⟨0, _⟩ => exact (rhs_dotHid_0 _ _).trans hk
    | ⟨1, _⟩ => exact rhs_dotHid_1 _ _

theorem lhs_dotOut_0 (j : S1024x100000.Idx) (q : (dot_S1024x512_S512x100000_S1024x100000_1_0_0_1_n_n).contr.Idx) :
    ((dot_S1024x512_S512x100000_S1024x100000_1_0_0_1_n_n).lhsIdx j q 0).val = (j 0).val := by
  unfold DotDims.lhsIdx
  rw [dif_neg (show ¬(0 : Fin S1024x512.rank) ∈ (dot_S1024x512_S512x100000_S1024x100000_1_0_0_1_n_n).lhsBatch by decide),
    dif_pos (show (0 : Fin S1024x512.rank) ∈ (dot_S1024x512_S512x100000_S1024x100000_1_0_0_1_n_n).lhsNonContracting by decide)]
  rfl

theorem lhs_dotOut_1 (j : S1024x100000.Idx) (q : (dot_S1024x512_S512x100000_S1024x100000_1_0_0_1_n_n).contr.Idx) :
    ((dot_S1024x512_S512x100000_S1024x100000_1_0_0_1_n_n).lhsIdx j q 1).val = (q ⟨0, by decide⟩).val :=
  DotDims.lhsIdx_val_of_single _ rfl j q

theorem rhs_dotOut_0 (j : S1024x100000.Idx) (q : (dot_S1024x512_S512x100000_S1024x100000_1_0_0_1_n_n).contr.Idx) :
    ((dot_S1024x512_S512x100000_S1024x100000_1_0_0_1_n_n).rhsIdx j q 0).val = (q ⟨0, by decide⟩).val :=
  DotDims.rhsIdx_val_of_single _ rfl j q

theorem rhs_dotOut_1 (j : S1024x100000.Idx) (q : (dot_S1024x512_S512x100000_S1024x100000_1_0_0_1_n_n).contr.Idx) :
    ((dot_S1024x512_S512x100000_S1024x100000_1_0_0_1_n_n).rhsIdx j q 1).val = (j 1).val := by
  unfold DotDims.rhsIdx
  rw [dif_neg (show ¬(1 : Fin S512x100000.rank) ∈ (dot_S1024x512_S512x100000_S1024x100000_1_0_0_1_n_n).rhsBatch by decide),
    dif_pos (show (1 : Fin S512x100000.rank) ∈ (dot_S1024x512_S512x100000_S1024x100000_1_0_0_1_n_n).rhsNonContracting by decide)]
  rfl

/-- The product at `(r, c)`: the sum over the contracted axis of the row of the left factor against the column of the right. -/
theorem dotOut_apply (l : (⟨S1024x512, .f32⟩ : BufTy).Contents (Elt Ideal)) (r : (⟨S512x100000, .f32⟩ : BufTy).Contents (Elt Ideal)) (b : Fin 1024) (k : Fin 100000) :
    (Host.dotGeneral (F := Ideal) (φ₁ := .f32) (φ₂ := .f32) dot_S1024x512_S512x100000_S1024x100000_1_0_0_1_n_n none l r : (⟨S1024x100000, .f32⟩ : BufTy).Contents (Elt Ideal)) (ix2 b k)
      = ∑ e : Fin 512, l (ix2 b e) * r (ix2 e k) := by
  refine (Ideal.dotGeneral_apply dot_S1024x512_S512x100000_S1024x100000_1_0_0_1_n_n none .single l r (ix2 b k)).trans ?_
  rw [← Equiv.sum_comp (contrEquiv1 dot_S1024x512_S512x100000_S1024x100000_1_0_0_1_n_n 512 rfl rfl).symm]
  refine Finset.sum_congr rfl fun e _ => ?_
  have hk := contrEquiv1_symm_val dot_S1024x512_S512x100000_S1024x100000_1_0_0_1_n_n 512 rfl rfl e
  refine congr (congrArg _ (congrArg l ?_)) (congrArg r ?_)
  · funext a; refine Fin.ext ?_
    match a with
    | ⟨0, _⟩ => exact lhs_dotOut_0 _ _
    | ⟨1, _⟩ => exact (lhs_dotOut_1 _ _).trans hk
  · funext a; refine Fin.ext ?_
    match a with
    | ⟨0, _⟩ => exact (rhs_dotOut_0 _ _).trans hk
    | ⟨1, _⟩ => exact rhs_dotOut_1 _ _

/-! ## The two layers, read at an index -/

section Layers
variable (ids : (⟨S1024x50, .i32⟩ : BufTy).Contents (Elt Ideal)) (E : (⟨S100000x128, .f32⟩ : BufTy).Contents (Elt Ideal))
  (W1 : (⟨S128x512, .f32⟩ : BufTy).Contents (Elt Ideal)) (b1 : (⟨S512, .f32⟩ : BufTy).Contents (Elt Ideal))
  (W2 : (⟨S512x100000, .f32⟩ : BufTy).Contents (Elt Ideal)) (b2 : (⟨S100000, .f32⟩ : BufTy).Contents (Elt Ideal))

/-- The specification's arguments: the six arrays read by coordinates. -/
abbrev seqsOf : Fin 1024 → Fin 50 → BitVec 32 := fun b l => ids (ix2 b l)
abbrev tableOf : Fin 100000 → Fin 128 → EReal := fun r e => E (ix2 r e)
abbrev w1Of : Fin 128 → Fin 512 → EReal := fun e k => W1 (ix2 e k)
abbrev b1Of : Fin 512 → EReal := fun k => b1 (ix1 k)
abbrev w2Of : Fin 512 → Fin 100000 → EReal := fun k n => W2 (ix2 k n)
abbrev b2Of : Fin 100000 → EReal := fun n => b2 (ix1 n)

variable (hidx : ∀ b l, (ids (ix2 b l)).toNat < 100000)
include hidx

/-- The pooled embedding is the specification's. -/
theorem pooled_apply (b : Fin 1024) (e : Fin 128) :
    RefTerm.pooled (F := Ideal) ids E (ix2 b e) = Cert.Spec.pooled (seqsOf ids) (tableOf E) b e := by
  rw [RefTerm.pooled, reduceAdd_seq_apply, constant_apply, Ideal.ofBits_zero_f32, zero_add]
  exact Finset.sum_congr rfl fun l _ => taken_apply ids E b l e (hidx b l)

omit hidx in
/-- The first bias on every row. -/
theorem bias1_apply (b : Fin 1024) (k : Fin 512) : RefTerm.bias1 (F := Ideal) b1 (ix2 b k) = b1 (ix1 k) := by
  unfold RefTerm.bias1
  refine (broadcastInDim_apply _ _ _ _ (ix2 (0 : Fin 1) k) fun a => ?_).trans ?_
  · match a with
    | ⟨0, _⟩ => rfl
    | ⟨1, _⟩ => rfl
  · unfold RefTerm.bias1Row
    refine broadcastInDim_apply _ _ _ _ (ix1 k) fun a => ?_
    match a with
    | ⟨0, _⟩ => rfl

omit hidx in
/-- The second bias on every row. -/
theorem bias2_apply (b : Fin 1024) (n : Fin 100000) : RefTerm.bias2 (F := Ideal) b2 (ix2 b n) = b2 (ix1 n) := by
  unfold RefTerm.bias2
  refine (broadcastInDim_apply _ _ _ _ (ix2 (0 : Fin 1) n) fun a => ?_).trans ?_
  · match a with
    | ⟨0, _⟩ => rfl
    | ⟨1, _⟩ => rfl
  · unfold RefTerm.bias2Row
    refine broadcastInDim_apply _ _ _ _ (ix1 n) fun a => ?_
    match a with
    | ⟨0, _⟩ => rfl

/-- The hidden layer is the specification's. -/
theorem hid_apply (b : Fin 1024) (k : Fin 512) :
    RefTerm.hid (F := Ideal) ids E W1 b1 (ix2 b k) = Cert.Spec.hid (seqsOf ids) (tableOf E) (w1Of W1) (b1Of b1) b k := by
  rw [RefTerm.hid, maximumf_apply, RefTerm.hidPre, addf_apply, RefTerm.proj1, dotHid_apply, bias1_apply]
  show max _ (Ideal.ofBits .f32 0x00000000#32) = _
  rw [Ideal.ofBits_zero_f32]
  unfold Cert.Spec.hid
  exact congrArg (fun s => max (s + b1 (ix1 k)) 0) (Finset.sum_congr rfl fun e _ => by rw [pooled_apply ids E hidx b e])

/-- The class scores are the specification's. -/
theorem score_apply (b : Fin 1024) (n : Fin 100000) :
    RefTerm.score (F := Ideal) ids E W1 b1 W2 b2 (ix2 b n)
      = Cert.Spec.score (seqsOf ids) (tableOf E) (w1Of W1) (b1Of b1) (w2Of W2) (b2Of b2) b n := by
  rw [RefTerm.score, addf_apply, RefTerm.proj2, dotOut_apply, bias2_apply]
  unfold Cert.Spec.score
  exact congrArg (fun s => s + b2 (ix1 n)) (Finset.sum_congr rfl fun k _ => by rw [hid_apply ids E W1 b1 hidx b k])
end Layers

/-! ## The log-softmax, read at an index -/

section LogSoftmax
variable (x : (⟨S1024x100000, .f32⟩ : BufTy).Contents (Elt Ideal))

/-- The class axis as a reduced axis. -/
abbrev redCls : S1024x100000.Reduces [1] S1024 := by decide

theorem lift_redCls (b : Fin 1024) (n : Fin 100000) : redCls.lift (ix1 b) n = ix2 b n := by
  funext c; refine Fin.ext ?_
  match c with
  | ⟨0, _⟩ => rfl
  | ⟨1, _⟩ => rfl

/-- The host's exponential and logarithm at an index are the extended reals' functions of the entry. -/
theorem hostExp_apply {s : Shape} (y : FVec Ideal s .f32) (i : s.Idx) : Host.exp y i = Ideal.exp (y i) := rfl
theorem hostLog_apply {s : Shape} (y : FVec Ideal s .f32) (i : s.Idx) : Host.log y i = Ideal.log (y i) := rfl

/-- The binary32 pattern of `-∞` is the bottom of the extended reals. -/
theorem ofBits_neg_inf : Ideal.ofBits .f32 0xFF800000#32 = ⊥ := by simp [Ideal.ofBits, Ideal.ieee]

/-- The host's sum over the class axis at row `b`: the initial value plus the sum over the 100000 classes. -/
theorem reduceAdd_cls_apply (y : (⟨S1024x100000, .f32⟩ : BufTy).Contents (Elt Ideal)) (v : (⟨S_, .f32⟩ : BufTy).Contents (Elt Ideal)) (b : Fin 1024) :
    (Host.reduceAdd (F := Ideal) (φ := .f32) y v reducesTo_S1024x100000_S1024_d1 h_S_ : (⟨S1024, .f32⟩ : BufTy).Contents (Elt Ideal)) (ix1 b)
      = v ix0 + ∑ n : Fin 100000, y (ix2 b n) := by
  unfold Host.reduceAdd
  rw [Ideal.hostReduceAdd_def, Ideal.hostReduceAdd_single _ redCls]
  exact congr (congrArg _ (congrArg v (eq_ix0 _))) (Finset.sum_congr rfl fun n _ => congrArg y (lift_redCls b n))

/-- The row maximum folded from `-∞` is the supremum of the row. -/
theorem lsRowMax0_apply (b : Fin 1024) :
    RefTerm.lsRowMax0 (F := Ideal) x (ix1 b) = Finset.univ.sup fun n : Fin 100000 => x (ix2 b n) := by
  unfold RefTerm.lsRowMax0
  rw [Host.reduce_eq_fold_single FloatOps.maximumf _ _ reducesTo_S1024x100000_S1024_d1 redCls h_S_ (ix1 b)]
  show Finset.univ.fold max (Ideal.ofBits .f32 0xFF800000#32) (x ∘ redCls.lift (ix1 b)) = _
  rw [ofBits_neg_inf]
  show Finset.univ.sup (x ∘ redCls.lift (ix1 b)) = _
  exact congrArg Finset.univ.sup (funext fun n => congrArg x (lift_redCls b n))

/-- The row maximum as the reference takes it: the larger of `-∞` and the supremum of the row. -/
theorem lsRowMax_apply (b : Fin 1024) :
    RefTerm.lsRowMax (F := Ideal) x (ix1 b) = max ⊥ (Finset.univ.sup fun n : Fin 100000 => x (ix2 b n)) := by
  rw [RefTerm.lsRowMax, maximumf_apply, lsRowMax0_apply]
  exact congrArg (fun m => max m _) ofBits_neg_inf

/-- A row vector spread to a column and then along every row reads its row's entry. -/
theorem col_row_apply (v : (⟨S1024, .f32⟩ : BufTy).Contents (Elt Ideal)) (b : Fin 1024) (n : Fin 100000) :
    (broadcastInDim S1024x100000 ![0, 1] bcast_S1024x1_S1024x100000_0_1
      (broadcastInDim S1024x1 ![0] bcast_S1024_S1024x1_0 v : (⟨S1024x1, .f32⟩ : BufTy).Contents (Elt Ideal))
        : (⟨S1024x100000, .f32⟩ : BufTy).Contents (Elt Ideal)) (ix2 b n) = v (ix1 b) := by
  refine (broadcastInDim_apply _ _ _ _ (ix2 b (0 : Fin 1)) fun a => ?_).trans ?_
  · match a with
    | ⟨0, _⟩ => rfl
    | ⟨1, _⟩ => rfl
  · refine broadcastInDim_apply _ _ _ _ (ix1 b) fun a => ?_
    match a with
    | ⟨0, _⟩ => rfl

/-- The shifted score. -/
theorem lsShift_apply (b : Fin 1024) (n : Fin 100000) :
    RefTerm.lsShift (F := Ideal) x (ix2 b n) = x (ix2 b n) - max ⊥ (Finset.univ.sup fun n' : Fin 100000 => x (ix2 b n')) := by
  rw [RefTerm.lsShift, subf_apply, RefTerm.lsRowMaxB, RefTerm.lsRowMaxCol, col_row_apply, lsRowMax_apply]

/-- The row's sum of exponentials. -/
theorem lsSum_apply (b : Fin 1024) :
    RefTerm.lsSum (F := Ideal) x (ix1 b)
      = ∑ n : Fin 100000, Ideal.exp (x (ix2 b n) - max ⊥ (Finset.univ.sup fun n' : Fin 100000 => x (ix2 b n'))) := by
  rw [RefTerm.lsSum, reduceAdd_cls_apply, constant_apply, Ideal.ofBits_zero_f32, zero_add]
  refine Finset.sum_congr rfl fun n _ => ?_
  rw [RefTerm.lsExp, hostExp_apply, lsShift_apply]

/-- The logarithm of the row's sum of exponentials, spread along the row. -/
theorem lsLogB_apply (b : Fin 1024) (n : Fin 100000) :
    RefTerm.lsLogB (F := Ideal) x (ix2 b n) = Ideal.log (RefTerm.lsSum (F := Ideal) x (ix1 b)) := by
  unfold RefTerm.lsLogB
  refine (broadcastInDim_apply _ _ _ _ (ix2 b (0 : Fin 1)) fun a => ?_).trans ?_
  · match a with
    | ⟨0, _⟩ => rfl
    | ⟨1, _⟩ => rfl
  · rw [RefTerm.lsLog, hostLog_apply]
    refine congrArg Ideal.log ?_
    unfold RefTerm.lsSumCol
    refine broadcastInDim_apply _ _ _ _ (ix1 b) fun a => ?_
    match a with
    | ⟨0, _⟩ => rfl

/-- THE LOG-SOFTMAX AT `(b, n)`: the shifted score less the logarithm of the row's sum of exponentials. -/
theorem logSoftmax_apply (b : Fin 1024) (n : Fin 100000) :
    RefTerm.logSoftmax (F := Ideal) x (ix2 b n)
      = (x (ix2 b n) - max ⊥ (Finset.univ.sup fun n' : Fin 100000 => x (ix2 b n')))
        - Ideal.log (∑ n' : Fin 100000, Ideal.exp (x (ix2 b n') - max ⊥ (Finset.univ.sup fun n'' : Fin 100000 => x (ix2 b n'')))) := by
  rw [RefTerm.logSoftmax, subf_apply, lsShift_apply, lsLogB_apply, lsSum_apply]
end LogSoftmax

/-! ## The reference's result is the specification -/

/-- THE REFERENCE AT `(b, n)`: with every index word below the table's height, entry `(b, n)` of the reference's
    result is the specification's log-softmax of the scores, the six arrays read by coordinates. -/
theorem out_apply (seqs : (⟨S1024x50, .i32⟩ : BufTy).Contents (Elt Ideal)) (table : (⟨S100000x128, .f32⟩ : BufTy).Contents (Elt Ideal))
    (W1 : (⟨S128x512, .f32⟩ : BufTy).Contents (Elt Ideal)) (b1 : (⟨S512, .f32⟩ : BufTy).Contents (Elt Ideal))
    (W2 : (⟨S512x100000, .f32⟩ : BufTy).Contents (Elt Ideal)) (b2 : (⟨S100000, .f32⟩ : BufTy).Contents (Elt Ideal))
    (hidx : ∀ (b : Fin 1024) (l : Fin 50), (seqs (ix2 b l)).toNat < 100000) (b : Fin 1024) (n : Fin 100000) :
    RefTerm.out (F := Ideal) seqs table W1 b1 W2 b2 (ix2 b n)
      = Cert.Spec.out (fun b l => seqs (ix2 b l)) (fun r e => table (ix2 r e)) (fun e k => W1 (ix2 e k)) (fun k => b1 (ix1 k))
          (fun k n => W2 (ix2 k n)) (fun n => b2 (ix1 n)) b n := by
  rw [RefTerm.out, logSoftmax_apply]
  simp only [score_apply seqs table W1 b1 W2 b2 hidx]
  unfold Cert.Spec.out Cert.Spec.rowMax
  rfl

/-- The same as an equation of arrays: the reference's result is the specification read at each index's two
    coordinates. -/
theorem out_eq (seqs : (⟨S1024x50, .i32⟩ : BufTy).Contents (Elt Ideal)) (table : (⟨S100000x128, .f32⟩ : BufTy).Contents (Elt Ideal))
    (W1 : (⟨S128x512, .f32⟩ : BufTy).Contents (Elt Ideal)) (b1 : (⟨S512, .f32⟩ : BufTy).Contents (Elt Ideal))
    (W2 : (⟨S512x100000, .f32⟩ : BufTy).Contents (Elt Ideal)) (b2 : (⟨S100000, .f32⟩ : BufTy).Contents (Elt Ideal))
    (hidx : ∀ (b : Fin 1024) (l : Fin 50), (seqs (ix2 b l)).toNat < 100000) :
    RefTerm.out (F := Ideal) seqs table W1 b1 W2 b2
      = fun idx : S1024x100000.Idx => Cert.Spec.out (fun b l => seqs (ix2 b l)) (fun r e => table (ix2 r e)) (fun e k => W1 (ix2 e k))
          (fun k => b1 (ix1 k)) (fun k n => W2 (ix2 k n)) (fun n => b2 (ix1 n)) (idx 0) (idx 1) := by
  funext idx
  obtain ⟨b, n, rfl⟩ : ∃ (b : Fin 1024) (n : Fin 100000), idx = ix2 b n := ⟨idx 0, idx 1, eq_ix2 idx⟩
  exact out_apply seqs table W1 b1 W2 b2 hidx b n

end Cert.ReferenceIdeal.RefValue

end
-- ==== Proof.RefHalf.lean ====
/-
  The reference's half of the equivalence.

  The reference's run ends with its result array at the tower of array operations applied to the launch contents
  of its six arguments, and with the arguments unchanged. Its memory agrees with the kernel's on the six arguments;
  under the kernel's precondition every index word is below the table's height, so the tower read at an index is
  the specification's value there. Hence the reference ends with the specification of the KERNEL's launch arrays,
  read at each index's two coordinates: the common result both programs are compared to.
-/
import proofs.«207593_g36137854828637_cont_8to1_b_1462_19_alg».proof.Defs
import proofs.«207593_g36137854828637_cont_8to1_b_1462_19_alg».proof.Proof.RefRun
import proofs.«207593_g36137854828637_cont_8to1_b_1462_19_alg».proof.Proof.RefValue
import proofs.«207593_g36137854828637_cont_8to1_b_1462_19_alg».proof.Proof.PreI

noncomputable section

namespace Cert.Proof.RefHalf

open Idealize.ShloMosaic Idealize.ShloMosaic.ValueIdx Idealize.SL.Sem

/-- The common result of the two programs on device `c`: the specification of the kernel's launch arrays, read at an
    index's two coordinates. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v7) :=
  fun idx : Cert.KernelIdeal.S1024x100000.Idx =>
    Cert.Spec.out (Cert.KernelIdeal.PreI.seqsOf m c) (Cert.KernelIdeal.PreI.tableOf m c) (Cert.KernelIdeal.PreI.w1Of m c)
      (Cert.KernelIdeal.PreI.b1Of m c) (Cert.KernelIdeal.PreI.w2Of m c) (Cert.KernelIdeal.PreI.b2Of m c) (idx 0) (idx 1)

/-- THE REFERENCE'S HALF: from a memory agreeing with the kernel's on the six arguments, under the kernel's
    precondition, the reference runs and ends with the common result and unchanged arguments. -/
theorem reference_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
          r.2.mem ((c.tc : Thread Cert.ReferenceIdeal.nD Cert.ReferenceIdeal.τ).loc Cert.ReferenceIdeal.main_v11) = result m c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run _ _ _).mono (fun r h c => by
    obtain ⟨h0, h1, h2, h3, h4, h5⟩ := hagree c
    refine ⟨(h c).1.trans ?_, (h c).2⟩
    rw [h0, h1, h2, h3, h4, h5]
    exact Cert.ReferenceIdeal.RefValue.out_eq _ _ _ _ _ _ (fun b l => Cert.KernelIdeal.PreI.seqs_lt_of_pre m hpre c b l))
    (Cert.ReferenceIdeal.RefRun.run (F := Ideal) m' g')

end Cert.Proof.RefHalf

end
-- ==== Proof.lean ====
/-
  The claim: the three programs run and leave their arguments as launched; the idealized kernel is the
  word-level kernel's sanctioned idealization (the one named constant, twice); and at the ideal instance the
  idealized kernel and the reference, run from memories agreeing on the arguments, end with equal results.

  Both kernel programs are run by one launch argument (written once, generic in the float instance): the
  TensorCore's @main — three layout operations, the call of the SparseCore kernel that pools the embedding
  rows, three pipelined kernels (the hidden layer; the online log-sum-exp over 25 tiles of class rows; the
  subtraction), a final transpose — with every unscoped buffer's final contents named. The frames read the
  argument arrays off those contents; the equivalence reads the result array: entry (b, n) is the log-softmax
  of the class scores of batch row b, the function the reference's own run computes.
-/
import proofs.«207593_g36137854828637_cont_8to1_b_1462_19_alg».proof.Defs
import proofs.«207593_g36137854828637_cont_8to1_b_1462_19_alg».proof.Proof.Gen.Kernel
import proofs.«207593_g36137854828637_cont_8to1_b_1462_19_alg».proof.Proof.Gen.KernelIdeal
import proofs.«207593_g36137854828637_cont_8to1_b_1462_19_alg».proof.Proof.Gen.ReferenceIdeal
import proofs.«207593_g36137854828637_cont_8to1_b_1462_19_alg».proof.Proof.Gen.Pre_input_domain
import proofs.«207593_g36137854828637_cont_8to1_b_1462_19_alg».proof.Proof.ClaimsI
import proofs.«207593_g36137854828637_cont_8to1_b_1462_19_alg».proof.Proof.FrameK
import proofs.«207593_g36137854828637_cont_8to1_b_1462_19_alg».proof.Proof.RefRun
import proofs.«207593_g36137854828637_cont_8to1_b_1462_19_alg».proof.Proof.RefHalf

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Kernel.Claims.frame,
    Cert.KernelIdeal.Claims.frame,
    Cert.ReferenceIdeal.RefRun.frame,
    ⟨IdealRules.named_const.statement Cert.KernelIdeal.κ "neg_big" .f32 0xF149F2CA#32 ⊥ rfl,
      IdealRules.named_const.statement Cert.KernelIdeal.κ "neg_big" .f32 0xF149F2CA#32 ⊥ rfl⟩,
    fun m g m' g' hpre hagree => ⟨fun c => Cert.Proof.RefHalf.result m c, Cert.KernelIdeal.Claims.kernel_half m g hpre,
      Cert.Proof.RefHalf.reference_half m m' g' hpre hagree⟩⟩

end Cert.Proof

end
